-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v238)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v238) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v363) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x12000x1 : Shape := ⟨3, ![128, 12000, 1]⟩
abbrev S3600x100 : Shape := ⟨2, ![3600, 100]⟩
abbrev S100 : Shape := ⟨1, ![100]⟩
abbrev S100x56000 : Shape := ⟨2, ![100, 56000]⟩
abbrev S56000 : Shape := ⟨1, ![56000]⟩
abbrev S4x448000 : Shape := ⟨2, ![4, 448000]⟩
abbrev S4x56000 : Shape := ⟨2, ![4, 56000]⟩
abbrev S4x293352 : Shape := ⟨2, ![4, 293352]⟩
abbrev S4x57000 : Shape := ⟨2, ![4, 57000]⟩
abbrev S57000 : Shape := ⟨1, ![57000]⟩
abbrev S448000 : Shape := ⟨1, ![448000]⟩
abbrev S293352 : Shape := ⟨1, ![293352]⟩
abbrev S3600 : Shape := ⟨1, ![3600]⟩
abbrev S12000 : Shape := ⟨1, ![12000]⟩
abbrev S_ : Shape := ⟨0, ![]⟩

class Facts : Prop where
  bcast_S_S128x12000x1 : S_.BroadcastsInDim S128x12000x1 (![] : Fin 0 → Fin S128x12000x1.rank)
  reducesTo_S128x12000x1_S_d0_1_2 : S128x12000x1.ReducesTo [0, 1, 2] S_
  h_S_ : 0 < S_.numel
  bcast_S_S3600x100 : S_.BroadcastsInDim S3600x100 (![] : Fin 0 → Fin S3600x100.rank)
  reducesTo_S3600x100_S_d0_1 : S3600x100.ReducesTo [0, 1] S_
  bcast_S_S100 : S_.BroadcastsInDim S100 (![] : Fin 0 → Fin S100.rank)
  reducesTo_S100_S_d0 : S100.ReducesTo [0] S_
  bcast_S_S100x56000 : S_.BroadcastsInDim S100x56000 (![] : Fin 0 → Fin S100x56000.rank)
  reducesTo_S100x56000_S_d0_1 : S100x56000.ReducesTo [0, 1] S_
  bcast_S_S56000 : S_.BroadcastsInDim S56000 (![] : Fin 0 → Fin S56000.rank)
  reducesTo_S56000_S_d0 : S56000.ReducesTo [0] S_
  bcast_S_S4x448000 : S_.BroadcastsInDim S4x448000 (![] : Fin 0 → Fin S4x448000.rank)
  reducesTo_S4x448000_S_d0_1 : S4x448000.ReducesTo [0, 1] S_
  bcast_S_S4x56000 : S_.BroadcastsInDim S4x56000 (![] : Fin 0 → Fin S4x56000.rank)
  reducesTo_S4x56000_S_d0_1 : S4x56000.ReducesTo [0, 1] S_
  bcast_S_S4x293352 : S_.BroadcastsInDim S4x293352 (![] : Fin 0 → Fin S4x293352.rank)
  reducesTo_S4x293352_S_d0_1 : S4x293352.ReducesTo [0, 1] S_
  bcast_S_S4x57000 : S_.BroadcastsInDim S4x57000 (![] : Fin 0 → Fin S4x57000.rank)
  reducesTo_S4x57000_S_d0_1 : S4x57000.ReducesTo [0, 1] S_

variable [Facts]

def fn_part2 {F : FTy → Type} [FloatOps F] (main_arg7 : FVec F S4x293352 .f32) (main_arg8 : FVec F S4x57000 .f32) (main_v33 : IVec S_ 1) : IVec S_ 1 :=
  let main_v34 : FVec F S4x293352 .f32 := Host.absf main_arg7
  let main_cst_12 : FVec F S_ .f32 := constant S_ .f32 0x7F800000#32
  let main_v35 : FVec F S4x293352 .f32 := broadcastInDim S4x293352 ![] bcast_S_S4x293352 main_cst_12
  let main_v36 : IVec S4x293352 1 := cmpf .olt main_v34 main_v35
  let main_c_13 : IVec S_ 1 := constantI S_ 1 1#1
  let main_v37 : IVec S_ 1 := (fun x v => Host.reduce IntOp.andi x v reducesTo_S4x293352_S_d0_1 h_S_) main_v36 main_c_13
  let main_v38 : IVec S_ 1 := andi main_v33 main_v37
  let main_v39 : FVec F S4x57000 .f32 := Host.absf main_arg8
  let main_cst_14 : FVec F S_ .f32 := constant S_ .f32 0x7F800000#32
  let main_v40 : FVec F S4x57000 .f32 := broadcastInDim S4x57000 ![] bcast_S_S4x57000 main_cst_14
  let main_v41 : IVec S4x57000 1 := cmpf .olt main_v39 main_v40
  let main_c_15 : IVec S_ 1 := constantI S_ 1 1#1
  let main_v42 : IVec S_ 1 := (fun x v => Host.reduce IntOp.andi x v reducesTo_S4x57000_S_d0_1 h_S_) main_v41 main_c_15
  let main_v43 : IVec S_ 1 := andi main_v38 main_v42
  main_v43

def fn_part1 {F : FTy → Type} [FloatOps F] (main_arg4 : FVec F S56000 .f32) (main_arg5 : FVec F S4x448000 .f32) (main_arg6 : FVec F S4x56000 .f32) (main_arg7 : FVec F S4x293352 .f32) (main_arg8 : FVec F S4x57000 .f32) (main_v13 : IVec S_ 1) (main_v16 : IVec S100x56000 1) : IVec S_ 1 :=
  let main_c_5 : IVec S_ 1 := constantI S_ 1 1#1
  let main_v17 : IVec S_ 1 := (fun x v => Host.reduce IntOp.andi x v reducesTo_S100x56000_S_d0_1 h_S_) main_v16 main_c_5
  let main_v18 : IVec S_ 1 := andi main_v13 main_v17
  let main_v19 : FVec F S56000 .f32 := Host.absf main_arg4
  let main_cst_6 : FVec F S_ .f32 := constant S_ .f32 0x7F800000#32
  let main_v20 : FVec F S56000 .f32 := broadcastInDim S56000 ![] bcast_S_S56000 main_cst_6
  let main_v21 : IVec S56000 1 := cmpf .olt main_v19 main_v20
  let main_c_7 : IVec S_ 1 := constantI S_ 1 1#1
  let main_v22 : IVec S_ 1 := (fun x v => Host.reduce IntOp.andi x v reducesTo_S56000_S_d0 h_S_) main_v21 main_c_7
  let main_v23 : IVec S_ 1 := andi main_v18 main_v22
  let main_v24 : FVec F S4x448000 .f32 := Host.absf main_arg5
  let main_cst_8 : FVec F S_ .f32 := constant S_ .f32 0x7F800000#32
  let main_v25 : FVec F S4x448000 .f32 := broadcastInDim S4x448000 ![] bcast_S_S4x448000 main_cst_8
  let main_v26 : IVec S4x448000 1 := cmpf .olt main_v24 main_v25
  let main_c_9 : IVec S_ 1 := constantI S_ 1 1#1
  let main_v27 : IVec S_ 1 := (fun x v => Host.reduce IntOp.andi x v reducesTo_S4x448000_S_d0_1 h_S_) main_v26 main_c_9
  let main_v28 : IVec S_ 1 := andi main_v23 main_v27
  let main_v29 : FVec F S4x56000 .f32 := Host.absf main_arg6
  let main_cst_10 : FVec F S_ .f32 := constant S_ .f32 0x7F800000#32
  let main_v30 : FVec F S4x56000 .f32 := broadcastInDim S4x56000 ![] bcast_S_S4x56000 main_cst_10
  let main_v31 : IVec S4x56000 1 := cmpf .olt main_v29 main_v30
  let main_c_11 : IVec S_ 1 := constantI S_ 1 1#1
  let main_v32 : IVec S_ 1 := (fun x v => Host.reduce IntOp.andi x v reducesTo_S4x56000_S_d0_1 h_S_) main_v31 main_c_11
  let main_v33 : IVec S_ 1 := andi main_v28 main_v32
  fn_part2 (F := F) main_arg7 main_arg8 main_v33

def fn {F : FTy → Type} [FloatOps F] (main_arg0 : FVec F S128x12000x1 .f32) (main_arg1 : FVec F S3600x100 .f32) (main_arg2 : FVec F S100 .f32) (main_arg3 : FVec F S100x56000 .f32) (main_arg4 : FVec F S56000 .f32) (main_arg5 : FVec F S4x448000 .f32) (main_arg6 : FVec F S4x56000 .f32) (main_arg7 : FVec F S4x293352 .f32) (main_arg8 : FVec F S4x57000 .f32) (main_arg9 : IVec S57000 32) (main_arg10 : IVec S57000 32) (main_arg11 : IVec S448000 32) (main_arg12 : IVec S448000 32) (main_arg13 : IVec S293352 32) (main_arg14 : IVec S293352 32) (main_arg15 : IVec S3600 32) (main_arg16 : IVec S12000 1) : IVec S_ 1 :=
  let main_v0 : FVec F S128x12000x1 .f32 := Host.absf main_arg0
  let main_cst : FVec F S_ .f32 := constant S_ .f32 0x7F800000#32
  let main_v1 : FVec F S128x12000x1 .f32 := broadcastInDim S128x12000x1 ![] bcast_S_S128x12000x1 main_cst
  let main_v2 : IVec S128x12000x1 1 := cmpf .olt main_v0 main_v1
  let main_c : IVec S_ 1 := constantI S_ 1 1#1
  let main_v3 : IVec S_ 1 := (fun x v => Host.reduce IntOp.andi x v reducesTo_S128x12000x1_S_d0_1_2 h_S_) main_v2 main_c
  let main_v4 : FVec F S3600x100 .f32 := Host.absf main_arg1
  let main_cst_0 : FVec F S_ .f32 := constant S_ .f32 0x7F800000#32
  let main_v5 : FVec F S3600x100 .f32 := broadcastInDim S3600x100 ![] bcast_S_S3600x100 main_cst_0
  let main_v6 : IVec S3600x100 1 := cmpf .olt main_v4 main_v5
  let main_c_1 : IVec S_ 1 := constantI S_ 1 1#1
  let main_v7 : IVec S_ 1 := (fun x v => Host.reduce IntOp.andi x v reducesTo_S3600x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x56000 .f32 := Host.absf main_arg3
  let main_cst_4 : FVec F S_ .f32 := constant S_ .f32 0x7F800000#32
  let main_v15 : FVec F S100x56000 .f32 := broadcastInDim S100x56000 ![] bcast_S_S100x56000 main_cst_4
  let main_v16 : IVec S100x56000 1 := cmpf .olt main_v14 main_v15
  fn_part1 (F := F) main_arg4 main_arg5 main_arg6 main_arg7 main_arg8 main_v13 main_v16
-- ==== Kernel.lean ====
abbrev S128x12000x1 : Shape := ⟨3, ![128, 12000, 1]⟩
abbrev S3600x100 : Shape := ⟨2, ![3600, 100]⟩
abbrev S100 : Shape := ⟨1, ![100]⟩
abbrev S100x56000 : Shape := ⟨2, ![100, 56000]⟩
abbrev S56000 : Shape := ⟨1, ![56000]⟩
abbrev S4x448000 : Shape := ⟨2, ![4, 448000]⟩
abbrev S4x56000 : Shape := ⟨2, ![4, 56000]⟩
abbrev S4x293352 : Shape := ⟨2, ![4, 293352]⟩
abbrev S4x57000 : Shape := ⟨2, ![4, 57000]⟩
abbrev S57000 : Shape := ⟨1, ![57000]⟩
abbrev S448000 : Shape := ⟨1, ![448000]⟩
abbrev S293352 : Shape := ⟨1, ![293352]⟩
abbrev S3600 : Shape := ⟨1, ![3600]⟩
abbrev S12000 : Shape := ⟨1, ![12000]⟩
abbrev S_ : Shape := ⟨0, ![]⟩
abbrev S3600x1 : Shape := ⟨2, ![3600, 1]⟩
abbrev S3600x2 : Shape := ⟨2, ![3600, 2]⟩
abbrev S128x3600 : Shape := ⟨2, ![128, 3600]⟩
abbrev S128x12000 : Shape := ⟨2, ![128, 12000]⟩
abbrev S57000x1 : Shape := ⟨2, ![57000, 1]⟩
abbrev S128x57000 : Shape := ⟨2, ![128, 57000]⟩
abbrev S128x56000 : Shape := ⟨2, ![128, 56000]⟩
abbrev S8x3600 : Shape := ⟨2, ![8, 3600]⟩
abbrev S8x56000 : Shape := ⟨2, ![8, 56000]⟩
abbrev S8x100 : Shape := ⟨2, ![8, 100]⟩
abbrev S1x100 : Shape := ⟨2, ![1, 100]⟩
abbrev S1x56000 : Shape := ⟨2, ![1, 56000]⟩
abbrev S8 : Shape := ⟨1, ![8]⟩
abbrev S8x1 : Shape := ⟨2, ![8, 1]⟩
abbrev S128x7000x8 : Shape := ⟨3, ![128, 7000, 8]⟩
abbrev S448000x1 : Shape := ⟨2, ![448000, 1]⟩
abbrev S128x448000 : Shape := ⟨2, ![128, 448000]⟩
abbrev S1x448000 : Shape := ⟨2, ![1, 448000]⟩
abbrev S7000x8 : Shape := ⟨2, ![7000, 8]⟩
abbrev S8x7000x8 : Shape := ⟨3, ![8, 7000, 8]⟩
abbrev S1x7000x8 : Shape := ⟨3, ![1, 7000, 8]⟩
abbrev S8x7000 : Shape := ⟨2, ![8, 7000]⟩
abbrev S8x7000x1 : Shape := ⟨3, ![8, 7000, 1]⟩
abbrev S293352x1 : Shape := ⟨2, ![293352, 1]⟩
abbrev S128x293352 : Shape := ⟨2, ![128, 293352]⟩
abbrev S1x293352 : Shape := ⟨2, ![1, 293352]⟩
abbrev S1x57000 : Shape := ⟨2, ![1, 57000]⟩
abbrev S8x57000 : Shape := ⟨2, ![8, 57000]⟩
abbrev S1x12000 : Shape := ⟨2, ![1, 12000]⟩

abbrev nBuf : Space → Nat
  | .hbm => 312
  | .vmem => 64
  | .smem => 0
  | _ => 0

abbrev hbmTy0_0 (i : Nat) : BufTy := match i % 128 with
  | 0 => ⟨S128x12000x1, .f32⟩
  | 1 => ⟨S3600x100, .f32⟩
  | 2 => ⟨S100, .f32⟩
  | 3 => ⟨S100x56000, .f32⟩
  | 4 => ⟨S56000, .f32⟩
  | 5 => ⟨S4x448000, .f32⟩
  | 6 => ⟨S4x56000, .f32⟩
  | 7 => ⟨S4x293352, .f32⟩
  | 8 => ⟨S4x57000, .f32⟩
  | 9 => ⟨S57000, .i32⟩
  | 10 => ⟨S57000, .i32⟩
  | 11 => ⟨S448000, .i32⟩
  | 12 => ⟨S448000, .i32⟩
  | 13 => ⟨S293352, .i32⟩
  | 14 => ⟨S293352, .i32⟩
  | 15 => ⟨S3600, .i32⟩
  | 16 => ⟨S12000, .i1⟩
  | 17 => ⟨S_, .i32⟩
  | 18 => ⟨S3600, .i32⟩
  | 19 => ⟨S3600, .i1⟩
  | 20 => ⟨S_, .i32⟩
  | 21 => ⟨S3600, .i32⟩
  | 22 => ⟨S3600, .i32⟩
  | 23 => ⟨S3600, .i32⟩
  | 24 => ⟨S_, .i32⟩
  | 25 => ⟨S3600, .i32⟩
  | 26 => ⟨S3600, .i32⟩
  | 27 => ⟨S3600x1, .i32⟩
  | 28 => ⟨S3600x1, .i32⟩
  | 29 => ⟨S3600x2, .i32⟩
  | 30 => ⟨S128x3600, .f32⟩
  | 31 => ⟨S128x12000, .f32⟩
  | 32 => ⟨S_, .i32⟩
  | 33 => ⟨S3600, .i32⟩
  | 34 => ⟨S3600, .i1⟩
  | 35 => ⟨S_, .i32⟩
  | 36 => ⟨S3600, .i32⟩
  | 37 => ⟨S3600, .i32⟩
  | 38 => ⟨S3600, .i32⟩
  | 39 => ⟨S3600x1, .i32⟩
  | 40 => ⟨S_, .f32⟩
  | 41 => ⟨S128x3600, .f32⟩
  | 42 => ⟨S128x12000, .f32⟩
  | 43 => ⟨S_, .i32⟩
  | 44 => ⟨S57000, .i32⟩
  | 45 => ⟨S57000, .i1⟩
  | 46 => ⟨S_, .i32⟩
  | 47 => ⟨S57000, .i32⟩
  | 48 => ⟨S57000, .i32⟩
  | 49 => ⟨S57000, .i32⟩
  | 50 => ⟨S57000x1, .i32⟩
  | 51 => ⟨S128x57000, .f32⟩
  | 52 => ⟨S3600x100, .bf16⟩
  | 53 => ⟨S100x56000, .bf16⟩
  | 54 => ⟨S128x56000, .f32⟩
  | 55 => ⟨S128x7000x8, .f32⟩
  | 56 => ⟨S_, .i32⟩
  | 57 => ⟨S448000, .i32⟩
  | 58 => ⟨S448000, .i1⟩
  | 59 => ⟨S_, .i32⟩
  | 60 => ⟨S448000, .i32⟩
  | 61 => ⟨S448000, .i32⟩
  | 62 => ⟨S448000, .i32⟩
  | 63 => ⟨S448000x1, .i32⟩
  | 64 => ⟨S128x448000, .f32⟩
  | 65 => ⟨S1x448000, .f32⟩
  | 66 => ⟨S448000, .f32⟩
  | 67 => ⟨S1x448000, .f32⟩
  | 68 => ⟨S128x448000, .f32⟩
  | 69 => ⟨S128x448000, .f32⟩
  | 70 => ⟨S_, .f32⟩
  | 71 => ⟨S128x56000, .f32⟩
  | 72 => ⟨S_, .i32⟩
  | 73 => ⟨S448000, .i32⟩
  | 74 => ⟨S448000, .i1⟩
  | 75 => ⟨S_, .i32⟩
  | 76 => ⟨S448000, .i32⟩
  | 77 => ⟨S448000, .i32⟩
  | 78 => ⟨S448000, .i32⟩
  | 79 => ⟨S448000x1, .i32⟩
  | 80 => ⟨S128x56000, .f32⟩
  | 81 => ⟨S128x7000x8, .f32⟩
  | 82 => ⟨S1x56000, .f32⟩
  | 83 => ⟨S56000, .f32⟩
  | 84 => ⟨S7000x8, .f32⟩
  | 85 => ⟨S128x7000x8, .f32⟩
  | 86 => ⟨S128x56000, .f32⟩
  | 87 => ⟨S_, .i32⟩
  | 88 => ⟨S293352, .i32⟩
  | 89 => ⟨S293352, .i1⟩
  | 90 => ⟨S_, .i32⟩
  | 91 => ⟨S293352, .i32⟩
  | 92 => ⟨S293352, .i32⟩
  | 93 => ⟨S293352, .i32⟩
  | 94 => ⟨S293352x1, .i32⟩
  | 95 => ⟨S128x293352, .f32⟩
  | 96 => ⟨S1x293352, .f32⟩
  | 97 => ⟨S293352, .f32⟩
  | 98 => ⟨S1x293352, .f32⟩
  | 99 => ⟨S128x293352, .f32⟩
  | 100 => ⟨S128x293352, .f32⟩
  | 101 => ⟨S_, .f32⟩
  | 102 => ⟨S128x57000, .f32⟩
  | 103 => ⟨S_, .i32⟩
  | 104 => ⟨S293352, .i32⟩
  | 105 => ⟨S293352, .i1⟩
  | 106 => ⟨S_, .i32⟩
  | 107 => ⟨S293352, .i32⟩
  | 108 => ⟨S293352, .i32⟩
  | 109 => ⟨S293352, .i32⟩
  | 110 => ⟨S293352x1, .i32⟩
  | 111 => ⟨S128x57000, .f32⟩
  | 112 => ⟨S1x57000, .f32⟩
  | 113 => ⟨S57000, .f32⟩
  | 114 => ⟨S128x57000, .f32⟩
  | 115 => ⟨S_, .i32⟩
  | 116 => ⟨S448000, .i32⟩
  | 117 => ⟨S448000, .i1⟩
  | 118 => ⟨S_, .i32⟩
  | 119 => ⟨S448000, .i32⟩
  | 120 => ⟨S448000, .i32⟩
  | 121 => ⟨S448000, .i32⟩
  | 122 => ⟨S448000x1, .i32⟩
  | 123 => ⟨S128x448000, .f32⟩
  | 124 => ⟨S1x448000, .f32⟩
  | 125 => ⟨S448000, .f32⟩
  | 126 => ⟨S1x448000, .f32⟩
  | 127 => ⟨S128x448000, .f32⟩
  | _ => ⟨S128x12000x1, .f32⟩

abbrev hbmTy0_1 (i : Nat) : BufTy := match i % 128 with
  | 0 => ⟨S128x448000, .f32⟩
  | 1 => ⟨S_, .f32⟩
  | 2 => ⟨S128x56000, .f32⟩
  | 3 => ⟨S_, .i32⟩
  | 4 => ⟨S448000, .i32⟩
  | 5 => ⟨S448000, .i1⟩
  | 6 => ⟨S_, .i32⟩
  | 7 => ⟨S448000, .i32⟩
  | 8 => ⟨S448000, .i32⟩
  | 9 => ⟨S448000, .i32⟩
  | 10 => ⟨S448000x1, .i32⟩
  | 11 => ⟨S128x56000, .f32⟩
  | 12 => ⟨S128x7000x8, .f32⟩
  | 13 => ⟨S1x56000, .f32⟩
  | 14 => ⟨S56000, .f32⟩
  | 15 => ⟨S7000x8, .f32⟩
  | 16 => ⟨S128x7000x8, .f32⟩
  | 17 => ⟨S128x56000, .f32⟩
  | 18 => ⟨S_, .i32⟩
  | 19 => ⟨S293352, .i32⟩
  | 20 => ⟨S293352, .i1⟩
  | 21 => ⟨S_, .i32⟩
  | 22 => ⟨S293352, .i32⟩
  | 23 => ⟨S293352, .i32⟩
  | 24 => ⟨S293352, .i32⟩
  | 25 => ⟨S293352x1, .i32⟩
  | 26 => ⟨S128x293352, .f32⟩
  | 27 => ⟨S1x293352, .f32⟩
  | 28 => ⟨S293352, .f32⟩
  | 29 => ⟨S1x293352, .f32⟩
  | 30 => ⟨S128x293352, .f32⟩
  | 31 => ⟨S128x293352, .f32⟩
  | 32 => ⟨S_, .f32⟩
  | 33 => ⟨S128x57000, .f32⟩
  | 34 => ⟨S_, .i32⟩
  | 35 => ⟨S293352, .i32⟩
  | 36 => ⟨S293352, .i1⟩
  | 37 => ⟨S_, .i32⟩
  | 38 => ⟨S293352, .i32⟩
  | 39 => ⟨S293352, .i32⟩
  | 40 => ⟨S293352, .i32⟩
  | 41 => ⟨S293352x1, .i32⟩
  | 42 => ⟨S128x57000, .f32⟩
  | 43 => ⟨S1x57000, .f32⟩
  | 44 => ⟨S57000, .f32⟩
  | 45 => ⟨S128x57000, .f32⟩
  | 46 => ⟨S_, .i32⟩
  | 47 => ⟨S448000, .i32⟩
  | 48 => ⟨S448000, .i1⟩
  | 49 => ⟨S_, .i32⟩
  | 50 => ⟨S448000, .i32⟩
  | 51 => ⟨S448000, .i32⟩
  | 52 => ⟨S448000, .i32⟩
  | 53 => ⟨S448000x1, .i32⟩
  | 54 => ⟨S128x448000, .f32⟩
  | 55 => ⟨S1x448000, .f32⟩
  | 56 => ⟨S448000, .f32⟩
  | 57 => ⟨S1x448000, .f32⟩
  | 58 => ⟨S128x448000, .f32⟩
  | 59 => ⟨S128x448000, .f32⟩
  | 60 => ⟨S_, .f32⟩
  | 61 => ⟨S128x56000, .f32⟩
  | 62 => ⟨S_, .i32⟩
  | 63 => ⟨S448000, .i32⟩
  | 64 => ⟨S448000, .i1⟩
  | 65 => ⟨S_, .i32⟩
  | 66 => ⟨S448000, .i32⟩
  | 67 => ⟨S448000, .i32⟩
  | 68 => ⟨S448000, .i32⟩
  | 69 => ⟨S448000x1, .i32⟩
  | 70 => ⟨S128x56000, .f32⟩
  | 71 => ⟨S128x7000x8, .f32⟩
  | 72 => ⟨S1x56000, .f32⟩
  | 73 => ⟨S56000, .f32⟩
  | 74 => ⟨S7000x8, .f32⟩
  | 75 => ⟨S128x7000x8, .f32⟩
  | 76 => ⟨S128x56000, .f32⟩
  | 77 => ⟨S_, .i32⟩
  | 78 => ⟨S293352, .i32⟩
  | 79 => ⟨S293352, .i1⟩
  | 80 => ⟨S_, .i32⟩
  | 81 => ⟨S293352, .i32⟩
  | 82 => ⟨S293352, .i32⟩
  | 83 => ⟨S293352, .i32⟩
  | 84 => ⟨S293352x1, .i32⟩
  | 85 => ⟨S128x293352, .f32⟩
  | 86 => ⟨S1x293352, .f32⟩
  | 87 => ⟨S293352, .f32⟩
  | 88 => ⟨S1x293352, .f32⟩
  | 89 => ⟨S128x293352, .f32⟩
  | 90 => ⟨S128x293352, .f32⟩
  | 91 => ⟨S_, .f32⟩
  | 92 => ⟨S128x57000, .f32⟩
  | 93 => ⟨S_, .i32⟩
  | 94 => ⟨S293352, .i32⟩
  | 95 => ⟨S293352, .i1⟩
  | 96 => ⟨S_, .i32⟩
  | 97 => ⟨S293352, .i32⟩
  | 98 => ⟨S293352, .i32⟩
  | 99 => ⟨S293352, .i32⟩
  | 100 => ⟨S293352x1, .i32⟩
  | 101 => ⟨S128x57000, .f32⟩
  | 102 => ⟨S1x57000, .f32⟩
  | 103 => ⟨S57000, .f32⟩
  | 104 => ⟨S128x57000, .f32⟩
  | 105 => ⟨S_, .i32⟩
  | 106 => ⟨S448000, .i32⟩
  | 107 => ⟨S448000, .i1⟩
  | 108 => ⟨S_, .i32⟩
  | 109 => ⟨S448000, .i32⟩
  | 110 => ⟨S448000, .i32⟩
  | 111 => ⟨S448000, .i32⟩
  | 112 => ⟨S448000x1, .i32⟩
  | 113 => ⟨S128x448000, .f32⟩
  | 114 => ⟨S1x448000, .f32⟩
  | 115 => ⟨S448000, .f32⟩
  | 116 => ⟨S1x448000, .f32⟩
  | 117 => ⟨S128x448000, .f32⟩
  | 118 => ⟨S128x448000, .f32⟩
  | 119 => ⟨S_, .f32⟩
  | 120 => ⟨S128x56000, .f32⟩
  | 121 => ⟨S_, .i32⟩
  | 122 => ⟨S448000, .i32⟩
  | 123 => ⟨S448000, .i1⟩
  | 124 => ⟨S_, .i32⟩
  | 125 => ⟨S448000, .i32⟩
  | 126 => ⟨S448000, .i32⟩
  | 127 => ⟨S448000, .i32⟩
  | _ => ⟨S128x12000x1, .f32⟩

abbrev hbmTy0_2 (i : Nat) : BufTy := match i % 128 with
  | 0 => ⟨S448000x1, .i32⟩
  | 1 => ⟨S128x56000, .f32⟩
  | 2 => ⟨S128x7000x8, .f32⟩
  | 3 => ⟨S1x56000, .f32⟩
  | 4 => ⟨S56000, .f32⟩
  | 5 => ⟨S7000x8, .f32⟩
  | 6 => ⟨S128x7000x8, .f32⟩
  | 7 => ⟨S128x56000, .f32⟩
  | 8 => ⟨S_, .i32⟩
  | 9 => ⟨S293352, .i32⟩
  | 10 => ⟨S293352, .i1⟩
  | 11 => ⟨S_, .i32⟩
  | 12 => ⟨S293352, .i32⟩
  | 13 => ⟨S293352, .i32⟩
  | 14 => ⟨S293352, .i32⟩
  | 15 => ⟨S293352x1, .i32⟩
  | 16 => ⟨S128x293352, .f32⟩
  | 17 => ⟨S1x293352, .f32⟩
  | 18 => ⟨S293352, .f32⟩
  | 19 => ⟨S1x293352, .f32⟩
  | 20 => ⟨S128x293352, .f32⟩
  | 21 => ⟨S128x293352, .f32⟩
  | 22 => ⟨S_, .f32⟩
  | 23 => ⟨S128x57000, .f32⟩
  | 24 => ⟨S_, .i32⟩
  | 25 => ⟨S293352, .i32⟩
  | 26 => ⟨S293352, .i1⟩
  | 27 => ⟨S_, .i32⟩
  | 28 => ⟨S293352, .i32⟩
  | 29 => ⟨S293352, .i32⟩
  | 30 => ⟨S293352, .i32⟩
  | 31 => ⟨S293352x1, .i32⟩
  | 32 => ⟨S128x57000, .f32⟩
  | 33 => ⟨S1x57000, .f32⟩
  | 34 => ⟨S57000, .f32⟩
  | 35 => ⟨S128x57000, .f32⟩
  | 36 => ⟨S_, .f32⟩
  | 37 => ⟨S128x57000, .f32⟩
  | 38 => ⟨S128x57000, .f32⟩
  | 39 => ⟨S_, .f32⟩
  | 40 => ⟨S128x12000, .f32⟩
  | 41 => ⟨S_, .i32⟩
  | 42 => ⟨S57000, .i32⟩
  | 43 => ⟨S57000, .i1⟩
  | 44 => ⟨S_, .i32⟩
  | 45 => ⟨S57000, .i32⟩
  | 46 => ⟨S57000, .i32⟩
  | 47 => ⟨S57000, .i32⟩
  | 48 => ⟨S57000x1, .i32⟩
  | 49 => ⟨S128x12000, .f32⟩
  | 50 => ⟨S1x12000, .i1⟩
  | 51 => ⟨S_, .f32⟩
  | 52 => ⟨S_, .f32⟩
  | 53 => ⟨S128x12000, .i1⟩
  | 54 => ⟨S128x12000, .f32⟩
  | 55 => ⟨S128x12000, .f32⟩
  | _ => ⟨S128x12000x1, .f32⟩

abbrev hbmTy (i : Nat) : BufTy := match i / 128 with
  | 0 => hbmTy0_0 i
  | 1 => hbmTy0_1 i
  | 2 => hbmTy0_2 i
  | _ => ⟨S128x12000x1, .f32⟩

abbrev bufTy : (tb : Table) → Fin (tcTables nBuf tb) → BufTy
  | .hbm, ⟨i, _⟩ => hbmTy i
  | .local _ .vmem, ⟨0, _⟩ => ⟨S8x3600, .f32⟩
  | .local _ .vmem, ⟨1, _⟩ => ⟨S8x3600, .f32⟩
  | .local _ .vmem, ⟨2, _⟩ => ⟨S3600x100, .bf16⟩
  | .local _ .vmem, ⟨3, _⟩ => ⟨S100, .f32⟩
  | .local _ .vmem, ⟨4, _⟩ => ⟨S100x56000, .bf16⟩
  | .local _ .vmem, ⟨5, _⟩ => ⟨S56000, .f32⟩
  | .local _ .vmem, ⟨6, _⟩ => ⟨S8x56000, .f32⟩
  | .local _ .vmem, ⟨7, _⟩ => ⟨S8x56000, .f32⟩
  | .local _ .vmem, ⟨8, _⟩ => ⟨S8x7000x8, .f32⟩
  | .local _ .vmem, ⟨9, _⟩ => ⟨S8x7000x8, .f32⟩
  | .local _ .vmem, ⟨10, _⟩ => ⟨S7000x8, .f32⟩
  | .local _ .vmem, ⟨11, _⟩ => ⟨S8x7000x8, .f32⟩
  | .local _ .vmem, ⟨12, _⟩ => ⟨S8x7000x8, .f32⟩
  | .local _ .vmem, ⟨13, _⟩ => ⟨S8x7000x8, .f32⟩
  | .local _ .vmem, ⟨14, _⟩ => ⟨S8x7000x8, .f32⟩
  | .local _ .vmem, ⟨15, _⟩ => ⟨S8x57000, .f32⟩
  | .local _ .vmem, ⟨16, _⟩ => ⟨S8x57000, .f32⟩
  | .local _ .vmem, ⟨17, _⟩ => ⟨S57000, .f32⟩
  | .local _ .vmem, ⟨18, _⟩ => ⟨S8x57000, .f32⟩
  | .local _ .vmem, ⟨19, _⟩ => ⟨S8x57000, .f32⟩
  | .local _ .vmem, ⟨20, _⟩ => ⟨S8x57000, .f32⟩
  | .local _ .vmem, ⟨21, _⟩ => ⟨S8x57000, .f32⟩
  | .local _ .vmem, ⟨22, _⟩ => ⟨S8x7000x8, .f32⟩
  | .local _ .vmem, ⟨23, _⟩ => ⟨S8x7000x8, .f32⟩
  | .local _ .vmem, ⟨24, _⟩ => ⟨S7000x8, .f32⟩
  | .local _ .vmem, ⟨25, _⟩ => ⟨S8x7000x8, .f32⟩
  | .local _ .vmem, ⟨26, _⟩ => ⟨S8x7000x8, .f32⟩
  | .local _ .vmem, ⟨27, _⟩ => ⟨S8x7000x8, .f32⟩
  | .local _ .vmem, ⟨28, _⟩ => ⟨S8x7000x8, .f32⟩
  | .local _ .vmem, ⟨29, _⟩ => ⟨S8x57000, .f32⟩
  | .local _ .vmem, ⟨30, _⟩ => ⟨S8x57000, .f32⟩
  | .local _ .vmem, ⟨31, _⟩ => ⟨S57000, .f32⟩
  | .local _ .vmem, ⟨32, _⟩ => ⟨S8x57000, .f32⟩
  | .local _ .vmem, ⟨33, _⟩ => ⟨S8x57000, .f32⟩
  | .local _ .vmem, ⟨34, _⟩ => ⟨S8x57000, .f32⟩
  | .local _ .vmem, ⟨35, _⟩ => ⟨S8x57000, .f32⟩
  | .local _ .vmem, ⟨36, _⟩ => ⟨S8x7000x8, .f32⟩
  | .local _ .vmem, ⟨37, _⟩ => ⟨S8x7000x8, .f32⟩
  | .local _ .vmem, ⟨38, _⟩ => ⟨S7000x8, .f32⟩
  | .local _ .vmem, ⟨39, _⟩ => ⟨S8x7000x8, .f32⟩
  | .local _ .vmem, ⟨40, _⟩ => ⟨S8x7000x8, .f32⟩
  | .local _ .vmem, ⟨41, _⟩ => ⟨S8x7000x8, .f32⟩
  | .local _ .vmem, ⟨42, _⟩ => ⟨S8x7000x8, .f32⟩
  | .local _ .vmem, ⟨43, _⟩ => ⟨S8x57000, .f32⟩
  | .local _ .vmem, ⟨44, _⟩ => ⟨S8x57000, .f32⟩
  | .local _ .vmem, ⟨45, _⟩ => ⟨S57000, .f32⟩
  | .local _ .vmem, ⟨46, _⟩ => ⟨S8x57000, .f32⟩
  | .local _ .vmem, ⟨47, _⟩ => ⟨S8x57000, .f32⟩
  | .local _ .vmem, ⟨48, _⟩ => ⟨S8x57000, .f32⟩
  | .local _ .vmem, ⟨49, _⟩ => ⟨S8x57000, .f32⟩
  | .local _ .vmem, ⟨50, _⟩ => ⟨S8x7000x8, .f32⟩
  | .local _ .vmem, ⟨51, _⟩ => ⟨S8x7000x8, .f32⟩
  | .local _ .vmem, ⟨52, _⟩ => ⟨S7000x8, .f32⟩
  | .local _ .vmem, ⟨53, _⟩ => ⟨S8x7000x8, .f32⟩
  | .local _ .vmem, ⟨54, _⟩ => ⟨S8x7000x8, .f32⟩
  | .local _ .vmem, ⟨55, _⟩ => ⟨S8x7000x8, .f32⟩
  | .local _ .vmem, ⟨56, _⟩ => ⟨S8x7000x8, .f32⟩
  | .local _ .vmem, ⟨57, _⟩ => ⟨S8x57000, .f32⟩
  | .local _ .vmem, ⟨58, _⟩ => ⟨S8x57000, .f32⟩
  | .local _ .vmem, ⟨59, _⟩ => ⟨S57000, .f32⟩
  | .local _ .vmem, ⟨60, _⟩ => ⟨S8x57000, .f32⟩
  | .local _ .vmem, ⟨61, _⟩ => ⟨S8x57000, .f32⟩
  | .local _ .vmem, ⟨62, _⟩ => ⟨S8x57000, .f32⟩
  | .local _ .vmem, ⟨63, _⟩ => ⟨S8x57000, .f32⟩
  | _, _ => ⟨S128x12000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_c_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_16 : Ref sig .tc := ⟨.hbm, 115, rfl⟩
abbrev main_v80 : Ref sig .tc := ⟨.hbm, 116, rfl⟩
abbrev main_v81 : Ref sig .tc := ⟨.hbm, 117, rfl⟩
abbrev main_c_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_c_19 : Ref sig .tc := ⟨.hbm, 131, rfl⟩
abbrev main_v93 : Ref sig .tc := ⟨.hbm, 132, rfl⟩
abbrev main_v94 : Ref sig .tc := ⟨.hbm, 133, rfl⟩
abbrev main_c_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_21 : Ref sig .tc := ⟨.hbm, 146, rfl⟩
abbrev main_v106 : Ref sig .tc := ⟨.hbm, 147, rfl⟩
abbrev main_v107 : Ref sig .tc := ⟨.hbm, 148, rfl⟩
abbrev main_c_22 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_23 : Ref sig .tc := ⟨.hbm, 160, rfl⟩
abbrev main_v118 : Ref sig .tc := ⟨.hbm, 161, rfl⟩
abbrev main_c_24 : Ref sig .tc := ⟨.hbm, 162, rfl⟩
abbrev main_v119 : Ref sig .tc := ⟨.hbm, 163, rfl⟩
abbrev main_v120 : Ref sig .tc := ⟨.hbm, 164, rfl⟩
abbrev main_c_25 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_c_26 : Ref sig .tc := ⟨.hbm, 174, rfl⟩
abbrev main_v129 : Ref sig .tc := ⟨.hbm, 175, rfl⟩
abbrev main_v130 : Ref sig .tc := ⟨.hbm, 176, rfl⟩
abbrev main_c_27 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_28 : Ref sig .tc := ⟨.hbm, 188, rfl⟩
abbrev main_v141 : Ref sig .tc := ⟨.hbm, 189, rfl⟩
abbrev main_c_29 : Ref sig .tc := ⟨.hbm, 190, rfl⟩
abbrev main_v142 : Ref sig .tc := ⟨.hbm, 191, rfl⟩
abbrev main_v143 : Ref sig .tc := ⟨.hbm, 192, rfl⟩
abbrev main_c_30 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_c_31 : Ref sig .tc := ⟨.hbm, 205, rfl⟩
abbrev main_v155 : Ref sig .tc := ⟨.hbm, 206, rfl⟩
abbrev main_v156 : Ref sig .tc := ⟨.hbm, 207, rfl⟩
abbrev main_c_32 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_33 : Ref sig .tc := ⟨.hbm, 219, rfl⟩
abbrev main_v167 : Ref sig .tc := ⟨.hbm, 220, rfl⟩
abbrev main_c_34 : Ref sig .tc := ⟨.hbm, 221, rfl⟩
abbrev main_v168 : Ref sig .tc := ⟨.hbm, 222, rfl⟩
abbrev main_v169 : Ref sig .tc := ⟨.hbm, 223, rfl⟩
abbrev main_c_35 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_c_36 : Ref sig .tc := ⟨.hbm, 233, rfl⟩
abbrev main_v178 : Ref sig .tc := ⟨.hbm, 234, rfl⟩
abbrev main_v179 : Ref sig .tc := ⟨.hbm, 235, rfl⟩
abbrev main_c_37 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_38 : Ref sig .tc := ⟨.hbm, 247, rfl⟩
abbrev main_v190 : Ref sig .tc := ⟨.hbm, 248, rfl⟩
abbrev main_c_39 : Ref sig .tc := ⟨.hbm, 249, rfl⟩
abbrev main_v191 : Ref sig .tc := ⟨.hbm, 250, rfl⟩
abbrev main_v192 : Ref sig .tc := ⟨.hbm, 251, rfl⟩
abbrev main_c_40 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_c_41 : Ref sig .tc := ⟨.hbm, 264, rfl⟩
abbrev main_v204 : Ref sig .tc := ⟨.hbm, 265, rfl⟩
abbrev main_v205 : Ref sig .tc := ⟨.hbm, 266, rfl⟩
abbrev main_c_42 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_cst_43 : Ref sig .tc := ⟨.hbm, 278, rfl⟩
abbrev main_v216 : Ref sig .tc := ⟨.hbm, 279, rfl⟩
abbrev main_c_44 : Ref sig .tc := ⟨.hbm, 280, rfl⟩
abbrev main_v217 : Ref sig .tc := ⟨.hbm, 281, rfl⟩
abbrev main_v218 : Ref sig .tc := ⟨.hbm, 282, rfl⟩
abbrev main_c_45 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_cst_46 : Ref sig .tc := ⟨.hbm, 292, rfl⟩
abbrev main_v227 : Ref sig .tc := ⟨.hbm, 293, rfl⟩
abbrev main_v228 : Ref sig .tc := ⟨.hbm, 294, rfl⟩
abbrev main_cst_47 : Ref sig .tc := ⟨.hbm, 295, rfl⟩
abbrev main_v229 : Ref sig .tc := ⟨.hbm, 296, rfl⟩
abbrev main_c_48 : Ref sig .tc := ⟨.hbm, 297, rfl⟩
abbrev main_v230 : Ref sig .tc := ⟨.hbm, 298, rfl⟩
abbrev main_v231 : Ref sig .tc := ⟨.hbm, 299, rfl⟩
abbrev main_c_49 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_cst_50 : Ref sig .tc := ⟨.hbm, 307, rfl⟩
abbrev main_call0_v0 : Ref sig .tc := ⟨.hbm, 308, rfl⟩
abbrev main_call0_v1 : Ref sig .tc := ⟨.hbm, 309, rfl⟩
abbrev main_call0_v2 : Ref sig .tc := ⟨.hbm, 310, rfl⟩
abbrev main_v238 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg2_1 : Ref sig .tc := ⟨.vmem, 61, rfl⟩
abbrev cc8_stg3_0 : Ref sig .tc := ⟨.vmem, 62, rfl⟩
abbrev cc8_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem2_1 : DmaSem sig := 61
abbrev cc8_sem3_0 : DmaSem sig := 62
abbrev cc8_sem3_1 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3600x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x56000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S56000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x56000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x7000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7000x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x7000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x7000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x57000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S57000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x57000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x57000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8x7000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7000x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8x7000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x7000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x57000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S57000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8x57000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x57000 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S8x7000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S7000x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8x7000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8x7000x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x57000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S57000 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S8x57000 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S8x57000 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S8x7000x8 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S7000x8 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S8x7000x8 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S8x7000x8 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8x57000 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S57000 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S8x57000 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S8x57000 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  bcast_S_S3600 : S_.BroadcastsInDim S3600 (![] : Fin 0 → Fin S3600.rank)
  bcast_S3600_S3600x1_0 : S3600.BroadcastsInDim S3600x1 (![0] : Fin 1 → Fin S3600x1.rank)
  concatenates_S3600x1_S3600x1_S3600x2_d1 : Shape.Concatenates [S3600x1, S3600x1] S3600x2 1
  shapeCasts_S128x12000x1_S128x12000 : S128x12000x1.ShapeCasts S128x12000
  bcast_S_S128x3600 : S_.BroadcastsInDim S128x3600 (![] : Fin 0 → Fin S128x3600.rank)
  bcast_S_S57000 : S_.BroadcastsInDim S57000 (![] : Fin 0 → Fin S57000.rank)
  bcast_S57000_S57000x1_0 : S57000.BroadcastsInDim S57000x1 (![0] : Fin 1 → Fin S57000x1.rank)
  bitsLt_bf16_f32 : FTy.bits .bf16 < FTy.bits .f32
  inb_S8x3600_S8x3600_0_0 : ∀ a, (![0, 0] : Fin 2 → Nat) a + S8x3600.size a ≤ S8x3600.size a
  h_S8x3600 : 0 < S8x3600.numel
  shapeCasts_S8x3600_S8x3600 : S8x3600.ShapeCasts S8x3600
  inb_S3600x100_S3600x100_0_0 : ∀ a, (![0, 0] : Fin 2 → Nat) a + S3600x100.size a ≤ S3600x100.size a
  h_S3600x100 : 0 < S3600x100.numel
  shapeCasts_S3600x100_S3600x100 : S3600x100.ShapeCasts S3600x100
  inb_S100_S100_0 : ∀ a, (![0] : Fin 1 → Nat) a + S100.size a ≤ S100.size a
  h_S100 : 0 < S100.numel
  shapeCasts_S100_S1x100 : S100.ShapeCasts S1x100
  broadcasts_S1x100_S8x100 : S1x100.Broadcasts S8x100
  inb_S100x56000_S100x56000_0_0 : ∀ a, (![0, 0] : Fin 2 → Nat) a + S100x56000.size a ≤ S100x56000.size a
  h_S100x56000 : 0 < S100x56000.numel
  shapeCasts_S100x56000_S100x56000 : S100x56000.ShapeCasts S100x56000
  inb_S56000_S56000_0 : ∀ a, (![0] : Fin 1 → Nat) a + S56000.size a ≤ S56000.size a
  h_S56000 : 0 < S56000.numel
  shapeCasts_S56000_S1x56000 : S56000.ShapeCasts S1x56000
  broadcasts_S1x56000_S8x56000 : S1x56000.Broadcasts S8x56000
  reduces_S8x56000_S8 : S8x56000.Reduces [1] S8
  shapeCasts_S8_S8x1 : S8.ShapeCasts S8x1
  broadcasts_S8x1_S8x56000 : S8x1.Broadcasts S8x56000
  inb_S8x56000_S8x56000_0_0 : ∀ a, (![0, 0] : Fin 2 → Nat) a + S8x56000.size a ≤ S8x56000.size a
  h_S8x56000 : 0 < S8x56000.numel
  shapeCasts_S128x56000_S128x7000x8 : S128x56000.ShapeCasts S128x7000x8
  bcast_S_S448000 : S_.BroadcastsInDim S448000 (![] : Fin 0 → Fin S448000.rank)
  bcast_S448000_S448000x1_0 : S448000.BroadcastsInDim S448000x1 (![0] : Fin 1 → Fin S448000x1.rank)
  slices_S4x448000_S1x448000_0_0 : S4x448000.Slices ![0, 0] S1x448000
  shapeCasts_S1x448000_S448000 : S1x448000.ShapeCasts S448000
  bcast_S448000_S1x448000_1 : S448000.BroadcastsInDim S1x448000 (![1] : Fin 1 → Fin S1x448000.rank)
  bcast_S1x448000_S128x448000_0_1 : S1x448000.BroadcastsInDim S128x448000 (![0, 1] : Fin 2 → Fin S128x448000.rank)
  bcast_S_S128x56000 : S_.BroadcastsInDim S128x56000 (![] : Fin 0 → Fin S128x56000.rank)
  slices_S4x56000_S1x56000_0_0 : S4x56000.Slices ![0, 0] S1x56000
  shapeCasts_S1x56000_S56000 : S1x56000.ShapeCasts S56000
  shapeCasts_S56000_S7000x8 : S56000.ShapeCasts S7000x8
  inb_S8x7000x8_S8x7000x8_0_0_0 : ∀ a, (![0, 0, 0] : Fin 3 → Nat) a + S8x7000x8.size a ≤ S8x7000x8.size a
  h_S8x7000x8 : 0 < S8x7000x8.numel
  shapeCasts_S8x7000x8_S8x7000x8 : S8x7000x8.ShapeCasts S8x7000x8
  inb_S7000x8_S7000x8_0_0 : ∀ a, (![0, 0] : Fin 2 → Nat) a + S7000x8.size a ≤ S7000x8.size a
  h_S7000x8 : 0 < S7000x8.numel
  shapeCasts_S7000x8_S7000x8 : S7000x8.ShapeCasts S7000x8
  shapeCasts_S7000x8_S1x7000x8 : S7000x8.ShapeCasts S1x7000x8
  broadcasts_S1x7000x8_S8x7000x8 : S1x7000x8.Broadcasts S8x7000x8
  reduces_S8x7000x8_S8x7000 : S8x7000x8.Reduces [2] S8x7000
  shapeCasts_S8x7000_S8x7000x1 : S8x7000.ShapeCasts S8x7000x1
  broadcasts_S8x7000x1_S8x7000x8 : S8x7000x1.Broadcasts S8x7000x8
  shapeCasts_S128x7000x8_S128x56000 : S128x7000x8.ShapeCasts S128x56000
  bcast_S_S293352 : S_.BroadcastsInDim S293352 (![] : Fin 0 → Fin S293352.rank)
  bcast_S293352_S293352x1_0 : S293352.BroadcastsInDim S293352x1 (![0] : Fin 1 → Fin S293352x1.rank)
  slices_S4x293352_S1x293352_0_0 : S4x293352.Slices ![0, 0] S1x293352
  shapeCasts_S1x293352_S293352 : S1x293352.ShapeCasts S293352
  bcast_S293352_S1x293352_1 : S293352.BroadcastsInDim S1x293352 (![1] : Fin 1 → Fin S1x293352.rank)
  bcast_S1x293352_S128x293352_0_1 : S1x293352.BroadcastsInDim S128x293352 (![0, 1] : Fin 2 → Fin S128x293352.rank)
  bcast_S_S128x57000 : S_.BroadcastsInDim S128x57000 (![] : Fin 0 → Fin S128x57000.rank)
  slices_S4x57000_S1x57000_0_0 : S4x57000.Slices ![0, 0] S1x57000
  shapeCasts_S1x57000_S57000 : S1x57000.ShapeCasts S57000
  inb_S8x57000_S8x57000_0_0 : ∀ a, (![0, 0] : Fin 2 → Nat) a + S8x57000.size a ≤ S8x57000.size a
  h_S8x57000 : 0 < S8x57000.numel
  shapeCasts_S8x57000_S8x57000 : S8x57000.ShapeCasts S8x57000
  inb_S57000_S57000_0 : ∀ a, (![0] : Fin 1 → Nat) a + S57000.size a ≤ S57000.size a
  h_S57000 : 0 < S57000.numel
  shapeCasts_S57000_S57000 : S57000.ShapeCasts S57000
  shapeCasts_S57000_S1x57000 : S57000.ShapeCasts S1x57000
  broadcasts_S1x57000_S8x57000 : S1x57000.Broadcasts S8x57000
  slices_S4x448000_S1x448000_1_0 : S4x448000.Slices ![1, 0] S1x448000
  slices_S4x56000_S1x56000_1_0 : S4x56000.Slices ![1, 0] S1x56000
  slices_S4x293352_S1x293352_1_0 : S4x293352.Slices ![1, 0] S1x293352
  slices_S4x57000_S1x57000_1_0 : S4x57000.Slices ![1, 0] S1x57000
  slices_S4x448000_S1x448000_2_0 : S4x448000.Slices ![2, 0] S1x448000
  slices_S4x56000_S1x56000_2_0 : S4x56000.Slices ![2, 0] S1x56000
  slices_S4x293352_S1x293352_2_0 : S4x293352.Slices ![2, 0] S1x293352
  slices_S4x57000_S1x57000_2_0 : S4x57000.Slices ![2, 0] S1x57000
  slices_S4x448000_S1x448000_3_0 : S4x448000.Slices ![3, 0] S1x448000
  slices_S4x56000_S1x56000_3_0 : S4x56000.Slices ![3, 0] S1x56000
  slices_S4x293352_S1x293352_3_0 : S4x293352.Slices ![3, 0] S1x293352
  slices_S4x57000_S1x57000_3_0 : S4x57000.Slices ![3, 0] S1x57000
  bcast_S_S128x12000 : S_.BroadcastsInDim S128x12000 (![] : Fin 0 → Fin S128x12000.rank)
  bcast_S12000_S1x12000_1 : S12000.BroadcastsInDim S1x12000 (![1] : Fin 1 → Fin S1x12000.rank)
  bcast_S1x12000_S128x12000_0_1 : S1x12000.BroadcastsInDim S128x12000 (![0, 1] : Fin 2 → Fin S128x12000.rank)
  gather_S128x12000x1_S3600x2_S128x3600_0_12_n_n_12_1_12811_wf : GatherDims.WF S128x12000x1 S3600x2 S128x3600 [0] [1, 2] [] [1, 2] [] 1 ![128, 1, 1]
  scatter_S128x12000_S3600x1_S128x3600_0_1_1_1_wf : ScatterDims.WF S128x12000 S3600x1 S128x3600 [0] [1] [1] 1
  gather_S128x12000_S57000x1_S128x57000_0_1_n_n_1_1_1281_wf : GatherDims.WF S128x12000 S57000x1 S128x57000 [0] [1] [] [1] [] 1 ![128, 1]
  dot_S8x3600_S3600x100_S8x100_1_0_0_1_n_n_wf : DotDims.WF S8x3600 S3600x100 S8x100 [1] [0] [0] [1] [] []
  dot_S8x100_S100x56000_S8x56000_1_0_0_1_n_n_wf : DotDims.WF S8x100 S100x56000 S8x56000 [1] [0] [0] [1] [] []
  gather_S128x57000_S448000x1_S128x448000_0_1_n_n_1_1_1281_wf : GatherDims.WF S128x57000 S448000x1 S128x448000 [0] [1] [] [1] [] 1 ![128, 1]
  scatter_S128x56000_S448000x1_S128x448000_0_1_1_1_wf : ScatterDims.WF S128x56000 S448000x1 S128x448000 [0] [1] [1] 1
  gather_S128x56000_S293352x1_S128x293352_0_1_n_n_1_1_1281_wf : GatherDims.WF S128x56000 S293352x1 S128x293352 [0] [1] [] [1] [] 1 ![128, 1]
  scatter_S128x57000_S293352x1_S128x293352_0_1_1_1_wf : ScatterDims.WF S128x57000 S293352x1 S128x293352 [0] [1] [1] 1
  scatter_S128x12000_S57000x1_S128x57000_0_1_1_1_wf : ScatterDims.WF S128x12000 S57000x1 S128x57000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3600.size a ≤ S128x3600.size a
  hwx0_0 : ∀ i : grid0.Coords, EltTy.bits .f32 = 32 ∨ (Rect.block (s := S128x3600) S8x3600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3600x100.size a ≤ S3600x100.size a
  hwx0_1 : ∀ i : grid0.Coords, EltTy.bits .bf16 = 32 ∨ (Rect.block (s := S3600x100) S3600x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x56000.size a ≤ S100x56000.size a
  hwx0_3 : ∀ i : grid0.Coords, EltTy.bits .bf16 = 32 ∨ (Rect.block (s := S100x56000) S100x56000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S56000.size a ≤ S56000.size a
  hwx0_4 : ∀ i : grid0.Coords, EltTy.bits .f32 = 32 ∨ (Rect.block (s := S56000) S56000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x56000.size a ≤ S128x56000.size a
  hwx0_5 : ∀ i : grid0.Coords, EltTy.bits .f32 = 32 ∨ (Rect.block (s := S128x56000) S8x56000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x7000x8.size a ≤ S128x7000x8.size a
  hwx1_0 : ∀ i : grid1.Coords, EltTy.bits .f32 = 32 ∨ (Rect.block (s := S128x7000x8) S8x7000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S7000x8.size a ≤ S7000x8.size a
  hwx1_1 : ∀ i : grid1.Coords, EltTy.bits .f32 = 32 ∨ (Rect.block (s := S7000x8) S7000x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x7000x8.size a ≤ S128x7000x8.size a
  hwx1_2 : ∀ i : grid1.Coords, EltTy.bits .f32 = 32 ∨ (Rect.block (s := S128x7000x8) S8x7000x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x7000x8.size a ≤ S128x7000x8.size a
  hwx1_3 : ∀ i : grid1.Coords, EltTy.bits .f32 = 32 ∨ (Rect.block (s := S128x7000x8) S8x7000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x57000.size a ≤ S128x57000.size a
  hwx2_0 : ∀ i : grid2.Coords, EltTy.bits .f32 = 32 ∨ (Rect.block (s := S128x57000) S8x57000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S57000.size a ≤ S57000.size a
  hwx2_1 : ∀ i : grid2.Coords, EltTy.bits .f32 = 32 ∨ (Rect.block (s := S57000) S57000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x57000.size a ≤ S128x57000.size a
  hwx2_2 : ∀ i : grid2.Coords, EltTy.bits .f32 = 32 ∨ (Rect.block (s := S128x57000) S8x57000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x57000.size a ≤ S128x57000.size a
  hwx2_3 : ∀ i : grid2.Coords, EltTy.bits .f32 = 32 ∨ (Rect.block (s := S128x57000) S8x57000.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x7000x8.size a ≤ S128x7000x8.size a
  hwx3_0 : ∀ i : grid3.Coords, EltTy.bits .f32 = 32 ∨ (Rect.block (s := S128x7000x8) S8x7000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7000x8.size a ≤ S7000x8.size a
  hwx3_1 : ∀ i : grid3.Coords, EltTy.bits .f32 = 32 ∨ (Rect.block (s := S7000x8) S7000x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x7000x8.size a ≤ S128x7000x8.size a
  hwx3_2 : ∀ i : grid3.Coords, EltTy.bits .f32 = 32 ∨ (Rect.block (s := S128x7000x8) S8x7000x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x7000x8.size a ≤ S128x7000x8.size a
  hwx3_3 : ∀ i : grid3.Coords, EltTy.bits .f32 = 32 ∨ (Rect.block (s := S128x7000x8) S8x7000x8.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x57000.size a ≤ S128x57000.size a
  hwx4_0 : ∀ i : grid4.Coords, EltTy.bits .f32 = 32 ∨ (Rect.block (s := S128x57000) S8x57000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S57000.size a ≤ S57000.size a
  hwx4_1 : ∀ i : grid4.Coords, EltTy.bits .f32 = 32 ∨ (Rect.block (s := S57000) S57000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x57000.size a ≤ S128x57000.size a
  hwx4_2 : ∀ i : grid4.Coords, EltTy.bits .f32 = 32 ∨ (Rect.block (s := S128x57000) S8x57000.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x57000.size a ≤ S128x57000.size a
  hwx4_3 : ∀ i : grid4.Coords, EltTy.bits .f32 = 32 ∨ (Rect.block (s := S128x57000) S8x57000.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x7000x8.size a ≤ S128x7000x8.size a
  hwx5_0 : ∀ i : grid5.Coords, EltTy.bits .f32 = 32 ∨ (Rect.block (s := S128x7000x8) S8x7000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S7000x8.size a ≤ S7000x8.size a
  hwx5_1 : ∀ i : grid5.Coords, EltTy.bits .f32 = 32 ∨ (Rect.block (s := S7000x8) S7000x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8x7000x8.size a ≤ S128x7000x8.size a
  hwx5_2 : ∀ i : grid5.Coords, EltTy.bits .f32 = 32 ∨ (Rect.block (s := S128x7000x8) S8x7000x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8x7000x8.size a ≤ S128x7000x8.size a
  hwx5_3 : ∀ i : grid5.Coords, EltTy.bits .f32 = 32 ∨ (Rect.block (s := S128x7000x8) S8x7000x8.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x57000.size a ≤ S128x57000.size a
  hwx6_0 : ∀ i : grid6.Coords, EltTy.bits .f32 = 32 ∨ (Rect.block (s := S128x57000) S8x57000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S57000.size a ≤ S57000.size a
  hwx6_1 : ∀ i : grid6.Coords, EltTy.bits .f32 = 32 ∨ (Rect.block (s := S57000) S57000.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8x57000.size a ≤ S128x57000.size a
  hwx6_2 : ∀ i : grid6.Coords, EltTy.bits .f32 = 32 ∨ (Rect.block (s := S128x57000) S8x57000.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8x57000.size a ≤ S128x57000.size a
  hwx6_3 : ∀ i : grid6.Coords, EltTy.bits .f32 = 32 ∨ (Rect.block (s := S128x57000) S8x57000.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8x7000x8.size a ≤ S128x7000x8.size a
  hwx7_0 : ∀ i : grid7.Coords, EltTy.bits .f32 = 32 ∨ (Rect.block (s := S128x7000x8) S8x7000x8.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S7000x8.size a ≤ S7000x8.size a
  hwx7_1 : ∀ i : grid7.Coords, EltTy.bits .f32 = 32 ∨ (Rect.block (s := S7000x8) S7000x8.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8x7000x8.size a ≤ S128x7000x8.size a
  hwx7_2 : ∀ i : grid7.Coords, EltTy.bits .f32 = 32 ∨ (Rect.block (s := S128x7000x8) S8x7000x8.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8x7000x8.size a ≤ S128x7000x8.size a
  hwx7_3 : ∀ i : grid7.Coords, EltTy.bits .f32 = 32 ∨ (Rect.block (s := S128x7000x8) S8x7000x8.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8x57000.size a ≤ S128x57000.size a
  hwx8_0 : ∀ i : grid8.Coords, EltTy.bits .f32 = 32 ∨ (Rect.block (s := S128x57000) S8x57000.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S57000.size a ≤ S57000.size a
  hwx8_1 : ∀ i : grid8.Coords, EltTy.bits .f32 = 32 ∨ (Rect.block (s := S57000) S57000.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8x57000.size a ≤ S128x57000.size a
  hwx8_2 : ∀ i : grid8.Coords, EltTy.bits .f32 = 32 ∨ (Rect.block (s := S128x57000) S8x57000.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8x57000.size a ≤ S128x57000.size a
  hwx8_3 : ∀ i : grid8.Coords, EltTy.bits .f32 = 32 ∨ (Rect.block (s := S128x57000) S8x57000.size (cc8_transform_3 i) (hinb8_3 i)).WholeWords (EltTy.packing .f32)

variable [Facts₀]

def gather_S128x12000x1_S3600x2_S128x3600_0_12_n_n_12_1_12811 : GatherDims S128x12000x1 S3600x2 S128x3600 where
  offsetDims := [0]
  collapsedSliceDims := [1, 2]
  operandBatchingDims := []
  startIndicesBatchingDims := []
  startIndexMap := [1, 2]
  indexVectorDim := 1
  sliceSizes := ![128, 1, 1]
  wf := gather_S128x12000x1_S3600x2_S128x3600_0_12_n_n_12_1_12811_wf
def scatter_S128x12000_S3600x1_S128x3600_0_1_1_1 : ScatterDims S128x12000 S3600x1 S128x3600 where
  updateWindowDims := [0]
  insertedWindowDims := [1]
  scatterDimsToOperandDims := [1]
  indexVectorDim := 1
  wf := scatter_S128x12000_S3600x1_S128x3600_0_1_1_1_wf
def gather_S128x12000_S57000x1_S128x57000_0_1_n_n_1_1_1281 : GatherDims S128x12000 S57000x1 S128x57000 where
  offsetDims := [0]
  collapsedSliceDims := [1]
  operandBatchingDims := []
  startIndicesBatchingDims := []
  startIndexMap := [1]
  indexVectorDim := 1
  sliceSizes := ![128, 1]
  wf := gather_S128x12000_S57000x1_S128x57000_0_1_n_n_1_1_1281_wf
def dot_S8x3600_S3600x100_S8x100_1_0_0_1_n_n : DotDims S8x3600 S3600x100 S8x100 where
  lhsContracting := [1]
  rhsContracting := [0]
  lhsNonContracting := [0]
  rhsNonContracting := [1]
  lhsBatch := []
  rhsBatch := []
  wf := dot_S8x3600_S3600x100_S8x100_1_0_0_1_n_n_wf
def dot_S8x100_S100x56000_S8x56000_1_0_0_1_n_n : DotDims S8x100 S100x56000 S8x56000 where
  lhsContracting := [1]
  rhsContracting := [0]
  lhsNonContracting := [0]
  rhsNonContracting := [1]
  lhsBatch := []
  rhsBatch := []
  wf := dot_S8x100_S100x56000_S8x56000_1_0_0_1_n_n_wf
def gather_S128x57000_S448000x1_S128x448000_0_1_n_n_1_1_1281 : GatherDims S128x57000 S448000x1 S128x448000 where
  offsetDims := [0]
  collapsedSliceDims := [1]
  operandBatchingDims := []
  startIndicesBatchingDims := []
  startIndexMap := [1]
  indexVectorDim := 1
  sliceSizes := ![128, 1]
  wf := gather_S128x57000_S448000x1_S128x448000_0_1_n_n_1_1_1281_wf
def scatter_S128x56000_S448000x1_S128x448000_0_1_1_1 : ScatterDims S128x56000 S448000x1 S128x448000 where
  updateWindowDims := [0]
  insertedWindowDims := [1]
  scatterDimsToOperandDims := [1]
  indexVectorDim := 1
  wf := scatter_S128x56000_S448000x1_S128x448000_0_1_1_1_wf
def gather_S128x56000_S293352x1_S128x293352_0_1_n_n_1_1_1281 : GatherDims S128x56000 S293352x1 S128x293352 where
  offsetDims := [0]
  collapsedSliceDims := [1]
  operandBatchingDims := []
  startIndicesBatchingDims := []
  startIndexMap := [1]
  indexVectorDim := 1
  sliceSizes := ![128, 1]
  wf := gather_S128x56000_S293352x1_S128x293352_0_1_n_n_1_1_1281_wf
def scatter_S128x57000_S293352x1_S128x293352_0_1_1_1 : ScatterDims S128x57000 S293352x1 S128x293352 where
  updateWindowDims := [0]
  insertedWindowDims := [1]
  scatterDimsToOperandDims := [1]
  indexVectorDim := 1
  wf := scatter_S128x57000_S293352x1_S128x293352_0_1_1_1_wf
def scatter_S128x12000_S57000x1_S128x57000_0_1_1_1 : ScatterDims S128x12000 S57000x1 S128x57000 where
  updateWindowDims := [0]
  insertedWindowDims := [1]
  scatterDimsToOperandDims := [1]
  indexVectorDim := 1
  wf := scatter_S128x12000_S57000x1_S128x57000_0_1_1_1_wf

abbrev win0_0 : Pipeline.Window sig grid0 :=
  Pipeline.Window.ofSpec (Memref.whole main_v10) S8x3600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S3600x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S100x56000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S56000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S8x56000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S8x7000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S7000x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S8x7000x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S8x7000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v76) S8x57000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S57000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S8x57000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v79) S8x57000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v100) S8x7000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S7000x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S8x7000x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v104) S8x7000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v125) S8x57000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v127) S57000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S8x57000.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v128) S8x57000.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v149) S8x7000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v152) S7000x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S8x7000x8.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v153) S8x7000x8.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v174) S8x57000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v176) S57000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v128) S8x57000.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v177) S8x57000.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v198) S8x7000x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v201) S7000x8.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v30) S8x7000x8.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v202) S8x7000x8.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v223) S8x57000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v225) S57000.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v177) S8x57000.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v226) S8x57000.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S128x12000x1 : Shape := ⟨3, ![128, 12000, 1]⟩
abbrev S3600x100 : Shape := ⟨2, ![3600, 100]⟩
abbrev S100 : Shape := ⟨1, ![100]⟩
abbrev S100x56000 : Shape := ⟨2, ![100, 56000]⟩
abbrev S56000 : Shape := ⟨1, ![56000]⟩
abbrev S4x448000 : Shape := ⟨2, ![4, 448000]⟩
abbrev S4x56000 : Shape := ⟨2, ![4, 56000]⟩
abbrev S4x293352 : Shape := ⟨2, ![4, 293352]⟩
abbrev S4x57000 : Shape := ⟨2, ![4, 57000]⟩
abbrev S57000 : Shape := ⟨1, ![57000]⟩
abbrev S448000 : Shape := ⟨1, ![448000]⟩
abbrev S293352 : Shape := ⟨1, ![293352]⟩
abbrev S3600 : Shape := ⟨1, ![3600]⟩
abbrev S12000 : Shape := ⟨1, ![12000]⟩
abbrev S_ : Shape := ⟨0, ![]⟩
abbrev S3600x1 : Shape := ⟨2, ![3600, 1]⟩
abbrev S3600x2 : Shape := ⟨2, ![3600, 2]⟩
abbrev S128x3600 : Shape := ⟨2, ![128, 3600]⟩
abbrev S128x100 : Shape := ⟨2, ![128, 100]⟩
abbrev S1x100 : Shape := ⟨2, ![1, 100]⟩
abbrev S128x56000 : Shape := ⟨2, ![128, 56000]⟩
abbrev S1x56000 : Shape := ⟨2, ![1, 56000]⟩
abbrev S128 : Shape := ⟨1, ![128]⟩
abbrev S128x1 : Shape := ⟨2, ![128, 1]⟩
abbrev S128x12000 : Shape := ⟨2, ![128, 12000]⟩
abbrev S57000x1 : Shape := ⟨2, ![57000, 1]⟩
abbrev S128x57000 : Shape := ⟨2, ![128, 57000]⟩
abbrev S1x448000 : Shape := ⟨2, ![1, 448000]⟩
abbrev S448000x1 : Shape := ⟨2, ![448000, 1]⟩
abbrev S128x448000 : Shape := ⟨2, ![128, 448000]⟩
abbrev S128x7000x8 : Shape := ⟨3, ![128, 7000, 8]⟩
abbrev S128x7000 : Shape := ⟨2, ![128, 7000]⟩
abbrev S128x7000x1 : Shape := ⟨3, ![128, 7000, 1]⟩
abbrev S1x293352 : Shape := ⟨2, ![1, 293352]⟩
abbrev S293352x1 : Shape := ⟨2, ![293352, 1]⟩
abbrev S128x293352 : Shape := ⟨2, ![128, 293352]⟩
abbrev S1x57000 : Shape := ⟨2, ![1, 57000]⟩
abbrev S1x12000 : Shape := ⟨2, ![1, 12000]⟩

abbrev nBuf : Space → Nat
  | .hbm => 534
  | .vmem => 0
  | .smem => 0
  | _ => 0

abbrev hbmTy0_0 (i : Nat) : BufTy := match i % 128 with
  | 0 => ⟨S128x12000x1, .f32⟩
  | 1 => ⟨S3600x100, .f32⟩
  | 2 => ⟨S100, .f32⟩
  | 3 => ⟨S100x56000, .f32⟩
  | 4 => ⟨S56000, .f32⟩
  | 5 => ⟨S4x448000, .f32⟩
  | 6 => ⟨S4x56000, .f32⟩
  | 7 => ⟨S4x293352, .f32⟩
  | 8 => ⟨S4x57000, .f32⟩
  | 9 => ⟨S57000, .i32⟩
  | 10 => ⟨S57000, .i32⟩
  | 11 => ⟨S448000, .i32⟩
  | 12 => ⟨S448000, .i32⟩
  | 13 => ⟨S293352, .i32⟩
  | 14 => ⟨S293352, .i32⟩
  | 15 => ⟨S3600, .i32⟩
  | 16 => ⟨S12000, .i1⟩
  | 17 => ⟨S_, .i32⟩
  | 18 => ⟨S3600, .i32⟩
  | 19 => ⟨S3600, .i1⟩
  | 20 => ⟨S_, .i32⟩
  | 21 => ⟨S3600, .i32⟩
  | 22 => ⟨S3600, .i32⟩
  | 23 => ⟨S3600, .i32⟩
  | 24 => ⟨S_, .i32⟩
  | 25 => ⟨S3600, .i32⟩
  | 26 => ⟨S3600, .i32⟩
  | 27 => ⟨S3600x1, .i32⟩
  | 28 => ⟨S3600x1, .i32⟩
  | 29 => ⟨S3600x2, .i32⟩
  | 30 => ⟨S128x3600, .f32⟩
  | 31 => ⟨S128x100, .f32⟩
  | 32 => ⟨S1x100, .f32⟩
  | 33 => ⟨S128x100, .f32⟩
  | 34 => ⟨S128x100, .f32⟩
  | 35 => ⟨S_, .f32⟩
  | 36 => ⟨S128x100, .f32⟩
  | 37 => ⟨S128x100, .i1⟩
  | 38 => ⟨S_, .f32⟩
  | 39 => ⟨S128x100, .f32⟩
  | 40 => ⟨S128x100, .i1⟩
  | 41 => ⟨S_, .f32⟩
  | 42 => ⟨S_, .f32⟩
  | 43 => ⟨S128x100, .f32⟩
  | 44 => ⟨S128x100, .f32⟩
  | 45 => ⟨S128x100, .f32⟩
  | 46 => ⟨S_, .f32⟩
  | 47 => ⟨S128x100, .f32⟩
  | 48 => ⟨S128x100, .f32⟩
  | 49 => ⟨S128x100, .f32⟩
  | 50 => ⟨S128x56000, .f32⟩
  | 51 => ⟨S1x56000, .f32⟩
  | 52 => ⟨S128x56000, .f32⟩
  | 53 => ⟨S128x56000, .f32⟩
  | 54 => ⟨S_, .f32⟩
  | 55 => ⟨S128, .f32⟩
  | 56 => ⟨S128x1, .f32⟩
  | 57 => ⟨S_, .f32⟩
  | 58 => ⟨S128x1, .f32⟩
  | 59 => ⟨S128x1, .f32⟩
  | 60 => ⟨S128x56000, .f32⟩
  | 61 => ⟨S128x56000, .f32⟩
  | 62 => ⟨S128x56000, .f32⟩
  | 63 => ⟨S_, .f32⟩
  | 64 => ⟨S128, .f32⟩
  | 65 => ⟨S128x1, .f32⟩
  | 66 => ⟨S_, .f32⟩
  | 67 => ⟨S128x1, .f32⟩
  | 68 => ⟨S128x1, .f32⟩
  | 69 => ⟨S128x56000, .f32⟩
  | 70 => ⟨S128x56000, .f32⟩
  | 71 => ⟨S_, .f32⟩
  | 72 => ⟨S128x1, .f32⟩
  | 73 => ⟨S128x1, .f32⟩
  | 74 => ⟨S128x1, .f32⟩
  | 75 => ⟨S128x56000, .f32⟩
  | 76 => ⟨S128x56000, .f32⟩
  | 77 => ⟨S128x56000, .f32⟩
  | 78 => ⟨S128x56000, .f32⟩
  | 79 => ⟨S_, .f32⟩
  | 80 => ⟨S128x56000, .f32⟩
  | 81 => ⟨S128x56000, .f32⟩
  | 82 => ⟨S_, .f32⟩
  | 83 => ⟨S128x56000, .f32⟩
  | 84 => ⟨S128x56000, .f32⟩
  | 85 => ⟨S128x12000, .f32⟩
  | 86 => ⟨S_, .i32⟩
  | 87 => ⟨S3600, .i32⟩
  | 88 => ⟨S3600, .i1⟩
  | 89 => ⟨S_, .i32⟩
  | 90 => ⟨S3600, .i32⟩
  | 91 => ⟨S3600, .i32⟩
  | 92 => ⟨S3600, .i32⟩
  | 93 => ⟨S3600x1, .i32⟩
  | 94 => ⟨S_, .f32⟩
  | 95 => ⟨S128x3600, .f32⟩
  | 96 => ⟨S128x12000, .f32⟩
  | 97 => ⟨S_, .i32⟩
  | 98 => ⟨S57000, .i32⟩
  | 99 => ⟨S57000, .i1⟩
  | 100 => ⟨S_, .i32⟩
  | 101 => ⟨S57000, .i32⟩
  | 102 => ⟨S57000, .i32⟩
  | 103 => ⟨S57000, .i32⟩
  | 104 => ⟨S57000x1, .i32⟩
  | 105 => ⟨S128x57000, .f32⟩
  | 106 => ⟨S1x448000, .f32⟩
  | 107 => ⟨S448000, .f32⟩
  | 108 => ⟨S_, .i32⟩
  | 109 => ⟨S448000, .i32⟩
  | 110 => ⟨S448000, .i1⟩
  | 111 => ⟨S_, .i32⟩
  | 112 => ⟨S448000, .i32⟩
  | 113 => ⟨S448000, .i32⟩
  | 114 => ⟨S448000, .i32⟩
  | 115 => ⟨S448000x1, .i32⟩
  | 116 => ⟨S128x448000, .f32⟩
  | 117 => ⟨S1x448000, .f32⟩
  | 118 => ⟨S128x448000, .f32⟩
  | 119 => ⟨S128x448000, .f32⟩
  | 120 => ⟨S_, .f32⟩
  | 121 => ⟨S128x56000, .f32⟩
  | 122 => ⟨S_, .i32⟩
  | 123 => ⟨S448000, .i32⟩
  | 124 => ⟨S448000, .i1⟩
  | 125 => ⟨S_, .i32⟩
  | 126 => ⟨S448000, .i32⟩
  | 127 => ⟨S448000, .i32⟩
  | _ => ⟨S128x12000x1, .f32⟩

abbrev hbmTy0_1 (i : Nat) : BufTy := match i % 128 with
  | 0 => ⟨S448000, .i32⟩
  | 1 => ⟨S448000x1, .i32⟩
  | 2 => ⟨S128x56000, .f32⟩
  | 3 => ⟨S1x56000, .f32⟩
  | 4 => ⟨S56000, .f32⟩
  | 5 => ⟨S1x56000, .f32⟩
  | 6 => ⟨S128x56000, .f32⟩
  | 7 => ⟨S128x56000, .f32⟩
  | 8 => ⟨S128x7000x8, .f32⟩
  | 9 => ⟨S_, .f32⟩
  | 10 => ⟨S128x7000, .f32⟩
  | 11 => ⟨S128x7000x1, .f32⟩
  | 12 => ⟨S_, .f32⟩
  | 13 => ⟨S128x7000x1, .f32⟩
  | 14 => ⟨S128x7000x1, .f32⟩
  | 15 => ⟨S128x7000x8, .f32⟩
  | 16 => ⟨S128x7000x8, .f32⟩
  | 17 => ⟨S128x7000x8, .f32⟩
  | 18 => ⟨S_, .f32⟩
  | 19 => ⟨S128x7000, .f32⟩
  | 20 => ⟨S128x7000x1, .f32⟩
  | 21 => ⟨S_, .f32⟩
  | 22 => ⟨S128x7000x1, .f32⟩
  | 23 => ⟨S128x7000x1, .f32⟩
  | 24 => ⟨S128x7000x8, .f32⟩
  | 25 => ⟨S128x7000x8, .f32⟩
  | 26 => ⟨S_, .f32⟩
  | 27 => ⟨S128x7000x1, .f32⟩
  | 28 => ⟨S128x7000x1, .f32⟩
  | 29 => ⟨S128x7000x1, .f32⟩
  | 30 => ⟨S128x7000x8, .f32⟩
  | 31 => ⟨S128x7000x8, .f32⟩
  | 32 => ⟨S128x56000, .f32⟩
  | 33 => ⟨S128x56000, .f32⟩
  | 34 => ⟨S_, .f32⟩
  | 35 => ⟨S128x56000, .f32⟩
  | 36 => ⟨S128x56000, .i1⟩
  | 37 => ⟨S_, .f32⟩
  | 38 => ⟨S128x56000, .f32⟩
  | 39 => ⟨S128x56000, .i1⟩
  | 40 => ⟨S_, .f32⟩
  | 41 => ⟨S_, .f32⟩
  | 42 => ⟨S128x56000, .f32⟩
  | 43 => ⟨S128x56000, .f32⟩
  | 44 => ⟨S128x56000, .f32⟩
  | 45 => ⟨S_, .f32⟩
  | 46 => ⟨S128x56000, .f32⟩
  | 47 => ⟨S128x56000, .f32⟩
  | 48 => ⟨S128x56000, .f32⟩
  | 49 => ⟨S1x293352, .f32⟩
  | 50 => ⟨S293352, .f32⟩
  | 51 => ⟨S_, .i32⟩
  | 52 => ⟨S293352, .i32⟩
  | 53 => ⟨S293352, .i1⟩
  | 54 => ⟨S_, .i32⟩
  | 55 => ⟨S293352, .i32⟩
  | 56 => ⟨S293352, .i32⟩
  | 57 => ⟨S293352, .i32⟩
  | 58 => ⟨S293352x1, .i32⟩
  | 59 => ⟨S128x293352, .f32⟩
  | 60 => ⟨S1x293352, .f32⟩
  | 61 => ⟨S128x293352, .f32⟩
  | 62 => ⟨S128x293352, .f32⟩
  | 63 => ⟨S_, .f32⟩
  | 64 => ⟨S128x57000, .f32⟩
  | 65 => ⟨S_, .i32⟩
  | 66 => ⟨S293352, .i32⟩
  | 67 => ⟨S293352, .i1⟩
  | 68 => ⟨S_, .i32⟩
  | 69 => ⟨S293352, .i32⟩
  | 70 => ⟨S293352, .i32⟩
  | 71 => ⟨S293352, .i32⟩
  | 72 => ⟨S293352x1, .i32⟩
  | 73 => ⟨S128x57000, .f32⟩
  | 74 => ⟨S1x57000, .f32⟩
  | 75 => ⟨S57000, .f32⟩
  | 76 => ⟨S1x57000, .f32⟩
  | 77 => ⟨S128x57000, .f32⟩
  | 78 => ⟨S128x57000, .f32⟩
  | 79 => ⟨S128x57000, .f32⟩
  | 80 => ⟨S1x448000, .f32⟩
  | 81 => ⟨S448000, .f32⟩
  | 82 => ⟨S_, .i32⟩
  | 83 => ⟨S448000, .i32⟩
  | 84 => ⟨S448000, .i1⟩
  | 85 => ⟨S_, .i32⟩
  | 86 => ⟨S448000, .i32⟩
  | 87 => ⟨S448000, .i32⟩
  | 88 => ⟨S448000, .i32⟩
  | 89 => ⟨S448000x1, .i32⟩
  | 90 => ⟨S128x448000, .f32⟩
  | 91 => ⟨S1x448000, .f32⟩
  | 92 => ⟨S128x448000, .f32⟩
  | 93 => ⟨S128x448000, .f32⟩
  | 94 => ⟨S_, .f32⟩
  | 95 => ⟨S128x56000, .f32⟩
  | 96 => ⟨S_, .i32⟩
  | 97 => ⟨S448000, .i32⟩
  | 98 => ⟨S448000, .i1⟩
  | 99 => ⟨S_, .i32⟩
  | 100 => ⟨S448000, .i32⟩
  | 101 => ⟨S448000, .i32⟩
  | 102 => ⟨S448000, .i32⟩
  | 103 => ⟨S448000x1, .i32⟩
  | 104 => ⟨S128x56000, .f32⟩
  | 105 => ⟨S1x56000, .f32⟩
  | 106 => ⟨S56000, .f32⟩
  | 107 => ⟨S1x56000, .f32⟩
  | 108 => ⟨S128x56000, .f32⟩
  | 109 => ⟨S128x56000, .f32⟩
  | 110 => ⟨S128x7000x8, .f32⟩
  | 111 => ⟨S_, .f32⟩
  | 112 => ⟨S128x7000, .f32⟩
  | 113 => ⟨S128x7000x1, .f32⟩
  | 114 => ⟨S_, .f32⟩
  | 115 => ⟨S128x7000x1, .f32⟩
  | 116 => ⟨S128x7000x1, .f32⟩
  | 117 => ⟨S128x7000x8, .f32⟩
  | 118 => ⟨S128x7000x8, .f32⟩
  | 119 => ⟨S128x7000x8, .f32⟩
  | 120 => ⟨S_, .f32⟩
  | 121 => ⟨S128x7000, .f32⟩
  | 122 => ⟨S128x7000x1, .f32⟩
  | 123 => ⟨S_, .f32⟩
  | 124 => ⟨S128x7000x1, .f32⟩
  | 125 => ⟨S128x7000x1, .f32⟩
  | 126 => ⟨S128x7000x8, .f32⟩
  | 127 => ⟨S128x7000x8, .f32⟩
  | _ => ⟨S128x12000x1, .f32⟩

abbrev hbmTy0_2 (i : Nat) : BufTy := match i % 128 with
  | 0 => ⟨S_, .f32⟩
  | 1 => ⟨S128x7000x1, .f32⟩
  | 2 => ⟨S128x7000x1, .f32⟩
  | 3 => ⟨S128x7000x1, .f32⟩
  | 4 => ⟨S128x7000x8, .f32⟩
  | 5 => ⟨S128x7000x8, .f32⟩
  | 6 => ⟨S128x56000, .f32⟩
  | 7 => ⟨S128x56000, .f32⟩
  | 8 => ⟨S_, .f32⟩
  | 9 => ⟨S128x56000, .f32⟩
  | 10 => ⟨S128x56000, .i1⟩
  | 11 => ⟨S_, .f32⟩
  | 12 => ⟨S128x56000, .f32⟩
  | 13 => ⟨S128x56000, .i1⟩
  | 14 => ⟨S_, .f32⟩
  | 15 => ⟨S_, .f32⟩
  | 16 => ⟨S128x56000, .f32⟩
  | 17 => ⟨S128x56000, .f32⟩
  | 18 => ⟨S128x56000, .f32⟩
  | 19 => ⟨S_, .f32⟩
  | 20 => ⟨S128x56000, .f32⟩
  | 21 => ⟨S128x56000, .f32⟩
  | 22 => ⟨S128x56000, .f32⟩
  | 23 => ⟨S1x293352, .f32⟩
  | 24 => ⟨S293352, .f32⟩
  | 25 => ⟨S_, .i32⟩
  | 26 => ⟨S293352, .i32⟩
  | 27 => ⟨S293352, .i1⟩
  | 28 => ⟨S_, .i32⟩
  | 29 => ⟨S293352, .i32⟩
  | 30 => ⟨S293352, .i32⟩
  | 31 => ⟨S293352, .i32⟩
  | 32 => ⟨S293352x1, .i32⟩
  | 33 => ⟨S128x293352, .f32⟩
  | 34 => ⟨S1x293352, .f32⟩
  | 35 => ⟨S128x293352, .f32⟩
  | 36 => ⟨S128x293352, .f32⟩
  | 37 => ⟨S_, .f32⟩
  | 38 => ⟨S128x57000, .f32⟩
  | 39 => ⟨S_, .i32⟩
  | 40 => ⟨S293352, .i32⟩
  | 41 => ⟨S293352, .i1⟩
  | 42 => ⟨S_, .i32⟩
  | 43 => ⟨S293352, .i32⟩
  | 44 => ⟨S293352, .i32⟩
  | 45 => ⟨S293352, .i32⟩
  | 46 => ⟨S293352x1, .i32⟩
  | 47 => ⟨S128x57000, .f32⟩
  | 48 => ⟨S1x57000, .f32⟩
  | 49 => ⟨S57000, .f32⟩
  | 50 => ⟨S1x57000, .f32⟩
  | 51 => ⟨S128x57000, .f32⟩
  | 52 => ⟨S128x57000, .f32⟩
  | 53 => ⟨S128x57000, .f32⟩
  | 54 => ⟨S1x448000, .f32⟩
  | 55 => ⟨S448000, .f32⟩
  | 56 => ⟨S_, .i32⟩
  | 57 => ⟨S448000, .i32⟩
  | 58 => ⟨S448000, .i1⟩
  | 59 => ⟨S_, .i32⟩
  | 60 => ⟨S448000, .i32⟩
  | 61 => ⟨S448000, .i32⟩
  | 62 => ⟨S448000, .i32⟩
  | 63 => ⟨S448000x1, .i32⟩
  | 64 => ⟨S128x448000, .f32⟩
  | 65 => ⟨S1x448000, .f32⟩
  | 66 => ⟨S128x448000, .f32⟩
  | 67 => ⟨S128x448000, .f32⟩
  | 68 => ⟨S_, .f32⟩
  | 69 => ⟨S128x56000, .f32⟩
  | 70 => ⟨S_, .i32⟩
  | 71 => ⟨S448000, .i32⟩
  | 72 => ⟨S448000, .i1⟩
  | 73 => ⟨S_, .i32⟩
  | 74 => ⟨S448000, .i32⟩
  | 75 => ⟨S448000, .i32⟩
  | 76 => ⟨S448000, .i32⟩
  | 77 => ⟨S448000x1, .i32⟩
  | 78 => ⟨S128x56000, .f32⟩
  | 79 => ⟨S1x56000, .f32⟩
  | 80 => ⟨S56000, .f32⟩
  | 81 => ⟨S1x56000, .f32⟩
  | 82 => ⟨S128x56000, .f32⟩
  | 83 => ⟨S128x56000, .f32⟩
  | 84 => ⟨S128x7000x8, .f32⟩
  | 85 => ⟨S_, .f32⟩
  | 86 => ⟨S128x7000, .f32⟩
  | 87 => ⟨S128x7000x1, .f32⟩
  | 88 => ⟨S_, .f32⟩
  | 89 => ⟨S128x7000x1, .f32⟩
  | 90 => ⟨S128x7000x1, .f32⟩
  | 91 => ⟨S128x7000x8, .f32⟩
  | 92 => ⟨S128x7000x8, .f32⟩
  | 93 => ⟨S128x7000x8, .f32⟩
  | 94 => ⟨S_, .f32⟩
  | 95 => ⟨S128x7000, .f32⟩
  | 96 => ⟨S128x7000x1, .f32⟩
  | 97 => ⟨S_, .f32⟩
  | 98 => ⟨S128x7000x1, .f32⟩
  | 99 => ⟨S128x7000x1, .f32⟩
  | 100 => ⟨S128x7000x8, .f32⟩
  | 101 => ⟨S128x7000x8, .f32⟩
  | 102 => ⟨S_, .f32⟩
  | 103 => ⟨S128x7000x1, .f32⟩
  | 104 => ⟨S128x7000x1, .f32⟩
  | 105 => ⟨S128x7000x1, .f32⟩
  | 106 => ⟨S128x7000x8, .f32⟩
  | 107 => ⟨S128x7000x8, .f32⟩
  | 108 => ⟨S128x56000, .f32⟩
  | 109 => ⟨S128x56000, .f32⟩
  | 110 => ⟨S_, .f32⟩
  | 111 => ⟨S128x56000, .f32⟩
  | 112 => ⟨S128x56000, .i1⟩
  | 113 => ⟨S_, .f32⟩
  | 114 => ⟨S128x56000, .f32⟩
  | 115 => ⟨S128x56000, .i1⟩
  | 116 => ⟨S_, .f32⟩
  | 117 => ⟨S_, .f32⟩
  | 118 => ⟨S128x56000, .f32⟩
  | 119 => ⟨S128x56000, .f32⟩
  | 120 => ⟨S128x56000, .f32⟩
  | 121 => ⟨S_, .f32⟩
  | 122 => ⟨S128x56000, .f32⟩
  | 123 => ⟨S128x56000, .f32⟩
  | 124 => ⟨S128x56000, .f32⟩
  | 125 => ⟨S1x293352, .f32⟩
  | 126 => ⟨S293352, .f32⟩
  | 127 => ⟨S_, .i32⟩
  | _ => ⟨S128x12000x1, .f32⟩

abbrev hbmTy0_3 (i : Nat) : BufTy := match i % 128 with
  | 0 => ⟨S293352, .i32⟩
  | 1 => ⟨S293352, .i1⟩
  | 2 => ⟨S_, .i32⟩
  | 3 => ⟨S293352, .i32⟩
  | 4 => ⟨S293352, .i32⟩
  | 5 => ⟨S293352, .i32⟩
  | 6 => ⟨S293352x1, .i32⟩
  | 7 => ⟨S128x293352, .f32⟩
  | 8 => ⟨S1x293352, .f32⟩
  | 9 => ⟨S128x293352, .f32⟩
  | 10 => ⟨S128x293352, .f32⟩
  | 11 => ⟨S_, .f32⟩
  | 12 => ⟨S128x57000, .f32⟩
  | 13 => ⟨S_, .i32⟩
  | 14 => ⟨S293352, .i32⟩
  | 15 => ⟨S293352, .i1⟩
  | 16 => ⟨S_, .i32⟩
  | 17 => ⟨S293352, .i32⟩
  | 18 => ⟨S293352, .i32⟩
  | 19 => ⟨S293352, .i32⟩
  | 20 => ⟨S293352x1, .i32⟩
  | 21 => ⟨S128x57000, .f32⟩
  | 22 => ⟨S1x57000, .f32⟩
  | 23 => ⟨S57000, .f32⟩
  | 24 => ⟨S1x57000, .f32⟩
  | 25 => ⟨S128x57000, .f32⟩
  | 26 => ⟨S128x57000, .f32⟩
  | 27 => ⟨S128x57000, .f32⟩
  | 28 => ⟨S1x448000, .f32⟩
  | 29 => ⟨S448000, .f32⟩
  | 30 => ⟨S_, .i32⟩
  | 31 => ⟨S448000, .i32⟩
  | 32 => ⟨S448000, .i1⟩
  | 33 => ⟨S_, .i32⟩
  | 34 => ⟨S448000, .i32⟩
  | 35 => ⟨S448000, .i32⟩
  | 36 => ⟨S448000, .i32⟩
  | 37 => ⟨S448000x1, .i32⟩
  | 38 => ⟨S128x448000, .f32⟩
  | 39 => ⟨S1x448000, .f32⟩
  | 40 => ⟨S128x448000, .f32⟩
  | 41 => ⟨S128x448000, .f32⟩
  | 42 => ⟨S_, .f32⟩
  | 43 => ⟨S128x56000, .f32⟩
  | 44 => ⟨S_, .i32⟩
  | 45 => ⟨S448000, .i32⟩
  | 46 => ⟨S448000, .i1⟩
  | 47 => ⟨S_, .i32⟩
  | 48 => ⟨S448000, .i32⟩
  | 49 => ⟨S448000, .i32⟩
  | 50 => ⟨S448000, .i32⟩
  | 51 => ⟨S448000x1, .i32⟩
  | 52 => ⟨S128x56000, .f32⟩
  | 53 => ⟨S1x56000, .f32⟩
  | 54 => ⟨S56000, .f32⟩
  | 55 => ⟨S1x56000, .f32⟩
  | 56 => ⟨S128x56000, .f32⟩
  | 57 => ⟨S128x56000, .f32⟩
  | 58 => ⟨S128x7000x8, .f32⟩
  | 59 => ⟨S_, .f32⟩
  | 60 => ⟨S128x7000, .f32⟩
  | 61 => ⟨S128x7000x1, .f32⟩
  | 62 => ⟨S_, .f32⟩
  | 63 => ⟨S128x7000x1, .f32⟩
  | 64 => ⟨S128x7000x1, .f32⟩
  | 65 => ⟨S128x7000x8, .f32⟩
  | 66 => ⟨S128x7000x8, .f32⟩
  | 67 => ⟨S128x7000x8, .f32⟩
  | 68 => ⟨S_, .f32⟩
  | 69 => ⟨S128x7000, .f32⟩
  | 70 => ⟨S128x7000x1, .f32⟩
  | 71 => ⟨S_, .f32⟩
  | 72 => ⟨S128x7000x1, .f32⟩
  | 73 => ⟨S128x7000x1, .f32⟩
  | 74 => ⟨S128x7000x8, .f32⟩
  | 75 => ⟨S128x7000x8, .f32⟩
  | 76 => ⟨S_, .f32⟩
  | 77 => ⟨S128x7000x1, .f32⟩
  | 78 => ⟨S128x7000x1, .f32⟩
  | 79 => ⟨S128x7000x1, .f32⟩
  | 80 => ⟨S128x7000x8, .f32⟩
  | 81 => ⟨S128x7000x8, .f32⟩
  | 82 => ⟨S128x56000, .f32⟩
  | 83 => ⟨S128x56000, .f32⟩
  | 84 => ⟨S_, .f32⟩
  | 85 => ⟨S128x56000, .f32⟩
  | 86 => ⟨S128x56000, .i1⟩
  | 87 => ⟨S_, .f32⟩
  | 88 => ⟨S128x56000, .f32⟩
  | 89 => ⟨S128x56000, .i1⟩
  | 90 => ⟨S_, .f32⟩
  | 91 => ⟨S_, .f32⟩
  | 92 => ⟨S128x56000, .f32⟩
  | 93 => ⟨S128x56000, .f32⟩
  | 94 => ⟨S128x56000, .f32⟩
  | 95 => ⟨S_, .f32⟩
  | 96 => ⟨S128x56000, .f32⟩
  | 97 => ⟨S128x56000, .f32⟩
  | 98 => ⟨S128x56000, .f32⟩
  | 99 => ⟨S1x293352, .f32⟩
  | 100 => ⟨S293352, .f32⟩
  | 101 => ⟨S_, .i32⟩
  | 102 => ⟨S293352, .i32⟩
  | 103 => ⟨S293352, .i1⟩
  | 104 => ⟨S_, .i32⟩
  | 105 => ⟨S293352, .i32⟩
  | 106 => ⟨S293352, .i32⟩
  | 107 => ⟨S293352, .i32⟩
  | 108 => ⟨S293352x1, .i32⟩
  | 109 => ⟨S128x293352, .f32⟩
  | 110 => ⟨S1x293352, .f32⟩
  | 111 => ⟨S128x293352, .f32⟩
  | 112 => ⟨S128x293352, .f32⟩
  | 113 => ⟨S_, .f32⟩
  | 114 => ⟨S128x57000, .f32⟩
  | 115 => ⟨S_, .i32⟩
  | 116 => ⟨S293352, .i32⟩
  | 117 => ⟨S293352, .i1⟩
  | 118 => ⟨S_, .i32⟩
  | 119 => ⟨S293352, .i32⟩
  | 120 => ⟨S293352, .i32⟩
  | 121 => ⟨S293352, .i32⟩
  | 122 => ⟨S293352x1, .i32⟩
  | 123 => ⟨S128x57000, .f32⟩
  | 124 => ⟨S1x57000, .f32⟩
  | 125 => ⟨S57000, .f32⟩
  | 126 => ⟨S1x57000, .f32⟩
  | 127 => ⟨S128x57000, .f32⟩
  | _ => ⟨S128x12000x1, .f32⟩

abbrev hbmTy0_4 (i : Nat) : BufTy := match i % 128 with
  | 0 => ⟨S128x57000, .f32⟩
  | 1 => ⟨S128x57000, .f32⟩
  | 2 => ⟨S_, .f32⟩
  | 3 => ⟨S128x57000, .f32⟩
  | 4 => ⟨S128x57000, .f32⟩
  | 5 => ⟨S_, .f32⟩
  | 6 => ⟨S128x12000, .f32⟩
  | 7 => ⟨S_, .i32⟩
  | 8 => ⟨S57000, .i32⟩
  | 9 => ⟨S57000, .i1⟩
  | 10 => ⟨S_, .i32⟩
  | 11 => ⟨S57000, .i32⟩
  | 12 => ⟨S57000, .i32⟩
  | 13 => ⟨S57000, .i32⟩
  | 14 => ⟨S57000x1, .i32⟩
  | 15 => ⟨S128x12000, .f32⟩
  | 16 => ⟨S1x12000, .i1⟩
  | 17 => ⟨S_, .f32⟩
  | 18 => ⟨S_, .f32⟩
  | 19 => ⟨S128x12000, .i1⟩
  | 20 => ⟨S128x12000, .f32⟩
  | 21 => ⟨S128x12000, .f32⟩
  | _ => ⟨S128x12000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x12000x1, .f32⟩

abbrev bufTy : (tb : Table) → Fin (tcTables nBuf tb) → BufTy
  | .hbm, ⟨i, _⟩ => hbmTy i
  | _, _ => ⟨S128x12000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_6 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_8 : Ref sig .tc := ⟨.hbm, 86, rfl⟩
abbrev main_v45 : Ref sig .tc := ⟨.hbm, 87, rfl⟩
abbrev main_v46 : Ref sig .tc := ⟨.hbm, 88, rfl⟩
abbrev main_c_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_c_11 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_13 : Ref sig .tc := ⟨.hbm, 108, rfl⟩
abbrev main_v62 : Ref sig .tc := ⟨.hbm, 109, rfl⟩
abbrev main_v63 : Ref sig .tc := ⟨.hbm, 110, rfl⟩
abbrev main_c_14 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_15 : Ref sig .tc := ⟨.hbm, 120, rfl⟩
abbrev main_v72 : Ref sig .tc := ⟨.hbm, 121, rfl⟩
abbrev main_c_16 : Ref sig .tc := ⟨.hbm, 122, rfl⟩
abbrev main_v73 : Ref sig .tc := ⟨.hbm, 123, rfl⟩
abbrev main_v74 : Ref sig .tc := ⟨.hbm, 124, rfl⟩
abbrev main_c_17 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_18 : Ref sig .tc := ⟨.hbm, 137, rfl⟩
abbrev main_v86 : Ref sig .tc := ⟨.hbm, 138, rfl⟩
abbrev main_v87 : Ref sig .tc := ⟨.hbm, 139, rfl⟩
abbrev main_cst_19 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_20 : Ref sig .tc := ⟨.hbm, 146, rfl⟩
abbrev main_v93 : Ref sig .tc := ⟨.hbm, 147, rfl⟩
abbrev main_v94 : Ref sig .tc := ⟨.hbm, 148, rfl⟩
abbrev main_cst_21 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_22 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_call1_cst : Ref sig .tc := ⟨.hbm, 162, rfl⟩
abbrev main_call1_v0 : Ref sig .tc := ⟨.hbm, 163, rfl⟩
abbrev main_call1_v1 : Ref sig .tc := ⟨.hbm, 164, rfl⟩
abbrev main_call1_cst_0 : Ref sig .tc := ⟨.hbm, 165, rfl⟩
abbrev main_call1_v2 : Ref sig .tc := ⟨.hbm, 166, rfl⟩
abbrev main_call1_v3 : Ref sig .tc := ⟨.hbm, 167, rfl⟩
abbrev main_call1_cst_1 : Ref sig .tc := ⟨.hbm, 168, rfl⟩
abbrev main_call1_call0_v0 : Ref sig .tc := ⟨.hbm, 169, rfl⟩
abbrev main_call1_call0_v1 : Ref sig .tc := ⟨.hbm, 170, rfl⟩
abbrev main_call1_v4 : Ref sig .tc := ⟨.hbm, 171, rfl⟩
abbrev main_call1_v5 : Ref sig .tc := ⟨.hbm, 172, rfl⟩
abbrev main_call1_cst_2 : Ref sig .tc := ⟨.hbm, 173, rfl⟩
abbrev main_call1_v6 : Ref sig .tc := ⟨.hbm, 174, rfl⟩
abbrev main_call1_v7 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_c_23 : Ref sig .tc := ⟨.hbm, 179, rfl⟩
abbrev main_v109 : Ref sig .tc := ⟨.hbm, 180, rfl⟩
abbrev main_v110 : Ref sig .tc := ⟨.hbm, 181, rfl⟩
abbrev main_c_24 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_cst_25 : Ref sig .tc := ⟨.hbm, 191, rfl⟩
abbrev main_v119 : Ref sig .tc := ⟨.hbm, 192, rfl⟩
abbrev main_c_26 : Ref sig .tc := ⟨.hbm, 193, rfl⟩
abbrev main_v120 : Ref sig .tc := ⟨.hbm, 194, rfl⟩
abbrev main_v121 : Ref sig .tc := ⟨.hbm, 195, rfl⟩
abbrev main_c_27 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_c_28 : Ref sig .tc := ⟨.hbm, 210, rfl⟩
abbrev main_v135 : Ref sig .tc := ⟨.hbm, 211, rfl⟩
abbrev main_v136 : Ref sig .tc := ⟨.hbm, 212, rfl⟩
abbrev main_c_29 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_30 : Ref sig .tc := ⟨.hbm, 222, rfl⟩
abbrev main_v145 : Ref sig .tc := ⟨.hbm, 223, rfl⟩
abbrev main_c_31 : Ref sig .tc := ⟨.hbm, 224, rfl⟩
abbrev main_v146 : Ref sig .tc := ⟨.hbm, 225, rfl⟩
abbrev main_v147 : Ref sig .tc := ⟨.hbm, 226, rfl⟩
abbrev main_c_32 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_cst_33 : Ref sig .tc := ⟨.hbm, 239, rfl⟩
abbrev main_v159 : Ref sig .tc := ⟨.hbm, 240, rfl⟩
abbrev main_v160 : Ref sig .tc := ⟨.hbm, 241, rfl⟩
abbrev main_cst_34 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_cst_35 : Ref sig .tc := ⟨.hbm, 248, rfl⟩
abbrev main_v166 : Ref sig .tc := ⟨.hbm, 249, rfl⟩
abbrev main_v167 : Ref sig .tc := ⟨.hbm, 250, rfl⟩
abbrev main_cst_36 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_cst_37 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_call2_cst : Ref sig .tc := ⟨.hbm, 264, rfl⟩
abbrev main_call2_v0 : Ref sig .tc := ⟨.hbm, 265, rfl⟩
abbrev main_call2_v1 : Ref sig .tc := ⟨.hbm, 266, rfl⟩
abbrev main_call2_cst_0 : Ref sig .tc := ⟨.hbm, 267, rfl⟩
abbrev main_call2_v2 : Ref sig .tc := ⟨.hbm, 268, rfl⟩
abbrev main_call2_v3 : Ref sig .tc := ⟨.hbm, 269, rfl⟩
abbrev main_call2_cst_1 : Ref sig .tc := ⟨.hbm, 270, rfl⟩
abbrev main_call2_call0_v0 : Ref sig .tc := ⟨.hbm, 271, rfl⟩
abbrev main_call2_call0_v1 : Ref sig .tc := ⟨.hbm, 272, rfl⟩
abbrev main_call2_v4 : Ref sig .tc := ⟨.hbm, 273, rfl⟩
abbrev main_call2_v5 : Ref sig .tc := ⟨.hbm, 274, rfl⟩
abbrev main_call2_cst_2 : Ref sig .tc := ⟨.hbm, 275, rfl⟩
abbrev main_call2_v6 : Ref sig .tc := ⟨.hbm, 276, rfl⟩
abbrev main_call2_v7 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_c_38 : Ref sig .tc := ⟨.hbm, 281, rfl⟩
abbrev main_v182 : Ref sig .tc := ⟨.hbm, 282, rfl⟩
abbrev main_v183 : Ref sig .tc := ⟨.hbm, 283, rfl⟩
abbrev main_c_39 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_40 : Ref sig .tc := ⟨.hbm, 293, rfl⟩
abbrev main_v192 : Ref sig .tc := ⟨.hbm, 294, rfl⟩
abbrev main_c_41 : Ref sig .tc := ⟨.hbm, 295, rfl⟩
abbrev main_v193 : Ref sig .tc := ⟨.hbm, 296, rfl⟩
abbrev main_v194 : Ref sig .tc := ⟨.hbm, 297, rfl⟩
abbrev main_c_42 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_c_43 : Ref sig .tc := ⟨.hbm, 312, rfl⟩
abbrev main_v208 : Ref sig .tc := ⟨.hbm, 313, rfl⟩
abbrev main_v209 : Ref sig .tc := ⟨.hbm, 314, rfl⟩
abbrev main_c_44 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_cst_45 : Ref sig .tc := ⟨.hbm, 324, rfl⟩
abbrev main_v218 : Ref sig .tc := ⟨.hbm, 325, rfl⟩
abbrev main_c_46 : Ref sig .tc := ⟨.hbm, 326, rfl⟩
abbrev main_v219 : Ref sig .tc := ⟨.hbm, 327, rfl⟩
abbrev main_v220 : Ref sig .tc := ⟨.hbm, 328, rfl⟩
abbrev main_c_47 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_cst_48 : Ref sig .tc := ⟨.hbm, 341, rfl⟩
abbrev main_v232 : Ref sig .tc := ⟨.hbm, 342, rfl⟩
abbrev main_v233 : Ref sig .tc := ⟨.hbm, 343, rfl⟩
abbrev main_cst_49 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_cst_50 : Ref sig .tc := ⟨.hbm, 350, rfl⟩
abbrev main_v239 : Ref sig .tc := ⟨.hbm, 351, rfl⟩
abbrev main_v240 : Ref sig .tc := ⟨.hbm, 352, rfl⟩
abbrev main_cst_51 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_cst_52 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_call3_cst : Ref sig .tc := ⟨.hbm, 366, rfl⟩
abbrev main_call3_v0 : Ref sig .tc := ⟨.hbm, 367, rfl⟩
abbrev main_call3_v1 : Ref sig .tc := ⟨.hbm, 368, rfl⟩
abbrev main_call3_cst_0 : Ref sig .tc := ⟨.hbm, 369, rfl⟩
abbrev main_call3_v2 : Ref sig .tc := ⟨.hbm, 370, rfl⟩
abbrev main_call3_v3 : Ref sig .tc := ⟨.hbm, 371, rfl⟩
abbrev main_call3_cst_1 : Ref sig .tc := ⟨.hbm, 372, rfl⟩
abbrev main_call3_call0_v0 : Ref sig .tc := ⟨.hbm, 373, rfl⟩
abbrev main_call3_call0_v1 : Ref sig .tc := ⟨.hbm, 374, rfl⟩
abbrev main_call3_v4 : Ref sig .tc := ⟨.hbm, 375, rfl⟩
abbrev main_call3_v5 : Ref sig .tc := ⟨.hbm, 376, rfl⟩
abbrev main_call3_cst_2 : Ref sig .tc := ⟨.hbm, 377, rfl⟩
abbrev main_call3_v6 : Ref sig .tc := ⟨.hbm, 378, rfl⟩
abbrev main_call3_v7 : Ref sig .tc := ⟨.hbm, 379, rfl⟩
abbrev main_v252 : Ref sig .tc := ⟨.hbm, 380, rfl⟩
abbrev main_v253 : Ref sig .tc := ⟨.hbm, 381, rfl⟩
abbrev main_v254 : Ref sig .tc := ⟨.hbm, 382, rfl⟩
abbrev main_c_53 : Ref sig .tc := ⟨.hbm, 383, rfl⟩
abbrev main_v255 : Ref sig .tc := ⟨.hbm, 384, rfl⟩
abbrev main_v256 : Ref sig .tc := ⟨.hbm, 385, rfl⟩
abbrev main_c_54 : Ref sig .tc := ⟨.hbm, 386, rfl⟩
abbrev main_v257 : Ref sig .tc := ⟨.hbm, 387, rfl⟩
abbrev main_v258 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_cst_55 : Ref sig .tc := ⟨.hbm, 395, rfl⟩
abbrev main_v265 : Ref sig .tc := ⟨.hbm, 396, rfl⟩
abbrev main_c_56 : Ref sig .tc := ⟨.hbm, 397, rfl⟩
abbrev main_v266 : Ref sig .tc := ⟨.hbm, 398, rfl⟩
abbrev main_v267 : Ref sig .tc := ⟨.hbm, 399, rfl⟩
abbrev main_c_57 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_v271 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩
abbrev main_v279 : Ref sig .tc := ⟨.hbm, 412, rfl⟩
abbrev main_v280 : Ref sig .tc := ⟨.hbm, 413, rfl⟩
abbrev main_c_58 : Ref sig .tc := ⟨.hbm, 414, rfl⟩
abbrev main_v281 : Ref sig .tc := ⟨.hbm, 415, rfl⟩
abbrev main_v282 : Ref sig .tc := ⟨.hbm, 416, rfl⟩
abbrev main_c_59 : Ref sig .tc := ⟨.hbm, 417, rfl⟩
abbrev main_v283 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_cst_60 : Ref sig .tc := ⟨.hbm, 426, rfl⟩
abbrev main_v291 : Ref sig .tc := ⟨.hbm, 427, rfl⟩
abbrev main_c_61 : Ref sig .tc := ⟨.hbm, 428, rfl⟩
abbrev main_v292 : Ref sig .tc := ⟨.hbm, 429, rfl⟩
abbrev main_v293 : Ref sig .tc := ⟨.hbm, 430, rfl⟩
abbrev main_c_62 : Ref sig .tc := ⟨.hbm, 431, rfl⟩
abbrev main_v294 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_v298 : Ref sig .tc := ⟨.hbm, 436, rfl⟩
abbrev main_v299 : Ref sig .tc := ⟨.hbm, 437, rfl⟩
abbrev main_v300 : Ref sig .tc := ⟨.hbm, 438, rfl⟩
abbrev main_v301 : Ref sig .tc := ⟨.hbm, 439, rfl⟩
abbrev main_v302 : Ref sig .tc := ⟨.hbm, 440, rfl⟩
abbrev main_v303 : Ref sig .tc := ⟨.hbm, 441, rfl⟩
abbrev main_v304 : Ref sig .tc := ⟨.hbm, 442, rfl⟩
abbrev main_cst_63 : Ref sig .tc := ⟨.hbm, 443, rfl⟩
abbrev main_v305 : Ref sig .tc := ⟨.hbm, 444, rfl⟩
abbrev main_v306 : Ref sig .tc := ⟨.hbm, 445, rfl⟩
abbrev main_cst_64 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_cst_65 : Ref sig .tc := ⟨.hbm, 452, rfl⟩
abbrev main_v312 : Ref sig .tc := ⟨.hbm, 453, rfl⟩
abbrev main_v313 : Ref sig .tc := ⟨.hbm, 454, rfl⟩
abbrev main_cst_66 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_v317 : Ref sig .tc := ⟨.hbm, 459, rfl⟩
abbrev main_cst_67 : Ref sig .tc := ⟨.hbm, 460, rfl⟩
abbrev main_v318 : Ref sig .tc := ⟨.hbm, 461, rfl⟩
abbrev main_v319 : Ref sig .tc := ⟨.hbm, 462, rfl⟩
abbrev main_v320 : Ref sig .tc := ⟨.hbm, 463, rfl⟩
abbrev main_v321 : Ref sig .tc := ⟨.hbm, 464, rfl⟩
abbrev main_v322 : Ref sig .tc := ⟨.hbm, 465, rfl⟩
abbrev main_v323 : Ref sig .tc := ⟨.hbm, 466, rfl⟩
abbrev main_v324 : Ref sig .tc := ⟨.hbm, 467, rfl⟩
abbrev main_call4_cst : Ref sig .tc := ⟨.hbm, 468, rfl⟩
abbrev main_call4_v0 : Ref sig .tc := ⟨.hbm, 469, rfl⟩
abbrev main_call4_v1 : Ref sig .tc := ⟨.hbm, 470, rfl⟩
abbrev main_call4_cst_0 : Ref sig .tc := ⟨.hbm, 471, rfl⟩
abbrev main_call4_v2 : Ref sig .tc := ⟨.hbm, 472, rfl⟩
abbrev main_call4_v3 : Ref sig .tc := ⟨.hbm, 473, rfl⟩
abbrev main_call4_cst_1 : Ref sig .tc := ⟨.hbm, 474, rfl⟩
abbrev main_call4_call0_v0 : Ref sig .tc := ⟨.hbm, 475, rfl⟩
abbrev main_call4_call0_v1 : Ref sig .tc := ⟨.hbm, 476, rfl⟩
abbrev main_call4_v4 : Ref sig .tc := ⟨.hbm, 477, rfl⟩
abbrev main_call4_v5 : Ref sig .tc := ⟨.hbm, 478, rfl⟩
abbrev main_call4_cst_2 : Ref sig .tc := ⟨.hbm, 479, rfl⟩
abbrev main_call4_v6 : Ref sig .tc := ⟨.hbm, 480, rfl⟩
abbrev main_call4_v7 : Ref sig .tc := ⟨.hbm, 481, rfl⟩
abbrev main_v325 : Ref sig .tc := ⟨.hbm, 482, rfl⟩
abbrev main_v326 : Ref sig .tc := ⟨.hbm, 483, rfl⟩
abbrev main_v327 : Ref sig .tc := ⟨.hbm, 484, rfl⟩
abbrev main_c_68 : Ref sig .tc := ⟨.hbm, 485, rfl⟩
abbrev main_v328 : Ref sig .tc := ⟨.hbm, 486, rfl⟩
abbrev main_v329 : Ref sig .tc := ⟨.hbm, 487, rfl⟩
abbrev main_c_69 : Ref sig .tc := ⟨.hbm, 488, rfl⟩
abbrev main_v330 : Ref sig .tc := ⟨.hbm, 489, rfl⟩
abbrev main_v331 : Ref sig .tc := ⟨.hbm, 490, rfl⟩
abbrev main_v332 : Ref sig .tc := ⟨.hbm, 491, rfl⟩
abbrev main_v333 : Ref sig .tc := ⟨.hbm, 492, rfl⟩
abbrev main_v334 : Ref sig .tc := ⟨.hbm, 493, rfl⟩
abbrev main_v335 : Ref sig .tc := ⟨.hbm, 494, rfl⟩
abbrev main_v336 : Ref sig .tc := ⟨.hbm, 495, rfl⟩
abbrev main_v337 : Ref sig .tc := ⟨.hbm, 496, rfl⟩
abbrev main_cst_70 : Ref sig .tc := ⟨.hbm, 497, rfl⟩
abbrev main_v338 : Ref sig .tc := ⟨.hbm, 498, rfl⟩
abbrev main_c_71 : Ref sig .tc := ⟨.hbm, 499, rfl⟩
abbrev main_v339 : Ref sig .tc := ⟨.hbm, 500, rfl⟩
abbrev main_v340 : Ref sig .tc := ⟨.hbm, 501, rfl⟩
abbrev main_c_72 : Ref sig .tc := ⟨.hbm, 502, rfl⟩
abbrev main_v341 : Ref sig .tc := ⟨.hbm, 503, rfl⟩
abbrev main_v342 : Ref sig .tc := ⟨.hbm, 504, rfl⟩
abbrev main_v343 : Ref sig .tc := ⟨.hbm, 505, rfl⟩
abbrev main_v344 : Ref sig .tc := ⟨.hbm, 506, rfl⟩
abbrev main_v345 : Ref sig .tc := ⟨.hbm, 507, rfl⟩
abbrev main_v346 : Ref sig .tc := ⟨.hbm, 508, rfl⟩
abbrev main_v347 : Ref sig .tc := ⟨.hbm, 509, rfl⟩
abbrev main_v348 : Ref sig .tc := ⟨.hbm, 510, rfl⟩
abbrev main_v349 : Ref sig .tc := ⟨.hbm, 511, rfl⟩
abbrev main_v350 : Ref sig .tc := ⟨.hbm, 512, rfl⟩
abbrev main_v351 : Ref sig .tc := ⟨.hbm, 513, rfl⟩
abbrev main_cst_73 : Ref sig .tc := ⟨.hbm, 514, rfl⟩
abbrev main_v352 : Ref sig .tc := ⟨.hbm, 515, rfl⟩
abbrev main_v353 : Ref sig .tc := ⟨.hbm, 516, rfl⟩
abbrev main_cst_74 : Ref sig .tc := ⟨.hbm, 517, rfl⟩
abbrev main_v354 : Ref sig .tc := ⟨.hbm, 518, rfl⟩
abbrev main_c_75 : Ref sig .tc := ⟨.hbm, 519, rfl⟩
abbrev main_v355 : Ref sig .tc := ⟨.hbm, 520, rfl⟩
abbrev main_v356 : Ref sig .tc := ⟨.hbm, 521, rfl⟩
abbrev main_c_76 : Ref sig .tc := ⟨.hbm, 522, rfl⟩
abbrev main_v357 : Ref sig .tc := ⟨.hbm, 523, rfl⟩
abbrev main_v358 : Ref sig .tc := ⟨.hbm, 524, rfl⟩
abbrev main_v359 : Ref sig .tc := ⟨.hbm, 525, rfl⟩
abbrev main_v360 : Ref sig .tc := ⟨.hbm, 526, rfl⟩
abbrev main_v361 : Ref sig .tc := ⟨.hbm, 527, rfl⟩
abbrev main_v362 : Ref sig .tc := ⟨.hbm, 528, rfl⟩
abbrev main_cst_77 : Ref sig .tc := ⟨.hbm, 529, rfl⟩
abbrev main_call5_v0 : Ref sig .tc := ⟨.hbm, 530, rfl⟩
abbrev main_call5_v1 : Ref sig .tc := ⟨.hbm, 531, rfl⟩
abbrev main_call5_v2 : Ref sig .tc := ⟨.hbm, 532, rfl⟩
abbrev main_v363 : Ref sig .tc := ⟨.hbm, 533, rfl⟩

abbrev nD : Nat := 1
abbrev τ : Topo := Topo.v7x

variable {F : FTy → Type} [FloatOps F]

class Facts₀ : Prop where
  bcast_S_S3600 : S_.BroadcastsInDim S3600 (![] : Fin 0 → Fin S3600.rank)
  bcast_S3600_S3600x1_0 : S3600.BroadcastsInDim S3600x1 (![0] : Fin 1 → Fin S3600x1.rank)
  concatenates_S3600x1_S3600x1_S3600x2_d1 : Shape.Concatenates [S3600x1, S3600x1] S3600x2 1
  bcast_S100_S1x100_1 : S100.BroadcastsInDim S1x100 (![1] : Fin 1 → Fin S1x100.rank)
  bcast_S1x100_S128x100_0_1 : S1x100.BroadcastsInDim S128x100 (![0, 1] : Fin 2 → Fin S128x100.rank)
  bcast_S_S128x100 : S_.BroadcastsInDim S128x100 (![] : Fin 0 → Fin S128x100.rank)
  bcast_S56000_S1x56000_1 : S56000.BroadcastsInDim S1x56000 (![1] : Fin 1 → Fin S1x56000.rank)
  bcast_S1x56000_S128x56000_0_1 : S1x56000.BroadcastsInDim S128x56000 (![0, 1] : Fin 2 → Fin S128x56000.rank)
  reducesTo_S128x56000_S128_d1 : S128x56000.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x56000_0_1 : S128x1.BroadcastsInDim S128x56000 (![0, 1] : Fin 2 → Fin S128x56000.rank)
  bcast_S_S128x56000 : S_.BroadcastsInDim S128x56000 (![] : Fin 0 → Fin S128x56000.rank)
  shapeCasts_S128x12000x1_S128x12000 : S128x12000x1.ShapeCasts S128x12000
  bcast_S_S128x3600 : S_.BroadcastsInDim S128x3600 (![] : Fin 0 → Fin S128x3600.rank)
  bcast_S_S57000 : S_.BroadcastsInDim S57000 (![] : Fin 0 → Fin S57000.rank)
  bcast_S57000_S57000x1_0 : S57000.BroadcastsInDim S57000x1 (![0] : Fin 1 → Fin S57000x1.rank)
  slices_S4x448000_S1x448000_0_0 : S4x448000.Slices ![0, 0] S1x448000
  shapeCasts_S1x448000_S448000 : S1x448000.ShapeCasts S448000
  bcast_S_S448000 : S_.BroadcastsInDim S448000 (![] : Fin 0 → Fin S448000.rank)
  bcast_S448000_S448000x1_0 : S448000.BroadcastsInDim S448000x1 (![0] : Fin 1 → Fin S448000x1.rank)
  bcast_S448000_S1x448000_1 : S448000.BroadcastsInDim S1x448000 (![1] : Fin 1 → Fin S1x448000.rank)
  bcast_S1x448000_S128x448000_0_1 : S1x448000.BroadcastsInDim S128x448000 (![0, 1] : Fin 2 → Fin S128x448000.rank)
  slices_S4x56000_S1x56000_0_0 : S4x56000.Slices ![0, 0] S1x56000
  shapeCasts_S1x56000_S56000 : S1x56000.ShapeCasts S56000
  shapeCasts_S128x56000_S128x7000x8 : S128x56000.ShapeCasts S128x7000x8
  reducesTo_S128x7000x8_S128x7000_d2 : S128x7000x8.ReducesTo [2] S128x7000
  bcast_S128x7000_S128x7000x1_0_1 : S128x7000.BroadcastsInDim S128x7000x1 (![0, 1] : Fin 2 → Fin S128x7000x1.rank)
  bcast_S_S128x7000x1 : S_.BroadcastsInDim S128x7000x1 (![] : Fin 0 → Fin S128x7000x1.rank)
  bcast_S128x7000x1_S128x7000x8_0_1_2 : S128x7000x1.BroadcastsInDim S128x7000x8 (![0, 1, 2] : Fin 3 → Fin S128x7000x8.rank)
  shapeCasts_S128x7000x8_S128x56000 : S128x7000x8.ShapeCasts S128x56000
  slices_S4x293352_S1x293352_0_0 : S4x293352.Slices ![0, 0] S1x293352
  shapeCasts_S1x293352_S293352 : S1x293352.ShapeCasts S293352
  bcast_S_S293352 : S_.BroadcastsInDim S293352 (![] : Fin 0 → Fin S293352.rank)
  bcast_S293352_S293352x1_0 : S293352.BroadcastsInDim S293352x1 (![0] : Fin 1 → Fin S293352x1.rank)
  bcast_S293352_S1x293352_1 : S293352.BroadcastsInDim S1x293352 (![1] : Fin 1 → Fin S1x293352.rank)
  bcast_S1x293352_S128x293352_0_1 : S1x293352.BroadcastsInDim S128x293352 (![0, 1] : Fin 2 → Fin S128x293352.rank)
  bcast_S_S128x57000 : S_.BroadcastsInDim S128x57000 (![] : Fin 0 → Fin S128x57000.rank)
  slices_S4x57000_S1x57000_0_0 : S4x57000.Slices ![0, 0] S1x57000
  shapeCasts_S1x57000_S57000 : S1x57000.ShapeCasts S57000
  bcast_S57000_S1x57000_1 : S57000.BroadcastsInDim S1x57000 (![1] : Fin 1 → Fin S1x57000.rank)
  bcast_S1x57000_S128x57000_0_1 : S1x57000.BroadcastsInDim S128x57000 (![0, 1] : Fin 2 → Fin S128x57000.rank)
  slices_S4x448000_S1x448000_1_0 : S4x448000.Slices ![1, 0] S1x448000
  slices_S4x56000_S1x56000_1_0 : S4x56000.Slices ![1, 0] S1x56000
  slices_S4x293352_S1x293352_1_0 : S4x293352.Slices ![1, 0] S1x293352
  slices_S4x57000_S1x57000_1_0 : S4x57000.Slices ![1, 0] S1x57000
  slices_S4x448000_S1x448000_2_0 : S4x448000.Slices ![2, 0] S1x448000
  slices_S4x56000_S1x56000_2_0 : S4x56000.Slices ![2, 0] S1x56000
  slices_S4x293352_S1x293352_2_0 : S4x293352.Slices ![2, 0] S1x293352
  slices_S4x57000_S1x57000_2_0 : S4x57000.Slices ![2, 0] S1x57000
  slices_S4x448000_S1x448000_3_0 : S4x448000.Slices ![3, 0] S1x448000
  slices_S4x56000_S1x56000_3_0 : S4x56000.Slices ![3, 0] S1x56000
  slices_S4x293352_S1x293352_3_0 : S4x293352.Slices ![3, 0] S1x293352
  slices_S4x57000_S1x57000_3_0 : S4x57000.Slices ![3, 0] S1x57000
  bcast_S_S128x12000 : S_.BroadcastsInDim S128x12000 (![] : Fin 0 → Fin S128x12000.rank)
  bcast_S12000_S1x12000_1 : S12000.BroadcastsInDim S1x12000 (![1] : Fin 1 → Fin S1x12000.rank)
  bcast_S1x12000_S128x12000_0_1 : S1x12000.BroadcastsInDim S128x12000 (![0, 1] : Fin 2 → Fin S128x12000.rank)
  gather_S128x12000x1_S3600x2_S128x3600_0_12_n_n_12_1_12811_wf : GatherDims.WF S128x12000x1 S3600x2 S128x3600 [0] [1, 2] [] [1, 2] [] 1 ![128, 1, 1]
  dot_S128x3600_S3600x100_S128x100_1_0_0_1_n_n_wf : DotDims.WF S128x3600 S3600x100 S128x100 [1] [0] [0] [1] [] []
  dot_S128x100_S100x56000_S128x56000_1_0_0_1_n_n_wf : DotDims.WF S128x100 S100x56000 S128x56000 [1] [0] [0] [1] [] []
  scatter_S128x12000_S3600x1_S128x3600_0_1_1_1_wf : ScatterDims.WF S128x12000 S3600x1 S128x3600 [0] [1] [1] 1
  gather_S128x12000_S57000x1_S128x57000_0_1_n_n_1_1_1281_wf : GatherDims.WF S128x12000 S57000x1 S128x57000 [0] [1] [] [1] [] 1 ![128, 1]
  gather_S128x57000_S448000x1_S128x448000_0_1_n_n_1_1_1281_wf : GatherDims.WF S128x57000 S448000x1 S128x448000 [0] [1] [] [1] [] 1 ![128, 1]
  scatter_S128x56000_S448000x1_S128x448000_0_1_1_1_wf : ScatterDims.WF S128x56000 S448000x1 S128x448000 [0] [1] [1] 1
  gather_S128x56000_S293352x1_S128x293352_0_1_n_n_1_1_1281_wf : GatherDims.WF S128x56000 S293352x1 S128x293352 [0] [1] [] [1] [] 1 ![128, 1]
  scatter_S128x57000_S293352x1_S128x293352_0_1_1_1_wf : ScatterDims.WF S128x57000 S293352x1 S128x293352 [0] [1] [1] 1
  scatter_S128x12000_S57000x1_S128x57000_0_1_1_1_wf : ScatterDims.WF S128x12000 S57000x1 S128x57000 [0] [1] [1] 1

variable [Facts₀]

def gather_S128x12000x1_S3600x2_S128x3600_0_12_n_n_12_1_12811 : GatherDims S128x12000x1 S3600x2 S128x3600 where
  offsetDims := [0]
  collapsedSliceDims := [1, 2]
  operandBatchingDims := []
  startIndicesBatchingDims := []
  startIndexMap := [1, 2]
  indexVectorDim := 1
  sliceSizes := ![128, 1, 1]
  wf := gather_S128x12000x1_S3600x2_S128x3600_0_12_n_n_12_1_12811_wf
def dot_S128x3600_S3600x100_S128x100_1_0_0_1_n_n : DotDims S128x3600 S3600x100 S128x100 where
  lhsContracting := [1]
  rhsContracting := [0]
  lhsNonContracting := [0]
  rhsNonContracting := [1]
  lhsBatch := []
  rhsBatch := []
  wf := dot_S128x3600_S3600x100_S128x100_1_0_0_1_n_n_wf
def dot_S128x100_S100x56000_S128x56000_1_0_0_1_n_n : DotDims S128x100 S100x56000 S128x56000 where
  lhsContracting := [1]
  rhsContracting := [0]
  lhsNonContracting := [0]
  rhsNonContracting := [1]
  lhsBatch := []
  rhsBatch := []
  wf := dot_S128x100_S100x56000_S128x56000_1_0_0_1_n_n_wf
def scatter_S128x12000_S3600x1_S128x3600_0_1_1_1 : ScatterDims S128x12000 S3600x1 S128x3600 where
  updateWindowDims := [0]
  insertedWindowDims := [1]
  scatterDimsToOperandDims := [1]
  indexVectorDim := 1
  wf := scatter_S128x12000_S3600x1_S128x3600_0_1_1_1_wf
def gather_S128x12000_S57000x1_S128x57000_0_1_n_n_1_1_1281 : GatherDims S128x12000 S57000x1 S128x57000 where
  offsetDims := [0]
  collapsedSliceDims := [1]
  operandBatchingDims := []
  startIndicesBatchingDims := []
  startIndexMap := [1]
  indexVectorDim := 1
  sliceSizes := ![128, 1]
  wf := gather_S128x12000_S57000x1_S128x57000_0_1_n_n_1_1_1281_wf
def gather_S128x57000_S448000x1_S128x448000_0_1_n_n_1_1_1281 : GatherDims S128x57000 S448000x1 S128x448000 where
  offsetDims := [0]
  collapsedSliceDims := [1]
  operandBatchingDims := []
  startIndicesBatchingDims := []
  startIndexMap := [1]
  indexVectorDim := 1
  sliceSizes := ![128, 1]
  wf := gather_S128x57000_S448000x1_S128x448000_0_1_n_n_1_1_1281_wf
def scatter_S128x56000_S448000x1_S128x448000_0_1_1_1 : ScatterDims S128x56000 S448000x1 S128x448000 where
  updateWindowDims := [0]
  insertedWindowDims := [1]
  scatterDimsToOperandDims := [1]
  indexVectorDim := 1
  wf := scatter_S128x56000_S448000x1_S128x448000_0_1_1_1_wf
def gather_S128x56000_S293352x1_S128x293352_0_1_n_n_1_1_1281 : GatherDims S128x56000 S293352x1 S128x293352 where
  offsetDims := [0]
  collapsedSliceDims := [1]
  operandBatchingDims := []
  startIndicesBatchingDims := []
  startIndexMap := [1]
  indexVectorDim := 1
  sliceSizes := ![128, 1]
  wf := gather_S128x56000_S293352x1_S128x293352_0_1_n_n_1_1_1281_wf
def scatter_S128x57000_S293352x1_S128x293352_0_1_1_1 : ScatterDims S128x57000 S293352x1 S128x293352 where
  updateWindowDims := [0]
  insertedWindowDims := [1]
  scatterDimsToOperandDims := [1]
  indexVectorDim := 1
  wf := scatter_S128x57000_S293352x1_S128x293352_0_1_1_1_wf
def scatter_S128x12000_S57000x1_S128x57000_0_1_1_1 : ScatterDims S128x12000 S57000x1 S128x57000 where
  updateWindowDims := [0]
  insertedWindowDims := [1]
  scatterDimsToOperandDims := [1]
  indexVectorDim := 1
  wf := scatter_S128x12000_S57000x1_S128x57000_0_1_1_1_wf

class Facts : Prop extends Facts₀ where

variable [Facts]
-- ==== Proof.RefOps.lean ====
import proofs.«157921_j32839319945335_1_alg».proof.Proof.Gen.ReferenceIdeal
import Idealize.ShloMosaic.Lib.StableHlo.Run
import Idealize.ShloMosaic.Lib.Pipeline.Regions

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- 18 host operations of the reference's @main (window 0), in order. -/
abbrev r0_0 : List (HloOp τ sig (Elt F)) :=
  [ StableHlo.nullary main_c (constantI S_ 32 0#32),
    StableHlo.unary main_c main_v0 (broadcastInDim S3600 ![] bcast_S_S3600 : (⟨S_, .i32⟩ : BufTy).Contents (Elt F) → (⟨S3600, .i32⟩ : BufTy).Contents (Elt F)),
    StableHlo.binary main_arg15 main_v0 main_v1 (cmpi .slt : (⟨S3600, .i32⟩ : BufTy).Contents (Elt F) → (⟨S3600, .i32⟩ : BufTy).Contents (Elt F) → (⟨S3600, .i1⟩ : BufTy).Contents (Elt F)),
    StableHlo.nullary main_c_0 (constantI S_ 32 12000#32),
    StableHlo.unary main_c_0 main_v2 (broadcastInDim S3600 ![] bcast_S_S3600 : (⟨S_, .i32⟩ : BufTy).Contents (Elt F) → (⟨S3600, .i32⟩ : BufTy).Contents (Elt F)),
    StableHlo.binary main_arg15 main_v2 main_v3 (addi : (⟨S3600, .i32⟩ : BufTy).Contents (Elt F) → (⟨S3600, .i32⟩ : BufTy).Contents (Elt F) → (⟨S3600, .i32⟩ : BufTy).Contents (Elt F)),
    StableHlo.ternary main_v1 main_v3 main_arg15 main_v4 (select : (⟨S3600, .i1⟩ : BufTy).Contents (Elt F) → (⟨S3600, .i32⟩ : BufTy).Contents (Elt F) → (⟨S3600, .i32⟩ : BufTy).Contents (Elt F) → (⟨S3600, .i32⟩ : BufTy).Contents (Elt F)),
    StableHlo.nullary main_c_1 (constantI S_ 32 0#32),
    StableHlo.unary main_c_1 main_v5 (broadcastInDim S3600 ![] bcast_S_S3600 : (⟨S_, .i32⟩ : BufTy).Contents (Elt F) → (⟨S3600, .i32⟩ : BufTy).Contents (Elt F)),
    StableHlo.unary main_v5 main_v6 (id : (⟨S3600, .i32⟩ : BufTy).Contents (Elt F) → (⟨S3600, .i32⟩ : BufTy).Contents (Elt F)),
    StableHlo.unary main_v4 main_v7 (broadcastInDim S3600x1 ![0] bcast_S3600_S3600x1_0 : (⟨S3600, .i32⟩ : BufTy).Contents (Elt F) → (⟨S3600x1, .i32⟩ : BufTy).Contents (Elt F)),
    StableHlo.unary main_v6 main_v8 (broadcastInDim S3600x1 ![0] bcast_S3600_S3600x1_0 : (⟨S3600, .i32⟩ : BufTy).Contents (Elt F) → (⟨S3600x1, .i32⟩ : BufTy).Contents (Elt F)),
    StableHlo.binary main_v7 main_v8 main_v9 ((fun a b => concatenate S3600x2 1 [⟨S3600x1, a⟩, ⟨S3600x1, b⟩] concatenates_S3600x1_S3600x1_S3600x2_d1) : (⟨S3600x1, .i32⟩ : BufTy).Contents (Elt F) → (⟨S3600x1, .i32⟩ : BufTy).Contents (Elt F) → (⟨S3600x2, .i32⟩ : BufTy).Contents (Elt F)),
    StableHlo.binary main_arg0 main_v9 main_v10 ((fun x i => Host.gather gather_S128x12000x1_S3600x2_S128x3600_0_12_n_n_12_1_12811 x i) : (⟨S128x12000x1, .f32⟩ : BufTy).Contents (Elt F) → (⟨S3600x2, .i32⟩ : BufTy).Contents (Elt F) → (⟨S128x3600, .f32⟩ : BufTy).Contents (Elt F)),
    StableHlo.binary main_v10 main_arg1 main_v11 ((fun l r => Host.dotGeneral dot_S128x3600_S3600x100_S128x100_1_0_0_1_n_n none l r) : (⟨S128x3600, .f32⟩ : BufTy).Contents (Elt F) → (⟨S3600x100, .f32⟩ : BufTy).Contents (Elt F) → (⟨S128x100, .f32⟩ : BufTy).Contents (Elt F)),
    StableHlo.unary main_arg2 main_v12 (broadcastInDim S1x100 ![1] bcast_S100_S1x100_1 : (⟨S100, .f32⟩ : BufTy).Contents (Elt F) → (⟨S1x100, .f32⟩ : BufTy).Contents (Elt F)),
    StableHlo.unary main_v12 main_v13 (broadcastInDim S128x100 ![0, 1] bcast_S1x100_S128x100_0_1 : (⟨S1x100, .f32⟩ : BufTy).Contents (Elt F) → (⟨S128x100, .f32⟩ : BufTy).Contents (Elt F)),
    StableHlo.binary main_v11 main_v13 main_v14 (addf : (⟨S128x100, .f32⟩ : BufTy).Contents (Elt F) → (⟨S128x100, .f32⟩ : BufTy).Contents (Elt F) → (⟨S128x100, .f32⟩ : BufTy).Contents (Elt F)) ]
theorem r0_0_sub : (r0_0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩
/-- The references these operations write, in order. -/
abbrev r0_0_writes : List (Ref sig .tc) := [main_c, main_v0, main_v1, main_c_0, main_v2, main_v3, main_v4, main_c_1, main_v5, main_v6, main_v7, main_v8, main_v9, main_v10, main_v11, main_v12, main_v13, main_v14]
theorem r0_0_fresh : (r0_0 : List (HloOp τ sig (Elt F))).Forall fun op => op.fresh = ∅ := by
  simp only [List.Forall]; repeat' constructor

/-- 7 host operations of the reference's @main (window 0), in order. -/
abbrev r0_1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S128x100, .f32⟩) (broadcastInDim S128x100 ![] bcast_S_S128x100),
    StableHlo.TRef.binary (.of main_v14 : StableHlo.TRef sig ⟨S128x100, .f32⟩) (.of main_call0_v0 : StableHlo.TRef sig ⟨S128x100, .f32⟩) (.of main_call0_v1 : StableHlo.TRef sig ⟨S128x100, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S128x100, .f32⟩) (broadcastInDim S128x100 ![] bcast_S_S128x100),
    StableHlo.TRef.binary (.of main_v14 : StableHlo.TRef sig ⟨S128x100, .f32⟩) (.of main_call0_v2 : StableHlo.TRef sig ⟨S128x100, .f32⟩) (.of main_call0_v3 : StableHlo.TRef sig ⟨S128x100, .i1⟩) (cmpf .ogt),
    StableHlo.TRef.nullary (.of main_call0_cst_1 : StableHlo.TRef sig ⟨S_, .f32⟩) (constant S_ .f32 0x00000000#32) ]
theorem r0_1_sub : (r0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
/-- The references these operations write, in order. -/
abbrev r0_1_writes : List (Ref sig .tc) := [main_call0_cst, main_call0_v0, main_call0_v1, main_call0_cst_0, main_call0_v2, main_call0_v3, main_call0_cst_1]
theorem r0_1_fresh : (r0_1 : List (HloOp τ sig (Elt F))).Forall fun op => op.fresh = ∅ := by
  simp only [List.Forall]; repeat' constructor

/-- 3 host operations of the reference's @main (window 0), in order. -/
abbrev r0_2 : List (HloOp τ sig (Elt F)) :=
  [ StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128x100, .f32⟩) (broadcastInDim S128x100 ![] bcast_S_S128x100),
    StableHlo.TRef.ternary (.of main_call0_v3 : StableHlo.TRef sig ⟨S128x100, .i1⟩) (.of main_call0_call0_v1 : StableHlo.TRef sig ⟨S128x100, .f32⟩) (.of main_v14 : StableHlo.TRef sig ⟨S128x100, .f32⟩) (.of main_call0_v4 : StableHlo.TRef sig ⟨S128x100, .f32⟩) select ]
theorem r0_2_sub : (r0_2 : List (HloOp τ sig (Elt F))).Forall fun op => op.bufs ⊆ StableHlo.tcRefs τ sig :=
  ⟨StableHlo.unary_bufs_sub .., StableHlo.unary_bufs_sub .., StableHlo.ternary_bufs_sub ..⟩
/-- The references these operations write, in order. -/
abbrev r0_2_writes : List (Ref sig .tc) := [main_call0_call0_v0, main_call0_call0_v1, main_call0_v4]
theorem r0_2_fresh : (r0_2 : List (HloOp τ sig (Elt F))).Forall fun op => op.fresh = ∅ := by
  simp only [List.Forall]; repeat' constructor

/-- 4 host operations of the reference's @main (window 0), in order. -/
abbrev r0_3 : List (HloOp τ sig (Elt F)) :=
  [ StableHlo.TRef.unary (.of main_call0_v4 : StableHlo.TRef sig ⟨S128x100, .f32⟩) (.of main_call0_v5 : StableHlo.TRef sig ⟨S128x100, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S128x100, .f32⟩) (broadcastInDim S128x100 ![] bcast_S_S128x100),
    StableHlo.TRef.binary (.of main_call0_v6 : StableHlo.TRef sig ⟨S128x100, .f32⟩) (.of main_call0_v5 : StableHlo.TRef sig ⟨S128x100, .f32⟩) (.of main_call0_v7 : StableHlo.TRef sig ⟨S128x100, .f32⟩) mulf ]
theorem r0_3_sub : (r0_3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- The references these operations write, in order. -/
abbrev r0_3_writes : List (Ref sig .tc) := [main_call0_v5, main_call0_cst_2, main_call0_v6, main_call0_v7]
theorem r0_3_fresh : (r0_3 : List (HloOp τ sig (Elt F))).Forall fun op => op.fresh = ∅ := by
  simp only [List.Forall]; repeat' constructor

/-- 1 host operations of the reference's @main (window 0), in order. -/
abbrev r0_4 : List (HloOp τ sig (Elt F)) :=
  [ StableHlo.TRef.ternary (.of main_call0_v1 : StableHlo.TRef sig ⟨S128x100, .i1⟩) (.of main_v14 : StableHlo.TRef sig ⟨S128x100, .f32⟩) (.of main_call0_v7 : StableHlo.TRef sig ⟨S128x100, .f32⟩) (.of main_v15 : StableHlo.TRef sig ⟨S128x100, .f32⟩) select ]
theorem r0_4_sub : (r0_4 : List (HloOp τ sig (Elt F))).Forall fun op => op.bufs ⊆ StableHlo.tcRefs τ sig :=
  StableHlo.ternary_bufs_sub ..
/-- The references these operations write, in order. -/
abbrev r0_4_writes : List (Ref sig .tc) := [main_v15]
theorem r0_4_fresh : (r0_4 : List (HloOp τ sig (Elt F))).Forall fun op => op.fresh = ∅ := by
  simp only [List.Forall]; repeat' constructor

/-- 41 host operations of the reference's @main (window 0), in order. -/
abbrev r0_5 : List (HloOp τ sig (Elt F)) :=
  [ StableHlo.binary main_v15 main_arg3 main_v16 ((fun l r => Host.dotGeneral dot_S128x100_S100x56000_S128x56000_1_0_0_1_n_n none l r) : (⟨S128x100, .f32⟩ : BufTy).Contents (Elt F) → (⟨S100x56000, .f32⟩ : BufTy).Contents (Elt F) → (⟨S128x56000, .f32⟩ : BufTy).Contents (Elt F)),
    StableHlo.unary main_arg4 main_v17 (broadcastInDim S1x56000 ![1] bcast_S56000_S1x56000_1 : (⟨S56000, .f32⟩ : BufTy).Contents (Elt F) → (⟨S1x56000, .f32⟩ : BufTy).Contents (Elt F)),
    StableHlo.unary main_v17 main_v18 (broadcastInDim S128x56000 ![0, 1] bcast_S1x56000_S128x56000_0_1 : (⟨S1x56000, .f32⟩ : BufTy).Contents (Elt F) → (⟨S128x56000, .f32⟩ : BufTy).Contents (Elt F)),
    StableHlo.binary main_v16 main_v18 main_v19 (addf : (⟨S128x56000, .f32⟩ : BufTy).Contents (Elt F) → (⟨S128x56000, .f32⟩ : BufTy).Contents (Elt F) → (⟨S128x56000, .f32⟩ : BufTy).Contents (Elt F)),
    StableHlo.nullary main_cst (constant S_ .f32 0x00000000#32),
    StableHlo.binary main_v19 main_cst main_v20 ((fun x v => Host.reduceAdd x v reducesTo_S128x56000_S128_d1 h_S_) : (⟨S128x56000, .f32⟩ : BufTy).Contents (Elt F) → (⟨S_, .f32⟩ : BufTy).Contents (Elt F) → (⟨S128, .f32⟩ : BufTy).Contents (Elt F)),
    StableHlo.unary main_v20 main_v21 (broadcastInDim S128x1 ![0] bcast_S128_S128x1_0 : (⟨S128, .f32⟩ : BufTy).Contents (Elt F) → (⟨S128x1, .f32⟩ : BufTy).Contents (Elt F)),
    StableHlo.nullary main_cst_2 (constant S_ .f32 0x475AC000#32),
    StableHlo.unary main_cst_2 main_v22 (broadcastInDim S128x1 ![] bcast_S_S128x1 : (⟨S_, .f32⟩ : BufTy).Contents (Elt F) → (⟨S128x1, .f32⟩ : BufTy).Contents (Elt F)),
    StableHlo.binary main_v21 main_v22 main_v23 (Host.divf : (⟨S128x1, .f32⟩ : BufTy).Contents (Elt F) → (⟨S128x1, .f32⟩ : BufTy).Contents (Elt F) → (⟨S128x1, .f32⟩ : BufTy).Contents (Elt F)),
    StableHlo.unary main_v23 main_v24 (broadcastInDim S128x56000 ![0, 1] bcast_S128x1_S128x56000_0_1 : (⟨S128x1, .f32⟩ : BufTy).Contents (Elt F) → (⟨S128x56000, .f32⟩ : BufTy).Contents (Elt F)),
    StableHlo.binary main_v19 main_v24 main_v25 (subf : (⟨S128x56000, .f32⟩ : BufTy).Contents (Elt F) → (⟨S128x56000, .f32⟩ : BufTy).Contents (Elt F) → (⟨S128x56000, .f32⟩ : BufTy).Contents (Elt F)),
    StableHlo.binary main_v25 main_v25 main_v26 (mulf : (⟨S128x56000, .f32⟩ : BufTy).Contents (Elt F) → (⟨S128x56000, .f32⟩ : BufTy).Contents (Elt F) → (⟨S128x56000, .f32⟩ : BufTy).Contents (Elt F)),
    StableHlo.nullary main_cst_3 (constant S_ .f32 0x00000000#32),
    StableHlo.binary main_v26 main_cst_3 main_v27 ((fun x v => Host.reduceAdd x v reducesTo_S128x56000_S128_d1 h_S_) : (⟨S128x56000, .f32⟩ : BufTy).Contents (Elt F) → (⟨S_, .f32⟩ : BufTy).Contents (Elt F) → (⟨S128, .f32⟩ : BufTy).Contents (Elt F)),
    StableHlo.unary main_v27 main_v28 (broadcastInDim S128x1 ![0] bcast_S128_S128x1_0 : (⟨S128, .f32⟩ : BufTy).Contents (Elt F) → (⟨S128x1, .f32⟩ : BufTy).Contents (Elt F)),
    StableHlo.nullary main_cst_4 (constant S_ .f32 0x475AC000#32),
    StableHlo.unary main_cst_4 main_v29 (broadcastInDim S128x1 ![] bcast_S_S128x1 : (⟨S_, .f32⟩ : BufTy).Contents (Elt F) → (⟨S128x1, .f32⟩ : BufTy).Contents (Elt F)),
    StableHlo.binary main_v28 main_v29 main_v30 (Host.divf : (⟨S128x1, .f32⟩ : BufTy).Contents (Elt F) → (⟨S128x1, .f32⟩ : BufTy).Contents (Elt F) → (⟨S128x1, .f32⟩ : BufTy).Contents (Elt F)),
    StableHlo.unary main_v23 main_v31 (broadcastInDim S128x56000 ![0, 1] bcast_S128x1_S128x56000_0_1 : (⟨S128x1, .f32⟩ : BufTy).Contents (Elt F) → (⟨S128x56000, .f32⟩ : BufTy).Contents (Elt F)),
    StableHlo.binary main_v19 main_v31 main_v32 (subf : (⟨S128x56000, .f32⟩ : BufTy).Contents (Elt F) → (⟨S128x56000, .f32⟩ : BufTy).Contents (Elt F) → (⟨S128x56000, .f32⟩ : BufTy).Contents (Elt F)),
    StableHlo.nullary main_cst_5 (constant S_ .f32 0x3727C5AC#32),
    StableHlo.unary main_cst_5 main_v33 (broadcastInDim S128x1 ![] bcast_S_S128x1 : (⟨S_, .f32⟩ : BufTy).Contents (Elt F) → (⟨S128x1, .f32⟩ : BufTy).Contents (Elt F)),
    StableHlo.binary main_v30 main_v33 main_v34 (addf : (⟨S128x1, .f32⟩ : BufTy).Contents (Elt F) → (⟨S128x1, .f32⟩ : BufTy).Contents (Elt F) → (⟨S128x1, .f32⟩ : BufTy).Contents (Elt F)),
    StableHlo.unary main_v34 main_v35 (Host.rsqrt : (⟨S128x1, .f32⟩ : BufTy).Contents (Elt F) → (⟨S128x1, .f32⟩ : BufTy).Contents (Elt F)),
    StableHlo.unary main_v35 main_v36 (broadcastInDim S128x56000 ![0, 1] bcast_S128x1_S128x56000_0_1 : (⟨S128x1, .f32⟩ : BufTy).Contents (Elt F) → (⟨S128x56000, .f32⟩ : BufTy).Contents (Elt F)),
    StableHlo.binary main_v32 main_v36 main_v37 (mulf : (⟨S128x56000, .f32⟩ : BufTy).Contents (Elt F) → (⟨S128x56000, .f32⟩ : BufTy).Contents (Elt F) → (⟨S128x56000, .f32⟩ : BufTy).Contents (Elt F)),
    StableHlo.unary main_v37 main_v38 (Host.negf : (⟨S128x56000, .f32⟩ : BufTy).Contents (Elt F) → (⟨S128x56000, .f32⟩ : BufTy).Contents (Elt F)),
    StableHlo.unary main_v38 main_v39 (Host.exp : (⟨S128x56000, .f32⟩ : BufTy).Contents (Elt F) → (⟨S128x56000, .f32⟩ : BufTy).Contents (Elt F)),
    StableHlo.nullary main_cst_6 (constant S_ .f32 0x3F800000#32),
    StableHlo.unary main_cst_6 main_v40 (broadcastInDim S128x56000 ![] bcast_S_S128x56000 : (⟨S_, .f32⟩ : BufTy).Contents (Elt F) → (⟨S128x56000, .f32⟩ : BufTy).Contents (Elt F)),
    StableHlo.binary main_v40 main_v39 main_v41 (addf : (⟨S128x56000, .f32⟩ : BufTy).Contents (Elt F) → (⟨S128x56000, .f32⟩ : BufTy).Contents (Elt F) → (⟨S128x56000, .f32⟩ : BufTy).Contents (Elt F)),
    StableHlo.nullary main_cst_7 (constant S_ .f32 0x3F800000#32),
    StableHlo.unary main_cst_7 main_v42 (broadcastInDim S128x56000 ![] bcast_S_S128x56000 : (⟨S_, .f32⟩ : BufTy).Contents (Elt F) → (⟨S128x56000, .f32⟩ : BufTy).Contents (Elt F)),
    StableHlo.binary main_v42 main_v41 main_v43 (Host.divf : (⟨S128x56000, .f32⟩ : BufTy).Contents (Elt F) → (⟨S128x56000, .f32⟩ : BufTy).Contents (Elt F) → (⟨S128x56000, .f32⟩ : BufTy).Contents (Elt F)),
    StableHlo.reshape main_arg0 main_v44 rfl shapeCasts_S128x12000x1_S128x12000,
    StableHlo.nullary main_c_8 (constantI S_ 32 0#32),
    StableHlo.unary main_c_8 main_v45 (broadcastInDim S3600 ![] bcast_S_S3600 : (⟨S_, .i32⟩ : BufTy).Contents (Elt F) → (⟨S3600, .i32⟩ : BufTy).Contents (Elt F)),
    StableHlo.binary main_arg15 main_v45 main_v46 (cmpi .slt : (⟨S3600, .i32⟩ : BufTy).Contents (Elt F) → (⟨S3600, .i32⟩ : BufTy).Contents (Elt F) → (⟨S3600, .i1⟩ : BufTy).Contents (Elt F)),
    StableHlo.nullary main_c_9 (constantI S_ 32 12000#32),
    StableHlo.unary main_c_9 main_v47 (broadcastInDim S3600 ![] bcast_S_S3600 : (⟨S_, .i32⟩ : BufTy).Contents (Elt F) → (⟨S3600, .i32⟩ : BufTy).Contents (Elt F)) ]
theorem r0_5_sub : (r0_5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub ..⟩
/-- The references these operations write, in order. -/
abbrev r0_5_writes : List (Ref sig .tc) := [main_v16, main_v17, main_v18, main_v19, main_cst, main_v20, main_v21, main_cst_2, main_v22, main_v23, main_v24, main_v25, main_v26, main_cst_3, main_v27, main_v28, main_cst_4, main_v29, main_v30, main_v31, main_v32, main_cst_5, main_v33, main_v34, main_v35, main_v36, main_v37, main_v38, main_v39, main_cst_6, main_v40, main_v41, main_cst_7, main_v42, main_v43, main_v44, main_c_8, main_v45, main_v46, main_c_9, main_v47]
theorem r0_5_fresh : (r0_5 : List (HloOp τ sig (Elt F))).Forall fun op => op.fresh = ∅ := by
  simp only [List.Forall]; repeat' constructor

/-- 15 host operations of the reference's @main (window 1), in order. -/
abbrev r1_0 : List (HloOp τ sig (Elt F)) :=
  [ StableHlo.binary main_arg15 main_v47 main_v48 (addi : (⟨S3600, .i32⟩ : BufTy).Contents (Elt F) → (⟨S3600, .i32⟩ : BufTy).Contents (Elt F) → (⟨S3600, .i32⟩ : BufTy).Contents (Elt F)),
    StableHlo.ternary main_v46 main_v48 main_arg15 main_v49 (select : (⟨S3600, .i1⟩ : BufTy).Contents (Elt F) → (⟨S3600, .i32⟩ : BufTy).Contents (Elt F) → (⟨S3600, .i32⟩ : BufTy).Contents (Elt F) → (⟨S3600, .i32⟩ : BufTy).Contents (Elt F)),
    StableHlo.unary main_v49 main_v50 (broadcastInDim S3600x1 ![0] bcast_S3600_S3600x1_0 : (⟨S3600, .i32⟩ : BufTy).Contents (Elt F) → (⟨S3600x1, .i32⟩ : BufTy).Contents (Elt F)),
    StableHlo.nullary main_cst_10 (constant S_ .f32 0x00000000#32),
    StableHlo.unary main_cst_10 main_v51 (broadcastInDim S128x3600 ![] bcast_S_S128x3600 : (⟨S_, .f32⟩ : BufTy).Contents (Elt F) → (⟨S128x3600, .f32⟩ : BufTy).Contents (Elt F)),
    StableHlo.ternary main_v44 main_v50 main_v51 main_v52 ((fun x i u => Host.scatter scatter_S128x12000_S3600x1_S128x3600_0_1_1_1 (fun _ b => b) x i u) : (⟨S128x12000, .f32⟩ : BufTy).Contents (Elt F) → (⟨S3600x1, .i32⟩ : BufTy).Contents (Elt F) → (⟨S128x3600, .f32⟩ : BufTy).Contents (Elt F) → (⟨S128x12000, .f32⟩ : BufTy).Contents (Elt F)),
    StableHlo.nullary main_c_11 (constantI S_ 32 0#32),
    StableHlo.unary main_c_11 main_v53 (broadcastInDim S57000 ![] bcast_S_S57000 : (⟨S_, .i32⟩ : BufTy).Contents (Elt F) → (⟨S57000, .i32⟩ : BufTy).Contents (Elt F)),
    StableHlo.binary main_arg9 main_v53 main_v54 (cmpi .slt : (⟨S57000, .i32⟩ : BufTy).Contents (Elt F) → (⟨S57000, .i32⟩ : BufTy).Contents (Elt F) → (⟨S57000, .i1⟩ : BufTy).Contents (Elt F)),
    StableHlo.nullary main_c_12 (constantI S_ 32 12000#32),
    StableHlo.unary main_c_12 main_v55 (broadcastInDim S57000 ![] bcast_S_S57000 : (⟨S_, .i32⟩ : BufTy).Contents (Elt F) → (⟨S57000, .i32⟩ : BufTy).Contents (Elt F)),
    StableHlo.binary main_arg9 main_v55 main_v56 (addi : (⟨S57000, .i32⟩ : BufTy).Contents (Elt F) → (⟨S57000, .i32⟩ : BufTy).Contents (Elt F) → (⟨S57000, .i32⟩ : BufTy).Contents (Elt F)),
    StableHlo.ternary main_v54 main_v56 main_arg9 main_v57 (select : (⟨S57000, .i1⟩ : BufTy).Contents (Elt F) → (⟨S57000, .i32⟩ : BufTy).Contents (Elt F) → (⟨S57000, .i32⟩ : BufTy).Contents (Elt F) → (⟨S57000, .i32⟩ : BufTy).Contents (Elt F)),
    StableHlo.unary main_v57 main_v58 (broadcastInDim S57000x1 ![0] bcast_S57000_S57000x1_0 : (⟨S57000, .i32⟩ : BufTy).Contents (Elt F) → (⟨S57000x1, .i32⟩ : BufTy).Contents (Elt F)),
    StableHlo.binary main_v52 main_v58 main_v59 ((fun x i => Host.gather gather_S128x12000_S57000x1_S128x57000_0_1_n_n_1_1_1281 x i) : (⟨S128x12000, .f32⟩ : BufTy).Contents (Elt F) → (⟨S57000x1, .i32⟩ : BufTy).Contents (Elt F) → (⟨S128x57000, .f32⟩ : BufTy).Contents (Elt F)) ]
theorem r1_0_sub : (r1_0 : List (HloOp τ sig (Elt F))).Forall fun op => op.bufs ⊆ StableHlo.tcRefs τ sig :=
  ⟨StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- The references these operations write, in order. -/
abbrev r1_0_writes : List (Ref sig .tc) := [main_v48, main_v49, main_v50, main_cst_10, main_v51, main_v52, main_c_11, main_v53, main_v54, main_c_12, main_v55, main_v56, main_v57, main_v58, main_v59]
theorem r1_0_fresh : (r1_0 : List (HloOp τ sig (Elt F))).Forall fun op => op.fresh = ∅ := by
  simp only [List.Forall]; repeat' constructor

/-- 45 host operations of the reference's @main (window 1), in order. -/
abbrev r1_1 : List (HloOp τ sig (Elt F)) :=
  [ StableHlo.unary main_arg5 main_v60 ((extractStridedSlice S1x448000 ![0, 0] · slices_S4x448000_S1x448000_0_0) : (⟨S4x448000, .f32⟩ : BufTy).Contents (Elt F) → (⟨S1x448000, .f32⟩ : BufTy).Contents (Elt F)),
    StableHlo.reshape main_v60 main_v61 rfl shapeCasts_S1x448000_S448000,
    StableHlo.nullary main_c_13 (constantI S_ 32 0#32),
    StableHlo.unary main_c_13 main_v62 (broadcastInDim S448000 ![] bcast_S_S448000 : (⟨S_, .i32⟩ : BufTy).Contents (Elt F) → (⟨S448000, .i32⟩ : BufTy).Contents (Elt F)),
    StableHlo.binary main_arg11 main_v62 main_v63 (cmpi .slt : (⟨S448000, .i32⟩ : BufTy).Contents (Elt F) → (⟨S448000, .i32⟩ : BufTy).Contents (Elt F) → (⟨S448000, .i1⟩ : BufTy).Contents (Elt F)),
    StableHlo.nullary main_c_14 (constantI S_ 32 57000#32),
    StableHlo.unary main_c_14 main_v64 (broadcastInDim S448000 ![] bcast_S_S448000 : (⟨S_, .i32⟩ : BufTy).Contents (Elt F) → (⟨S448000, .i32⟩ : BufTy).Contents (Elt F)),
    StableHlo.binary main_arg11 main_v64 main_v65 (addi : (⟨S448000, .i32⟩ : BufTy).Contents (Elt F) → (⟨S448000, .i32⟩ : BufTy).Contents (Elt F) → (⟨S448000, .i32⟩ : BufTy).Contents (Elt F)),
    StableHlo.ternary main_v63 main_v65 main_arg11 main_v66 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v66 main_v67 (broadcastInDim S448000x1 ![0] bcast_S448000_S448000x1_0 : (⟨S448000, .i32⟩ : BufTy).Contents (Elt F) → (⟨S448000x1, .i32⟩ : BufTy).Contents (Elt F)),
    StableHlo.binary main_v59 main_v67 main_v68 ((fun x i => Host.gather gather_S128x57000_S448000x1_S128x448000_0_1_n_n_1_1_1281 x i) : (⟨S128x57000, .f32⟩ : BufTy).Contents (Elt F) → (⟨S448000x1, .i32⟩ : BufTy).Contents (Elt F) → (⟨S128x448000, .f32⟩ : BufTy).Contents (Elt F)),
    StableHlo.unary main_v61 main_v69 (broadcastInDim S1x448000 ![1] bcast_S448000_S1x448000_1 : (⟨S448000, .f32⟩ : BufTy).Contents (Elt F) → (⟨S1x448000, .f32⟩ : BufTy).Contents (Elt F)),
    StableHlo.unary main_v69 main_v70 (broadcastInDim S128x448000 ![0, 1] bcast_S1x448000_S128x448000_0_1 : (⟨S1x448000, .f32⟩ : BufTy).Contents (Elt F) → (⟨S128x448000, .f32⟩ : BufTy).Contents (Elt F)),
    StableHlo.binary main_v68 main_v70 main_v71 (mulf : (⟨S128x448000, .f32⟩ : BufTy).Contents (Elt F) → (⟨S128x448000, .f32⟩ : BufTy).Contents (Elt F) → (⟨S128x448000, .f32⟩ : BufTy).Contents (Elt F)),
    StableHlo.nullary main_cst_15 (constant S_ .f32 0x00000000#32),
    StableHlo.unary main_cst_15 main_v72 (broadcastInDim S128x56000 ![] bcast_S_S128x56000 : (⟨S_, .f32⟩ : BufTy).Contents (Elt F) → (⟨S128x56000, .f32⟩ : BufTy).Contents (Elt F)),
    StableHlo.nullary main_c_16 (constantI S_ 32 0#32),
    StableHlo.unary main_c_16 main_v73 (broadcastInDim S448000 ![] bcast_S_S448000 : (⟨S_, .i32⟩ : BufTy).Contents (Elt F) → (⟨S448000, .i32⟩ : BufTy).Contents (Elt F)),
    StableHlo.binary main_arg12 main_v73 main_v74 (cmpi .slt : (⟨S448000, .i32⟩ : BufTy).Contents (Elt F) → (⟨S448000, .i32⟩ : BufTy).Contents (Elt F) → (⟨S448000, .i1⟩ : BufTy).Contents (Elt F)),
    StableHlo.nullary main_c_17 (constantI S_ 32 56000#32),
    StableHlo.unary main_c_17 main_v75 (broadcastInDim S448000 ![] bcast_S_S448000 : (⟨S_, .i32⟩ : BufTy).Contents (Elt F) → (⟨S448000, .i32⟩ : BufTy).Contents (Elt F)),
    StableHlo.binary main_arg12 main_v75 main_v76 (addi : (⟨S448000, .i32⟩ : BufTy).Contents (Elt F) → (⟨S448000, .i32⟩ : BufTy).Contents (Elt F) → (⟨S448000, .i32⟩ : BufTy).Contents (Elt F)),
    StableHlo.ternary main_v74 main_v76 main_arg12 main_v77 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v77 main_v78 (broadcastInDim S448000x1 ![0] bcast_S448000_S448000x1_0 : (⟨S448000, .i32⟩ : BufTy).Contents (Elt F) → (⟨S448000x1, .i32⟩ : BufTy).Contents (Elt F)),
    StableHlo.ternary main_v72 main_v78 main_v71 main_v79 ((fun x i u => Host.scatterAdd scatter_S128x56000_S448000x1_S128x448000_0_1_1_1 x i u) : (⟨S128x56000, .f32⟩ : BufTy).Contents (Elt F) → (⟨S448000x1, .i32⟩ : BufTy).Contents (Elt F) → (⟨S128x448000, .f32⟩ : BufTy).Contents (Elt F) → (⟨S128x56000, .f32⟩ : BufTy).Contents (Elt F)),
    StableHlo.unary main_arg6 main_v80 ((extractStridedSlice S1x56000 ![0, 0] · slices_S4x56000_S1x56000_0_0) : (⟨S4x56000, .f32⟩ : BufTy).Contents (Elt F) → (⟨S1x56000, .f32⟩ : BufTy).Contents (Elt F)),
    StableHlo.reshape main_v80 main_v81 rfl shapeCasts_S1x56000_S56000,
    StableHlo.unary main_v81 main_v82 (broadcastInDim S1x56000 ![1] bcast_S56000_S1x56000_1 : (⟨S56000, .f32⟩ : BufTy).Contents (Elt F) → (⟨S1x56000, .f32⟩ : BufTy).Contents (Elt F)),
    StableHlo.unary main_v82 main_v83 (broadcastInDim S128x56000 ![0, 1] bcast_S1x56000_S128x56000_0_1 : (⟨S1x56000, .f32⟩ : BufTy).Contents (Elt F) → (⟨S128x56000, .f32⟩ : BufTy).Contents (Elt F)),
    StableHlo.binary main_v79 main_v83 main_v84 (addf : (⟨S128x56000, .f32⟩ : BufTy).Contents (Elt F) → (⟨S128x56000, .f32⟩ : BufTy).Contents (Elt F) → (⟨S128x56000, .f32⟩ : BufTy).Contents (Elt F)),
    StableHlo.reshape main_v84 main_v85 rfl shapeCasts_S128x56000_S128x7000x8,
    StableHlo.nullary main_cst_18 (constant S_ .f32 0x00000000#32),
    StableHlo.binary main_v85 main_cst_18 main_v86 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v86 main_v87 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_19 (constant S_ .f32 0x41000000#32),
    StableHlo.unary main_cst_19 main_v88 (broadcastInDim S128x7000x1 ![] bcast_S_S128x7000x1 : (⟨S_, .f32⟩ : BufTy).Contents (Elt F) → (⟨S128x7000x1, .f32⟩ : BufTy).Contents (Elt F)),
    StableHlo.binary main_v87 main_v88 main_v89 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v89 main_v90 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v85 main_v90 main_v91 (subf : (⟨S128x7000x8, .f32⟩ : BufTy).Contents (Elt F) → (⟨S128x7000x8, .f32⟩ : BufTy).Contents (Elt F) → (⟨S128x7000x8, .f32⟩ : BufTy).Contents (Elt F)),
    StableHlo.binary main_v91 main_v91 main_v92 (mulf : (⟨S128x7000x8, .f32⟩ : BufTy).Contents (Elt F) → (⟨S128x7000x8, .f32⟩ : BufTy).Contents (Elt F) → (⟨S128x7000x8, .f32⟩ : BufTy).Contents (Elt F)),
    StableHlo.nullary main_cst_20 (constant S_ .f32 0x00000000#32),
    StableHlo.binary main_v92 main_cst_20 main_v93 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v93 main_v94 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_21 (constant S_ .f32 0x41000000#32),
    StableHlo.unary main_cst_21 main_v95 (broadcastInDim S128x7000x1 ![] bcast_S_S128x7000x1 : (⟨S_, .f32⟩ : BufTy).Contents (Elt F) → (⟨S128x7000x1, .f32⟩ : BufTy).Contents (Elt F)) ]
theorem r1_1_sub : (r1_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub ..⟩
/-- The references these operations write, in order. -/
abbrev r1_1_writes : List (Ref sig .tc) := [main_v60, main_v61, main_c_13, main_v62, main_v63, main_c_14, main_v64, main_v65, main_v66, main_v67, main_v68, main_v69, main_v70, main_v71, main_cst_15, main_v72, main_c_16, main_v73, main_v74, main_c_17, main_v75, main_v76, main_v77, main_v78, main_v79, main_v80, main_v81, main_v82, main_v83, main_v84, main_v85, main_cst_18, main_v86, main_v87, main_cst_19, main_v88, main_v89, main_v90, main_v91, main_v92, main_cst_20, main_v93, main_v94, main_cst_21, main_v95]
theorem r1_1_fresh : (r1_1 : List (HloOp τ sig (Elt F))).Forall fun op => op.fresh = ∅ := by
  simp only [List.Forall]; repeat' constructor

/-- 11 host operations of the reference's @main (window 2), in order. -/
abbrev r2_0 : List (HloOp τ sig (Elt F)) :=
  [ StableHlo.binary main_v94 main_v95 main_v96 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v89 main_v97 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v85 main_v97 main_v98 (subf : (⟨S128x7000x8, .f32⟩ : BufTy).Contents (Elt F) → (⟨S128x7000x8, .f32⟩ : BufTy).Contents (Elt F) → (⟨S128x7000x8, .f32⟩ : BufTy).Contents (Elt F)),
    StableHlo.nullary main_cst_22 (constant S_ .f32 0x3727C5AC#32),
    StableHlo.unary main_cst_22 main_v99 (broadcastInDim S128x7000x1 ![] bcast_S_S128x7000x1 : (⟨S_, .f32⟩ : BufTy).Contents (Elt F) → (⟨S128x7000x1, .f32⟩ : BufTy).Contents (Elt F)),
    StableHlo.binary main_v96 main_v99 main_v100 (addf : (⟨S128x7000x1, .f32⟩ : BufTy).Contents (Elt F) → (⟨S128x7000x1, .f32⟩ : BufTy).Contents (Elt F) → (⟨S128x7000x1, .f32⟩ : BufTy).Contents (Elt F)),
    StableHlo.unary main_v100 main_v101 (Host.rsqrt : (⟨S128x7000x1, .f32⟩ : BufTy).Contents (Elt F) → (⟨S128x7000x1, .f32⟩ : BufTy).Contents (Elt F)),
    StableHlo.unary main_v101 main_v102 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v98 main_v102 main_v103 (mulf : (⟨S128x7000x8, .f32⟩ : BufTy).Contents (Elt F) → (⟨S128x7000x8, .f32⟩ : BufTy).Contents (Elt F) → (⟨S128x7000x8, .f32⟩ : BufTy).Contents (Elt F)),
    StableHlo.reshape main_v103 main_v104 rfl shapeCasts_S128x7000x8_S128x56000,
    StableHlo.binary main_v43 main_v104 main_v105 (mulf : (⟨S128x56000, .f32⟩ : BufTy).Contents (Elt F) → (⟨S128x56000, .f32⟩ : BufTy).Contents (Elt F) → (⟨S128x56000, .f32⟩ : BufTy).Contents (Elt F)) ]
theorem r2_0_sub : (r2_0 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub ..⟩
/-- The references these operations write, in order. -/
abbrev r2_0_writes : List (Ref sig .tc) := [main_v96, main_v97, main_v98, main_cst_22, main_v99, main_v100, main_v101, main_v102, main_v103, main_v104, main_v105]
theorem r2_0_fresh : (r2_0 : List (HloOp τ sig (Elt F))).Forall fun op => op.fresh = ∅ := by
  simp only [List.Forall]; repeat' constructor

/-- 7 host operations of the reference's @main (window 2), in order. -/
abbrev r2_1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S128x56000, .f32⟩) (broadcastInDim S128x56000 ![] bcast_S_S128x56000),
    StableHlo.TRef.binary (.of main_v105 : StableHlo.TRef sig ⟨S128x56000, .f32⟩) (.of main_call1_v0 : StableHlo.TRef sig ⟨S128x56000, .f32⟩) (.of main_call1_v1 : StableHlo.TRef sig ⟨S128x56000, .i1⟩) (cmpf .ogt),
    StableHlo.TRef.nullary (.of main_call1_cst_0 : StableHlo.TRef sig ⟨S_, .f32⟩) (constant S_ .f32 0x00000000#32),
    StableHlo.TRef.unary (.of main_call1_cst_0 : StableHlo.TRef sig ⟨S_, .f32⟩) (.of main_call1_v2 : StableHlo.TRef sig ⟨S128x56000, .f32⟩) (broadcastInDim S128x56000 ![] bcast_S_S128x56000),
    StableHlo.TRef.binary (.of main_v105 : StableHlo.TRef sig ⟨S128x56000, .f32⟩) (.of main_call1_v2 : StableHlo.TRef sig ⟨S128x56000, .f32⟩) (.of main_call1_v3 : StableHlo.TRef sig ⟨S128x56000, .i1⟩) (cmpf .ogt),
    StableHlo.TRef.nullary (.of main_call1_cst_1 : StableHlo.TRef sig ⟨S_, .f32⟩) (constant S_ .f32 0x00000000#32) ]
theorem r2_1_sub : (r2_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
/-- The references these operations write, in order. -/
abbrev r2_1_writes : List (Ref sig .tc) := [main_call1_cst, main_call1_v0, main_call1_v1, main_call1_cst_0, main_call1_v2, main_call1_v3, main_call1_cst_1]
theorem r2_1_fresh : (r2_1 : List (HloOp τ sig (Elt F))).Forall fun op => op.fresh = ∅ := by
  simp only [List.Forall]; repeat' constructor

/-- 3 host operations of the reference's @main (window 2), in order. -/
abbrev r2_2 : List (HloOp τ sig (Elt F)) :=
  [ StableHlo.TRef.unary (.of main_call1_cst_1 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128x56000, .f32⟩) (broadcastInDim S128x56000 ![] bcast_S_S128x56000),
    StableHlo.TRef.ternary (.of main_call1_v3 : StableHlo.TRef sig ⟨S128x56000, .i1⟩) (.of main_call1_call0_v1 : StableHlo.TRef sig ⟨S128x56000, .f32⟩) (.of main_v105 : StableHlo.TRef sig ⟨S128x56000, .f32⟩) (.of main_call1_v4 : StableHlo.TRef sig ⟨S128x56000, .f32⟩) select ]
theorem r2_2_sub : (r2_2 : List (HloOp τ sig (Elt F))).Forall fun op => op.bufs ⊆ StableHlo.tcRefs τ sig :=
  ⟨StableHlo.unary_bufs_sub .., StableHlo.unary_bufs_sub .., StableHlo.ternary_bufs_sub ..⟩
/-- The references these operations write, in order. -/
abbrev r2_2_writes : List (Ref sig .tc) := [main_call1_call0_v0, main_call1_call0_v1, main_call1_v4]
theorem r2_2_fresh : (r2_2 : List (HloOp τ sig (Elt F))).Forall fun op => op.fresh = ∅ := by
  simp only [List.Forall]; repeat' constructor

/-- 4 host operations of the reference's @main (window 2), in order. -/
abbrev r2_3 : List (HloOp τ sig (Elt F)) :=
  [ StableHlo.TRef.unary (.of main_call1_v4 : StableHlo.TRef sig ⟨S128x56000, .f32⟩) (.of main_call1_v5 : StableHlo.TRef sig ⟨S128x56000, .f32⟩) Host.expm1,
    StableHlo.TRef.nullary (.of main_call1_cst_2 : StableHlo.TRef sig ⟨S_, .f32⟩) (constant S_ .f32 0x3F800000#32),
    StableHlo.TRef.unary (.of main_call1_cst_2 : StableHlo.TRef sig ⟨S_, .f32⟩) (.of main_call1_v6 : StableHlo.TRef sig ⟨S128x56000, .f32⟩) (broadcastInDim S128x56000 ![] bcast_S_S128x56000),
    StableHlo.TRef.binary (.of main_call1_v6 : StableHlo.TRef sig ⟨S128x56000, .f32⟩) (.of main_call1_v5 : StableHlo.TRef sig ⟨S128x56000, .f32⟩) (.of main_call1_v7 : StableHlo.TRef sig ⟨S128x56000, .f32⟩) mulf ]
theorem r2_3_sub : (r2_3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- The references these operations write, in order. -/
abbrev r2_3_writes : List (Ref sig .tc) := [main_call1_v5, main_call1_cst_2, main_call1_v6, main_call1_v7]
theorem r2_3_fresh : (r2_3 : List (HloOp τ sig (Elt F))).Forall fun op => op.fresh = ∅ := by
  simp only [List.Forall]; repeat' constructor

/-- 1 host operations of the reference's @main (window 2), in order. -/
abbrev r2_4 : List (HloOp τ sig (Elt F)) :=
  [ StableHlo.TRef.ternary (.of main_call1_v1 : StableHlo.TRef sig ⟨S128x56000, .i1⟩) (.of main_v105 : StableHlo.TRef sig ⟨S128x56000, .f32⟩) (.of main_call1_v7 : StableHlo.TRef sig ⟨S128x56000, .f32⟩) (.of main_v106 : StableHlo.TRef sig ⟨S128x56000, .f32⟩) select ]
theorem r2_4_sub : (r2_4 : List (HloOp τ sig (Elt F))).Forall fun op => op.bufs ⊆ StableHlo.tcRefs τ sig :=
  StableHlo.ternary_bufs_sub ..
/-- The references these operations write, in order. -/
abbrev r2_4_writes : List (Ref sig .tc) := [main_v106]
theorem r2_4_fresh : (r2_4 : List (HloOp τ sig (Elt F))).Forall fun op => op.fresh = ∅ := by
  simp only [List.Forall]; repeat' constructor

/-- 31 host operations of the reference's @main (window 2), in order. -/
abbrev r2_5 : List (HloOp τ sig (Elt F)) :=
  [ StableHlo.unary main_arg7 main_v107 ((extractStridedSlice S1x293352 ![0, 0] · slices_S4x293352_S1x293352_0_0) : (⟨S4x293352, .f32⟩ : BufTy).Contents (Elt F) → (⟨S1x293352, .f32⟩ : BufTy).Contents (Elt F)),
    StableHlo.reshape main_v107 main_v108 rfl shapeCasts_S1x293352_S293352,
    StableHlo.nullary main_c_23 (constantI S_ 32 0#32),
    StableHlo.unary main_c_23 main_v109 (broadcastInDim S293352 ![] bcast_S_S293352 : (⟨S_, .i32⟩ : BufTy).Contents (Elt F) → (⟨S293352, .i32⟩ : BufTy).Contents (Elt F)),
    StableHlo.binary main_arg13 main_v109 main_v110 (cmpi .slt : (⟨S293352, .i32⟩ : BufTy).Contents (Elt F) → (⟨S293352, .i32⟩ : BufTy).Contents (Elt F) → (⟨S293352, .i1⟩ : BufTy).Contents (Elt F)),
    StableHlo.nullary main_c_24 (constantI S_ 32 56000#32),
    StableHlo.unary main_c_24 main_v111 (broadcastInDim S293352 ![] bcast_S_S293352 : (⟨S_, .i32⟩ : BufTy).Contents (Elt F) → (⟨S293352, .i32⟩ : BufTy).Contents (Elt F)),
    StableHlo.binary main_arg13 main_v111 main_v112 (addi : (⟨S293352, .i32⟩ : BufTy).Contents (Elt F) → (⟨S293352, .i32⟩ : BufTy).Contents (Elt F) → (⟨S293352, .i32⟩ : BufTy).Contents (Elt F)),
    StableHlo.ternary main_v110 main_v112 main_arg13 main_v113 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v113 main_v114 (broadcastInDim S293352x1 ![0] bcast_S293352_S293352x1_0 : (⟨S293352, .i32⟩ : BufTy).Contents (Elt F) → (⟨S293352x1, .i32⟩ : BufTy).Contents (Elt F)),
    StableHlo.binary main_v106 main_v114 main_v115 ((fun x i => Host.gather gather_S128x56000_S293352x1_S128x293352_0_1_n_n_1_1_1281 x i) : (⟨S128x56000, .f32⟩ : BufTy).Contents (Elt F) → (⟨S293352x1, .i32⟩ : BufTy).Contents (Elt F) → (⟨S128x293352, .f32⟩ : BufTy).Contents (Elt F)),
    StableHlo.unary main_v108 main_v116 (broadcastInDim S1x293352 ![1] bcast_S293352_S1x293352_1 : (⟨S293352, .f32⟩ : BufTy).Contents (Elt F) → (⟨S1x293352, .f32⟩ : BufTy).Contents (Elt F)),
    StableHlo.unary main_v116 main_v117 (broadcastInDim S128x293352 ![0, 1] bcast_S1x293352_S128x293352_0_1 : (⟨S1x293352, .f32⟩ : BufTy).Contents (Elt F) → (⟨S128x293352, .f32⟩ : BufTy).Contents (Elt F)),
    StableHlo.binary main_v115 main_v117 main_v118 (mulf : (⟨S128x293352, .f32⟩ : BufTy).Contents (Elt F) → (⟨S128x293352, .f32⟩ : BufTy).Contents (Elt F) → (⟨S128x293352, .f32⟩ : BufTy).Contents (Elt F)),
    StableHlo.nullary main_cst_25 (constant S_ .f32 0x00000000#32),
    StableHlo.unary main_cst_25 main_v119 (broadcastInDim S128x57000 ![] bcast_S_S128x57000 : (⟨S_, .f32⟩ : BufTy).Contents (Elt F) → (⟨S128x57000, .f32⟩ : BufTy).Contents (Elt F)),
    StableHlo.nullary main_c_26 (constantI S_ 32 0#32),
    StableHlo.unary main_c_26 main_v120 (broadcastInDim S293352 ![] bcast_S_S293352 : (⟨S_, .i32⟩ : BufTy).Contents (Elt F) → (⟨S293352, .i32⟩ : BufTy).Contents (Elt F)),
    StableHlo.binary main_arg14 main_v120 main_v121 (cmpi .slt : (⟨S293352, .i32⟩ : BufTy).Contents (Elt F) → (⟨S293352, .i32⟩ : BufTy).Contents (Elt F) → (⟨S293352, .i1⟩ : BufTy).Contents (Elt F)),
    StableHlo.nullary main_c_27 (constantI S_ 32 57000#32),
    StableHlo.unary main_c_27 main_v122 (broadcastInDim S293352 ![] bcast_S_S293352 : (⟨S_, .i32⟩ : BufTy).Contents (Elt F) → (⟨S293352, .i32⟩ : BufTy).Contents (Elt F)),
    StableHlo.binary main_arg14 main_v122 main_v123 (addi : (⟨S293352, .i32⟩ : BufTy).Contents (Elt F) → (⟨S293352, .i32⟩ : BufTy).Contents (Elt F) → (⟨S293352, .i32⟩ : BufTy).Contents (Elt F)),
    StableHlo.ternary main_v121 main_v123 main_arg14 main_v124 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v124 main_v125 (broadcastInDim S293352x1 ![0] bcast_S293352_S293352x1_0 : (⟨S293352, .i32⟩ : BufTy).Contents (Elt F) → (⟨S293352x1, .i32⟩ : BufTy).Contents (Elt F)),
    StableHlo.ternary main_v119 main_v125 main_v118 main_v126 ((fun x i u => Host.scatterAdd scatter_S128x57000_S293352x1_S128x293352_0_1_1_1 x i u) : (⟨S128x57000, .f32⟩ : BufTy).Contents (Elt F) → (⟨S293352x1, .i32⟩ : BufTy).Contents (Elt F) → (⟨S128x293352, .f32⟩ : BufTy).Contents (Elt F) → (⟨S128x57000, .f32⟩ : BufTy).Contents (Elt F)),
    StableHlo.unary main_arg8 main_v127 ((extractStridedSlice S1x57000 ![0, 0] · slices_S4x57000_S1x57000_0_0) : (⟨S4x57000, .f32⟩ : BufTy).Contents (Elt F) → (⟨S1x57000, .f32⟩ : BufTy).Contents (Elt F)),
    StableHlo.reshape main_v127 main_v128 rfl shapeCasts_S1x57000_S57000,
    StableHlo.unary main_v128 main_v129 (broadcastInDim S1x57000 ![1] bcast_S57000_S1x57000_1 : (⟨S57000, .f32⟩ : BufTy).Contents (Elt F) → (⟨S1x57000, .f32⟩ : BufTy).Contents (Elt F)),
    StableHlo.unary main_v129 main_v130 (broadcastInDim S128x57000 ![0, 1] bcast_S1x57000_S128x57000_0_1 : (⟨S1x57000, .f32⟩ : BufTy).Contents (Elt F) → (⟨S128x57000, .f32⟩ : BufTy).Contents (Elt F)),
    StableHlo.binary main_v126 main_v130 main_v131 (addf : (⟨S128x57000, .f32⟩ : BufTy).Contents (Elt F) → (⟨S128x57000, .f32⟩ : BufTy).Contents (Elt F) → (⟨S128x57000, .f32⟩ : BufTy).Contents (Elt F)),
    StableHlo.binary main_v131 main_v59 main_v132 (addf : (⟨S128x57000, .f32⟩ : BufTy).Contents (Elt F) → (⟨S128x57000, .f32⟩ : BufTy).Contents (Elt F) → (⟨S128x57000, .f32⟩ : BufTy).Contents (Elt F)) ]
theorem r2_5_sub : (r2_5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub ..⟩
/-- The references these operations write, in order. -/
abbrev r2_5_writes : List (Ref sig .tc) := [main_v107, main_v108, main_c_23, main_v109, main_v110, main_c_24, main_v111, main_v112, main_v113, main_v114, main_v115, main_v116, main_v117, main_v118, main_cst_25, main_v119, main_c_26, main_v120, main_v121, main_c_27, main_v122, main_v123, main_v124, main_v125, main_v126, main_v127, main_v128, main_v129, main_v130, main_v131, main_v132]
theorem r2_5_fresh : (r2_5 : List (HloOp τ sig (Elt F))).Forall fun op => op.fresh = ∅ := by
  simp only [List.Forall]; repeat' constructor

/-- 17 host operations of the reference's @main (window 2), in order. -/
abbrev r2_6 : List (HloOp τ sig (Elt F)) :=
  [ StableHlo.unary main_arg5 main_v133 ((extractStridedSlice S1x448000 ![1, 0] · slices_S4x448000_S1x448000_1_0) : (⟨S4x448000, .f32⟩ : BufTy).Contents (Elt F) → (⟨S1x448000, .f32⟩ : BufTy).Contents (Elt F)),
    StableHlo.reshape main_v133 main_v134 rfl shapeCasts_S1x448000_S448000,
    StableHlo.nullary main_c_28 (constantI S_ 32 0#32),
    StableHlo.unary main_c_28 main_v135 (broadcastInDim S448000 ![] bcast_S_S448000 : (⟨S_, .i32⟩ : BufTy).Contents (Elt F) → (⟨S448000, .i32⟩ : BufTy).Contents (Elt F)),
    StableHlo.binary main_arg11 main_v135 main_v136 (cmpi .slt : (⟨S448000, .i32⟩ : BufTy).Contents (Elt F) → (⟨S448000, .i32⟩ : BufTy).Contents (Elt F) → (⟨S448000, .i1⟩ : BufTy).Contents (Elt F)),
    StableHlo.nullary main_c_29 (constantI S_ 32 57000#32),
    StableHlo.unary main_c_29 main_v137 (broadcastInDim S448000 ![] bcast_S_S448000 : (⟨S_, .i32⟩ : BufTy).Contents (Elt F) → (⟨S448000, .i32⟩ : BufTy).Contents (Elt F)),
    StableHlo.binary main_arg11 main_v137 main_v138 (addi : (⟨S448000, .i32⟩ : BufTy).Contents (Elt F) → (⟨S448000, .i32⟩ : BufTy).Contents (Elt F) → (⟨S448000, .i32⟩ : BufTy).Contents (Elt F)),
    StableHlo.ternary main_v136 main_v138 main_arg11 main_v139 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v139 main_v140 (broadcastInDim S448000x1 ![0] bcast_S448000_S448000x1_0 : (⟨S448000, .i32⟩ : BufTy).Contents (Elt F) → (⟨S448000x1, .i32⟩ : BufTy).Contents (Elt F)),
    StableHlo.binary main_v132 main_v140 main_v141 ((fun x i => Host.gather gather_S128x57000_S448000x1_S128x448000_0_1_n_n_1_1_1281 x i) : (⟨S128x57000, .f32⟩ : BufTy).Contents (Elt F) → (⟨S448000x1, .i32⟩ : BufTy).Contents (Elt F) → (⟨S128x448000, .f32⟩ : BufTy).Contents (Elt F)),
    StableHlo.unary main_v134 main_v142 (broadcastInDim S1x448000 ![1] bcast_S448000_S1x448000_1 : (⟨S448000, .f32⟩ : BufTy).Contents (Elt F) → (⟨S1x448000, .f32⟩ : BufTy).Contents (Elt F)),
    StableHlo.unary main_v142 main_v143 (broadcastInDim S128x448000 ![0, 1] bcast_S1x448000_S128x448000_0_1 : (⟨S1x448000, .f32⟩ : BufTy).Contents (Elt F) → (⟨S128x448000, .f32⟩ : BufTy).Contents (Elt F)),
    StableHlo.binary main_v141 main_v143 main_v144 (mulf : (⟨S128x448000, .f32⟩ : BufTy).Contents (Elt F) → (⟨S128x448000, .f32⟩ : BufTy).Contents (Elt F) → (⟨S128x448000, .f32⟩ : BufTy).Contents (Elt F)),
    StableHlo.nullary main_cst_30 (constant S_ .f32 0x00000000#32),
    StableHlo.unary main_cst_30 main_v145 (broadcastInDim S128x56000 ![] bcast_S_S128x56000 : (⟨S_, .f32⟩ : BufTy).Contents (Elt F) → (⟨S128x56000, .f32⟩ : BufTy).Contents (Elt F)),
    StableHlo.nullary main_c_31 (constantI S_ 32 0#32) ]
theorem r2_6_sub : (r2_6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub ..⟩
/-- The references these operations write, in order. -/
abbrev r2_6_writes : List (Ref sig .tc) := [main_v133, main_v134, main_c_28, main_v135, main_v136, main_c_29, main_v137, main_v138, main_v139, main_v140, main_v141, main_v142, main_v143, main_v144, main_cst_30, main_v145, main_c_31]
theorem r2_6_fresh : (r2_6 : List (HloOp τ sig (Elt F))).Forall fun op => op.fresh = ∅ := by
  simp only [List.Forall]; repeat' constructor

/-- 39 host operations of the reference's @main (window 3), in order. -/
abbrev r3_0 : List (HloOp τ sig (Elt F)) :=
  [ StableHlo.unary main_c_31 main_v146 (broadcastInDim S448000 ![] bcast_S_S448000 : (⟨S_, .i32⟩ : BufTy).Contents (Elt F) → (⟨S448000, .i32⟩ : BufTy).Contents (Elt F)),
    StableHlo.binary main_arg12 main_v146 main_v147 (cmpi .slt : (⟨S448000, .i32⟩ : BufTy).Contents (Elt F) → (⟨S448000, .i32⟩ : BufTy).Contents (Elt F) → (⟨S448000, .i1⟩ : BufTy).Contents (Elt F)),
    StableHlo.nullary main_c_32 (constantI S_ 32 56000#32),
    StableHlo.unary main_c_32 main_v148 (broadcastInDim S448000 ![] bcast_S_S448000 : (⟨S_, .i32⟩ : BufTy).Contents (Elt F) → (⟨S448000, .i32⟩ : BufTy).Contents (Elt F)),
    StableHlo.binary main_arg12 main_v148 main_v149 (addi : (⟨S448000, .i32⟩ : BufTy).Contents (Elt F) → (⟨S448000, .i32⟩ : BufTy).Contents (Elt F) → (⟨S448000, .i32⟩ : BufTy).Contents (Elt F)),
    StableHlo.ternary main_v147 main_v149 main_arg12 main_v150 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v150 main_v151 (broadcastInDim S448000x1 ![0] bcast_S448000_S448000x1_0 : (⟨S448000, .i32⟩ : BufTy).Contents (Elt F) → (⟨S448000x1, .i32⟩ : BufTy).Contents (Elt F)),
    StableHlo.ternary main_v145 main_v151 main_v144 main_v152 ((fun x i u => Host.scatterAdd scatter_S128x56000_S448000x1_S128x448000_0_1_1_1 x i u) : (⟨S128x56000, .f32⟩ : BufTy).Contents (Elt F) → (⟨S448000x1, .i32⟩ : BufTy).Contents (Elt F) → (⟨S128x448000, .f32⟩ : BufTy).Contents (Elt F) → (⟨S128x56000, .f32⟩ : BufTy).Contents (Elt F)),
    StableHlo.unary main_arg6 main_v153 ((extractStridedSlice S1x56000 ![1, 0] · slices_S4x56000_S1x56000_1_0) : (⟨S4x56000, .f32⟩ : BufTy).Contents (Elt F) → (⟨S1x56000, .f32⟩ : BufTy).Contents (Elt F)),
    StableHlo.reshape main_v153 main_v154 rfl shapeCasts_S1x56000_S56000,
    StableHlo.unary main_v154 main_v155 (broadcastInDim S1x56000 ![1] bcast_S56000_S1x56000_1 : (⟨S56000, .f32⟩ : BufTy).Contents (Elt F) → (⟨S1x56000, .f32⟩ : BufTy).Contents (Elt F)),
    StableHlo.unary main_v155 main_v156 (broadcastInDim S128x56000 ![0, 1] bcast_S1x56000_S128x56000_0_1 : (⟨S1x56000, .f32⟩ : BufTy).Contents (Elt F) → (⟨S128x56000, .f32⟩ : BufTy).Contents (Elt F)),
    StableHlo.binary main_v152 main_v156 main_v157 (addf : (⟨S128x56000, .f32⟩ : BufTy).Contents (Elt F) → (⟨S128x56000, .f32⟩ : BufTy).Contents (Elt F) → (⟨S128x56000, .f32⟩ : BufTy).Contents (Elt F)),
    StableHlo.reshape main_v157 main_v158 rfl shapeCasts_S128x56000_S128x7000x8,
    StableHlo.nullary main_cst_33 (constant S_ .f32 0x00000000#32),
    StableHlo.binary main_v158 main_cst_33 main_v159 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v159 main_v160 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_34 (constant S_ .f32 0x41000000#32),
    StableHlo.unary main_cst_34 main_v161 (broadcastInDim S128x7000x1 ![] bcast_S_S128x7000x1 : (⟨S_, .f32⟩ : BufTy).Contents (Elt F) → (⟨S128x7000x1, .f32⟩ : BufTy).Contents (Elt F)),
    StableHlo.binary main_v160 main_v161 main_v162 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v162 main_v163 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v158 main_v163 main_v164 (subf : (⟨S128x7000x8, .f32⟩ : BufTy).Contents (Elt F) → (⟨S128x7000x8, .f32⟩ : BufTy).Contents (Elt F) → (⟨S128x7000x8, .f32⟩ : BufTy).Contents (Elt F)),
    StableHlo.binary main_v164 main_v164 main_v165 (mulf : (⟨S128x7000x8, .f32⟩ : BufTy).Contents (Elt F) → (⟨S128x7000x8, .f32⟩ : BufTy).Contents (Elt F) → (⟨S128x7000x8, .f32⟩ : BufTy).Contents (Elt F)),
    StableHlo.nullary main_cst_35 (constant S_ .f32 0x00000000#32),
    StableHlo.binary main_v165 main_cst_35 main_v166 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v166 main_v167 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_36 (constant S_ .f32 0x41000000#32),
    StableHlo.unary main_cst_36 main_v168 (broadcastInDim S128x7000x1 ![] bcast_S_S128x7000x1 : (⟨S_, .f32⟩ : BufTy).Contents (Elt F) → (⟨S128x7000x1, .f32⟩ : BufTy).Contents (Elt F)),
    StableHlo.binary main_v167 main_v168 main_v169 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v162 main_v170 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v158 main_v170 main_v171 (subf : (⟨S128x7000x8, .f32⟩ : BufTy).Contents (Elt F) → (⟨S128x7000x8, .f32⟩ : BufTy).Contents (Elt F) → (⟨S128x7000x8, .f32⟩ : BufTy).Contents (Elt F)),
    StableHlo.nullary main_cst_37 (constant S_ .f32 0x3727C5AC#32),
    StableHlo.unary main_cst_37 main_v172 (broadcastInDim S128x7000x1 ![] bcast_S_S128x7000x1 : (⟨S_, .f32⟩ : BufTy).Contents (Elt F) → (⟨S128x7000x1, .f32⟩ : BufTy).Contents (Elt F)),
    StableHlo.binary main_v169 main_v172 main_v173 (addf : (⟨S128x7000x1, .f32⟩ : BufTy).Contents (Elt F) → (⟨S128x7000x1, .f32⟩ : BufTy).Contents (Elt F) → (⟨S128x7000x1, .f32⟩ : BufTy).Contents (Elt F)),
    StableHlo.unary main_v173 main_v174 (Host.rsqrt : (⟨S128x7000x1, .f32⟩ : BufTy).Contents (Elt F) → (⟨S128x7000x1, .f32⟩ : BufTy).Contents (Elt F)),
    StableHlo.unary main_v174 main_v175 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v171 main_v175 main_v176 (mulf : (⟨S128x7000x8, .f32⟩ : BufTy).Contents (Elt F) → (⟨S128x7000x8, .f32⟩ : BufTy).Contents (Elt F) → (⟨S128x7000x8, .f32⟩ : BufTy).Contents (Elt F)),
    StableHlo.reshape main_v176 main_v177 rfl shapeCasts_S128x7000x8_S128x56000,
    StableHlo.binary main_v43 main_v177 main_v178 (mulf : (⟨S128x56000, .f32⟩ : BufTy).Contents (Elt F) → (⟨S128x56000, .f32⟩ : BufTy).Contents (Elt F) → (⟨S128x56000, .f32⟩ : BufTy).Contents (Elt F)) ]
theorem r3_0_sub : (r3_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub ..⟩
/-- The references these operations write, in order. -/
abbrev r3_0_writes : List (Ref sig .tc) := [main_v146, main_v147, main_c_32, main_v148, main_v149, main_v150, main_v151, main_v152, main_v153, main_v154, main_v155, main_v156, main_v157, main_v158, main_cst_33, main_v159, main_v160, main_cst_34, main_v161, main_v162, main_v163, main_v164, main_v165, main_cst_35, main_v166, main_v167, main_cst_36, main_v168, main_v169, main_v170, main_v171, main_cst_37, main_v172, main_v173, main_v174, main_v175, main_v176, main_v177, main_v178]
theorem r3_0_fresh : (r3_0 : List (HloOp τ sig (Elt F))).Forall fun op => op.fresh = ∅ := by
  simp only [List.Forall]; repeat' constructor

/-- 7 host operations of the reference's @main (window 3), in order. -/
abbrev r3_1 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S128x56000, .f32⟩) (broadcastInDim S128x56000 ![] bcast_S_S128x56000),
    StableHlo.TRef.binary (.of main_v178 : StableHlo.TRef sig ⟨S128x56000, .f32⟩) (.of main_call2_v0 : StableHlo.TRef sig ⟨S128x56000, .f32⟩) (.of main_call2_v1 : StableHlo.TRef sig ⟨S128x56000, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S128x56000, .f32⟩) (broadcastInDim S128x56000 ![] bcast_S_S128x56000),
    StableHlo.TRef.binary (.of main_v178 : StableHlo.TRef sig ⟨S128x56000, .f32⟩) (.of main_call2_v2 : StableHlo.TRef sig ⟨S128x56000, .f32⟩) (.of main_call2_v3 : StableHlo.TRef sig ⟨S128x56000, .i1⟩) (cmpf .ogt),
    StableHlo.TRef.nullary (.of main_call2_cst_1 : StableHlo.TRef sig ⟨S_, .f32⟩) (constant S_ .f32 0x00000000#32) ]
theorem r3_1_sub : (r3_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
/-- The references these operations write, in order. -/
abbrev r3_1_writes : List (Ref sig .tc) := [main_call2_cst, main_call2_v0, main_call2_v1, main_call2_cst_0, main_call2_v2, main_call2_v3, main_call2_cst_1]
theorem r3_1_fresh : (r3_1 : List (HloOp τ sig (Elt F))).Forall fun op => op.fresh = ∅ := by
  simp only [List.Forall]; repeat' constructor

/-- 3 host operations of the reference's @main (window 3), in order. -/
abbrev r3_2 : List (HloOp τ sig (Elt F)) :=
  [ StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128x56000, .f32⟩) (broadcastInDim S128x56000 ![] bcast_S_S128x56000),
    StableHlo.TRef.ternary (.of main_call2_v3 : StableHlo.TRef sig ⟨S128x56000, .i1⟩) (.of main_call2_call0_v1 : StableHlo.TRef sig ⟨S128x56000, .f32⟩) (.of main_v178 : StableHlo.TRef sig ⟨S128x56000, .f32⟩) (.of main_call2_v4 : StableHlo.TRef sig ⟨S128x56000, .f32⟩) select ]
theorem r3_2_sub : (r3_2 : List (HloOp τ sig (Elt F))).Forall fun op => op.bufs ⊆ StableHlo.tcRefs τ sig :=
  ⟨StableHlo.unary_bufs_sub .., StableHlo.unary_bufs_sub .., StableHlo.ternary_bufs_sub ..⟩
/-- The references these operations write, in order. -/
abbrev r3_2_writes : List (Ref sig .tc) := [main_call2_call0_v0, main_call2_call0_v1, main_call2_v4]
theorem r3_2_fresh : (r3_2 : List (HloOp τ sig (Elt F))).Forall fun op => op.fresh = ∅ := by
  simp only [List.Forall]; repeat' constructor

/-- 4 host operations of the reference's @main (window 3), in order. -/
abbrev r3_3 : List (HloOp τ sig (Elt F)) :=
  [ StableHlo.TRef.unary (.of main_call2_v4 : StableHlo.TRef sig ⟨S128x56000, .f32⟩) (.of main_call2_v5 : StableHlo.TRef sig ⟨S128x56000, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S128x56000, .f32⟩) (broadcastInDim S128x56000 ![] bcast_S_S128x56000),
    StableHlo.TRef.binary (.of main_call2_v6 : StableHlo.TRef sig ⟨S128x56000, .f32⟩) (.of main_call2_v5 : StableHlo.TRef sig ⟨S128x56000, .f32⟩) (.of main_call2_v7 : StableHlo.TRef sig ⟨S128x56000, .f32⟩) mulf ]
theorem r3_3_sub : (r3_3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- The references these operations write, in order. -/
abbrev r3_3_writes : List (Ref sig .tc) := [main_call2_v5, main_call2_cst_2, main_call2_v6, main_call2_v7]
theorem r3_3_fresh : (r3_3 : List (HloOp τ sig (Elt F))).Forall fun op => op.fresh = ∅ := by
  simp only [List.Forall]; repeat' constructor

/-- 1 host operations of the reference's @main (window 3), in order. -/
abbrev r3_4 : List (HloOp τ sig (Elt F)) :=
  [ StableHlo.TRef.ternary (.of main_call2_v1 : StableHlo.TRef sig ⟨S128x56000, .i1⟩) (.of main_v178 : StableHlo.TRef sig ⟨S128x56000, .f32⟩) (.of main_call2_v7 : StableHlo.TRef sig ⟨S128x56000, .f32⟩) (.of main_v179 : StableHlo.TRef sig ⟨S128x56000, .f32⟩) select ]
theorem r3_4_sub : (r3_4 : List (HloOp τ sig (Elt F))).Forall fun op => op.bufs ⊆ StableHlo.tcRefs τ sig :=
  StableHlo.ternary_bufs_sub ..
/-- The references these operations write, in order. -/
abbrev r3_4_writes : List (Ref sig .tc) := [main_v179]
theorem r3_4_fresh : (r3_4 : List (HloOp τ sig (Elt F))).Forall fun op => op.fresh = ∅ := by
  simp only [List.Forall]; repeat' constructor

/-- 20 host operations of the reference's @main (window 3), in order. -/
abbrev r3_5 : List (HloOp τ sig (Elt F)) :=
  [ StableHlo.unary main_arg7 main_v180 ((extractStridedSlice S1x293352 ![1, 0] · slices_S4x293352_S1x293352_1_0) : (⟨S4x293352, .f32⟩ : BufTy).Contents (Elt F) → (⟨S1x293352, .f32⟩ : BufTy).Contents (Elt F)),
    StableHlo.reshape main_v180 main_v181 rfl shapeCasts_S1x293352_S293352,
    StableHlo.nullary main_c_38 (constantI S_ 32 0#32),
    StableHlo.unary main_c_38 main_v182 (broadcastInDim S293352 ![] bcast_S_S293352 : (⟨S_, .i32⟩ : BufTy).Contents (Elt F) → (⟨S293352, .i32⟩ : BufTy).Contents (Elt F)),
    StableHlo.binary main_arg13 main_v182 main_v183 (cmpi .slt : (⟨S293352, .i32⟩ : BufTy).Contents (Elt F) → (⟨S293352, .i32⟩ : BufTy).Contents (Elt F) → (⟨S293352, .i1⟩ : BufTy).Contents (Elt F)),
    StableHlo.nullary main_c_39 (constantI S_ 32 56000#32),
    StableHlo.unary main_c_39 main_v184 (broadcastInDim S293352 ![] bcast_S_S293352 : (⟨S_, .i32⟩ : BufTy).Contents (Elt F) → (⟨S293352, .i32⟩ : BufTy).Contents (Elt F)),
    StableHlo.binary main_arg13 main_v184 main_v185 (addi : (⟨S293352, .i32⟩ : BufTy).Contents (Elt F) → (⟨S293352, .i32⟩ : BufTy).Contents (Elt F) → (⟨S293352, .i32⟩ : BufTy).Contents (Elt F)),
    StableHlo.ternary main_v183 main_v185 main_arg13 main_v186 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v186 main_v187 (broadcastInDim S293352x1 ![0] bcast_S293352_S293352x1_0 : (⟨S293352, .i32⟩ : BufTy).Contents (Elt F) → (⟨S293352x1, .i32⟩ : BufTy).Contents (Elt F)),
    StableHlo.binary main_v179 main_v187 main_v188 ((fun x i => Host.gather gather_S128x56000_S293352x1_S128x293352_0_1_n_n_1_1_1281 x i) : (⟨S128x56000, .f32⟩ : BufTy).Contents (Elt F) → (⟨S293352x1, .i32⟩ : BufTy).Contents (Elt F) → (⟨S128x293352, .f32⟩ : BufTy).Contents (Elt F)),
    StableHlo.unary main_v181 main_v189 (broadcastInDim S1x293352 ![1] bcast_S293352_S1x293352_1 : (⟨S293352, .f32⟩ : BufTy).Contents (Elt F) → (⟨S1x293352, .f32⟩ : BufTy).Contents (Elt F)),
    StableHlo.unary main_v189 main_v190 (broadcastInDim S128x293352 ![0, 1] bcast_S1x293352_S128x293352_0_1 : (⟨S1x293352, .f32⟩ : BufTy).Contents (Elt F) → (⟨S128x293352, .f32⟩ : BufTy).Contents (Elt F)),
    StableHlo.binary main_v188 main_v190 main_v191 (mulf : (⟨S128x293352, .f32⟩ : BufTy).Contents (Elt F) → (⟨S128x293352, .f32⟩ : BufTy).Contents (Elt F) → (⟨S128x293352, .f32⟩ : BufTy).Contents (Elt F)),
    StableHlo.nullary main_cst_40 (constant S_ .f32 0x00000000#32),
    StableHlo.unary main_cst_40 main_v192 (broadcastInDim S128x57000 ![] bcast_S_S128x57000 : (⟨S_, .f32⟩ : BufTy).Contents (Elt F) → (⟨S128x57000, .f32⟩ : BufTy).Contents (Elt F)),
    StableHlo.nullary main_c_41 (constantI S_ 32 0#32),
    StableHlo.unary main_c_41 main_v193 (broadcastInDim S293352 ![] bcast_S_S293352 : (⟨S_, .i32⟩ : BufTy).Contents (Elt F) → (⟨S293352, .i32⟩ : BufTy).Contents (Elt F)),
    StableHlo.binary main_arg14 main_v193 main_v194 (cmpi .slt : (⟨S293352, .i32⟩ : BufTy).Contents (Elt F) → (⟨S293352, .i32⟩ : BufTy).Contents (Elt F) → (⟨S293352, .i1⟩ : BufTy).Contents (Elt F)),
    StableHlo.nullary main_c_42 (constantI S_ 32 57000#32) ]
theorem r3_5_sub : (r3_5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub ..⟩
/-- The references these operations write, in order. -/
abbrev r3_5_writes : List (Ref sig .tc) := [main_v180, main_v181, main_c_38, main_v182, main_v183, main_c_39, main_v184, main_v185, main_v186, main_v187, main_v188, main_v189, main_v190, main_v191, main_cst_40, main_v192, main_c_41, main_v193, main_v194, main_c_42]
theorem r3_5_fresh : (r3_5 : List (HloOp τ sig (Elt F))).Forall fun op => op.fresh = ∅ := by
  simp only [List.Forall]; repeat' constructor

/-- 11 host operations of the reference's @main (window 4), in order. -/
abbrev r4_0 : List (HloOp τ sig (Elt F)) :=
  [ StableHlo.unary main_c_42 main_v195 (broadcastInDim S293352 ![] bcast_S_S293352 : (⟨S_, .i32⟩ : BufTy).Contents (Elt F) → (⟨S293352, .i32⟩ : BufTy).Contents (Elt F)),
    StableHlo.binary main_arg14 main_v195 main_v196 (addi : (⟨S293352, .i32⟩ : BufTy).Contents (Elt F) → (⟨S293352, .i32⟩ : BufTy).Contents (Elt F) → (⟨S293352, .i32⟩ : BufTy).Contents (Elt F)),
    StableHlo.ternary main_v194 main_v196 main_arg14 main_v197 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v197 main_v198 (broadcastInDim S293352x1 ![0] bcast_S293352_S293352x1_0 : (⟨S293352, .i32⟩ : BufTy).Contents (Elt F) → (⟨S293352x1, .i32⟩ : BufTy).Contents (Elt F)),
    StableHlo.ternary main_v192 main_v198 main_v191 main_v199 ((fun x i u => Host.scatterAdd scatter_S128x57000_S293352x1_S128x293352_0_1_1_1 x i u) : (⟨S128x57000, .f32⟩ : BufTy).Contents (Elt F) → (⟨S293352x1, .i32⟩ : BufTy).Contents (Elt F) → (⟨S128x293352, .f32⟩ : BufTy).Contents (Elt F) → (⟨S128x57000, .f32⟩ : BufTy).Contents (Elt F)),
    StableHlo.unary main_arg8 main_v200 ((extractStridedSlice S1x57000 ![1, 0] · slices_S4x57000_S1x57000_1_0) : (⟨S4x57000, .f32⟩ : BufTy).Contents (Elt F) → (⟨S1x57000, .f32⟩ : BufTy).Contents (Elt F)),
    StableHlo.reshape main_v200 main_v201 rfl shapeCasts_S1x57000_S57000,
    StableHlo.unary main_v201 main_v202 (broadcastInDim S1x57000 ![1] bcast_S57000_S1x57000_1 : (⟨S57000, .f32⟩ : BufTy).Contents (Elt F) → (⟨S1x57000, .f32⟩ : BufTy).Contents (Elt F)),
    StableHlo.unary main_v202 main_v203 (broadcastInDim S128x57000 ![0, 1] bcast_S1x57000_S128x57000_0_1 : (⟨S1x57000, .f32⟩ : BufTy).Contents (Elt F) → (⟨S128x57000, .f32⟩ : BufTy).Contents (Elt F)),
    StableHlo.binary main_v199 main_v203 main_v204 (addf : (⟨S128x57000, .f32⟩ : BufTy).Contents (Elt F) → (⟨S128x57000, .f32⟩ : BufTy).Contents (Elt F) → (⟨S128x57000, .f32⟩ : BufTy).Contents (Elt F)),
    StableHlo.binary main_v204 main_v132 main_v205 (addf : (⟨S128x57000, .f32⟩ : BufTy).Contents (Elt F) → (⟨S128x57000, .f32⟩ : BufTy).Contents (Elt F) → (⟨S128x57000, .f32⟩ : BufTy).Contents (Elt F)) ]
theorem r4_0_sub : (r4_0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub ..⟩
/-- The references these operations write, in order. -/
abbrev r4_0_writes : List (Ref sig .tc) := [main_v195, main_v196, main_v197, main_v198, main_v199, main_v200, main_v201, main_v202, main_v203, main_v204, main_v205]
theorem r4_0_fresh : (r4_0 : List (HloOp τ sig (Elt F))).Forall fun op => op.fresh = ∅ := by
  simp only [List.Forall]; repeat' constructor

/-- 49 host operations of the reference's @main (window 4), in order. -/
abbrev r4_1 : List (HloOp τ sig (Elt F)) :=
  [ StableHlo.unary main_arg5 main_v206 ((extractStridedSlice S1x448000 ![2, 0] · slices_S4x448000_S1x448000_2_0) : (⟨S4x448000, .f32⟩ : BufTy).Contents (Elt F) → (⟨S1x448000, .f32⟩ : BufTy).Contents (Elt F)),
    StableHlo.reshape main_v206 main_v207 rfl shapeCasts_S1x448000_S448000,
    StableHlo.nullary main_c_43 (constantI S_ 32 0#32),
    StableHlo.unary main_c_43 main_v208 (broadcastInDim S448000 ![] bcast_S_S448000 : (⟨S_, .i32⟩ : BufTy).Contents (Elt F) → (⟨S448000, .i32⟩ : BufTy).Contents (Elt F)),
    StableHlo.binary main_arg11 main_v208 main_v209 (cmpi .slt : (⟨S448000, .i32⟩ : BufTy).Contents (Elt F) → (⟨S448000, .i32⟩ : BufTy).Contents (Elt F) → (⟨S448000, .i1⟩ : BufTy).Contents (Elt F)),
    StableHlo.nullary main_c_44 (constantI S_ 32 57000#32),
    StableHlo.unary main_c_44 main_v210 (broadcastInDim S448000 ![] bcast_S_S448000 : (⟨S_, .i32⟩ : BufTy).Contents (Elt F) → (⟨S448000, .i32⟩ : BufTy).Contents (Elt F)),
    StableHlo.binary main_arg11 main_v210 main_v211 (addi : (⟨S448000, .i32⟩ : BufTy).Contents (Elt F) → (⟨S448000, .i32⟩ : BufTy).Contents (Elt F) → (⟨S448000, .i32⟩ : BufTy).Contents (Elt F)),
    StableHlo.ternary main_v209 main_v211 main_arg11 main_v212 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v212 main_v213 (broadcastInDim S448000x1 ![0] bcast_S448000_S448000x1_0 : (⟨S448000, .i32⟩ : BufTy).Contents (Elt F) → (⟨S448000x1, .i32⟩ : BufTy).Contents (Elt F)),
    StableHlo.binary main_v205 main_v213 main_v214 ((fun x i => Host.gather gather_S128x57000_S448000x1_S128x448000_0_1_n_n_1_1_1281 x i) : (⟨S128x57000, .f32⟩ : BufTy).Contents (Elt F) → (⟨S448000x1, .i32⟩ : BufTy).Contents (Elt F) → (⟨S128x448000, .f32⟩ : BufTy).Contents (Elt F)),
    StableHlo.unary main_v207 main_v215 (broadcastInDim S1x448000 ![1] bcast_S448000_S1x448000_1 : (⟨S448000, .f32⟩ : BufTy).Contents (Elt F) → (⟨S1x448000, .f32⟩ : BufTy).Contents (Elt F)),
    StableHlo.unary main_v215 main_v216 (broadcastInDim S128x448000 ![0, 1] bcast_S1x448000_S128x448000_0_1 : (⟨S1x448000, .f32⟩ : BufTy).Contents (Elt F) → (⟨S128x448000, .f32⟩ : BufTy).Contents (Elt F)),
    StableHlo.binary main_v214 main_v216 main_v217 (mulf : (⟨S128x448000, .f32⟩ : BufTy).Contents (Elt F) → (⟨S128x448000, .f32⟩ : BufTy).Contents (Elt F) → (⟨S128x448000, .f32⟩ : BufTy).Contents (Elt F)),
    StableHlo.nullary main_cst_45 (constant S_ .f32 0x00000000#32),
    StableHlo.unary main_cst_45 main_v218 (broadcastInDim S128x56000 ![] bcast_S_S128x56000 : (⟨S_, .f32⟩ : BufTy).Contents (Elt F) → (⟨S128x56000, .f32⟩ : BufTy).Contents (Elt F)),
    StableHlo.nullary main_c_46 (constantI S_ 32 0#32),
    StableHlo.unary main_c_46 main_v219 (broadcastInDim S448000 ![] bcast_S_S448000 : (⟨S_, .i32⟩ : BufTy).Contents (Elt F) → (⟨S448000, .i32⟩ : BufTy).Contents (Elt F)),
    StableHlo.binary main_arg12 main_v219 main_v220 (cmpi .slt : (⟨S448000, .i32⟩ : BufTy).Contents (Elt F) → (⟨S448000, .i32⟩ : BufTy).Contents (Elt F) → (⟨S448000, .i1⟩ : BufTy).Contents (Elt F)),
    StableHlo.nullary main_c_47 (constantI S_ 32 56000#32),
    StableHlo.unary main_c_47 main_v221 (broadcastInDim S448000 ![] bcast_S_S448000 : (⟨S_, .i32⟩ : BufTy).Contents (Elt F) → (⟨S448000, .i32⟩ : BufTy).Contents (Elt F)),
    StableHlo.binary main_arg12 main_v221 main_v222 (addi : (⟨S448000, .i32⟩ : BufTy).Contents (Elt F) → (⟨S448000, .i32⟩ : BufTy).Contents (Elt F) → (⟨S448000, .i32⟩ : BufTy).Contents (Elt F)),
    StableHlo.ternary main_v220 main_v222 main_arg12 main_v223 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v223 main_v224 (broadcastInDim S448000x1 ![0] bcast_S448000_S448000x1_0 : (⟨S448000, .i32⟩ : BufTy).Contents (Elt F) → (⟨S448000x1, .i32⟩ : BufTy).Contents (Elt F)),
    StableHlo.ternary main_v218 main_v224 main_v217 main_v225 ((fun x i u => Host.scatterAdd scatter_S128x56000_S448000x1_S128x448000_0_1_1_1 x i u) : (⟨S128x56000, .f32⟩ : BufTy).Contents (Elt F) → (⟨S448000x1, .i32⟩ : BufTy).Contents (Elt F) → (⟨S128x448000, .f32⟩ : BufTy).Contents (Elt F) → (⟨S128x56000, .f32⟩ : BufTy).Contents (Elt F)),
    StableHlo.unary main_arg6 main_v226 ((extractStridedSlice S1x56000 ![2, 0] · slices_S4x56000_S1x56000_2_0) : (⟨S4x56000, .f32⟩ : BufTy).Contents (Elt F) → (⟨S1x56000, .f32⟩ : BufTy).Contents (Elt F)),
    StableHlo.reshape main_v226 main_v227 rfl shapeCasts_S1x56000_S56000,
    StableHlo.unary main_v227 main_v228 (broadcastInDim S1x56000 ![1] bcast_S56000_S1x56000_1 : (⟨S56000, .f32⟩ : BufTy).Contents (Elt F) → (⟨S1x56000, .f32⟩ : BufTy).Contents (Elt F)),
    StableHlo.unary main_v228 main_v229 (broadcastInDim S128x56000 ![0, 1] bcast_S1x56000_S128x56000_0_1 : (⟨S1x56000, .f32⟩ : BufTy).Contents (Elt F) → (⟨S128x56000, .f32⟩ : BufTy).Contents (Elt F)),
    StableHlo.binary main_v225 main_v229 main_v230 (addf : (⟨S128x56000, .f32⟩ : BufTy).Contents (Elt F) → (⟨S128x56000, .f32⟩ : BufTy).Contents (Elt F) → (⟨S128x56000, .f32⟩ : BufTy).Contents (Elt F)),
    StableHlo.reshape main_v230 main_v231 rfl shapeCasts_S128x56000_S128x7000x8,
    StableHlo.nullary main_cst_48 (constant S_ .f32 0x00000000#32),
    StableHlo.binary main_v231 main_cst_48 main_v232 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v232 main_v233 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_49 (constant S_ .f32 0x41000000#32),
    StableHlo.unary main_cst_49 main_v234 (broadcastInDim S128x7000x1 ![] bcast_S_S128x7000x1 : (⟨S_, .f32⟩ : BufTy).Contents (Elt F) → (⟨S128x7000x1, .f32⟩ : BufTy).Contents (Elt F)),
    StableHlo.binary main_v233 main_v234 main_v235 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v235 main_v236 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v231 main_v236 main_v237 (subf : (⟨S128x7000x8, .f32⟩ : BufTy).Contents (Elt F) → (⟨S128x7000x8, .f32⟩ : BufTy).Contents (Elt F) → (⟨S128x7000x8, .f32⟩ : BufTy).Contents (Elt F)),
    StableHlo.binary main_v237 main_v237 main_v238 (mulf : (⟨S128x7000x8, .f32⟩ : BufTy).Contents (Elt F) → (⟨S128x7000x8, .f32⟩ : BufTy).Contents (Elt F) → (⟨S128x7000x8, .f32⟩ : BufTy).Contents (Elt F)),
    StableHlo.nullary main_cst_50 (constant S_ .f32 0x00000000#32),
    StableHlo.binary main_v238 main_cst_50 main_v239 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v239 main_v240 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_51 (constant S_ .f32 0x41000000#32),
    StableHlo.unary main_cst_51 main_v241 (broadcastInDim S128x7000x1 ![] bcast_S_S128x7000x1 : (⟨S_, .f32⟩ : BufTy).Contents (Elt F) → (⟨S128x7000x1, .f32⟩ : BufTy).Contents (Elt F)),
    StableHlo.binary main_v240 main_v241 main_v242 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v235 main_v243 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v231 main_v243 main_v244 (subf : (⟨S128x7000x8, .f32⟩ : BufTy).Contents (Elt F) → (⟨S128x7000x8, .f32⟩ : BufTy).Contents (Elt F) → (⟨S128x7000x8, .f32⟩ : BufTy).Contents (Elt F)),
    StableHlo.nullary main_cst_52 (constant S_ .f32 0x3727C5AC#32) ]
theorem r4_1_sub : (r4_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
/-- The references these operations write, in order. -/
abbrev r4_1_writes : List (Ref sig .tc) := [main_v206, main_v207, main_c_43, main_v208, main_v209, main_c_44, main_v210, main_v211, main_v212, main_v213, main_v214, main_v215, main_v216, main_v217, main_cst_45, main_v218, main_c_46, main_v219, main_v220, main_c_47, main_v221, main_v222, main_v223, main_v224, main_v225, main_v226, main_v227, main_v228, main_v229, main_v230, main_v231, main_cst_48, main_v232, main_v233, main_cst_49, main_v234, main_v235, main_v236, main_v237, main_v238, main_cst_50, main_v239, main_v240, main_cst_51, main_v241, main_v242, main_v243, main_v244, main_cst_52]
theorem r4_1_fresh : (r4_1 : List (HloOp τ sig (Elt F))).Forall fun op => op.fresh = ∅ := by
  simp only [List.Forall]; repeat' constructor

/-- 7 host operations of the reference's @main (window 5), in order. -/
abbrev r5_0 : List (HloOp τ sig (Elt F)) :=
  [ StableHlo.unary main_cst_52 main_v245 (broadcastInDim S128x7000x1 ![] bcast_S_S128x7000x1 : (⟨S_, .f32⟩ : BufTy).Contents (Elt F) → (⟨S128x7000x1, .f32⟩ : BufTy).Contents (Elt F)),
    StableHlo.binary main_v242 main_v245 main_v246 (addf : (⟨S128x7000x1, .f32⟩ : BufTy).Contents (Elt F) → (⟨S128x7000x1, .f32⟩ : BufTy).Contents (Elt F) → (⟨S128x7000x1, .f32⟩ : BufTy).Contents (Elt F)),
    StableHlo.unary main_v246 main_v247 (Host.rsqrt : (⟨S128x7000x1, .f32⟩ : BufTy).Contents (Elt F) → (⟨S128x7000x1, .f32⟩ : BufTy).Contents (Elt F)),
    StableHlo.unary main_v247 main_v248 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v244 main_v248 main_v249 (mulf : (⟨S128x7000x8, .f32⟩ : BufTy).Contents (Elt F) → (⟨S128x7000x8, .f32⟩ : BufTy).Contents (Elt F) → (⟨S128x7000x8, .f32⟩ : BufTy).Contents (Elt F)),
    StableHlo.reshape main_v249 main_v250 rfl shapeCasts_S128x7000x8_S128x56000,
    StableHlo.binary main_v43 main_v250 main_v251 (mulf : (⟨S128x56000, .f32⟩ : BufTy).Contents (Elt F) → (⟨S128x56000, .f32⟩ : BufTy).Contents (Elt F) → (⟨S128x56000, .f32⟩ : BufTy).Contents (Elt F)) ]
theorem r5_0_sub : (r5_0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.reshape_bufs_sub .., StableHlo.binary_bufs_sub ..⟩
/-- The references these operations write, in order. -/
abbrev r5_0_writes : List (Ref sig .tc) := [main_v245, main_v246, main_v247, main_v248, main_v249, main_v250, main_v251]
theorem r5_0_fresh : (r5_0 : List (HloOp τ sig (Elt F))).Forall fun op => op.fresh = ∅ := by
  simp only [List.Forall]; repeat' constructor

/-- 7 host operations of the reference's @main (window 5), in order. -/
abbrev r5_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S128x56000, .f32⟩) (broadcastInDim S128x56000 ![] bcast_S_S128x56000),
    StableHlo.TRef.binary (.of main_v251 : StableHlo.TRef sig ⟨S128x56000, .f32⟩) (.of main_call3_v0 : StableHlo.TRef sig ⟨S128x56000, .f32⟩) (.of main_call3_v1 : StableHlo.TRef sig ⟨S128x56000, .i1⟩) (cmpf .ogt),
    StableHlo.TRef.nullary (.of main_call3_cst_0 : StableHlo.TRef sig ⟨S_, .f32⟩) (constant S_ .f32 0x00000000#32),
    StableHlo.TRef.unary (.of main_call3_cst_0 : StableHlo.TRef sig ⟨S_, .f32⟩) (.of main_call3_v2 : StableHlo.TRef sig ⟨S128x56000, .f32⟩) (broadcastInDim S128x56000 ![] bcast_S_S128x56000),
    StableHlo.TRef.binary (.of main_v251 : StableHlo.TRef sig ⟨S128x56000, .f32⟩) (.of main_call3_v2 : StableHlo.TRef sig ⟨S128x56000, .f32⟩) (.of main_call3_v3 : StableHlo.TRef sig ⟨S128x56000, .i1⟩) (cmpf .ogt),
    StableHlo.TRef.nullary (.of main_call3_cst_1 : StableHlo.TRef sig ⟨S_, .f32⟩) (constant S_ .f32 0x00000000#32) ]
theorem r5_1_sub : (r5_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
/-- The references these operations write, in order. -/
abbrev r5_1_writes : List (Ref sig .tc) := [main_call3_cst, main_call3_v0, main_call3_v1, main_call3_cst_0, main_call3_v2, main_call3_v3, main_call3_cst_1]
theorem r5_1_fresh : (r5_1 : List (HloOp τ sig (Elt F))).Forall fun op => op.fresh = ∅ := by
  simp only [List.Forall]; repeat' constructor

/-- 3 host operations of the reference's @main (window 5), in order. -/
abbrev r5_2 : List (HloOp τ sig (Elt F)) :=
  [ StableHlo.TRef.unary (.of main_call3_cst_1 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128x56000, .f32⟩) (broadcastInDim S128x56000 ![] bcast_S_S128x56000),
    StableHlo.TRef.ternary (.of main_call3_v3 : StableHlo.TRef sig ⟨S128x56000, .i1⟩) (.of main_call3_call0_v1 : StableHlo.TRef sig ⟨S128x56000, .f32⟩) (.of main_v251 : StableHlo.TRef sig ⟨S128x56000, .f32⟩) (.of main_call3_v4 : StableHlo.TRef sig ⟨S128x56000, .f32⟩) select ]
theorem r5_2_sub : (r5_2 : List (HloOp τ sig (Elt F))).Forall fun op => op.bufs ⊆ StableHlo.tcRefs τ sig :=
  ⟨StableHlo.unary_bufs_sub .., StableHlo.unary_bufs_sub .., StableHlo.ternary_bufs_sub ..⟩
/-- The references these operations write, in order. -/
abbrev r5_2_writes : List (Ref sig .tc) := [main_call3_call0_v0, main_call3_call0_v1, main_call3_v4]
theorem r5_2_fresh : (r5_2 : List (HloOp τ sig (Elt F))).Forall fun op => op.fresh = ∅ := by
  simp only [List.Forall]; repeat' constructor

/-- 4 host operations of the reference's @main (window 5), in order. -/
abbrev r5_3 : List (HloOp τ sig (Elt F)) :=
  [ StableHlo.TRef.unary (.of main_call3_v4 : StableHlo.TRef sig ⟨S128x56000, .f32⟩) (.of main_call3_v5 : StableHlo.TRef sig ⟨S128x56000, .f32⟩) Host.expm1,
    StableHlo.TRef.nullary (.of main_call3_cst_2 : StableHlo.TRef sig ⟨S_, .f32⟩) (constant S_ .f32 0x3F800000#32),
    StableHlo.TRef.unary (.of main_call3_cst_2 : StableHlo.TRef sig ⟨S_, .f32⟩) (.of main_call3_v6 : StableHlo.TRef sig ⟨S128x56000, .f32⟩) (broadcastInDim S128x56000 ![] bcast_S_S128x56000),
    StableHlo.TRef.binary (.of main_call3_v6 : StableHlo.TRef sig ⟨S128x56000, .f32⟩) (.of main_call3_v5 : StableHlo.TRef sig ⟨S128x56000, .f32⟩) (.of main_call3_v7 : StableHlo.TRef sig ⟨S128x56000, .f32⟩) mulf ]
theorem r5_3_sub : (r5_3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- The references these operations write, in order. -/
abbrev r5_3_writes : List (Ref sig .tc) := [main_call3_v5, main_call3_cst_2, main_call3_v6, main_call3_v7]
theorem r5_3_fresh : (r5_3 : List (HloOp τ sig (Elt F))).Forall fun op => op.fresh = ∅ := by
  simp only [List.Forall]; repeat' constructor

/-- 1 host operations of the reference's @main (window 5), in order. -/
abbrev r5_4 : List (HloOp τ sig (Elt F)) :=
  [ StableHlo.TRef.ternary (.of main_call3_v1 : StableHlo.TRef sig ⟨S128x56000, .i1⟩) (.of main_v251 : StableHlo.TRef sig ⟨S128x56000, .f32⟩) (.of main_call3_v7 : StableHlo.TRef sig ⟨S128x56000, .f32⟩) (.of main_v252 : StableHlo.TRef sig ⟨S128x56000, .f32⟩) select ]
theorem r5_4_sub : (r5_4 : List (HloOp τ sig (Elt F))).Forall fun op => op.bufs ⊆ StableHlo.tcRefs τ sig :=
  StableHlo.ternary_bufs_sub ..
/-- The references these operations write, in order. -/
abbrev r5_4_writes : List (Ref sig .tc) := [main_v252]
theorem r5_4_fresh : (r5_4 : List (HloOp τ sig (Elt F))).Forall fun op => op.fresh = ∅ := by
  simp only [List.Forall]; repeat' constructor

/-- 31 host operations of the reference's @main (window 5), in order. -/
abbrev r5_5 : List (HloOp τ sig (Elt F)) :=
  [ StableHlo.unary main_arg7 main_v253 ((extractStridedSlice S1x293352 ![2, 0] · slices_S4x293352_S1x293352_2_0) : (⟨S4x293352, .f32⟩ : BufTy).Contents (Elt F) → (⟨S1x293352, .f32⟩ : BufTy).Contents (Elt F)),
    StableHlo.reshape main_v253 main_v254 rfl shapeCasts_S1x293352_S293352,
    StableHlo.nullary main_c_53 (constantI S_ 32 0#32),
    StableHlo.unary main_c_53 main_v255 (broadcastInDim S293352 ![] bcast_S_S293352 : (⟨S_, .i32⟩ : BufTy).Contents (Elt F) → (⟨S293352, .i32⟩ : BufTy).Contents (Elt F)),
    StableHlo.binary main_arg13 main_v255 main_v256 (cmpi .slt : (⟨S293352, .i32⟩ : BufTy).Contents (Elt F) → (⟨S293352, .i32⟩ : BufTy).Contents (Elt F) → (⟨S293352, .i1⟩ : BufTy).Contents (Elt F)),
    StableHlo.nullary main_c_54 (constantI S_ 32 56000#32),
    StableHlo.unary main_c_54 main_v257 (broadcastInDim S293352 ![] bcast_S_S293352 : (⟨S_, .i32⟩ : BufTy).Contents (Elt F) → (⟨S293352, .i32⟩ : BufTy).Contents (Elt F)),
    StableHlo.binary main_arg13 main_v257 main_v258 (addi : (⟨S293352, .i32⟩ : BufTy).Contents (Elt F) → (⟨S293352, .i32⟩ : BufTy).Contents (Elt F) → (⟨S293352, .i32⟩ : BufTy).Contents (Elt F)),
    StableHlo.ternary main_v256 main_v258 main_arg13 main_v259 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v259 main_v260 (broadcastInDim S293352x1 ![0] bcast_S293352_S293352x1_0 : (⟨S293352, .i32⟩ : BufTy).Contents (Elt F) → (⟨S293352x1, .i32⟩ : BufTy).Contents (Elt F)),
    StableHlo.binary main_v252 main_v260 main_v261 ((fun x i => Host.gather gather_S128x56000_S293352x1_S128x293352_0_1_n_n_1_1_1281 x i) : (⟨S128x56000, .f32⟩ : BufTy).Contents (Elt F) → (⟨S293352x1, .i32⟩ : BufTy).Contents (Elt F) → (⟨S128x293352, .f32⟩ : BufTy).Contents (Elt F)),
    StableHlo.unary main_v254 main_v262 (broadcastInDim S1x293352 ![1] bcast_S293352_S1x293352_1 : (⟨S293352, .f32⟩ : BufTy).Contents (Elt F) → (⟨S1x293352, .f32⟩ : BufTy).Contents (Elt F)),
    StableHlo.unary main_v262 main_v263 (broadcastInDim S128x293352 ![0, 1] bcast_S1x293352_S128x293352_0_1 : (⟨S1x293352, .f32⟩ : BufTy).Contents (Elt F) → (⟨S128x293352, .f32⟩ : BufTy).Contents (Elt F)),
    StableHlo.binary main_v261 main_v263 main_v264 (mulf : (⟨S128x293352, .f32⟩ : BufTy).Contents (Elt F) → (⟨S128x293352, .f32⟩ : BufTy).Contents (Elt F) → (⟨S128x293352, .f32⟩ : BufTy).Contents (Elt F)),
    StableHlo.nullary main_cst_55 (constant S_ .f32 0x00000000#32),
    StableHlo.unary main_cst_55 main_v265 (broadcastInDim S128x57000 ![] bcast_S_S128x57000 : (⟨S_, .f32⟩ : BufTy).Contents (Elt F) → (⟨S128x57000, .f32⟩ : BufTy).Contents (Elt F)),
    StableHlo.nullary main_c_56 (constantI S_ 32 0#32),
    StableHlo.unary main_c_56 main_v266 (broadcastInDim S293352 ![] bcast_S_S293352 : (⟨S_, .i32⟩ : BufTy).Contents (Elt F) → (⟨S293352, .i32⟩ : BufTy).Contents (Elt F)),
    StableHlo.binary main_arg14 main_v266 main_v267 (cmpi .slt : (⟨S293352, .i32⟩ : BufTy).Contents (Elt F) → (⟨S293352, .i32⟩ : BufTy).Contents (Elt F) → (⟨S293352, .i1⟩ : BufTy).Contents (Elt F)),
    StableHlo.nullary main_c_57 (constantI S_ 32 57000#32),
    StableHlo.unary main_c_57 main_v268 (broadcastInDim S293352 ![] bcast_S_S293352 : (⟨S_, .i32⟩ : BufTy).Contents (Elt F) → (⟨S293352, .i32⟩ : BufTy).Contents (Elt F)),
    StableHlo.binary main_arg14 main_v268 main_v269 (addi : (⟨S293352, .i32⟩ : BufTy).Contents (Elt F) → (⟨S293352, .i32⟩ : BufTy).Contents (Elt F) → (⟨S293352, .i32⟩ : BufTy).Contents (Elt F)),
    StableHlo.ternary main_v267 main_v269 main_arg14 main_v270 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v270 main_v271 (broadcastInDim S293352x1 ![0] bcast_S293352_S293352x1_0 : (⟨S293352, .i32⟩ : BufTy).Contents (Elt F) → (⟨S293352x1, .i32⟩ : BufTy).Contents (Elt F)),
    StableHlo.ternary main_v265 main_v271 main_v264 main_v272 ((fun x i u => Host.scatterAdd scatter_S128x57000_S293352x1_S128x293352_0_1_1_1 x i u) : (⟨S128x57000, .f32⟩ : BufTy).Contents (Elt F) → (⟨S293352x1, .i32⟩ : BufTy).Contents (Elt F) → (⟨S128x293352, .f32⟩ : BufTy).Contents (Elt F) → (⟨S128x57000, .f32⟩ : BufTy).Contents (Elt F)),
    StableHlo.unary main_arg8 main_v273 ((extractStridedSlice S1x57000 ![2, 0] · slices_S4x57000_S1x57000_2_0) : (⟨S4x57000, .f32⟩ : BufTy).Contents (Elt F) → (⟨S1x57000, .f32⟩ : BufTy).Contents (Elt F)),
    StableHlo.reshape main_v273 main_v274 rfl shapeCasts_S1x57000_S57000,
    StableHlo.unary main_v274 main_v275 (broadcastInDim S1x57000 ![1] bcast_S57000_S1x57000_1 : (⟨S57000, .f32⟩ : BufTy).Contents (Elt F) → (⟨S1x57000, .f32⟩ : BufTy).Contents (Elt F)),
    StableHlo.unary main_v275 main_v276 (broadcastInDim S128x57000 ![0, 1] bcast_S1x57000_S128x57000_0_1 : (⟨S1x57000, .f32⟩ : BufTy).Contents (Elt F) → (⟨S128x57000, .f32⟩ : BufTy).Contents (Elt F)),
    StableHlo.binary main_v272 main_v276 main_v277 (addf : (⟨S128x57000, .f32⟩ : BufTy).Contents (Elt F) → (⟨S128x57000, .f32⟩ : BufTy).Contents (Elt F) → (⟨S128x57000, .f32⟩ : BufTy).Contents (Elt F)),
    StableHlo.binary main_v277 main_v205 main_v278 (addf : (⟨S128x57000, .f32⟩ : BufTy).Contents (Elt F) → (⟨S128x57000, .f32⟩ : BufTy).Contents (Elt F) → (⟨S128x57000, .f32⟩ : BufTy).Contents (Elt F)) ]
theorem r5_5_sub : (r5_5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.binary_bufs_sub ..⟩
/-- The references these operations write, in order. -/
abbrev r5_5_writes : List (Ref sig .tc) := [main_v253, main_v254, main_c_53, main_v255, main_v256, main_c_54, main_v257, main_v258, main_v259, main_v260, main_v261, main_v262, main_v263, main_v264, main_cst_55, main_v265, main_c_56, main_v266, main_v267, main_c_57, main_v268, main_v269, main_v270, main_v271, main_v272, main_v273, main_v274, main_v275, main_v276, main_v277, main_v278]
theorem r5_5_fresh : (r5_5 : List (HloOp τ sig (Elt F))).Forall fun op => op.fresh = ∅ := by
  simp only [List.Forall]; repeat' constructor

/-- 21 host operations of the reference's @main (window 5), in order. -/
abbrev r5_6 : List (HloOp τ sig (Elt F)) :=
  [ StableHlo.unary main_arg5 main_v279 ((extractStridedSlice S1x448000 ![3, 0] · slices_S4x448000_S1x448000_3_0) : (⟨S4x448000, .f32⟩ : BufTy).Contents (Elt F) → (⟨S1x448000, .f32⟩ : BufTy).Contents (Elt F)),
    StableHlo.reshape main_v279 main_v280 rfl shapeCasts_S1x448000_S448000,
    StableHlo.nullary main_c_58 (constantI S_ 32 0#32),
    StableHlo.unary main_c_58 main_v281 (broadcastInDim S448000 ![] bcast_S_S448000 : (⟨S_, .i32⟩ : BufTy).Contents (Elt F) → (⟨S448000, .i32⟩ : BufTy).Contents (Elt F)),
    StableHlo.binary main_arg11 main_v281 main_v282 (cmpi .slt : (⟨S448000, .i32⟩ : BufTy).Contents (Elt F) → (⟨S448000, .i32⟩ : BufTy).Contents (Elt F) → (⟨S448000, .i1⟩ : BufTy).Contents (Elt F)),
    StableHlo.nullary main_c_59 (constantI S_ 32 57000#32),
    StableHlo.unary main_c_59 main_v283 (broadcastInDim S448000 ![] bcast_S_S448000 : (⟨S_, .i32⟩ : BufTy).Contents (Elt F) → (⟨S448000, .i32⟩ : BufTy).Contents (Elt F)),
    StableHlo.binary main_arg11 main_v283 main_v284 (addi : (⟨S448000, .i32⟩ : BufTy).Contents (Elt F) → (⟨S448000, .i32⟩ : BufTy).Contents (Elt F) → (⟨S448000, .i32⟩ : BufTy).Contents (Elt F)),
    StableHlo.ternary main_v282 main_v284 main_arg11 main_v285 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v285 main_v286 (broadcastInDim S448000x1 ![0] bcast_S448000_S448000x1_0 : (⟨S448000, .i32⟩ : BufTy).Contents (Elt F) → (⟨S448000x1, .i32⟩ : BufTy).Contents (Elt F)),
    StableHlo.binary main_v278 main_v286 main_v287 ((fun x i => Host.gather gather_S128x57000_S448000x1_S128x448000_0_1_n_n_1_1_1281 x i) : (⟨S128x57000, .f32⟩ : BufTy).Contents (Elt F) → (⟨S448000x1, .i32⟩ : BufTy).Contents (Elt F) → (⟨S128x448000, .f32⟩ : BufTy).Contents (Elt F)),
    StableHlo.unary main_v280 main_v288 (broadcastInDim S1x448000 ![1] bcast_S448000_S1x448000_1 : (⟨S448000, .f32⟩ : BufTy).Contents (Elt F) → (⟨S1x448000, .f32⟩ : BufTy).Contents (Elt F)),
    StableHlo.unary main_v288 main_v289 (broadcastInDim S128x448000 ![0, 1] bcast_S1x448000_S128x448000_0_1 : (⟨S1x448000, .f32⟩ : BufTy).Contents (Elt F) → (⟨S128x448000, .f32⟩ : BufTy).Contents (Elt F)),
    StableHlo.binary main_v287 main_v289 main_v290 (mulf : (⟨S128x448000, .f32⟩ : BufTy).Contents (Elt F) → (⟨S128x448000, .f32⟩ : BufTy).Contents (Elt F) → (⟨S128x448000, .f32⟩ : BufTy).Contents (Elt F)),
    StableHlo.nullary main_cst_60 (constant S_ .f32 0x00000000#32),
    StableHlo.unary main_cst_60 main_v291 (broadcastInDim S128x56000 ![] bcast_S_S128x56000 : (⟨S_, .f32⟩ : BufTy).Contents (Elt F) → (⟨S128x56000, .f32⟩ : BufTy).Contents (Elt F)),
    StableHlo.nullary main_c_61 (constantI S_ 32 0#32),
    StableHlo.unary main_c_61 main_v292 (broadcastInDim S448000 ![] bcast_S_S448000 : (⟨S_, .i32⟩ : BufTy).Contents (Elt F) → (⟨S448000, .i32⟩ : BufTy).Contents (Elt F)),
    StableHlo.binary main_arg12 main_v292 main_v293 (cmpi .slt : (⟨S448000, .i32⟩ : BufTy).Contents (Elt F) → (⟨S448000, .i32⟩ : BufTy).Contents (Elt F) → (⟨S448000, .i1⟩ : BufTy).Contents (Elt F)),
    StableHlo.nullary main_c_62 (constantI S_ 32 56000#32),
    StableHlo.unary main_c_62 main_v294 (broadcastInDim S448000 ![] bcast_S_S448000 : (⟨S_, .i32⟩ : BufTy).Contents (Elt F) → (⟨S448000, .i32⟩ : BufTy).Contents (Elt F)) ]
theorem r5_6_sub : (r5_6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub ..⟩
/-- The references these operations write, in order. -/
abbrev r5_6_writes : List (Ref sig .tc) := [main_v279, main_v280, main_c_58, main_v281, main_v282, main_c_59, main_v283, main_v284, main_v285, main_v286, main_v287, main_v288, main_v289, main_v290, main_cst_60, main_v291, main_c_61, main_v292, main_v293, main_c_62, main_v294]
theorem r5_6_fresh : (r5_6 : List (HloOp τ sig (Elt F))).Forall fun op => op.fresh = ∅ := by
  simp only [List.Forall]; repeat' constructor

/-- 35 host operations of the reference's @main (window 6), in order. -/
abbrev r6_0 : List (HloOp τ sig (Elt F)) :=
  [ StableHlo.binary main_arg12 main_v294 main_v295 (addi : (⟨S448000, .i32⟩ : BufTy).Contents (Elt F) → (⟨S448000, .i32⟩ : BufTy).Contents (Elt F) → (⟨S448000, .i32⟩ : BufTy).Contents (Elt F)),
    StableHlo.ternary main_v293 main_v295 main_arg12 main_v296 (select : (⟨S448000, .i1⟩ : BufTy).Contents (Elt F) → (⟨S448000, .i32⟩ : BufTy).Contents (Elt F) → (⟨S448000, .i32⟩ : BufTy).Contents (Elt F) → (⟨S448000, .i32⟩ : BufTy).Contents (Elt F)),
    StableHlo.unary main_v296 main_v297 (broadcastInDim S448000x1 ![0] bcast_S448000_S448000x1_0 : (⟨S448000, .i32⟩ : BufTy).Contents (Elt F) → (⟨S448000x1, .i32⟩ : BufTy).Contents (Elt F)),
    StableHlo.ternary main_v291 main_v297 main_v290 main_v298 ((fun x i u => Host.scatterAdd scatter_S128x56000_S448000x1_S128x448000_0_1_1_1 x i u) : (⟨S128x56000, .f32⟩ : BufTy).Contents (Elt F) → (⟨S448000x1, .i32⟩ : BufTy).Contents (Elt F) → (⟨S128x448000, .f32⟩ : BufTy).Contents (Elt F) → (⟨S128x56000, .f32⟩ : BufTy).Contents (Elt F)),
    StableHlo.unary main_arg6 main_v299 ((extractStridedSlice S1x56000 ![3, 0] · slices_S4x56000_S1x56000_3_0) : (⟨S4x56000, .f32⟩ : BufTy).Contents (Elt F) → (⟨S1x56000, .f32⟩ : BufTy).Contents (Elt F)),
    StableHlo.reshape main_v299 main_v300 rfl shapeCasts_S1x56000_S56000,
    StableHlo.unary main_v300 main_v301 (broadcastInDim S1x56000 ![1] bcast_S56000_S1x56000_1 : (⟨S56000, .f32⟩ : BufTy).Contents (Elt F) → (⟨S1x56000, .f32⟩ : BufTy).Contents (Elt F)),
    StableHlo.unary main_v301 main_v302 (broadcastInDim S128x56000 ![0, 1] bcast_S1x56000_S128x56000_0_1 : (⟨S1x56000, .f32⟩ : BufTy).Contents (Elt F) → (⟨S128x56000, .f32⟩ : BufTy).Contents (Elt F)),
    StableHlo.binary main_v298 main_v302 main_v303 (addf : (⟨S128x56000, .f32⟩ : BufTy).Contents (Elt F) → (⟨S128x56000, .f32⟩ : BufTy).Contents (Elt F) → (⟨S128x56000, .f32⟩ : BufTy).Contents (Elt F)),
    StableHlo.reshape main_v303 main_v304 rfl shapeCasts_S128x56000_S128x7000x8,
    StableHlo.nullary main_cst_63 (constant S_ .f32 0x00000000#32),
    StableHlo.binary main_v304 main_cst_63 main_v305 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v305 main_v306 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_64 (constant S_ .f32 0x41000000#32),
    StableHlo.unary main_cst_64 main_v307 (broadcastInDim S128x7000x1 ![] bcast_S_S128x7000x1 : (⟨S_, .f32⟩ : BufTy).Contents (Elt F) → (⟨S128x7000x1, .f32⟩ : BufTy).Contents (Elt F)),
    StableHlo.binary main_v306 main_v307 main_v308 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v308 main_v309 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v304 main_v309 main_v310 (subf : (⟨S128x7000x8, .f32⟩ : BufTy).Contents (Elt F) → (⟨S128x7000x8, .f32⟩ : BufTy).Contents (Elt F) → (⟨S128x7000x8, .f32⟩ : BufTy).Contents (Elt F)),
    StableHlo.binary main_v310 main_v310 main_v311 (mulf : (⟨S128x7000x8, .f32⟩ : BufTy).Contents (Elt F) → (⟨S128x7000x8, .f32⟩ : BufTy).Contents (Elt F) → (⟨S128x7000x8, .f32⟩ : BufTy).Contents (Elt F)),
    StableHlo.nullary main_cst_65 (constant S_ .f32 0x00000000#32),
    StableHlo.binary main_v311 main_cst_65 main_v312 ((fun x v => Host.reduceAdd x v reducesTo_S128x7000x8_S128x7000_d2 h_S_) : (⟨S128x7000x8, .f32⟩ : BufTy).Contents (Elt F) → (⟨S_, .f32⟩ : BufTy).Contents (Elt F) → (⟨S128x7000, .f32⟩ : BufTy).Contents (Elt F)),
    StableHlo.unary main_v312 main_v313 (broadcastInDim S128x7000x1 ![0, 1] bcast_S128x7000_S128x7000x1_0_1 : (⟨S128x7000, .f32⟩ : BufTy).Contents (Elt F) → (⟨S128x7000x1, .f32⟩ : BufTy).Contents (Elt F)),
    StableHlo.nullary main_cst_66 (constant S_ .f32 0x41000000#32),
    StableHlo.unary main_cst_66 main_v314 (broadcastInDim S128x7000x1 ![] bcast_S_S128x7000x1 : (⟨S_, .f32⟩ : BufTy).Contents (Elt F) → (⟨S128x7000x1, .f32⟩ : BufTy).Contents (Elt F)),
    StableHlo.binary main_v313 main_v314 main_v315 (Host.divf : (⟨S128x7000x1, .f32⟩ : BufTy).Contents (Elt F) → (⟨S128x7000x1, .f32⟩ : BufTy).Contents (Elt F) → (⟨S128x7000x1, .f32⟩ : BufTy).Contents (Elt F)),
    StableHlo.unary main_v308 main_v316 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v304 main_v316 main_v317 (subf : (⟨S128x7000x8, .f32⟩ : BufTy).Contents (Elt F) → (⟨S128x7000x8, .f32⟩ : BufTy).Contents (Elt F) → (⟨S128x7000x8, .f32⟩ : BufTy).Contents (Elt F)),
    StableHlo.nullary main_cst_67 (constant S_ .f32 0x3727C5AC#32),
    StableHlo.unary main_cst_67 main_v318 (broadcastInDim S128x7000x1 ![] bcast_S_S128x7000x1 : (⟨S_, .f32⟩ : BufTy).Contents (Elt F) → (⟨S128x7000x1, .f32⟩ : BufTy).Contents (Elt F)),
    StableHlo.binary main_v315 main_v318 main_v319 (addf : (⟨S128x7000x1, .f32⟩ : BufTy).Contents (Elt F) → (⟨S128x7000x1, .f32⟩ : BufTy).Contents (Elt F) → (⟨S128x7000x1, .f32⟩ : BufTy).Contents (Elt F)),
    StableHlo.unary main_v319 main_v320 (Host.rsqrt : (⟨S128x7000x1, .f32⟩ : BufTy).Contents (Elt F) → (⟨S128x7000x1, .f32⟩ : BufTy).Contents (Elt F)),
    StableHlo.unary main_v320 main_v321 (broadcastInDim S128x7000x8 ![0, 1, 2] bcast_S128x7000x1_S128x7000x8_0_1_2 : (⟨S128x7000x1, .f32⟩ : BufTy).Contents (Elt F) → (⟨S128x7000x8, .f32⟩ : BufTy).Contents (Elt F)),
    StableHlo.binary main_v317 main_v321 main_v322 (mulf : (⟨S128x7000x8, .f32⟩ : BufTy).Contents (Elt F) → (⟨S128x7000x8, .f32⟩ : BufTy).Contents (Elt F) → (⟨S128x7000x8, .f32⟩ : BufTy).Contents (Elt F)),
    StableHlo.reshape main_v322 main_v323 rfl shapeCasts_S128x7000x8_S128x56000,
    StableHlo.binary main_v43 main_v323 main_v324 (mulf : (⟨S128x56000, .f32⟩ : BufTy).Contents (Elt F) → (⟨S128x56000, .f32⟩ : BufTy).Contents (Elt F) → (⟨S128x56000, .f32⟩ : BufTy).Contents (Elt F)) ]
theorem r6_0_sub : (r6_0 : List (HloOp τ sig (Elt F))).Forall fun op => op.bufs ⊆ StableHlo.tcRefs τ sig :=
  ⟨StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.unary_bufs_sub .., StableHlo.binary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub ..⟩
/-- The references these operations write, in order. -/
abbrev r6_0_writes : List (Ref sig .tc) := [main_v295, main_v296, main_v297, main_v298, main_v299, main_v300, main_v301, main_v302, main_v303, main_v304, main_cst_63, main_v305, main_v306, main_cst_64, main_v307, main_v308, main_v309, main_v310, main_v311, main_cst_65, main_v312, main_v313, main_cst_66, main_v314, main_v315, main_v316, main_v317, main_cst_67, main_v318, main_v319, main_v320, main_v321, main_v322, main_v323, main_v324]
theorem r6_0_fresh : (r6_0 : List (HloOp τ sig (Elt F))).Forall fun op => op.fresh = ∅ := by
  simp only [List.Forall]; repeat' constructor

/-- 7 host operations of the reference's @main (window 6), in order. -/
abbrev r6_1 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S128x56000, .f32⟩) (broadcastInDim S128x56000 ![] bcast_S_S128x56000),
    StableHlo.TRef.binary (.of main_v324 : StableHlo.TRef sig ⟨S128x56000, .f32⟩) (.of main_call4_v0 : StableHlo.TRef sig ⟨S128x56000, .f32⟩) (.of main_call4_v1 : StableHlo.TRef sig ⟨S128x56000, .i1⟩) (cmpf .ogt),
    StableHlo.TRef.nullary (.of main_call4_cst_0 : StableHlo.TRef sig ⟨S_, .f32⟩) (constant S_ .f32 0x00000000#32),
    StableHlo.TRef.unary (.of main_call4_cst_0 : StableHlo.TRef sig ⟨S_, .f32⟩) (.of main_call4_v2 : StableHlo.TRef sig ⟨S128x56000, .f32⟩) (broadcastInDim S128x56000 ![] bcast_S_S128x56000),
    StableHlo.TRef.binary (.of main_v324 : StableHlo.TRef sig ⟨S128x56000, .f32⟩) (.of main_call4_v2 : StableHlo.TRef sig ⟨S128x56000, .f32⟩) (.of main_call4_v3 : StableHlo.TRef sig ⟨S128x56000, .i1⟩) (cmpf .ogt),
    StableHlo.TRef.nullary (.of main_call4_cst_1 : StableHlo.TRef sig ⟨S_, .f32⟩) (constant S_ .f32 0x00000000#32) ]
theorem r6_1_sub : (r6_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
/-- The references these operations write, in order. -/
abbrev r6_1_writes : List (Ref sig .tc) := [main_call4_cst, main_call4_v0, main_call4_v1, main_call4_cst_0, main_call4_v2, main_call4_v3, main_call4_cst_1]
theorem r6_1_fresh : (r6_1 : List (HloOp τ sig (Elt F))).Forall fun op => op.fresh = ∅ := by
  simp only [List.Forall]; repeat' constructor

/-- 3 host operations of the reference's @main (window 6), in order. -/
abbrev r6_2 : List (HloOp τ sig (Elt F)) :=
  [ StableHlo.TRef.unary (.of main_call4_cst_1 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128x56000, .f32⟩) (broadcastInDim S128x56000 ![] bcast_S_S128x56000),
    StableHlo.TRef.ternary (.of main_call4_v3 : StableHlo.TRef sig ⟨S128x56000, .i1⟩) (.of main_call4_call0_v1 : StableHlo.TRef sig ⟨S128x56000, .f32⟩) (.of main_v324 : StableHlo.TRef sig ⟨S128x56000, .f32⟩) (.of main_call4_v4 : StableHlo.TRef sig ⟨S128x56000, .f32⟩) select ]
theorem r6_2_sub : (r6_2 : List (HloOp τ sig (Elt F))).Forall fun op => op.bufs ⊆ StableHlo.tcRefs τ sig :=
  ⟨StableHlo.unary_bufs_sub .., StableHlo.unary_bufs_sub .., StableHlo.ternary_bufs_sub ..⟩
/-- The references these operations write, in order. -/
abbrev r6_2_writes : List (Ref sig .tc) := [main_call4_call0_v0, main_call4_call0_v1, main_call4_v4]
theorem r6_2_fresh : (r6_2 : List (HloOp τ sig (Elt F))).Forall fun op => op.fresh = ∅ := by
  simp only [List.Forall]; repeat' constructor

/-- 4 host operations of the reference's @main (window 6), in order. -/
abbrev r6_3 : List (HloOp τ sig (Elt F)) :=
  [ StableHlo.TRef.unary (.of main_call4_v4 : StableHlo.TRef sig ⟨S128x56000, .f32⟩) (.of main_call4_v5 : StableHlo.TRef sig ⟨S128x56000, .f32⟩) Host.expm1,
    StableHlo.TRef.nullary (.of main_call4_cst_2 : StableHlo.TRef sig ⟨S_, .f32⟩) (constant S_ .f32 0x3F800000#32),
    StableHlo.TRef.unary (.of main_call4_cst_2 : StableHlo.TRef sig ⟨S_, .f32⟩) (.of main_call4_v6 : StableHlo.TRef sig ⟨S128x56000, .f32⟩) (broadcastInDim S128x56000 ![] bcast_S_S128x56000),
    StableHlo.TRef.binary (.of main_call4_v6 : StableHlo.TRef sig ⟨S128x56000, .f32⟩) (.of main_call4_v5 : StableHlo.TRef sig ⟨S128x56000, .f32⟩) (.of main_call4_v7 : StableHlo.TRef sig ⟨S128x56000, .f32⟩) mulf ]
theorem r6_3_sub : (r6_3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- The references these operations write, in order. -/
abbrev r6_3_writes : List (Ref sig .tc) := [main_call4_v5, main_call4_cst_2, main_call4_v6, main_call4_v7]
theorem r6_3_fresh : (r6_3 : List (HloOp τ sig (Elt F))).Forall fun op => op.fresh = ∅ := by
  simp only [List.Forall]; repeat' constructor

/-- 1 host operations of the reference's @main (window 6), in order. -/
abbrev r6_4 : List (HloOp τ sig (Elt F)) :=
  [ StableHlo.TRef.ternary (.of main_call4_v1 : StableHlo.TRef sig ⟨S128x56000, .i1⟩) (.of main_v324 : StableHlo.TRef sig ⟨S128x56000, .f32⟩) (.of main_call4_v7 : StableHlo.TRef sig ⟨S128x56000, .f32⟩) (.of main_v325 : StableHlo.TRef sig ⟨S128x56000, .f32⟩) select ]
theorem r6_4_sub : (r6_4 : List (HloOp τ sig (Elt F))).Forall fun op => op.bufs ⊆ StableHlo.tcRefs τ sig :=
  StableHlo.ternary_bufs_sub ..
/-- The references these operations write, in order. -/
abbrev r6_4_writes : List (Ref sig .tc) := [main_v325]
theorem r6_4_fresh : (r6_4 : List (HloOp τ sig (Elt F))).Forall fun op => op.fresh = ∅ := by
  simp only [List.Forall]; repeat' constructor

/-- 24 host operations of the reference's @main (window 6), in order. -/
abbrev r6_5 : List (HloOp τ sig (Elt F)) :=
  [ StableHlo.unary main_arg7 main_v326 ((extractStridedSlice S1x293352 ![3, 0] · slices_S4x293352_S1x293352_3_0) : (⟨S4x293352, .f32⟩ : BufTy).Contents (Elt F) → (⟨S1x293352, .f32⟩ : BufTy).Contents (Elt F)),
    StableHlo.reshape main_v326 main_v327 rfl shapeCasts_S1x293352_S293352,
    StableHlo.nullary main_c_68 (constantI S_ 32 0#32),
    StableHlo.unary main_c_68 main_v328 (broadcastInDim S293352 ![] bcast_S_S293352 : (⟨S_, .i32⟩ : BufTy).Contents (Elt F) → (⟨S293352, .i32⟩ : BufTy).Contents (Elt F)),
    StableHlo.binary main_arg13 main_v328 main_v329 (cmpi .slt : (⟨S293352, .i32⟩ : BufTy).Contents (Elt F) → (⟨S293352, .i32⟩ : BufTy).Contents (Elt F) → (⟨S293352, .i1⟩ : BufTy).Contents (Elt F)),
    StableHlo.nullary main_c_69 (constantI S_ 32 56000#32),
    StableHlo.unary main_c_69 main_v330 (broadcastInDim S293352 ![] bcast_S_S293352 : (⟨S_, .i32⟩ : BufTy).Contents (Elt F) → (⟨S293352, .i32⟩ : BufTy).Contents (Elt F)),
    StableHlo.binary main_arg13 main_v330 main_v331 (addi : (⟨S293352, .i32⟩ : BufTy).Contents (Elt F) → (⟨S293352, .i32⟩ : BufTy).Contents (Elt F) → (⟨S293352, .i32⟩ : BufTy).Contents (Elt F)),
    StableHlo.ternary main_v329 main_v331 main_arg13 main_v332 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v332 main_v333 (broadcastInDim S293352x1 ![0] bcast_S293352_S293352x1_0 : (⟨S293352, .i32⟩ : BufTy).Contents (Elt F) → (⟨S293352x1, .i32⟩ : BufTy).Contents (Elt F)),
    StableHlo.binary main_v325 main_v333 main_v334 ((fun x i => Host.gather gather_S128x56000_S293352x1_S128x293352_0_1_n_n_1_1_1281 x i) : (⟨S128x56000, .f32⟩ : BufTy).Contents (Elt F) → (⟨S293352x1, .i32⟩ : BufTy).Contents (Elt F) → (⟨S128x293352, .f32⟩ : BufTy).Contents (Elt F)),
    StableHlo.unary main_v327 main_v335 (broadcastInDim S1x293352 ![1] bcast_S293352_S1x293352_1 : (⟨S293352, .f32⟩ : BufTy).Contents (Elt F) → (⟨S1x293352, .f32⟩ : BufTy).Contents (Elt F)),
    StableHlo.unary main_v335 main_v336 (broadcastInDim S128x293352 ![0, 1] bcast_S1x293352_S128x293352_0_1 : (⟨S1x293352, .f32⟩ : BufTy).Contents (Elt F) → (⟨S128x293352, .f32⟩ : BufTy).Contents (Elt F)),
    StableHlo.binary main_v334 main_v336 main_v337 (mulf : (⟨S128x293352, .f32⟩ : BufTy).Contents (Elt F) → (⟨S128x293352, .f32⟩ : BufTy).Contents (Elt F) → (⟨S128x293352, .f32⟩ : BufTy).Contents (Elt F)),
    StableHlo.nullary main_cst_70 (constant S_ .f32 0x00000000#32),
    StableHlo.unary main_cst_70 main_v338 (broadcastInDim S128x57000 ![] bcast_S_S128x57000 : (⟨S_, .f32⟩ : BufTy).Contents (Elt F) → (⟨S128x57000, .f32⟩ : BufTy).Contents (Elt F)),
    StableHlo.nullary main_c_71 (constantI S_ 32 0#32),
    StableHlo.unary main_c_71 main_v339 (broadcastInDim S293352 ![] bcast_S_S293352 : (⟨S_, .i32⟩ : BufTy).Contents (Elt F) → (⟨S293352, .i32⟩ : BufTy).Contents (Elt F)),
    StableHlo.binary main_arg14 main_v339 main_v340 (cmpi .slt : (⟨S293352, .i32⟩ : BufTy).Contents (Elt F) → (⟨S293352, .i32⟩ : BufTy).Contents (Elt F) → (⟨S293352, .i1⟩ : BufTy).Contents (Elt F)),
    StableHlo.nullary main_c_72 (constantI S_ 32 57000#32),
    StableHlo.unary main_c_72 main_v341 (broadcastInDim S293352 ![] bcast_S_S293352 : (⟨S_, .i32⟩ : BufTy).Contents (Elt F) → (⟨S293352, .i32⟩ : BufTy).Contents (Elt F)),
    StableHlo.binary main_arg14 main_v341 main_v342 (addi : (⟨S293352, .i32⟩ : BufTy).Contents (Elt F) → (⟨S293352, .i32⟩ : BufTy).Contents (Elt F) → (⟨S293352, .i32⟩ : BufTy).Contents (Elt F)),
    StableHlo.ternary main_v340 main_v342 main_arg14 main_v343 (select : (⟨S293352, .i1⟩ : BufTy).Contents (Elt F) → (⟨S293352, .i32⟩ : BufTy).Contents (Elt F) → (⟨S293352, .i32⟩ : BufTy).Contents (Elt F) → (⟨S293352, .i32⟩ : BufTy).Contents (Elt F)),
    StableHlo.unary main_v343 main_v344 (broadcastInDim S293352x1 ![0] bcast_S293352_S293352x1_0 : (⟨S293352, .i32⟩ : BufTy).Contents (Elt F) → (⟨S293352x1, .i32⟩ : BufTy).Contents (Elt F)) ]
theorem r6_5_sub : (r6_5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
/-- The references these operations write, in order. -/
abbrev r6_5_writes : List (Ref sig .tc) := [main_v326, main_v327, main_c_68, main_v328, main_v329, main_c_69, main_v330, main_v331, main_v332, main_v333, main_v334, main_v335, main_v336, main_v337, main_cst_70, main_v338, main_c_71, main_v339, main_v340, main_c_72, main_v341, main_v342, main_v343, main_v344]
theorem r6_5_fresh : (r6_5 : List (HloOp τ sig (Elt F))).Forall fun op => op.fresh = ∅ := by
  simp only [List.Forall]; repeat' constructor

/-- 7 host operations of the reference's @main (window 7), in order. -/
abbrev r7_0 : List (HloOp τ sig (Elt F)) :=
  [ StableHlo.ternary main_v338 main_v344 main_v337 main_v345 ((fun x i u => Host.scatterAdd scatter_S128x57000_S293352x1_S128x293352_0_1_1_1 x i u) : (⟨S128x57000, .f32⟩ : BufTy).Contents (Elt F) → (⟨S293352x1, .i32⟩ : BufTy).Contents (Elt F) → (⟨S128x293352, .f32⟩ : BufTy).Contents (Elt F) → (⟨S128x57000, .f32⟩ : BufTy).Contents (Elt F)),
    StableHlo.unary main_arg8 main_v346 ((extractStridedSlice S1x57000 ![3, 0] · slices_S4x57000_S1x57000_3_0) : (⟨S4x57000, .f32⟩ : BufTy).Contents (Elt F) → (⟨S1x57000, .f32⟩ : BufTy).Contents (Elt F)),
    StableHlo.reshape main_v346 main_v347 rfl shapeCasts_S1x57000_S57000,
    StableHlo.unary main_v347 main_v348 (broadcastInDim S1x57000 ![1] bcast_S57000_S1x57000_1 : (⟨S57000, .f32⟩ : BufTy).Contents (Elt F) → (⟨S1x57000, .f32⟩ : BufTy).Contents (Elt F)),
    StableHlo.unary main_v348 main_v349 (broadcastInDim S128x57000 ![0, 1] bcast_S1x57000_S128x57000_0_1 : (⟨S1x57000, .f32⟩ : BufTy).Contents (Elt F) → (⟨S128x57000, .f32⟩ : BufTy).Contents (Elt F)),
    StableHlo.binary main_v345 main_v349 main_v350 (addf : (⟨S128x57000, .f32⟩ : BufTy).Contents (Elt F) → (⟨S128x57000, .f32⟩ : BufTy).Contents (Elt F) → (⟨S128x57000, .f32⟩ : BufTy).Contents (Elt F)),
    StableHlo.binary main_v350 main_v278 main_v351 (addf : (⟨S128x57000, .f32⟩ : BufTy).Contents (Elt F) → (⟨S128x57000, .f32⟩ : BufTy).Contents (Elt F) → (⟨S128x57000, .f32⟩ : BufTy).Contents (Elt F)) ]
theorem r7_0_sub : (r7_0 : List (HloOp τ sig (Elt F))).Forall fun op => op.bufs ⊆ StableHlo.tcRefs τ sig :=
  ⟨StableHlo.ternary_bufs_sub .., StableHlo.unary_bufs_sub .., StableHlo.reshape_bufs_sub .., StableHlo.unary_bufs_sub .., StableHlo.unary_bufs_sub .., StableHlo.binary_bufs_sub .., StableHlo.binary_bufs_sub ..⟩
/-- The references these operations write, in order. -/
abbrev r7_0_writes : List (Ref sig .tc) := [main_v345, main_v346, main_v347, main_v348, main_v349, main_v350, main_v351]
theorem r7_0_fresh : (r7_0 : List (HloOp τ sig (Elt F))).Forall fun op => op.fresh = ∅ := by
  simp only [List.Forall]; repeat' constructor

/-- 16 host operations of the reference's @main (window 7), in order. -/
abbrev r7_1 : List (HloOp τ sig (Elt F)) :=
  [ StableHlo.nullary main_cst_73 (constant S_ .f32 0x40800000#32),
    StableHlo.unary main_cst_73 main_v352 (broadcastInDim S128x57000 ![] bcast_S_S128x57000 : (⟨S_, .f32⟩ : BufTy).Contents (Elt F) → (⟨S128x57000, .f32⟩ : BufTy).Contents (Elt F)),
    StableHlo.binary main_v351 main_v352 main_v353 (Host.divf : (⟨S128x57000, .f32⟩ : BufTy).Contents (Elt F) → (⟨S128x57000, .f32⟩ : BufTy).Contents (Elt F) → (⟨S128x57000, .f32⟩ : BufTy).Contents (Elt F)),
    StableHlo.nullary main_cst_74 (constant S_ .f32 0x00000000#32),
    StableHlo.unary main_cst_74 main_v354 (broadcastInDim S128x12000 ![] bcast_S_S128x12000 : (⟨S_, .f32⟩ : BufTy).Contents (Elt F) → (⟨S128x12000, .f32⟩ : BufTy).Contents (Elt F)),
    StableHlo.nullary main_c_75 (constantI S_ 32 0#32),
    StableHlo.unary main_c_75 main_v355 (broadcastInDim S57000 ![] bcast_S_S57000 : (⟨S_, .i32⟩ : BufTy).Contents (Elt F) → (⟨S57000, .i32⟩ : BufTy).Contents (Elt F)),
    StableHlo.binary main_arg10 main_v355 main_v356 (cmpi .slt : (⟨S57000, .i32⟩ : BufTy).Contents (Elt F) → (⟨S57000, .i32⟩ : BufTy).Contents (Elt F) → (⟨S57000, .i1⟩ : BufTy).Contents (Elt F)),
    StableHlo.nullary main_c_76 (constantI S_ 32 12000#32),
    StableHlo.unary main_c_76 main_v357 (broadcastInDim S57000 ![] bcast_S_S57000 : (⟨S_, .i32⟩ : BufTy).Contents (Elt F) → (⟨S57000, .i32⟩ : BufTy).Contents (Elt F)),
    StableHlo.binary main_arg10 main_v357 main_v358 (addi : (⟨S57000, .i32⟩ : BufTy).Contents (Elt F) → (⟨S57000, .i32⟩ : BufTy).Contents (Elt F) → (⟨S57000, .i32⟩ : BufTy).Contents (Elt F)),
    StableHlo.ternary main_v356 main_v358 main_arg10 main_v359 (select : (⟨S57000, .i1⟩ : BufTy).Contents (Elt F) → (⟨S57000, .i32⟩ : BufTy).Contents (Elt F) → (⟨S57000, .i32⟩ : BufTy).Contents (Elt F) → (⟨S57000, .i32⟩ : BufTy).Contents (Elt F)),
    StableHlo.unary main_v359 main_v360 (broadcastInDim S57000x1 ![0] bcast_S57000_S57000x1_0 : (⟨S57000, .i32⟩ : BufTy).Contents (Elt F) → (⟨S57000x1, .i32⟩ : BufTy).Contents (Elt F)),
    StableHlo.ternary main_v354 main_v360 main_v353 main_v361 ((fun x i u => Host.scatterAdd scatter_S128x12000_S57000x1_S128x57000_0_1_1_1 x i u) : (⟨S128x12000, .f32⟩ : BufTy).Contents (Elt F) → (⟨S57000x1, .i32⟩ : BufTy).Contents (Elt F) → (⟨S128x57000, .f32⟩ : BufTy).Contents (Elt F) → (⟨S128x12000, .f32⟩ : BufTy).Contents (Elt F)),
    StableHlo.unary main_arg16 main_v362 (broadcastInDim S1x12000 ![1] bcast_S12000_S1x12000_1 : (⟨S12000, .i1⟩ : BufTy).Contents (Elt F) → (⟨S1x12000, .i1⟩ : BufTy).Contents (Elt F)),
    StableHlo.nullary main_cst_77 (constant S_ .f32 0x00000000#32) ]
theorem r7_1_sub : (r7_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub ..⟩
/-- The references these operations write, in order. -/
abbrev r7_1_writes : List (Ref sig .tc) := [main_cst_73, main_v352, main_v353, main_cst_74, main_v354, main_c_75, main_v355, main_v356, main_c_76, main_v357, main_v358, main_v359, main_v360, main_v361, main_v362, main_cst_77]
theorem r7_1_fresh : (r7_1 : List (HloOp τ sig (Elt F))).Forall fun op => op.fresh = ∅ := by
  simp only [List.Forall]; repeat' constructor

/-- 4 host operations of the reference's @main (window 7), in order. -/
abbrev r7_2 : List (HloOp τ sig (Elt F)) :=
  [ StableHlo.TRef.unary (.of main_cst_77 : StableHlo.TRef sig ⟨S_, .f32⟩) (.of main_call5_v0 : StableHlo.TRef sig ⟨S_, .f32⟩) id,
    StableHlo.TRef.unary (.of main_v362 : StableHlo.TRef sig ⟨S1x12000, .i1⟩) (.of main_call5_v1 : StableHlo.TRef sig ⟨S128x12000, .i1⟩) (broadcastInDim S128x12000 ![0, 1] bcast_S1x12000_S128x12000_0_1),
    StableHlo.TRef.unary (.of main_call5_v0 : StableHlo.TRef sig ⟨S_, .f32⟩) (.of main_call5_v2 : StableHlo.TRef sig ⟨S128x12000, .f32⟩) (broadcastInDim S128x12000 ![] bcast_S_S128x12000),
    StableHlo.TRef.ternary (.of main_call5_v1 : StableHlo.TRef sig ⟨S128x12000, .i1⟩) (.of main_v361 : StableHlo.TRef sig ⟨S128x12000, .f32⟩) (.of main_call5_v2 : StableHlo.TRef sig ⟨S128x12000, .f32⟩) (.of main_v363 : StableHlo.TRef sig ⟨S128x12000, .f32⟩) select ]
theorem r7_2_sub : (r7_2 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- The references these operations write, in order. -/
abbrev r7_2_writes : List (Ref sig .tc) := [main_call5_v0, main_call5_v1, main_call5_v2, main_v363]
theorem r7_2_fresh : (r7_2 : List (HloOp τ sig (Elt F))).Forall fun op => op.fresh = ∅ := by
  simp only [List.Forall]; repeat' constructor

/-- 14 host operations: a part of `r0_0`. -/
abbrev r0_0a : List (HloOp τ sig (Elt F)) :=
  [ StableHlo.nullary main_c (constantI S_ 32 0#32),
    StableHlo.unary main_c main_v0 (broadcastInDim S3600 ![] bcast_S_S3600 : (⟨S_, .i32⟩ : BufTy).Contents (Elt F) → (⟨S3600, .i32⟩ : BufTy).Contents (Elt F)),
    StableHlo.binary main_arg15 main_v0 main_v1 (cmpi .slt : (⟨S3600, .i32⟩ : BufTy).Contents (Elt F) → (⟨S3600, .i32⟩ : BufTy).Contents (Elt F) → (⟨S3600, .i1⟩ : BufTy).Contents (Elt F)),
    StableHlo.nullary main_c_0 (constantI S_ 32 12000#32),
    StableHlo.unary main_c_0 main_v2 (broadcastInDim S3600 ![] bcast_S_S3600 : (⟨S_, .i32⟩ : BufTy).Contents (Elt F) → (⟨S3600, .i32⟩ : BufTy).Contents (Elt F)),
    StableHlo.binary main_arg15 main_v2 main_v3 (addi : (⟨S3600, .i32⟩ : BufTy).Contents (Elt F) → (⟨S3600, .i32⟩ : BufTy).Contents (Elt F) → (⟨S3600, .i32⟩ : BufTy).Contents (Elt F)),
    StableHlo.ternary main_v1 main_v3 main_arg15 main_v4 (select : (⟨S3600, .i1⟩ : BufTy).Contents (Elt F) → (⟨S3600, .i32⟩ : BufTy).Contents (Elt F) → (⟨S3600, .i32⟩ : BufTy).Contents (Elt F) → (⟨S3600, .i32⟩ : BufTy).Contents (Elt F)),
    StableHlo.nullary main_c_1 (constantI S_ 32 0#32),
    StableHlo.unary main_c_1 main_v5 (broadcastInDim S3600 ![] bcast_S_S3600 : (⟨S_, .i32⟩ : BufTy).Contents (Elt F) → (⟨S3600, .i32⟩ : BufTy).Contents (Elt F)),
    StableHlo.unary main_v5 main_v6 (id : (⟨S3600, .i32⟩ : BufTy).Contents (Elt F) → (⟨S3600, .i32⟩ : BufTy).Contents (Elt F)),
    StableHlo.unary main_v4 main_v7 (broadcastInDim S3600x1 ![0] bcast_S3600_S3600x1_0 : (⟨S3600, .i32⟩ : BufTy).Contents (Elt F) → (⟨S3600x1, .i32⟩ : BufTy).Contents (Elt F)),
    StableHlo.unary main_v6 main_v8 (broadcastInDim S3600x1 ![0] bcast_S3600_S3600x1_0 : (⟨S3600, .i32⟩ : BufTy).Contents (Elt F) → (⟨S3600x1, .i32⟩ : BufTy).Contents (Elt F)),
    StableHlo.binary main_v7 main_v8 main_v9 ((fun a b => concatenate S3600x2 1 [⟨S3600x1, a⟩, ⟨S3600x1, b⟩] concatenates_S3600x1_S3600x1_S3600x2_d1) : (⟨S3600x1, .i32⟩ : BufTy).Contents (Elt F) → (⟨S3600x1, .i32⟩ : BufTy).Contents (Elt F) → (⟨S3600x2, .i32⟩ : BufTy).Contents (Elt F)),
    StableHlo.binary main_arg0 main_v9 main_v10 ((fun x i => Host.gather gather_S128x12000x1_S3600x2_S128x3600_0_12_n_n_12_1_12811 x i) : (⟨S128x12000x1, .f32⟩ : BufTy).Contents (Elt F) → (⟨S3600x2, .i32⟩ : BufTy).Contents (Elt F) → (⟨S128x3600, .f32⟩ : BufTy).Contents (Elt F)) ]
/-- The references these operations write, in order. -/
abbrev r0_0a_writes : List (Ref sig .tc) := [main_c, main_v0, main_v1, main_c_0, main_v2, main_v3, main_v4, main_c_1, main_v5, main_v6, main_v7, main_v8, main_v9, main_v10]

/-- 4 host operations: a part of `r0_0`. -/
abbrev r0_0b : List (HloOp τ sig (Elt F)) :=
  [ StableHlo.binary main_v10 main_arg1 main_v11 ((fun l r => Host.dotGeneral dot_S128x3600_S3600x100_S128x100_1_0_0_1_n_n none l r) : (⟨S128x3600, .f32⟩ : BufTy).Contents (Elt F) → (⟨S3600x100, .f32⟩ : BufTy).Contents (Elt F) → (⟨S128x100, .f32⟩ : BufTy).Contents (Elt F)),
    StableHlo.unary main_arg2 main_v12 (broadcastInDim S1x100 ![1] bcast_S100_S1x100_1 : (⟨S100, .f32⟩ : BufTy).Contents (Elt F) → (⟨S1x100, .f32⟩ : BufTy).Contents (Elt F)),
    StableHlo.unary main_v12 main_v13 (broadcastInDim S128x100 ![0, 1] bcast_S1x100_S128x100_0_1 : (⟨S1x100, .f32⟩ : BufTy).Contents (Elt F) → (⟨S128x100, .f32⟩ : BufTy).Contents (Elt F)),
    StableHlo.binary main_v11 main_v13 main_v14 (addf : (⟨S128x100, .f32⟩ : BufTy).Contents (Elt F) → (⟨S128x100, .f32⟩ : BufTy).Contents (Elt F) → (⟨S128x100, .f32⟩ : BufTy).Contents (Elt F)) ]
/-- The references these operations write, in order. -/
abbrev r0_0b_writes : List (Ref sig .tc) := [main_v11, main_v12, main_v13, main_v14]

/-- The stretch is its two parts, one after the other. -/
theorem r0_0_split : (r0_0 : List (HloOp τ sig (Elt F))) = r0_0a ++ r0_0b := rfl

/-- Window 0 of @main is the chain of its stretches. -/
theorem main_part0_chain (c : Dev nD) : main_part0 (F := F) c = (Pipeline.chainK
  [ StableHlo.seq r0_0,
    StableHlo.seq r0_1,
    StableHlo.seq r0_2,
    StableHlo.seq r0_3,
    StableHlo.seq r0_4 ] (StableHlo.seq r0_5) : Prog (TpuEff nD τ sig (Elt F) (Pipeline.Sig Λ₀ (Fin 0) fun p => (pcfgs (F := F) p).Adm) .tc) PUnit) := by
  chain_rfl

/-- Window 1 of @main is the chain of its stretches. -/
theorem main_part1_chain (c : Dev nD) : main_part1 (F := F) c = (Pipeline.chainK
  [ StableHlo.seq r1_0 ] (StableHlo.seq r1_1) : Prog (TpuEff nD τ sig (Elt F) (Pipeline.Sig Λ₀ (Fin 0) fun p => (pcfgs (F := F) p).Adm) .tc) PUnit) := by
  chain_rfl

/-- Window 2 of @main is the chain of its stretches. -/
theorem main_part2_chain (c : Dev nD) : main_part2 (F := F) c = (Pipeline.chainK
  [ StableHlo.seq r2_0,
    StableHlo.seq r2_1,
    StableHlo.seq r2_2,
    StableHlo.seq r2_3,
    StableHlo.seq r2_4,
    StableHlo.seq r2_5 ] (StableHlo.seq r2_6) : Prog (TpuEff nD τ sig (Elt F) (Pipeline.Sig Λ₀ (Fin 0) fun p => (pcfgs (F := F) p).Adm) .tc) PUnit) := by
  chain_rfl

/-- Window 3 of @main is the chain of its stretches. -/
theorem main_part3_chain (c : Dev nD) : main_part3 (F := F) c = (Pipeline.chainK
  [ StableHlo.seq r3_0,
    StableHlo.seq r3_1,
    StableHlo.seq r3_2,
    StableHlo.seq r3_3,
    StableHlo.seq r3_4 ] (StableHlo.seq r3_5) : Prog (TpuEff nD τ sig (Elt F) (Pipeline.Sig Λ₀ (Fin 0) fun p => (pcfgs (F := F) p).Adm) .tc) PUnit) := by
  chain_rfl

/-- Window 4 of @main is the chain of its stretches. -/
theorem main_part4_chain (c : Dev nD) : main_part4 (F := F) c = (Pipeline.chainK
  [ StableHlo.seq r4_0 ] (StableHlo.seq r4_1) : Prog (TpuEff nD τ sig (Elt F) (Pipeline.Sig Λ₀ (Fin 0) fun p => (pcfgs (F := F) p).Adm) .tc) PUnit) := by
  chain_rfl

/-- Window 5 of @main is the chain of its stretches. -/
theorem main_part5_chain (c : Dev nD) : main_part5 (F := F) c = (Pipeline.chainK
  [ StableHlo.seq r5_0,
    StableHlo.seq r5_1,
    StableHlo.seq r5_2,
    StableHlo.seq r5_3,
    StableHlo.seq r5_4,
    StableHlo.seq r5_5 ] (StableHlo.seq r5_6) : Prog (TpuEff nD τ sig (Elt F) (Pipeline.Sig Λ₀ (Fin 0) fun p => (pcfgs (F := F) p).Adm) .tc) PUnit) := by
  chain_rfl

/-- Window 6 of @main is the chain of its stretches. -/
theorem main_part6_chain (c : Dev nD) : main_part6 (F := F) c = (Pipeline.chainK
  [ StableHlo.seq r6_0,
    StableHlo.seq r6_1,
    StableHlo.seq r6_2,
    StableHlo.seq r6_3,
    StableHlo.seq r6_4 ] (StableHlo.seq r6_5) : Prog (TpuEff nD τ sig (Elt F) (Pipeline.Sig Λ₀ (Fin 0) fun p => (pcfgs (F := F) p).Adm) .tc) PUnit) := by
  chain_rfl

/-- Window 7 of @main is the chain of its stretches. -/
theorem main_part7_chain (c : Dev nD) : main_part7 (F := F) c = (Pipeline.chain
  [ StableHlo.seq r7_0,
    StableHlo.seq r7_1,
    StableHlo.seq r7_2 ] : Prog (TpuEff nD τ sig (Elt F) (Pipeline.Sig Λ₀ (Fin 0) fun p => (pcfgs (F := F) p).Adm) .tc) PUnit) := by
  chain_rfl

/-- Every stretch of @main, in order. -/
abbrev stretches : List (List (HloOp τ sig (Elt F))) :=
  [ r0_0, r0_1, r0_2, r0_3, r0_4, r0_5, r1_0, r1_1, r2_0, r2_1, r2_2, r2_3, r2_4, r2_5, r2_6, r3_0, r3_1, r3_2, r3_3, r3_4, r3_5, r4_0, r4_1, r5_0, r5_1, r5_2, r5_3, r5_4, r5_5, r5_6, r6_0, r6_1, r6_2, r6_3, r6_4, r6_5, r7_0, r7_1, r7_2 ]

end Cert.ReferenceIdeal.Ops

end
-- ==== Proof.RefKeeps.lean ====
import proofs.«157921_j32839319945335_1_alg».proof.Proof.RefOps
import Idealize.ShloMosaic.Lib.StableHlo.Run

/-! # What each stretch of the reference writes, and what it keeps

Every operation of a stretch writes exactly one reference: its result. Listing the results of a stretch in
order (`rK_writes`) and pairing the list with the stretch's operations position by position gives, for each
stretch, that all its writes lie inside the list (`rK_writes_sub`); a reference outside the list therefore
holds after the stretch what it held before (`rK_keeps`). -/

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- Two lists related position by position: every member of the first has a partner in the second. -/
theorem exists_mem_of_forall₂ {α β : Type} {R : α → β → Prop} {l₁ : List α} {l₂ : List β}
    (h : List.Forall₂ R l₁ l₂) {a : α} (ha : a ∈ l₁) : ∃ b ∈ l₂, R a b := by
  induction h with
  | nil => cases ha
  | cons hab _ ih =>
    rcases List.mem_cons.mp ha with rfl | ha
    · exact ⟨_, List.mem_cons_self, hab⟩
    · obtain ⟨b, hb, hr⟩ := ih ha
      exact ⟨b, List.mem_cons_of_mem _ hb, hr⟩

/-- If the operations of a line write, position by position, exactly the references of a list, then every
    operation's writes lie inside that list. -/
theorem writes_sub_of_forall₂ {ops : List (HloOp τ sig (Elt F))} {W : List (Ref sig .tc)}
    (h : List.Forall₂ (fun op y => op.writes = {Proc.devRef (τ := τ) .tc y}) ops W) :
    ops.Forall fun op => op.writes ⊆ (W.map (Proc.devRef (τ := τ) .tc)).toFinset :=
  List.forall_iff_forall_mem.mpr fun op hop => by
    obtain ⟨y, hy, hw⟩ := exists_mem_of_forall₂ h hop
    rw [hw, Finset.singleton_subset_iff, List.mem_toFinset]
    exact List.mem_map_of_mem hy

/-- Pairs a literal line with the literal list of its results: one `rfl` per operation. -/
local macro "pair_writes" : tactic =>
  `(tactic| repeat (first | exact List.Forall₂.nil | refine List.Forall₂.cons rfl ?_))

/-- Stretch `r0_0` writes inside `r0_0_writes`. -/
theorem r0_0_writes_sub : (r0_0 : List (HloOp τ sig (Elt F))).Forall fun op => op.writes ⊆ ((r0_0_writes).map (Proc.devRef (τ := τ) .tc)).toFinset :=
  writes_sub_of_forall₂ (by pair_writes)
/-- A reference `r0_0` does not write keeps its contents across it. -/
theorem r0_0_keeps (V : Valuation τ sig (Elt F)) (b : Ref sig .tc) (hb : b ∉ r0_0_writes) :
    StableHlo.after r0_0 V (Proc.devRef .tc b) = V (Proc.devRef .tc b) :=
  StableHlo.after_of_writes_sub r0_0 V r0_0_writes_sub hb

/-- Stretch `r0_1` writes inside `r0_1_writes`. -/
theorem r0_1_writes_sub : (r0_1 : List (HloOp τ sig (Elt F))).Forall fun op => op.writes ⊆ ((r0_1_writes).map (Proc.devRef (τ := τ) .tc)).toFinset :=
  writes_sub_of_forall₂ (by pair_writes)
/-- A reference `r0_1` does not write keeps its contents across it. -/
theorem r0_1_keeps (V : Valuation τ sig (Elt F)) (b : Ref sig .tc) (hb : b ∉ r0_1_writes) :
    StableHlo.after r0_1 V (Proc.devRef .tc b) = V (Proc.devRef .tc b) :=
  StableHlo.after_of_writes_sub r0_1 V r0_1_writes_sub hb

/-- Stretch `r0_2` writes inside `r0_2_writes`. -/
theorem r0_2_writes_sub : (r0_2 : List (HloOp τ sig (Elt F))).Forall fun op => op.writes ⊆ ((r0_2_writes).map (Proc.devRef (τ := τ) .tc)).toFinset :=
  writes_sub_of_forall₂ (by pair_writes)
/-- A reference `r0_2` does not write keeps its contents across it. -/
theorem r0_2_keeps (V : Valuation τ sig (Elt F)) (b : Ref sig .tc) (hb : b ∉ r0_2_writes) :
    StableHlo.after r0_2 V (Proc.devRef .tc b) = V (Proc.devRef .tc b) :=
  StableHlo.after_of_writes_sub r0_2 V r0_2_writes_sub hb

/-- Stretch `r0_3` writes inside `r0_3_writes`. -/
theorem r0_3_writes_sub : (r0_3 : List (HloOp τ sig (Elt F))).Forall fun op => op.writes ⊆ ((r0_3_writes).map (Proc.devRef (τ := τ) .tc)).toFinset :=
  writes_sub_of_forall₂ (by pair_writes)
/-- A reference `r0_3` does not write keeps its contents across it. -/
theorem r0_3_keeps (V : Valuation τ sig (Elt F)) (b : Ref sig .tc) (hb : b ∉ r0_3_writes) :
    StableHlo.after r0_3 V (Proc.devRef .tc b) = V (Proc.devRef .tc b) :=
  StableHlo.after_of_writes_sub r0_3 V r0_3_writes_sub hb

/-- Stretch `r0_4` writes inside `r0_4_writes`. -/
theorem r0_4_writes_sub : (r0_4 : List (HloOp τ sig (Elt F))).Forall fun op => op.writes ⊆ ((r0_4_writes).map (Proc.devRef (τ := τ) .tc)).toFinset :=
  writes_sub_of_forall₂ (by pair_writes)
/-- A reference `r0_4` does not write keeps its contents across it. -/
theorem r0_4_keeps (V : Valuation τ sig (Elt F)) (b : Ref sig .tc) (hb : b ∉ r0_4_writes) :
    StableHlo.after r0_4 V (Proc.devRef .tc b) = V (Proc.devRef .tc b) :=
  StableHlo.after_of_writes_sub r0_4 V r0_4_writes_sub hb

/-- Stretch `r0_5` writes inside `r0_5_writes`. -/
theorem r0_5_writes_sub : (r0_5 : List (HloOp τ sig (Elt F))).Forall fun op => op.writes ⊆ ((r0_5_writes).map (Proc.devRef (τ := τ) .tc)).toFinset :=
  writes_sub_of_forall₂ (by pair_writes)
/-- A reference `r0_5` does not write keeps its contents across it. -/
theorem r0_5_keeps (V : Valuation τ sig (Elt F)) (b : Ref sig .tc) (hb : b ∉ r0_5_writes) :
    StableHlo.after r0_5 V (Proc.devRef .tc b) = V (Proc.devRef .tc b) :=
  StableHlo.after_of_writes_sub r0_5 V r0_5_writes_sub hb

/-- Stretch `r1_0` writes inside `r1_0_writes`. -/
theorem r1_0_writes_sub : (r1_0 : List (HloOp τ sig (Elt F))).Forall fun op => op.writes ⊆ ((r1_0_writes).map (Proc.devRef (τ := τ) .tc)).toFinset :=
  writes_sub_of_forall₂ (by pair_writes)
/-- A reference `r1_0` does not write keeps its contents across it. -/
theorem r1_0_keeps (V : Valuation τ sig (Elt F)) (b : Ref sig .tc) (hb : b ∉ r1_0_writes) :
    StableHlo.after r1_0 V (Proc.devRef .tc b) = V (Proc.devRef .tc b) :=
  StableHlo.after_of_writes_sub r1_0 V r1_0_writes_sub hb

/-- Stretch `r1_1` writes inside `r1_1_writes`. -/
theorem r1_1_writes_sub : (r1_1 : List (HloOp τ sig (Elt F))).Forall fun op => op.writes ⊆ ((r1_1_writes).map (Proc.devRef (τ := τ) .tc)).toFinset :=
  writes_sub_of_forall₂ (by pair_writes)
/-- A reference `r1_1` does not write keeps its contents across it. -/
theorem r1_1_keeps (V : Valuation τ sig (Elt F)) (b : Ref sig .tc) (hb : b ∉ r1_1_writes) :
    StableHlo.after r1_1 V (Proc.devRef .tc b) = V (Proc.devRef .tc b) :=
  StableHlo.after_of_writes_sub r1_1 V r1_1_writes_sub hb

/-- Stretch `r2_0` writes inside `r2_0_writes`. -/
theorem r2_0_writes_sub : (r2_0 : List (HloOp τ sig (Elt F))).Forall fun op => op.writes ⊆ ((r2_0_writes).map (Proc.devRef (τ := τ) .tc)).toFinset :=
  writes_sub_of_forall₂ (by pair_writes)
/-- A reference `r2_0` does not write keeps its contents across it. -/
theorem r2_0_keeps (V : Valuation τ sig (Elt F)) (b : Ref sig .tc) (hb : b ∉ r2_0_writes) :
    StableHlo.after r2_0 V (Proc.devRef .tc b) = V (Proc.devRef .tc b) :=
  StableHlo.after_of_writes_sub r2_0 V r2_0_writes_sub hb

/-- Stretch `r2_1` writes inside `r2_1_writes`. -/
theorem r2_1_writes_sub : (r2_1 : List (HloOp τ sig (Elt F))).Forall fun op => op.writes ⊆ ((r2_1_writes).map (Proc.devRef (τ := τ) .tc)).toFinset :=
  writes_sub_of_forall₂ (by pair_writes)
/-- A reference `r2_1` does not write keeps its contents across it. -/
theorem r2_1_keeps (V : Valuation τ sig (Elt F)) (b : Ref sig .tc) (hb : b ∉ r2_1_writes) :
    StableHlo.after r2_1 V (Proc.devRef .tc b) = V (Proc.devRef .tc b) :=
  StableHlo.after_of_writes_sub r2_1 V r2_1_writes_sub hb

/-- Stretch `r2_2` writes inside `r2_2_writes`. -/
theorem r2_2_writes_sub : (r2_2 : List (HloOp τ sig (Elt F))).Forall fun op => op.writes ⊆ ((r2_2_writes).map (Proc.devRef (τ := τ) .tc)).toFinset :=
  writes_sub_of_forall₂ (by pair_writes)
/-- A reference `r2_2` does not write keeps its contents across it. -/
theorem r2_2_keeps (V : Valuation τ sig (Elt F)) (b : Ref sig .tc) (hb : b ∉ r2_2_writes) :
    StableHlo.after r2_2 V (Proc.devRef .tc b) = V (Proc.devRef .tc b) :=
  StableHlo.after_of_writes_sub r2_2 V r2_2_writes_sub hb

/-- Stretch `r2_3` writes inside `r2_3_writes`. -/
theorem r2_3_writes_sub : (r2_3 : List (HloOp τ sig (Elt F))).Forall fun op => op.writes ⊆ ((r2_3_writes).map (Proc.devRef (τ := τ) .tc)).toFinset :=
  writes_sub_of_forall₂ (by pair_writes)
/-- A reference `r2_3` does not write keeps its contents across it. -/
theorem r2_3_keeps (V : Valuation τ sig (Elt F)) (b : Ref sig .tc) (hb : b ∉ r2_3_writes) :
    StableHlo.after r2_3 V (Proc.devRef .tc b) = V (Proc.devRef .tc b) :=
  StableHlo.after_of_writes_sub r2_3 V r2_3_writes_sub hb

/-- Stretch `r2_4` writes inside `r2_4_writes`. -/
theorem r2_4_writes_sub : (r2_4 : List (HloOp τ sig (Elt F))).Forall fun op => op.writes ⊆ ((r2_4_writes).map (Proc.devRef (τ := τ) .tc)).toFinset :=
  writes_sub_of_forall₂ (by pair_writes)
/-- A reference `r2_4` does not write keeps its contents across it. -/
theorem r2_4_keeps (V : Valuation τ sig (Elt F)) (b : Ref sig .tc) (hb : b ∉ r2_4_writes) :
    StableHlo.after r2_4 V (Proc.devRef .tc b) = V (Proc.devRef .tc b) :=
  StableHlo.after_of_writes_sub r2_4 V r2_4_writes_sub hb

/-- Stretch `r2_5` writes inside `r2_5_writes`. -/
theorem r2_5_writes_sub : (r2_5 : List (HloOp τ sig (Elt F))).Forall fun op => op.writes ⊆ ((r2_5_writes).map (Proc.devRef (τ := τ) .tc)).toFinset :=
  writes_sub_of_forall₂ (by pair_writes)
/-- A reference `r2_5` does not write keeps its contents across it. -/
theorem r2_5_keeps (V : Valuation τ sig (Elt F)) (b : Ref sig .tc) (hb : b ∉ r2_5_writes) :
    StableHlo.after r2_5 V (Proc.devRef .tc b) = V (Proc.devRef .tc b) :=
  StableHlo.after_of_writes_sub r2_5 V r2_5_writes_sub hb

/-- Stretch `r2_6` writes inside `r2_6_writes`. -/
theorem r2_6_writes_sub : (r2_6 : List (HloOp τ sig (Elt F))).Forall fun op => op.writes ⊆ ((r2_6_writes).map (Proc.devRef (τ := τ) .tc)).toFinset :=
  writes_sub_of_forall₂ (by pair_writes)
/-- A reference `r2_6` does not write keeps its contents across it. -/
theorem r2_6_keeps (V : Valuation τ sig (Elt F)) (b : Ref sig .tc) (hb : b ∉ r2_6_writes) :
    StableHlo.after r2_6 V (Proc.devRef .tc b) = V (Proc.devRef .tc b) :=
  StableHlo.after_of_writes_sub r2_6 V r2_6_writes_sub hb

/-- Stretch `r3_0` writes inside `r3_0_writes`. -/
theorem r3_0_writes_sub : (r3_0 : List (HloOp τ sig (Elt F))).Forall fun op => op.writes ⊆ ((r3_0_writes).map (Proc.devRef (τ := τ) .tc)).toFinset :=
  writes_sub_of_forall₂ (by pair_writes)
/-- A reference `r3_0` does not write keeps its contents across it. -/
theorem r3_0_keeps (V : Valuation τ sig (Elt F)) (b : Ref sig .tc) (hb : b ∉ r3_0_writes) :
    StableHlo.after r3_0 V (Proc.devRef .tc b) = V (Proc.devRef .tc b) :=
  StableHlo.after_of_writes_sub r3_0 V r3_0_writes_sub hb

/-- Stretch `r3_1` writes inside `r3_1_writes`. -/
theorem r3_1_writes_sub : (r3_1 : List (HloOp τ sig (Elt F))).Forall fun op => op.writes ⊆ ((r3_1_writes).map (Proc.devRef (τ := τ) .tc)).toFinset :=
  writes_sub_of_forall₂ (by pair_writes)
/-- A reference `r3_1` does not write keeps its contents across it. -/
theorem r3_1_keeps (V : Valuation τ sig (Elt F)) (b : Ref sig .tc) (hb : b ∉ r3_1_writes) :
    StableHlo.after r3_1 V (Proc.devRef .tc b) = V (Proc.devRef .tc b) :=
  StableHlo.after_of_writes_sub r3_1 V r3_1_writes_sub hb

/-- Stretch `r3_2` writes inside `r3_2_writes`. -/
theorem r3_2_writes_sub : (r3_2 : List (HloOp τ sig (Elt F))).Forall fun op => op.writes ⊆ ((r3_2_writes).map (Proc.devRef (τ := τ) .tc)).toFinset :=
  writes_sub_of_forall₂ (by pair_writes)
/-- A reference `r3_2` does not write keeps its contents across it. -/
theorem r3_2_keeps (V : Valuation τ sig (Elt F)) (b : Ref sig .tc) (hb : b ∉ r3_2_writes) :
    StableHlo.after r3_2 V (Proc.devRef .tc b) = V (Proc.devRef .tc b) :=
  StableHlo.after_of_writes_sub r3_2 V r3_2_writes_sub hb

/-- Stretch `r3_3` writes inside `r3_3_writes`. -/
theorem r3_3_writes_sub : (r3_3 : List (HloOp τ sig (Elt F))).Forall fun op => op.writes ⊆ ((r3_3_writes).map (Proc.devRef (τ := τ) .tc)).toFinset :=
  writes_sub_of_forall₂ (by pair_writes)
/-- A reference `r3_3` does not write keeps its contents across it. -/
theorem r3_3_keeps (V : Valuation τ sig (Elt F)) (b : Ref sig .tc) (hb : b ∉ r3_3_writes) :
    StableHlo.after r3_3 V (Proc.devRef .tc b) = V (Proc.devRef .tc b) :=
  StableHlo.after_of_writes_sub r3_3 V r3_3_writes_sub hb

/-- Stretch `r3_4` writes inside `r3_4_writes`. -/
theorem r3_4_writes_sub : (r3_4 : List (HloOp τ sig (Elt F))).Forall fun op => op.writes ⊆ ((r3_4_writes).map (Proc.devRef (τ := τ) .tc)).toFinset :=
  writes_sub_of_forall₂ (by pair_writes)
/-- A reference `r3_4` does not write keeps its contents across it. -/
theorem r3_4_keeps (V : Valuation τ sig (Elt F)) (b : Ref sig .tc) (hb : b ∉ r3_4_writes) :
    StableHlo.after r3_4 V (Proc.devRef .tc b) = V (Proc.devRef .tc b) :=
  StableHlo.after_of_writes_sub r3_4 V r3_4_writes_sub hb

/-- Stretch `r3_5` writes inside `r3_5_writes`. -/
theorem r3_5_writes_sub : (r3_5 : List (HloOp τ sig (Elt F))).Forall fun op => op.writes ⊆ ((r3_5_writes).map (Proc.devRef (τ := τ) .tc)).toFinset :=
  writes_sub_of_forall₂ (by pair_writes)
/-- A reference `r3_5` does not write keeps its contents across it. -/
theorem r3_5_keeps (V : Valuation τ sig (Elt F)) (b : Ref sig .tc) (hb : b ∉ r3_5_writes) :
    StableHlo.after r3_5 V (Proc.devRef .tc b) = V (Proc.devRef .tc b) :=
  StableHlo.after_of_writes_sub r3_5 V r3_5_writes_sub hb

/-- Stretch `r4_0` writes inside `r4_0_writes`. -/
theorem r4_0_writes_sub : (r4_0 : List (HloOp τ sig (Elt F))).Forall fun op => op.writes ⊆ ((r4_0_writes).map (Proc.devRef (τ := τ) .tc)).toFinset :=
  writes_sub_of_forall₂ (by pair_writes)
/-- A reference `r4_0` does not write keeps its contents across it. -/
theorem r4_0_keeps (V : Valuation τ sig (Elt F)) (b : Ref sig .tc) (hb : b ∉ r4_0_writes) :
    StableHlo.after r4_0 V (Proc.devRef .tc b) = V (Proc.devRef .tc b) :=
  StableHlo.after_of_writes_sub r4_0 V r4_0_writes_sub hb

/-- Stretch `r4_1` writes inside `r4_1_writes`. -/
theorem r4_1_writes_sub : (r4_1 : List (HloOp τ sig (Elt F))).Forall fun op => op.writes ⊆ ((r4_1_writes).map (Proc.devRef (τ := τ) .tc)).toFinset :=
  writes_sub_of_forall₂ (by pair_writes)
/-- A reference `r4_1` does not write keeps its contents across it. -/
theorem r4_1_keeps (V : Valuation τ sig (Elt F)) (b : Ref sig .tc) (hb : b ∉ r4_1_writes) :
    StableHlo.after r4_1 V (Proc.devRef .tc b) = V (Proc.devRef .tc b) :=
  StableHlo.after_of_writes_sub r4_1 V r4_1_writes_sub hb

/-- Stretch `r5_0` writes inside `r5_0_writes`. -/
theorem r5_0_writes_sub : (r5_0 : List (HloOp τ sig (Elt F))).Forall fun op => op.writes ⊆ ((r5_0_writes).map (Proc.devRef (τ := τ) .tc)).toFinset :=
  writes_sub_of_forall₂ (by pair_writes)
/-- A reference `r5_0` does not write keeps its contents across it. -/
theorem r5_0_keeps (V : Valuation τ sig (Elt F)) (b : Ref sig .tc) (hb : b ∉ r5_0_writes) :
    StableHlo.after r5_0 V (Proc.devRef .tc b) = V (Proc.devRef .tc b) :=
  StableHlo.after_of_writes_sub r5_0 V r5_0_writes_sub hb

/-- Stretch `r5_1` writes inside `r5_1_writes`. -/
theorem r5_1_writes_sub : (r5_1 : List (HloOp τ sig (Elt F))).Forall fun op => op.writes ⊆ ((r5_1_writes).map (Proc.devRef (τ := τ) .tc)).toFinset :=
  writes_sub_of_forall₂ (by pair_writes)
/-- A reference `r5_1` does not write keeps its contents across it. -/
theorem r5_1_keeps (V : Valuation τ sig (Elt F)) (b : Ref sig .tc) (hb : b ∉ r5_1_writes) :
    StableHlo.after r5_1 V (Proc.devRef .tc b) = V (Proc.devRef .tc b) :=
  StableHlo.after_of_writes_sub r5_1 V r5_1_writes_sub hb

/-- Stretch `r5_2` writes inside `r5_2_writes`. -/
theorem r5_2_writes_sub : (r5_2 : List (HloOp τ sig (Elt F))).Forall fun op => op.writes ⊆ ((r5_2_writes).map (Proc.devRef (τ := τ) .tc)).toFinset :=
  writes_sub_of_forall₂ (by pair_writes)
/-- A reference `r5_2` does not write keeps its contents across it. -/
theorem r5_2_keeps (V : Valuation τ sig (Elt F)) (b : Ref sig .tc) (hb : b ∉ r5_2_writes) :
    StableHlo.after r5_2 V (Proc.devRef .tc b) = V (Proc.devRef .tc b) :=
  StableHlo.after_of_writes_sub r5_2 V r5_2_writes_sub hb

/-- Stretch `r5_3` writes inside `r5_3_writes`. -/
theorem r5_3_writes_sub : (r5_3 : List (HloOp τ sig (Elt F))).Forall fun op => op.writes ⊆ ((r5_3_writes).map (Proc.devRef (τ := τ) .tc)).toFinset :=
  writes_sub_of_forall₂ (by pair_writes)
/-- A reference `r5_3` does not write keeps its contents across it. -/
theorem r5_3_keeps (V : Valuation τ sig (Elt F)) (b : Ref sig .tc) (hb : b ∉ r5_3_writes) :
    StableHlo.after r5_3 V (Proc.devRef .tc b) = V (Proc.devRef .tc b) :=
  StableHlo.after_of_writes_sub r5_3 V r5_3_writes_sub hb

/-- Stretch `r5_4` writes inside `r5_4_writes`. -/
theorem r5_4_writes_sub : (r5_4 : List (HloOp τ sig (Elt F))).Forall fun op => op.writes ⊆ ((r5_4_writes).map (Proc.devRef (τ := τ) .tc)).toFinset :=
  writes_sub_of_forall₂ (by pair_writes)
/-- A reference `r5_4` does not write keeps its contents across it. -/
theorem r5_4_keeps (V : Valuation τ sig (Elt F)) (b : Ref sig .tc) (hb : b ∉ r5_4_writes) :
    StableHlo.after r5_4 V (Proc.devRef .tc b) = V (Proc.devRef .tc b) :=
  StableHlo.after_of_writes_sub r5_4 V r5_4_writes_sub hb

/-- Stretch `r5_5` writes inside `r5_5_writes`. -/
theorem r5_5_writes_sub : (r5_5 : List (HloOp τ sig (Elt F))).Forall fun op => op.writes ⊆ ((r5_5_writes).map (Proc.devRef (τ := τ) .tc)).toFinset :=
  writes_sub_of_forall₂ (by pair_writes)
/-- A reference `r5_5` does not write keeps its contents across it. -/
theorem r5_5_keeps (V : Valuation τ sig (Elt F)) (b : Ref sig .tc) (hb : b ∉ r5_5_writes) :
    StableHlo.after r5_5 V (Proc.devRef .tc b) = V (Proc.devRef .tc b) :=
  StableHlo.after_of_writes_sub r5_5 V r5_5_writes_sub hb

/-- Stretch `r5_6` writes inside `r5_6_writes`. -/
theorem r5_6_writes_sub : (r5_6 : List (HloOp τ sig (Elt F))).Forall fun op => op.writes ⊆ ((r5_6_writes).map (Proc.devRef (τ := τ) .tc)).toFinset :=
  writes_sub_of_forall₂ (by pair_writes)
/-- A reference `r5_6` does not write keeps its contents across it. -/
theorem r5_6_keeps (V : Valuation τ sig (Elt F)) (b : Ref sig .tc) (hb : b ∉ r5_6_writes) :
    StableHlo.after r5_6 V (Proc.devRef .tc b) = V (Proc.devRef .tc b) :=
  StableHlo.after_of_writes_sub r5_6 V r5_6_writes_sub hb

/-- Stretch `r6_0` writes inside `r6_0_writes`. -/
theorem r6_0_writes_sub : (r6_0 : List (HloOp τ sig (Elt F))).Forall fun op => op.writes ⊆ ((r6_0_writes).map (Proc.devRef (τ := τ) .tc)).toFinset :=
  writes_sub_of_forall₂ (by pair_writes)
/-- A reference `r6_0` does not write keeps its contents across it. -/
theorem r6_0_keeps (V : Valuation τ sig (Elt F)) (b : Ref sig .tc) (hb : b ∉ r6_0_writes) :
    StableHlo.after r6_0 V (Proc.devRef .tc b) = V (Proc.devRef .tc b) :=
  StableHlo.after_of_writes_sub r6_0 V r6_0_writes_sub hb

/-- Stretch `r6_1` writes inside `r6_1_writes`. -/
theorem r6_1_writes_sub : (r6_1 : List (HloOp τ sig (Elt F))).Forall fun op => op.writes ⊆ ((r6_1_writes).map (Proc.devRef (τ := τ) .tc)).toFinset :=
  writes_sub_of_forall₂ (by pair_writes)
/-- A reference `r6_1` does not write keeps its contents across it. -/
theorem r6_1_keeps (V : Valuation τ sig (Elt F)) (b : Ref sig .tc) (hb : b ∉ r6_1_writes) :
    StableHlo.after r6_1 V (Proc.devRef .tc b) = V (Proc.devRef .tc b) :=
  StableHlo.after_of_writes_sub r6_1 V r6_1_writes_sub hb

/-- Stretch `r6_2` writes inside `r6_2_writes`. -/
theorem r6_2_writes_sub : (r6_2 : List (HloOp τ sig (Elt F))).Forall fun op => op.writes ⊆ ((r6_2_writes).map (Proc.devRef (τ := τ) .tc)).toFinset :=
  writes_sub_of_forall₂ (by pair_writes)
/-- A reference `r6_2` does not write keeps its contents across it. -/
theorem r6_2_keeps (V : Valuation τ sig (Elt F)) (b : Ref sig .tc) (hb : b ∉ r6_2_writes) :
    StableHlo.after r6_2 V (Proc.devRef .tc b) = V (Proc.devRef .tc b) :=
  StableHlo.after_of_writes_sub r6_2 V r6_2_writes_sub hb

/-- Stretch `r6_3` writes inside `r6_3_writes`. -/
theorem r6_3_writes_sub : (r6_3 : List (HloOp τ sig (Elt F))).Forall fun op => op.writes ⊆ ((r6_3_writes).map (Proc.devRef (τ := τ) .tc)).toFinset :=
  writes_sub_of_forall₂ (by pair_writes)
/-- A reference `r6_3` does not write keeps its contents across it. -/
theorem r6_3_keeps (V : Valuation τ sig (Elt F)) (b : Ref sig .tc) (hb : b ∉ r6_3_writes) :
    StableHlo.after r6_3 V (Proc.devRef .tc b) = V (Proc.devRef .tc b) :=
  StableHlo.after_of_writes_sub r6_3 V r6_3_writes_sub hb

/-- Stretch `r6_4` writes inside `r6_4_writes`. -/
theorem r6_4_writes_sub : (r6_4 : List (HloOp τ sig (Elt F))).Forall fun op => op.writes ⊆ ((r6_4_writes).map (Proc.devRef (τ := τ) .tc)).toFinset :=
  writes_sub_of_forall₂ (by pair_writes)
/-- A reference `r6_4` does not write keeps its contents across it. -/
theorem r6_4_keeps (V : Valuation τ sig (Elt F)) (b : Ref sig .tc) (hb : b ∉ r6_4_writes) :
    StableHlo.after r6_4 V (Proc.devRef .tc b) = V (Proc.devRef .tc b) :=
  StableHlo.after_of_writes_sub r6_4 V r6_4_writes_sub hb

/-- Stretch `r6_5` writes inside `r6_5_writes`. -/
theorem r6_5_writes_sub : (r6_5 : List (HloOp τ sig (Elt F))).Forall fun op => op.writes ⊆ ((r6_5_writes).map (Proc.devRef (τ := τ) .tc)).toFinset :=
  writes_sub_of_forall₂ (by pair_writes)
/-- A reference `r6_5` does not write keeps its contents across it. -/
theorem r6_5_keeps (V : Valuation τ sig (Elt F)) (b : Ref sig .tc) (hb : b ∉ r6_5_writes) :
    StableHlo.after r6_5 V (Proc.devRef .tc b) = V (Proc.devRef .tc b) :=
  StableHlo.after_of_writes_sub r6_5 V r6_5_writes_sub hb

/-- Stretch `r7_0` writes inside `r7_0_writes`. -/
theorem r7_0_writes_sub : (r7_0 : List (HloOp τ sig (Elt F))).Forall fun op => op.writes ⊆ ((r7_0_writes).map (Proc.devRef (τ := τ) .tc)).toFinset :=
  writes_sub_of_forall₂ (by pair_writes)
/-- A reference `r7_0` does not write keeps its contents across it. -/
theorem r7_0_keeps (V : Valuation τ sig (Elt F)) (b : Ref sig .tc) (hb : b ∉ r7_0_writes) :
    StableHlo.after r7_0 V (Proc.devRef .tc b) = V (Proc.devRef .tc b) :=
  StableHlo.after_of_writes_sub r7_0 V r7_0_writes_sub hb

/-- Stretch `r7_1` writes inside `r7_1_writes`. -/
theorem r7_1_writes_sub : (r7_1 : List (HloOp τ sig (Elt F))).Forall fun op => op.writes ⊆ ((r7_1_writes).map (Proc.devRef (τ := τ) .tc)).toFinset :=
  writes_sub_of_forall₂ (by pair_writes)
/-- A reference `r7_1` does not write keeps its contents across it. -/
theorem r7_1_keeps (V : Valuation τ sig (Elt F)) (b : Ref sig .tc) (hb : b ∉ r7_1_writes) :
    StableHlo.after r7_1 V (Proc.devRef .tc b) = V (Proc.devRef .tc b) :=
  StableHlo.after_of_writes_sub r7_1 V r7_1_writes_sub hb

/-- Stretch `r7_2` writes inside `r7_2_writes`. -/
theorem r7_2_writes_sub : (r7_2 : List (HloOp τ sig (Elt F))).Forall fun op => op.writes ⊆ ((r7_2_writes).map (Proc.devRef (τ := τ) .tc)).toFinset :=
  writes_sub_of_forall₂ (by pair_writes)
/-- A reference `r7_2` does not write keeps its contents across it. -/
theorem r7_2_keeps (V : Valuation τ sig (Elt F)) (b : Ref sig .tc) (hb : b ∉ r7_2_writes) :
    StableHlo.after r7_2 V (Proc.devRef .tc b) = V (Proc.devRef .tc b) :=
  StableHlo.after_of_writes_sub r7_2 V r7_2_writes_sub hb

end Cert.ReferenceIdeal.Ops

end
-- ==== Proof.RefRun.lean ====
import proofs.«157921_j32839319945335_1_alg».proof.Proof.RefOps
import proofs.«157921_j32839319945335_1_alg».proof.Proof.RefKeeps
import proofs.«157921_j32839319945335_1_alg».proof.Defs
import proofs.«157921_j32839319945335_1_alg».proof.Proof.Gen.Pre_finite_inputs
import Idealize.ShloMosaic.Lib.StableHlo.Run
import Idealize.ShloMosaic.Lib.Pipeline.Frame

/-! # The run of the reference program

The reference's @main is a straight line of host operations, cut into eight windows and, at the
calls of its module-local functions, into thirty-nine stretches. Its windows are chains of the stretches'
programs; a chain of straight lines is the straight line of their concatenation; and a straight line runs to
the fold of its operations' results over the launch contents (`StableHlo.run_seq`). The arguments are written
by no operation, so they end as they began. -/

noncomputable section

namespace Cert.ReferenceIdeal.Run

open Cert.ReferenceIdeal Cert.ReferenceIdeal.Gen Cert.ReferenceIdeal.Ops Idealize.ShloMosaic Idealize.ShloMosaic.TcCoe Idealize.SL.Sem

variable {F : FTy → Type} [FloatOps F]

/-- All operations of @main, in order: the stretches' concatenation, right-nested. -/
abbrev ops : List (HloOp τ sig (Elt F)) :=
  r0_0 ++ (r0_1 ++ (r0_2 ++ (r0_3 ++ (r0_4 ++ (r0_5 ++ (r1_0 ++ (r1_1 ++ (r2_0 ++ (r2_1 ++ (r2_2 ++ (r2_3 ++ (r2_4 ++ (r2_5 ++ (r2_6 ++ (r3_0 ++ (r3_1 ++ (r3_2 ++ (r3_3 ++ (r3_4 ++ (r3_5 ++ (r4_0 ++ (r4_1 ++ (r5_0 ++ (r5_1 ++ (r5_2 ++ (r5_3 ++ (r5_4 ++ (r5_5 ++ (r5_6 ++ (r6_0 ++ (r6_1 ++ (r6_2 ++ (r6_3 ++ (r6_4 ++ (r6_5 ++ (r7_0 ++ (r7_1 ++ (r7_2))))))))))))))))))))))))))))))))))))))

/-! ## @main is the straight line of `ops` -/

section Generic

variable {nD' : Nat} {τ' : Topo} {sig' : RefSig} {Val : EltTy → Type} {Λ : Labels}

/-- The chain of one straight line is that line. -/
theorem chain_seq_single (l : List (HloOp τ' sig' Val)) :
    (Pipeline.chain [StableHlo.seq l] : Prog (TpuEff nD' τ' sig' Val Λ .tc) PUnit) = StableHlo.seq l := by
  rw [Pipeline.chain_cons, Pipeline.chain_nil]
  exact bind_pure_unit

/-- A straight line before a chain that is itself a straight line: the line of the concatenation. -/
theorem chain_seq_cons (l l' : List (HloOp τ' sig' Val)) (qs : List (Prog (TpuEff nD' τ' sig' Val Λ .tc) PUnit))
    (h : Pipeline.chain qs = StableHlo.seq l') :
    Pipeline.chain (StableHlo.seq l :: qs) = StableHlo.seq (l ++ l') := by
  rw [Pipeline.chain_cons, h, StableHlo.seq_append]

/-- A property of every member of two lists holds of every member of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

end Generic

/-- @main is the chain of its thirty-nine stretches: each window is the chain of its own, and a window followed
    by a chain is the chain of both. -/
theorem main_chain (c : Dev nD) : main (F := F) c = (Pipeline.chain
    [ StableHlo.seq r0_0, StableHlo.seq r0_1, StableHlo.seq r0_2, StableHlo.seq r0_3, StableHlo.seq r0_4, StableHlo.seq r0_5, StableHlo.seq r1_0, StableHlo.seq r1_1, StableHlo.seq r2_0, StableHlo.seq r2_1, StableHlo.seq r2_2, StableHlo.seq r2_3, StableHlo.seq r2_4, StableHlo.seq r2_5, StableHlo.seq r2_6, StableHlo.seq r3_0, StableHlo.seq r3_1, StableHlo.seq r3_2, StableHlo.seq r3_3, StableHlo.seq r3_4, StableHlo.seq r3_5, StableHlo.seq r4_0, StableHlo.seq r4_1, StableHlo.seq r5_0, StableHlo.seq r5_1, StableHlo.seq r5_2, StableHlo.seq r5_3, StableHlo.seq r5_4, StableHlo.seq r5_5, StableHlo.seq r5_6, StableHlo.seq r6_0, StableHlo.seq r6_1, StableHlo.seq r6_2, StableHlo.seq r6_3, StableHlo.seq r6_4, StableHlo.seq r6_5, StableHlo.seq r7_0, StableHlo.seq r7_1, StableHlo.seq r7_2 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c) = _
  rewrite [main_part7_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  rfl

/-- @main is the straight line of all its operations. -/
theorem main_eq (c : Dev nD) : main (F := F) c = StableHlo.seq ops := by
  rw [main_chain]
  repeat (first | exact chain_seq_single _ | refine chain_seq_cons _ _ _ ?_)

/-! ## The side conditions of the run -/

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  forall_append r0_0_sub (forall_append r0_1_sub (forall_append r0_2_sub (forall_append r0_3_sub (forall_append r0_4_sub (forall_append r0_5_sub (forall_append r1_0_sub (forall_append r1_1_sub (forall_append r2_0_sub (forall_append r2_1_sub (forall_append r2_2_sub (forall_append r2_3_sub (forall_append r2_4_sub (forall_append r2_5_sub (forall_append r2_6_sub (forall_append r3_0_sub (forall_append r3_1_sub (forall_append r3_2_sub (forall_append r3_3_sub (forall_append r3_4_sub (forall_append r3_5_sub (forall_append r4_0_sub (forall_append r4_1_sub (forall_append r5_0_sub (forall_append r5_1_sub (forall_append r5_2_sub (forall_append r5_3_sub (forall_append r5_4_sub (forall_append r5_5_sub (forall_append r5_6_sub (forall_append r6_0_sub (forall_append r6_1_sub (forall_append r6_2_sub (forall_append r6_3_sub (forall_append r6_4_sub (forall_append r6_5_sub (forall_append r7_0_sub (forall_append r7_1_sub (r7_2_sub))))))))))))))))))))))))))))))))))))))

/-- No operation allocates. -/
theorem ops_fresh : (ops : List (HloOp τ sig (Elt F))).Forall fun op => op.fresh = ∅ :=
  forall_append r0_0_fresh (forall_append r0_1_fresh (forall_append r0_2_fresh (forall_append r0_3_fresh (forall_append r0_4_fresh (forall_append r0_5_fresh (forall_append r1_0_fresh (forall_append r1_1_fresh (forall_append r2_0_fresh (forall_append r2_1_fresh (forall_append r2_2_fresh (forall_append r2_3_fresh (forall_append r2_4_fresh (forall_append r2_5_fresh (forall_append r2_6_fresh (forall_append r3_0_fresh (forall_append r3_1_fresh (forall_append r3_2_fresh (forall_append r3_3_fresh (forall_append r3_4_fresh (forall_append r3_5_fresh (forall_append r4_0_fresh (forall_append r4_1_fresh (forall_append r5_0_fresh (forall_append r5_1_fresh (forall_append r5_2_fresh (forall_append r5_3_fresh (forall_append r5_4_fresh (forall_append r5_5_fresh (forall_append r5_6_fresh (forall_append r6_0_fresh (forall_append r6_1_fresh (forall_append r6_2_fresh (forall_append r6_3_fresh (forall_append r6_4_fresh (forall_append r6_5_fresh (forall_append r7_0_fresh (forall_append r7_1_fresh (r7_2_fresh))))))))))))))))))))))))))))))))))))))

/-! ## The run -/

/-- On every device, for any float values, from any memory with zero counters: every weakly fair execution of
    @main terminates, and every final state has each TensorCore buffer at the fold of the operations' results
    over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (hfresh := fun _ => List.forall_iff_forall_mem.mp ops_fresh)

/-! ## The arguments are kept -/

/-- A reference kept by each of two lines is kept by the two in a row. -/
theorem keeps_append {l₁ l₂ : List (HloOp τ sig (Elt F))} {b : Ref sig .tc}
    (h₁ : ∀ V : Valuation τ sig (Elt F), StableHlo.after l₁ V (Proc.devRef .tc b) = V (Proc.devRef .tc b))
    (h₂ : ∀ V : Valuation τ sig (Elt F), StableHlo.after l₂ V (Proc.devRef .tc b) = V (Proc.devRef .tc b))
    (V : Valuation τ sig (Elt F)) : StableHlo.after (l₁ ++ l₂) V (Proc.devRef .tc b) = V (Proc.devRef .tc b) := by
  rw [StableHlo.after_append, h₂, h₁]

/-- A reference that is the result of no operation of any stretch holds after @main what it held before. -/
theorem ops_keeps (b : Ref sig .tc) (h0_0 : b ∉ r0_0_writes) (h0_1 : b ∉ r0_1_writes) (h0_2 : b ∉ r0_2_writes) (h0_3 : b ∉ r0_3_writes) (h0_4 : b ∉ r0_4_writes) (h0_5 : b ∉ r0_5_writes) (h1_0 : b ∉ r1_0_writes) (h1_1 : b ∉ r1_1_writes) (h2_0 : b ∉ r2_0_writes) (h2_1 : b ∉ r2_1_writes) (h2_2 : b ∉ r2_2_writes) (h2_3 : b ∉ r2_3_writes) (h2_4 : b ∉ r2_4_writes) (h2_5 : b ∉ r2_5_writes) (h2_6 : b ∉ r2_6_writes) (h3_0 : b ∉ r3_0_writes) (h3_1 : b ∉ r3_1_writes) (h3_2 : b ∉ r3_2_writes) (h3_3 : b ∉ r3_3_writes) (h3_4 : b ∉ r3_4_writes) (h3_5 : b ∉ r3_5_writes) (h4_0 : b ∉ r4_0_writes) (h4_1 : b ∉ r4_1_writes) (h5_0 : b ∉ r5_0_writes) (h5_1 : b ∉ r5_1_writes) (h5_2 : b ∉ r5_2_writes) (h5_3 : b ∉ r5_3_writes) (h5_4 : b ∉ r5_4_writes) (h5_5 : b ∉ r5_5_writes) (h5_6 : b ∉ r5_6_writes) (h6_0 : b ∉ r6_0_writes) (h6_1 : b ∉ r6_1_writes) (h6_2 : b ∉ r6_2_writes) (h6_3 : b ∉ r6_3_writes) (h6_4 : b ∉ r6_4_writes) (h6_5 : b ∉ r6_5_writes) (h7_0 : b ∉ r7_0_writes) (h7_1 : b ∉ r7_1_writes) (h7_2 : b ∉ r7_2_writes)
    (V : Valuation τ sig (Elt F)) : StableHlo.after ops V (Proc.devRef .tc b) = V (Proc.devRef .tc b) :=
  keeps_append (fun V => r0_0_keeps V b h0_0) (keeps_append (fun V => r0_1_keeps V b h0_1) (keeps_append (fun V => r0_2_keeps V b h0_2) (keeps_append (fun V => r0_3_keeps V b h0_3) (keeps_append (fun V => r0_4_keeps V b h0_4) (keeps_append (fun V => r0_5_keeps V b h0_5) (keeps_append (fun V => r1_0_keeps V b h1_0) (keeps_append (fun V => r1_1_keeps V b h1_1) (keeps_append (fun V => r2_0_keeps V b h2_0) (keeps_append (fun V => r2_1_keeps V b h2_1) (keeps_append (fun V => r2_2_keeps V b h2_2) (keeps_append (fun V => r2_3_keeps V b h2_3) (keeps_append (fun V => r2_4_keeps V b h2_4) (keeps_append (fun V => r2_5_keeps V b h2_5) (keeps_append (fun V => r2_6_keeps V b h2_6) (keeps_append (fun V => r3_0_keeps V b h3_0) (keeps_append (fun V => r3_1_keeps V b h3_1) (keeps_append (fun V => r3_2_keeps V b h3_2) (keeps_append (fun V => r3_3_keeps V b h3_3) (keeps_append (fun V => r3_4_keeps V b h3_4) (keeps_append (fun V => r3_5_keeps V b h3_5) (keeps_append (fun V => r4_0_keeps V b h4_0) (keeps_append (fun V => r4_1_keeps V b h4_1) (keeps_append (fun V => r5_0_keeps V b h5_0) (keeps_append (fun V => r5_1_keeps V b h5_1) (keeps_append (fun V => r5_2_keeps V b h5_2) (keeps_append (fun V => r5_3_keeps V b h5_3) (keeps_append (fun V => r5_4_keeps V b h5_4) (keeps_append (fun V => r5_5_keeps V b h5_5) (keeps_append (fun V => r5_6_keeps V b h5_6) (keeps_append (fun V => r6_0_keeps V b h6_0) (keeps_append (fun V => r6_1_keeps V b h6_1) (keeps_append (fun V => r6_2_keeps V b h6_2) (keeps_append (fun V => r6_3_keeps V b h6_3) (keeps_append (fun V => r6_4_keeps V b h6_4) (keeps_append (fun V => r6_5_keeps V b h6_5) (keeps_append (fun V => r7_0_keeps V b h7_0) (keeps_append (fun V => r7_1_keeps V b h7_1) ((fun V => r7_2_keeps V b h7_2))))))))))))))))))))))))))))))))))))))) V

/-- No argument is among a stretch's results: thirty-nine searches of a literal list, each decided. -/
local macro "arg_kept" b:term : term =>
  `(ops_keeps $b (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))

theorem arg0_kept (V : Valuation τ sig (Elt F)) :
    StableHlo.after ops V (Proc.devRef .tc main_arg0) = V (Proc.devRef .tc main_arg0) := (arg_kept main_arg0) V
theorem arg1_kept (V : Valuation τ sig (Elt F)) :
    StableHlo.after ops V (Proc.devRef .tc main_arg1) = V (Proc.devRef .tc main_arg1) := (arg_kept main_arg1) V
theorem arg2_kept (V : Valuation τ sig (Elt F)) :
    StableHlo.after ops V (Proc.devRef .tc main_arg2) = V (Proc.devRef .tc main_arg2) := (arg_kept main_arg2) V
theorem arg3_kept (V : Valuation τ sig (Elt F)) :
    StableHlo.after ops V (Proc.devRef .tc main_arg3) = V (Proc.devRef .tc main_arg3) := (arg_kept main_arg3) V
theorem arg4_kept (V : Valuation τ sig (Elt F)) :
    StableHlo.after ops V (Proc.devRef .tc main_arg4) = V (Proc.devRef .tc main_arg4) := (arg_kept main_arg4) V
theorem arg5_kept (V : Valuation τ sig (Elt F)) :
    StableHlo.after ops V (Proc.devRef .tc main_arg5) = V (Proc.devRef .tc main_arg5) := (arg_kept main_arg5) V
theorem arg6_kept (V : Valuation τ sig (Elt F)) :
    StableHlo.after ops V (Proc.devRef .tc main_arg6) = V (Proc.devRef .tc main_arg6) := (arg_kept main_arg6) V
theorem arg7_kept (V : Valuation τ sig (Elt F)) :
    StableHlo.after ops V (Proc.devRef .tc main_arg7) = V (Proc.devRef .tc main_arg7) := (arg_kept main_arg7) V
theorem arg8_kept (V : Valuation τ sig (Elt F)) :
    StableHlo.after ops V (Proc.devRef .tc main_arg8) = V (Proc.devRef .tc main_arg8) := (arg_kept main_arg8) V
theorem arg9_kept (V : Valuation τ sig (Elt F)) :
    StableHlo.after ops V (Proc.devRef .tc main_arg9) = V (Proc.devRef .tc main_arg9) := (arg_kept main_arg9) V
theorem arg10_kept (V : Valuation τ sig (Elt F)) :
    StableHlo.after ops V (Proc.devRef .tc main_arg10) = V (Proc.devRef .tc main_arg10) := (arg_kept main_arg10) V
theorem arg11_kept (V : Valuation τ sig (Elt F)) :
    StableHlo.after ops V (Proc.devRef .tc main_arg11) = V (Proc.devRef .tc main_arg11) := (arg_kept main_arg11) V
theorem arg12_kept (V : Valuation τ sig (Elt F)) :
    StableHlo.after ops V (Proc.devRef .tc main_arg12) = V (Proc.devRef .tc main_arg12) := (arg_kept main_arg12) V
theorem arg13_kept (V : Valuation τ sig (Elt F)) :
    StableHlo.after ops V (Proc.devRef .tc main_arg13) = V (Proc.devRef .tc main_arg13) := (arg_kept main_arg13) V
theorem arg14_kept (V : Valuation τ sig (Elt F)) :
    StableHlo.after ops V (Proc.devRef .tc main_arg14) = V (Proc.devRef .tc main_arg14) := (arg_kept main_arg14) V
theorem arg15_kept (V : Valuation τ sig (Elt F)) :
    StableHlo.after ops V (Proc.devRef .tc main_arg15) = V (Proc.devRef .tc main_arg15) := (arg_kept main_arg15) V
theorem arg16_kept (V : Valuation τ sig (Elt F)) :
    StableHlo.after ops V (Proc.devRef .tc main_arg16) = V (Proc.devRef .tc main_arg16) := (arg_kept main_arg16) V

/-! ## The frame claim -/

/-- At the ideal instance: from any memory, @main terminates with every argument as it was. -/
theorem frame : Cert.frame_ReferenceIdeal := fun m g _ =>
  (θ_run (defs (F := Ideal)) _ _).mono (fun _ h c =>
    ⟨(h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _),
     (h c main_arg15).trans (arg15_kept _),
     (h c main_arg16).trans (arg16_kept _)⟩)
    (run m g)

end Cert.ReferenceIdeal.Run

end
-- ==== Proof.RefKept.lean ====
import proofs.«157921_j32839319945335_1_alg».proof.Proof.RefRun
import proofs.«157921_j32839319945335_1_alg».proof.Proof.RefKeeps

/-! # The reference's contents at the block boundaries, and what passes through the blocks

The reference's straight line is read in ten consecutive pieces; `Rj RA` is what the buffers hold after the
first `j` pieces from contents `RA`. Each reference is the result of at most one operation, so a reference
holds across a piece that does not compute it what it held before: the arguments that the later pieces read
are unchanged at every boundary, the gate computed in the first piece is unchanged through the eighth, and the
edge features a piece computes are unchanged across the hidden half that follows it. -/

noncomputable section

namespace Cert.ReferenceIdeal.Kept

open Cert.ReferenceIdeal Cert.ReferenceIdeal.Gen Cert.ReferenceIdeal.Ops Idealize.ShloMosaic Idealize.ShloMosaic.TcCoe Idealize.SL.Sem

variable {F : FTy → Type} [FloatOps F]

/-- The contents after boundary 1: through the gate `main_v43` and the first edge features `main_v59`. -/
abbrev R1 (RA : Valuation τ sig (Elt F)) : Valuation τ sig (Elt F) :=
  StableHlo.after r1_0 (StableHlo.after r0_5 (StableHlo.after r0_4 (StableHlo.after r0_3 (StableHlo.after r0_2 (StableHlo.after r0_1 (StableHlo.after r0_0 (RA)))))))
/-- The contents after boundary 2: block 0, hidden half: `main_v106`. -/
abbrev R2 (RA : Valuation τ sig (Elt F)) : Valuation τ sig (Elt F) :=
  StableHlo.after r2_4 (StableHlo.after r2_3 (StableHlo.after r2_2 (StableHlo.after r2_1 (StableHlo.after r2_0 (StableHlo.after r1_1 (R1 RA))))))
/-- The contents after boundary 3: block 0, edge half: `main_v132`. -/
abbrev R3 (RA : Valuation τ sig (Elt F)) : Valuation τ sig (Elt F) :=
  StableHlo.after r2_5 (R2 RA)
/-- The contents after boundary 4: block 1, hidden half: `main_v179`. -/
abbrev R4 (RA : Valuation τ sig (Elt F)) : Valuation τ sig (Elt F) :=
  StableHlo.after r3_4 (StableHlo.after r3_3 (StableHlo.after r3_2 (StableHlo.after r3_1 (StableHlo.after r3_0 (StableHlo.after r2_6 (R3 RA))))))
/-- The contents after boundary 5: block 1, edge half: `main_v205`. -/
abbrev R5 (RA : Valuation τ sig (Elt F)) : Valuation τ sig (Elt F) :=
  StableHlo.after r4_0 (StableHlo.after r3_5 (R4 RA))
/-- The contents after boundary 6: block 2, hidden half: `main_v252`. -/
abbrev R6 (RA : Valuation τ sig (Elt F)) : Valuation τ sig (Elt F) :=
  StableHlo.after r5_4 (StableHlo.after r5_3 (StableHlo.after r5_2 (StableHlo.after r5_1 (StableHlo.after r5_0 (StableHlo.after r4_1 (R5 RA))))))
/-- The contents after boundary 7: block 2, edge half: `main_v278`. -/
abbrev R7 (RA : Valuation τ sig (Elt F)) : Valuation τ sig (Elt F) :=
  StableHlo.after r5_5 (R6 RA)
/-- The contents after boundary 8: block 3, hidden half: `main_v325`. -/
abbrev R8 (RA : Valuation τ sig (Elt F)) : Valuation τ sig (Elt F) :=
  StableHlo.after r6_4 (StableHlo.after r6_3 (StableHlo.after r6_2 (StableHlo.after r6_1 (StableHlo.after r6_0 (StableHlo.after r5_6 (R7 RA))))))
/-- The contents after boundary 9: block 3, edge half: `main_v351`. -/
abbrev R9 (RA : Valuation τ sig (Elt F)) : Valuation τ sig (Elt F) :=
  StableHlo.after r7_0 (StableHlo.after r6_5 (R8 RA))
/-- The contents after boundary 10: the masked result: `main_v363`. -/
abbrev R10 (RA : Valuation τ sig (Elt F)) : Valuation τ sig (Elt F) :=
  StableHlo.after r7_2 (StableHlo.after r7_1 (R9 RA))

/-! ## The whole line is the ten pieces in a row -/

/-- Two lines in a row, read as the second after the first. -/
theorem after_append_of {l₁ l₂ : List (HloOp τ sig (Elt F))} {V X : Valuation τ sig (Elt F)}
    (h : StableHlo.after l₂ (StableHlo.after l₁ V) = X) : StableHlo.after (l₁ ++ l₂) V = X :=
  (StableHlo.after_append l₁ l₂ V).trans h

/-- The fold of all of @main's operations is the last boundary's contents. -/
theorem ops_eq (RA : Valuation τ sig (Elt F)) : StableHlo.after Run.ops RA = R10 RA :=
  after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (after_append_of (rfl))))))))))))))))))))))))))))))))))))))

/-! ## What is kept -/

/-- No member of the first list is a member of the second: one pass, as a truth value. -/
def disj (L W : List (Ref sig .tc)) : Bool := L.all fun b => !W.contains b

/-- What that truth value says. -/
theorem disj_sound {L W : List (Ref sig .tc)} (h : disj L W = true) : ∀ b ∈ L, b ∉ W := by
  intro b hb hw
  have := List.all_eq_true.mp h b hb
  simp only [Bool.not_eq_eq_eq_not, Bool.not_true, List.contains_eq_mem, decide_eq_false_iff_not] at this
  exact this hw

/-- One more stretch, for a list of references none of which it writes. -/
theorem step {l : List (HloOp τ sig (Elt F))} {W L : List (Ref sig .tc)}
    (hk : ∀ (V : Valuation τ sig (Elt F)) (b : Ref sig .tc), b ∉ W → StableHlo.after l V (Proc.devRef .tc b) = V (Proc.devRef .tc b))
    (hL : ∀ b ∈ L, b ∉ W) {V RA : Valuation τ sig (Elt F)}
    (h : ∀ b ∈ L, V (Proc.devRef .tc b) = RA (Proc.devRef .tc b)) :
    ∀ b ∈ L, StableHlo.after l V (Proc.devRef .tc b) = RA (Proc.devRef .tc b) :=
  fun b hb => (hk V b (hL b hb)).trans (h b hb)

/-- One more stretch, for one reference it does not write. -/
theorem step1 {l : List (HloOp τ sig (Elt F))} {W : List (Ref sig .tc)} {b : Ref sig .tc}
    (hk : ∀ (V : Valuation τ sig (Elt F)) (b : Ref sig .tc), b ∉ W → StableHlo.after l V (Proc.devRef .tc b) = V (Proc.devRef .tc b))
    (hb : b ∉ W) {V : Valuation τ sig (Elt F)} {x : (Proc.devRef (τ := τ) .tc b).ty.Contents (Elt F)}
    (h : V (Proc.devRef .tc b) = x) : StableHlo.after l V (Proc.devRef .tc b) = x :=
  (hk V b hb).trans h

/-- The arguments the later pieces read. -/
abbrev argList : List (Ref sig .tc) :=
  [main_arg5, main_arg6, main_arg7, main_arg8, main_arg10, main_arg11, main_arg12, main_arg13, main_arg14, main_arg16]

/-! ### The arguments, at every boundary -/

theorem args_R1 (RA : Valuation τ sig (Elt F)) : ∀ b ∈ argList, R1 RA (Proc.devRef .tc b) = RA (Proc.devRef .tc b) :=
  step r1_0_keeps (disj_sound (by decide)) (step r0_5_keeps (disj_sound (by decide)) (step r0_4_keeps (disj_sound (by decide)) (step r0_3_keeps (disj_sound (by decide)) (step r0_2_keeps (disj_sound (by decide)) (step r0_1_keeps (disj_sound (by decide)) (step r0_0_keeps (disj_sound (by decide)) (fun _ _ => rfl)))))))
theorem args_R2 (RA : Valuation τ sig (Elt F)) : ∀ b ∈ argList, R2 RA (Proc.devRef .tc b) = RA (Proc.devRef .tc b) :=
  step r2_4_keeps (disj_sound (by decide)) (step r2_3_keeps (disj_sound (by decide)) (step r2_2_keeps (disj_sound (by decide)) (step r2_1_keeps (disj_sound (by decide)) (step r2_0_keeps (disj_sound (by decide)) (step r1_1_keeps (disj_sound (by decide)) (args_R1 RA))))))
theorem args_R3 (RA : Valuation τ sig (Elt F)) : ∀ b ∈ argList, R3 RA (Proc.devRef .tc b) = RA (Proc.devRef .tc b) :=
  step r2_5_keeps (disj_sound (by decide)) (args_R2 RA)
theorem args_R4 (RA : Valuation τ sig (Elt F)) : ∀ b ∈ argList, R4 RA (Proc.devRef .tc b) = RA (Proc.devRef .tc b) :=
  step r3_4_keeps (disj_sound (by decide)) (step r3_3_keeps (disj_sound (by decide)) (step r3_2_keeps (disj_sound (by decide)) (step r3_1_keeps (disj_sound (by decide)) (step r3_0_keeps (disj_sound (by decide)) (step r2_6_keeps (disj_sound (by decide)) (args_R3 RA))))))
theorem args_R5 (RA : Valuation τ sig (Elt F)) : ∀ b ∈ argList, R5 RA (Proc.devRef .tc b) = RA (Proc.devRef .tc b) :=
  step r4_0_keeps (disj_sound (by decide)) (step r3_5_keeps (disj_sound (by decide)) (args_R4 RA))
theorem args_R6 (RA : Valuation τ sig (Elt F)) : ∀ b ∈ argList, R6 RA (Proc.devRef .tc b) = RA (Proc.devRef .tc b) :=
  step r5_4_keeps (disj_sound (by decide)) (step r5_3_keeps (disj_sound (by decide)) (step r5_2_keeps (disj_sound (by decide)) (step r5_1_keeps (disj_sound (by decide)) (step r5_0_keeps (disj_sound (by decide)) (step r4_1_keeps (disj_sound (by decide)) (args_R5 RA))))))
theorem args_R7 (RA : Valuation τ sig (Elt F)) : ∀ b ∈ argList, R7 RA (Proc.devRef .tc b) = RA (Proc.devRef .tc b) :=
  step r5_5_keeps (disj_sound (by decide)) (args_R6 RA)
theorem args_R8 (RA : Valuation τ sig (Elt F)) : ∀ b ∈ argList, R8 RA (Proc.devRef .tc b) = RA (Proc.devRef .tc b) :=
  step r6_4_keeps (disj_sound (by decide)) (step r6_3_keeps (disj_sound (by decide)) (step r6_2_keeps (disj_sound (by decide)) (step r6_1_keeps (disj_sound (by decide)) (step r6_0_keeps (disj_sound (by decide)) (step r5_6_keeps (disj_sound (by decide)) (args_R7 RA))))))
theorem args_R9 (RA : Valuation τ sig (Elt F)) : ∀ b ∈ argList, R9 RA (Proc.devRef .tc b) = RA (Proc.devRef .tc b) :=
  step r7_0_keeps (disj_sound (by decide)) (step r6_5_keeps (disj_sound (by decide)) (args_R8 RA))

/-! ### The gate, through the eighth boundary -/

theorem gate_R2 (RA : Valuation τ sig (Elt F)) : R2 RA (Proc.devRef .tc main_v43) = R1 RA (Proc.devRef .tc main_v43) :=
  step1 r2_4_keeps (by decide) (step1 r2_3_keeps (by decide) (step1 r2_2_keeps (by decide) (step1 r2_1_keeps (by decide) (step1 r2_0_keeps (by decide) (step1 r1_1_keeps (by decide) (rfl))))))
theorem gate_R3 (RA : Valuation τ sig (Elt F)) : R3 RA (Proc.devRef .tc main_v43) = R1 RA (Proc.devRef .tc main_v43) :=
  step1 r2_5_keeps (by decide) (gate_R2 RA)
theorem gate_R4 (RA : Valuation τ sig (Elt F)) : R4 RA (Proc.devRef .tc main_v43) = R1 RA (Proc.devRef .tc main_v43) :=
  step1 r3_4_keeps (by decide) (step1 r3_3_keeps (by decide) (step1 r3_2_keeps (by decide) (step1 r3_1_keeps (by decide) (step1 r3_0_keeps (by decide) (step1 r2_6_keeps (by decide) (gate_R3 RA))))))
theorem gate_R5 (RA : Valuation τ sig (Elt F)) : R5 RA (Proc.devRef .tc main_v43) = R1 RA (Proc.devRef .tc main_v43) :=
  step1 r4_0_keeps (by decide) (step1 r3_5_keeps (by decide) (gate_R4 RA))
theorem gate_R6 (RA : Valuation τ sig (Elt F)) : R6 RA (Proc.devRef .tc main_v43) = R1 RA (Proc.devRef .tc main_v43) :=
  step1 r5_4_keeps (by decide) (step1 r5_3_keeps (by decide) (step1 r5_2_keeps (by decide) (step1 r5_1_keeps (by decide) (step1 r5_0_keeps (by decide) (step1 r4_1_keeps (by decide) (gate_R5 RA))))))
theorem gate_R7 (RA : Valuation τ sig (Elt F)) : R7 RA (Proc.devRef .tc main_v43) = R1 RA (Proc.devRef .tc main_v43) :=
  step1 r5_5_keeps (by decide) (gate_R6 RA)
theorem gate_R8 (RA : Valuation τ sig (Elt F)) : R8 RA (Proc.devRef .tc main_v43) = R1 RA (Proc.devRef .tc main_v43) :=
  step1 r6_4_keeps (by decide) (step1 r6_3_keeps (by decide) (step1 r6_2_keeps (by decide) (step1 r6_1_keeps (by decide) (step1 r6_0_keeps (by decide) (step1 r5_6_keeps (by decide) (gate_R7 RA))))))

/-! ### The edge features, across the hidden half that follows them -/

theorem v59_R2 (RA : Valuation τ sig (Elt F)) : R2 RA (Proc.devRef .tc main_v59) = R1 RA (Proc.devRef .tc main_v59) :=
  step1 r2_4_keeps (by decide) (step1 r2_3_keeps (by decide) (step1 r2_2_keeps (by decide) (step1 r2_1_keeps (by decide) (step1 r2_0_keeps (by decide) (step1 r1_1_keeps (by decide) (rfl))))))
theorem v132_R4 (RA : Valuation τ sig (Elt F)) : R4 RA (Proc.devRef .tc main_v132) = R3 RA (Proc.devRef .tc main_v132) :=
  step1 r3_4_keeps (by decide) (step1 r3_3_keeps (by decide) (step1 r3_2_keeps (by decide) (step1 r3_1_keeps (by decide) (step1 r3_0_keeps (by decide) (step1 r2_6_keeps (by decide) (rfl))))))
theorem v205_R6 (RA : Valuation τ sig (Elt F)) : R6 RA (Proc.devRef .tc main_v205) = R5 RA (Proc.devRef .tc main_v205) :=
  step1 r5_4_keeps (by decide) (step1 r5_3_keeps (by decide) (step1 r5_2_keeps (by decide) (step1 r5_1_keeps (by decide) (step1 r5_0_keeps (by decide) (step1 r4_1_keeps (by decide) (rfl))))))
theorem v278_R8 (RA : Valuation τ sig (Elt F)) : R8 RA (Proc.devRef .tc main_v278) = R7 RA (Proc.devRef .tc main_v278) :=
  step1 r6_4_keeps (by decide) (step1 r6_3_keeps (by decide) (step1 r6_2_keeps (by decide) (step1 r6_1_keeps (by decide) (step1 r6_0_keeps (by decide) (step1 r5_6_keeps (by decide) (rfl))))))

end Cert.ReferenceIdeal.Kept

end
-- ==== Proof.KernelKeeps.lean ====
import proofs.«157921_j32839319945335_1_alg».proof.Proof.Gen.KernelIdeal.Launch
import Idealize.ShloMosaic.Lib.StableHlo.Run

/-! # What each host stretch of the kernel program writes, and what it keeps

Every operation writes exactly one reference, its result; a stretch's results listed in order bound its writes, so a
reference outside the list holds after the stretch what it held before. -/

noncomputable section

namespace Cert.KernelIdeal.Keeps

open Cert.KernelIdeal Cert.KernelIdeal.Gen Idealize.ShloMosaic Idealize.ShloMosaic.TcCoe Idealize.SL.Sem

variable {F : FTy → Type} [FloatOps F]

/-- Two lists related position by position: every member of the first has a partner in the second. -/
theorem exists_mem_of_forall₂ {α β : Type} {R : α → β → Prop} {l₁ : List α} {l₂ : List β}
    (h : List.Forall₂ R l₁ l₂) {a : α} (ha : a ∈ l₁) : ∃ b ∈ l₂, R a b := by
  induction h with
  | nil => cases ha
  | cons hab _ ih =>
    rcases List.mem_cons.mp ha with rfl | ha
    · exact ⟨_, List.mem_cons_self, hab⟩
    · obtain ⟨b, hb, hr⟩ := ih ha
      exact ⟨b, List.mem_cons_of_mem _ hb, hr⟩

/-- If the operations of a line write, position by position, exactly the references of a list, every operation's
    writes lie inside that list. -/
theorem writes_sub_of_forall₂ {ops : List (HloOp τ sig (Elt F))} {W : List (Ref sig .tc)}
    (h : List.Forall₂ (fun op y => op.writes = {Proc.devRef (τ := τ) .tc y}) ops W) :
    ops.Forall fun op => op.writes ⊆ (W.map (Proc.devRef (τ := τ) .tc)).toFinset :=
  List.forall_iff_forall_mem.mpr fun op hop => by
    obtain ⟨y, hy, hw⟩ := exists_mem_of_forall₂ h hop
    rw [hw, Finset.singleton_subset_iff, List.mem_toFinset]
    exact List.mem_map_of_mem hy

/-- Pairs a literal line with the literal list of its results: one rfl per operation. -/
local macro "pair_writes" : tactic =>
  `(tactic| repeat (first | exact List.Forall₂.nil | refine List.Forall₂.cons rfl ?_))

/-- The references the stretch hostOps0 writes, in order. -/
abbrev hostOps0_writes : List (Ref sig .tc) := [main_c, main_v0, main_v1, main_c_0, main_v2, main_v3, main_v4, main_c_1, main_v5, main_v6, main_v7, main_v8, main_v9, main_v10, main_v11, main_c_2, main_v12, main_v13, main_c_3, main_v14, main_v15, main_v16, main_v17, main_cst, main_v18, main_v19, main_c_4, main_v20, main_v21, main_c_5, main_v22, main_v23, main_v24, main_v25, main_v26, main_v27, main_v28]
theorem hostOps0_writes_sub : (hostOps0 : List (HloOp τ sig (Elt F))).Forall fun op => op.writes ⊆ ((hostOps0_writes).map (Proc.devRef (τ := τ) .tc)).toFinset :=
  writes_sub_of_forall₂ (by pair_writes)
/-- A reference the stretch does not write keeps its contents across it. -/
theorem hostOps0_keeps (V : Valuation τ sig (Elt F)) (b : Ref sig .tc) (hb : b ∉ hostOps0_writes) :
    StableHlo.after hostOps0 V (Proc.devRef .tc b) = V (Proc.devRef .tc b) :=
  StableHlo.after_of_writes_sub hostOps0 V hostOps0_writes_sub hb

/-- The references the stretch hostOps1 writes, in order. -/
abbrev hostOps1_writes : List (Ref sig .tc) := [main_v30, main_c_6, main_v31, main_v32, main_c_7, main_v33, main_v34, main_v35, main_v36, main_v37, main_v38, main_v39, main_v40, main_v41, main_v42, main_cst_8, main_v43, main_c_9, main_v44, main_v45, main_c_10, main_v46, main_v47, main_v48, main_v49, main_v50, main_v51, main_v52, main_v53, main_v54]
theorem hostOps1_writes_sub : (hostOps1 : List (HloOp τ sig (Elt F))).Forall fun op => op.writes ⊆ ((hostOps1_writes).map (Proc.devRef (τ := τ) .tc)).toFinset :=
  writes_sub_of_forall₂ (by pair_writes)
/-- A reference the stretch does not write keeps its contents across it. -/
theorem hostOps1_keeps (V : Valuation τ sig (Elt F)) (b : Ref sig .tc) (hb : b ∉ hostOps1_writes) :
    StableHlo.after hostOps1 V (Proc.devRef .tc b) = V (Proc.devRef .tc b) :=
  StableHlo.after_of_writes_sub hostOps1 V hostOps1_writes_sub hb

/-- The references the stretch hostOps2 writes, in order. -/
abbrev hostOps2_writes : List (Ref sig .tc) := [main_v56, main_c_11, main_v57, main_v58, main_c_12, main_v59, main_v60, main_v61, main_v62, main_v63, main_v64, main_v65, main_v66, main_v67, main_v68, main_cst_13, main_v69, main_c_14, main_v70, main_v71, main_c_15, main_v72, main_v73, main_v74, main_v75, main_v76, main_v77, main_v78]
theorem hostOps2_writes_sub : (hostOps2 : List (HloOp τ sig (Elt F))).Forall fun op => op.writes ⊆ ((hostOps2_writes).map (Proc.devRef (τ := τ) .tc)).toFinset :=
  writes_sub_of_forall₂ (by pair_writes)
/-- A reference the stretch does not write keeps its contents across it. -/
theorem hostOps2_keeps (V : Valuation τ sig (Elt F)) (b : Ref sig .tc) (hb : b ∉ hostOps2_writes) :
    StableHlo.after hostOps2 V (Proc.devRef .tc b) = V (Proc.devRef .tc b) :=
  StableHlo.after_of_writes_sub hostOps2 V hostOps2_writes_sub hb

/-- The references the stretch hostOps3 writes, in order. -/
abbrev hostOps3_writes : List (Ref sig .tc) := [main_c_16, main_v80, main_v81, main_c_17, main_v82, main_v83, main_v84, main_v85, main_v86, main_v87, main_v88, main_v89, main_v90, main_v91, main_cst_18, main_v92, main_c_19, main_v93, main_v94, main_c_20, main_v95, main_v96, main_v97, main_v98, main_v99, main_v100, main_v101, main_v102, main_v103]
theorem hostOps3_writes_sub : (hostOps3 : List (HloOp τ sig (Elt F))).Forall fun op => op.writes ⊆ ((hostOps3_writes).map (Proc.devRef (τ := τ) .tc)).toFinset :=
  writes_sub_of_forall₂ (by pair_writes)
/-- A reference the stretch does not write keeps its contents across it. -/
theorem hostOps3_keeps (V : Valuation τ sig (Elt F)) (b : Ref sig .tc) (hb : b ∉ hostOps3_writes) :
    StableHlo.after hostOps3 V (Proc.devRef .tc b) = V (Proc.devRef .tc b) :=
  StableHlo.after_of_writes_sub hostOps3 V hostOps3_writes_sub hb

/-- The references the stretch hostOps4 writes, in order. -/
abbrev hostOps4_writes : List (Ref sig .tc) := [main_v105, main_c_21, main_v106, main_v107, main_c_22, main_v108, main_v109, main_v110, main_v111, main_v112, main_v113, main_v114, main_v115, main_v116, main_v117, main_cst_23, main_v118, main_c_24, main_v119, main_v120, main_c_25, main_v121, main_v122, main_v123, main_v124, main_v125, main_v126, main_v127]
theorem hostOps4_writes_sub : (hostOps4 : List (HloOp τ sig (Elt F))).Forall fun op => op.writes ⊆ ((hostOps4_writes).map (Proc.devRef (τ := τ) .tc)).toFinset :=
  writes_sub_of_forall₂ (by pair_writes)
/-- A reference the stretch does not write keeps its contents across it. -/
theorem hostOps4_keeps (V : Valuation τ sig (Elt F)) (b : Ref sig .tc) (hb : b ∉ hostOps4_writes) :
    StableHlo.after hostOps4 V (Proc.devRef .tc b) = V (Proc.devRef .tc b) :=
  StableHlo.after_of_writes_sub hostOps4 V hostOps4_writes_sub hb

/-- The references the stretch hostOps5 writes, in order. -/
abbrev hostOps5_writes : List (Ref sig .tc) := [main_c_26, main_v129, main_v130, main_c_27, main_v131, main_v132, main_v133, main_v134, main_v135, main_v136, main_v137, main_v138, main_v139, main_v140, main_cst_28, main_v141, main_c_29, main_v142, main_v143, main_c_30, main_v144, main_v145, main_v146, main_v147, main_v148, main_v149, main_v150, main_v151, main_v152]
theorem hostOps5_writes_sub : (hostOps5 : List (HloOp τ sig (Elt F))).Forall fun op => op.writes ⊆ ((hostOps5_writes).map (Proc.devRef (τ := τ) .tc)).toFinset :=
  writes_sub_of_forall₂ (by pair_writes)
/-- A reference the stretch does not write keeps its contents across it. -/
theorem hostOps5_keeps (V : Valuation τ sig (Elt F)) (b : Ref sig .tc) (hb : b ∉ hostOps5_writes) :
    StableHlo.after hostOps5 V (Proc.devRef .tc b) = V (Proc.devRef .tc b) :=
  StableHlo.after_of_writes_sub hostOps5 V hostOps5_writes_sub hb

/-- The references the stretch hostOps6 writes, in order. -/
abbrev hostOps6_writes : List (Ref sig .tc) := [main_v154, main_c_31, main_v155, main_v156, main_c_32, main_v157, main_v158, main_v159, main_v160, main_v161, main_v162, main_v163, main_v164, main_v165, main_v166, main_cst_33, main_v167, main_c_34, main_v168, main_v169, main_c_35, main_v170, main_v171, main_v172, main_v173, main_v174, main_v175, main_v176]
theorem hostOps6_writes_sub : (hostOps6 : List (HloOp τ sig (Elt F))).Forall fun op => op.writes ⊆ ((hostOps6_writes).map (Proc.devRef (τ := τ) .tc)).toFinset :=
  writes_sub_of_forall₂ (by pair_writes)
/-- A reference the stretch does not write keeps its contents across it. -/
theorem hostOps6_keeps (V : Valuation τ sig (Elt F)) (b : Ref sig .tc) (hb : b ∉ hostOps6_writes) :
    StableHlo.after hostOps6 V (Proc.devRef .tc b) = V (Proc.devRef .tc b) :=
  StableHlo.after_of_writes_sub hostOps6 V hostOps6_writes_sub hb

/-- The references the stretch hostOps7 writes, in order. -/
abbrev hostOps7_writes : List (Ref sig .tc) := [main_c_36, main_v178, main_v179, main_c_37, main_v180, main_v181, main_v182, main_v183, main_v184, main_v185, main_v186, main_v187, main_v188, main_v189, main_cst_38, main_v190, main_c_39, main_v191, main_v192, main_c_40, main_v193, main_v194, main_v195, main_v196, main_v197, main_v198, main_v199, main_v200, main_v201]
theorem hostOps7_writes_sub : (hostOps7 : List (HloOp τ sig (Elt F))).Forall fun op => op.writes ⊆ ((hostOps7_writes).map (Proc.devRef (τ := τ) .tc)).toFinset :=
  writes_sub_of_forall₂ (by pair_writes)
/-- A reference the stretch does not write keeps its contents across it. -/
theorem hostOps7_keeps (V : Valuation τ sig (Elt F)) (b : Ref sig .tc) (hb : b ∉ hostOps7_writes) :
    StableHlo.after hostOps7 V (Proc.devRef .tc b) = V (Proc.devRef .tc b) :=
  StableHlo.after_of_writes_sub hostOps7 V hostOps7_writes_sub hb

/-- The references the stretch hostOps8 writes, in order. -/
abbrev hostOps8_writes : List (Ref sig .tc) := [main_v203, main_c_41, main_v204, main_v205, main_c_42, main_v206, main_v207, main_v208, main_v209, main_v210, main_v211, main_v212, main_v213, main_v214, main_v215, main_cst_43, main_v216, main_c_44, main_v217, main_v218, main_c_45, main_v219, main_v220, main_v221, main_v222, main_v223, main_v224, main_v225]
theorem hostOps8_writes_sub : (hostOps8 : List (HloOp τ sig (Elt F))).Forall fun op => op.writes ⊆ ((hostOps8_writes).map (Proc.devRef (τ := τ) .tc)).toFinset :=
  writes_sub_of_forall₂ (by pair_writes)
/-- A reference the stretch does not write keeps its contents across it. -/
theorem hostOps8_keeps (V : Valuation τ sig (Elt F)) (b : Ref sig .tc) (hb : b ∉ hostOps8_writes) :
    StableHlo.after hostOps8 V (Proc.devRef .tc b) = V (Proc.devRef .tc b) :=
  StableHlo.after_of_writes_sub hostOps8 V hostOps8_writes_sub hb

/-- The references the stretch hostOps9 writes, in order. -/
abbrev hostOps9_writes : List (Ref sig .tc) := [main_cst_46, main_v227, main_v228, main_cst_47, main_v229, main_c_48, main_v230, main_v231, main_c_49, main_v232, main_v233, main_v234, main_v235, main_v236, main_v237, main_cst_50]
theorem hostOps9_writes_sub : (hostOps9 : List (HloOp τ sig (Elt F))).Forall fun op => op.writes ⊆ ((hostOps9_writes).map (Proc.devRef (τ := τ) .tc)).toFinset :=
  writes_sub_of_forall₂ (by pair_writes)
/-- A reference the stretch does not write keeps its contents across it. -/
theorem hostOps9_keeps (V : Valuation τ sig (Elt F)) (b : Ref sig .tc) (hb : b ∉ hostOps9_writes) :
    StableHlo.after hostOps9 V (Proc.devRef .tc b) = V (Proc.devRef .tc b) :=
  StableHlo.after_of_writes_sub hostOps9 V hostOps9_writes_sub hb

/-- The references the stretch hostOps9_1 writes, in order. -/
abbrev hostOps9_1_writes : List (Ref sig .tc) := [main_call0_v0, main_call0_v1, main_call0_v2, main_v238]
theorem hostOps9_1_writes_sub : (hostOps9_1 : List (HloOp τ sig (Elt F))).Forall fun op => op.writes ⊆ ((hostOps9_1_writes).map (Proc.devRef (τ := τ) .tc)).toFinset :=
  writes_sub_of_forall₂ (by pair_writes)
/-- A reference the stretch does not write keeps its contents across it. -/
theorem hostOps9_1_keeps (V : Valuation τ sig (Elt F)) (b : Ref sig .tc) (hb : b ∉ hostOps9_1_writes) :
    StableHlo.after hostOps9_1 V (Proc.devRef .tc b) = V (Proc.devRef .tc b) :=
  StableHlo.after_of_writes_sub hostOps9_1 V hostOps9_1_writes_sub hb

/-- 14 host operations: a part of the first stretch. -/
abbrev hostOps0a : List (HloOp τ sig (Elt F)) :=
  [ StableHlo.nullary main_c (constantI S_ 32 0#32),
    StableHlo.unary main_c main_v0 (broadcastInDim S3600 ![] bcast_S_S3600 : (⟨S_, .i32⟩ : BufTy).Contents (Elt F) → (⟨S3600, .i32⟩ : BufTy).Contents (Elt F)),
    StableHlo.binary main_arg15 main_v0 main_v1 (cmpi .slt : (⟨S3600, .i32⟩ : BufTy).Contents (Elt F) → (⟨S3600, .i32⟩ : BufTy).Contents (Elt F) → (⟨S3600, .i1⟩ : BufTy).Contents (Elt F)),
    StableHlo.nullary main_c_0 (constantI S_ 32 12000#32),
    StableHlo.unary main_c_0 main_v2 (broadcastInDim S3600 ![] bcast_S_S3600 : (⟨S_, .i32⟩ : BufTy).Contents (Elt F) → (⟨S3600, .i32⟩ : BufTy).Contents (Elt F)),
    StableHlo.binary main_arg15 main_v2 main_v3 (addi : (⟨S3600, .i32⟩ : BufTy).Contents (Elt F) → (⟨S3600, .i32⟩ : BufTy).Contents (Elt F) → (⟨S3600, .i32⟩ : BufTy).Contents (Elt F)),
    StableHlo.ternary main_v1 main_v3 main_arg15 main_v4 (select : (⟨S3600, .i1⟩ : BufTy).Contents (Elt F) → (⟨S3600, .i32⟩ : BufTy).Contents (Elt F) → (⟨S3600, .i32⟩ : BufTy).Contents (Elt F) → (⟨S3600, .i32⟩ : BufTy).Contents (Elt F)),
    StableHlo.nullary main_c_1 (constantI S_ 32 0#32),
    StableHlo.unary main_c_1 main_v5 (broadcastInDim S3600 ![] bcast_S_S3600 : (⟨S_, .i32⟩ : BufTy).Contents (Elt F) → (⟨S3600, .i32⟩ : BufTy).Contents (Elt F)),
    StableHlo.unary main_v5 main_v6 (id : (⟨S3600, .i32⟩ : BufTy).Contents (Elt F) → (⟨S3600, .i32⟩ : BufTy).Contents (Elt F)),
    StableHlo.unary main_v4 main_v7 (broadcastInDim S3600x1 ![0] bcast_S3600_S3600x1_0 : (⟨S3600, .i32⟩ : BufTy).Contents (Elt F) → (⟨S3600x1, .i32⟩ : BufTy).Contents (Elt F)),
    StableHlo.unary main_v6 main_v8 (broadcastInDim S3600x1 ![0] bcast_S3600_S3600x1_0 : (⟨S3600, .i32⟩ : BufTy).Contents (Elt F) → (⟨S3600x1, .i32⟩ : BufTy).Contents (Elt F)),
    StableHlo.binary main_v7 main_v8 main_v9 ((fun a b => concatenate S3600x2 1 [⟨S3600x1, a⟩, ⟨S3600x1, b⟩] concatenates_S3600x1_S3600x1_S3600x2_d1) : (⟨S3600x1, .i32⟩ : BufTy).Contents (Elt F) → (⟨S3600x1, .i32⟩ : BufTy).Contents (Elt F) → (⟨S3600x2, .i32⟩ : BufTy).Contents (Elt F)),
    StableHlo.binary main_arg0 main_v9 main_v10 ((fun x i => Host.gather gather_S128x12000x1_S3600x2_S128x3600_0_12_n_n_12_1_12811 x i) : (⟨S128x12000x1, .f32⟩ : BufTy).Contents (Elt F) → (⟨S3600x2, .i32⟩ : BufTy).Contents (Elt F) → (⟨S128x3600, .f32⟩ : BufTy).Contents (Elt F)) ]
abbrev hostOps0a_writes : List (Ref sig .tc) := [main_c, main_v0, main_v1, main_c_0, main_v2, main_v3, main_v4, main_c_1, main_v5, main_v6, main_v7, main_v8, main_v9, main_v10]
theorem hostOps0a_writes_sub : (hostOps0a : List (HloOp τ sig (Elt F))).Forall fun op => op.writes ⊆ ((hostOps0a_writes).map (Proc.devRef (τ := τ) .tc)).toFinset :=
  writes_sub_of_forall₂ (by pair_writes)
theorem hostOps0a_keeps (V : Valuation τ sig (Elt F)) (b : Ref sig .tc) (hb : b ∉ hostOps0a_writes) :
    StableHlo.after hostOps0a V (Proc.devRef .tc b) = V (Proc.devRef .tc b) :=
  StableHlo.after_of_writes_sub hostOps0a V hostOps0a_writes_sub hb

/-- 23 host operations: a part of the first stretch. -/
abbrev hostOps0b : List (HloOp τ sig (Elt F)) :=
  [ StableHlo.reshape main_arg0 main_v11 rfl shapeCasts_S128x12000x1_S128x12000,
    StableHlo.nullary main_c_2 (constantI S_ 32 0#32),
    StableHlo.unary main_c_2 main_v12 (broadcastInDim S3600 ![] bcast_S_S3600 : (⟨S_, .i32⟩ : BufTy).Contents (Elt F) → (⟨S3600, .i32⟩ : BufTy).Contents (Elt F)),
    StableHlo.binary main_arg15 main_v12 main_v13 (cmpi .slt : (⟨S3600, .i32⟩ : BufTy).Contents (Elt F) → (⟨S3600, .i32⟩ : BufTy).Contents (Elt F) → (⟨S3600, .i1⟩ : BufTy).Contents (Elt F)),
    StableHlo.nullary main_c_3 (constantI S_ 32 12000#32),
    StableHlo.unary main_c_3 main_v14 (broadcastInDim S3600 ![] bcast_S_S3600 : (⟨S_, .i32⟩ : BufTy).Contents (Elt F) → (⟨S3600, .i32⟩ : BufTy).Contents (Elt F)),
    StableHlo.binary main_arg15 main_v14 main_v15 (addi : (⟨S3600, .i32⟩ : BufTy).Contents (Elt F) → (⟨S3600, .i32⟩ : BufTy).Contents (Elt F) → (⟨S3600, .i32⟩ : BufTy).Contents (Elt F)),
    StableHlo.ternary main_v13 main_v15 main_arg15 main_v16 (select : (⟨S3600, .i1⟩ : BufTy).Contents (Elt F) → (⟨S3600, .i32⟩ : BufTy).Contents (Elt F) → (⟨S3600, .i32⟩ : BufTy).Contents (Elt F) → (⟨S3600, .i32⟩ : BufTy).Contents (Elt F)),
    StableHlo.unary main_v16 main_v17 (broadcastInDim S3600x1 ![0] bcast_S3600_S3600x1_0 : (⟨S3600, .i32⟩ : BufTy).Contents (Elt F) → (⟨S3600x1, .i32⟩ : BufTy).Contents (Elt F)),
    StableHlo.nullary main_cst (constant S_ .f32 0x00000000#32),
    StableHlo.unary main_cst main_v18 (broadcastInDim S128x3600 ![] bcast_S_S128x3600 : (⟨S_, .f32⟩ : BufTy).Contents (Elt F) → (⟨S128x3600, .f32⟩ : BufTy).Contents (Elt F)),
    StableHlo.ternary main_v11 main_v17 main_v18 main_v19 ((fun x i u => Host.scatter scatter_S128x12000_S3600x1_S128x3600_0_1_1_1 (fun _ b => b) x i u) : (⟨S128x12000, .f32⟩ : BufTy).Contents (Elt F) → (⟨S3600x1, .i32⟩ : BufTy).Contents (Elt F) → (⟨S128x3600, .f32⟩ : BufTy).Contents (Elt F) → (⟨S128x12000, .f32⟩ : BufTy).Contents (Elt F)),
    StableHlo.nullary main_c_4 (constantI S_ 32 0#32),
    StableHlo.unary main_c_4 main_v20 (broadcastInDim S57000 ![] bcast_S_S57000 : (⟨S_, .i32⟩ : BufTy).Contents (Elt F) → (⟨S57000, .i32⟩ : BufTy).Contents (Elt F)),
    StableHlo.binary main_arg9 main_v20 main_v21 (cmpi .slt : (⟨S57000, .i32⟩ : BufTy).Contents (Elt F) → (⟨S57000, .i32⟩ : BufTy).Contents (Elt F) → (⟨S57000, .i1⟩ : BufTy).Contents (Elt F)),
    StableHlo.nullary main_c_5 (constantI S_ 32 12000#32),
    StableHlo.unary main_c_5 main_v22 (broadcastInDim S57000 ![] bcast_S_S57000 : (⟨S_, .i32⟩ : BufTy).Contents (Elt F) → (⟨S57000, .i32⟩ : BufTy).Contents (Elt F)),
    StableHlo.binary main_arg9 main_v22 main_v23 (addi : (⟨S57000, .i32⟩ : BufTy).Contents (Elt F) → (⟨S57000, .i32⟩ : BufTy).Contents (Elt F) → (⟨S57000, .i32⟩ : BufTy).Contents (Elt F)),
    StableHlo.ternary main_v21 main_v23 main_arg9 main_v24 (select : (⟨S57000, .i1⟩ : BufTy).Contents (Elt F) → (⟨S57000, .i32⟩ : BufTy).Contents (Elt F) → (⟨S57000, .i32⟩ : BufTy).Contents (Elt F) → (⟨S57000, .i32⟩ : BufTy).Contents (Elt F)),
    StableHlo.unary main_v24 main_v25 (broadcastInDim S57000x1 ![0] bcast_S57000_S57000x1_0 : (⟨S57000, .i32⟩ : BufTy).Contents (Elt F) → (⟨S57000x1, .i32⟩ : BufTy).Contents (Elt F)),
    StableHlo.binary main_v19 main_v25 main_v26 ((fun x i => Host.gather gather_S128x12000_S57000x1_S128x57000_0_1_n_n_1_1_1281 x i) : (⟨S128x12000, .f32⟩ : BufTy).Contents (Elt F) → (⟨S57000x1, .i32⟩ : BufTy).Contents (Elt F) → (⟨S128x57000, .f32⟩ : BufTy).Contents (Elt F)),
    StableHlo.unary main_arg1 main_v27 ((truncf .bf16 · bitsLt_bf16_f32) : (⟨S3600x100, .f32⟩ : BufTy).Contents (Elt F) → (⟨S3600x100, .bf16⟩ : BufTy).Contents (Elt F)),
    StableHlo.unary main_arg3 main_v28 ((truncf .bf16 · bitsLt_bf16_f32) : (⟨S100x56000, .f32⟩ : BufTy).Contents (Elt F) → (⟨S100x56000, .bf16⟩ : BufTy).Contents (Elt F)) ]
abbrev hostOps0b_writes : List (Ref sig .tc) := [main_v11, main_c_2, main_v12, main_v13, main_c_3, main_v14, main_v15, main_v16, main_v17, main_cst, main_v18, main_v19, main_c_4, main_v20, main_v21, main_c_5, main_v22, main_v23, main_v24, main_v25, main_v26, main_v27, main_v28]
theorem hostOps0b_writes_sub : (hostOps0b : List (HloOp τ sig (Elt F))).Forall fun op => op.writes ⊆ ((hostOps0b_writes).map (Proc.devRef (τ := τ) .tc)).toFinset :=
  writes_sub_of_forall₂ (by pair_writes)
theorem hostOps0b_keeps (V : Valuation τ sig (Elt F)) (b : Ref sig .tc) (hb : b ∉ hostOps0b_writes) :
    StableHlo.after hostOps0b V (Proc.devRef .tc b) = V (Proc.devRef .tc b) :=
  StableHlo.after_of_writes_sub hostOps0b V hostOps0b_writes_sub hb

/-- The first stretch is its two parts, one after the other. -/
theorem hostOps0_split : (hostOps0 : List (HloOp τ sig (Elt F))) = hostOps0a ++ hostOps0b := rfl

end Cert.KernelIdeal.Keeps

end
-- ==== Proof.Spec.lean ====
/-
  The three functions the kernel's regions compute, each written in the reference's own host operations so that the
  reference's run reads it off directly: the state gate (two dense layers, an ELU between them, a row-wise
  normalisation over all 56000 hidden units and a logistic), one block's hidden update (bias, a normalisation of each
  function node's 8 hidden units, the gate's product and an ELU), and one block's edge update (bias and residual).
-/
import proofs.«157921_j32839319945335_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- `elu x = x` where `x > 0`, else `1 · (e^x' − 1)` with `x' = 0` where `x > 0`, else `x`: on [128, 100]. -/
def elu100 (x : FVec F S128x100 .f32) : FVec F S128x100 .f32 :=
  select (cmpf .ogt x (broadcastInDim S128x100 ![] bcast_S_S128x100 (constant S_ .f32 0x00000000#32))) x
    (mulf (broadcastInDim S128x100 ![] bcast_S_S128x100 (constant S_ .f32 0x3F800000#32))
      (Host.expm1 (select (cmpf .ogt x (broadcastInDim S128x100 ![] bcast_S_S128x100 (constant S_ .f32 0x00000000#32)))
        (broadcastInDim S128x100 ![] bcast_S_S128x100 (id (constant S_ .f32 0x00000000#32))) x)))

/-- The same on [128, 56000]. -/
def elu56000 (x : FVec F S128x56000 .f32) : FVec F S128x56000 .f32 :=
  select (cmpf .ogt x (broadcastInDim S128x56000 ![] bcast_S_S128x56000 (constant S_ .f32 0x00000000#32))) x
    (mulf (broadcastInDim S128x56000 ![] bcast_S_S128x56000 (constant S_ .f32 0x3F800000#32))
      (Host.expm1 (select (cmpf .ogt x (broadcastInDim S128x56000 ![] bcast_S_S128x56000 (constant S_ .f32 0x00000000#32)))
        (broadcastInDim S128x56000 ![] bcast_S_S128x56000 (id (constant S_ .f32 0x00000000#32))) x)))

/-- The first dense layer and its ELU: `elu (xo · W₁ + b₁)`. -/
def gateHidden (xo : FVec F S128x3600 .f32) (w1 : FVec F S3600x100 .f32) (b1 : FVec F S100 .f32) : FVec F S128x100 .f32 :=
  elu100 (addf (Host.dotGeneral dot_S128x3600_S3600x100_S128x100_1_0_0_1_n_n none xo w1)
    (broadcastInDim S128x100 ![0, 1] bcast_S1x100_S128x100_0_1 (broadcastInDim S1x100 ![1] bcast_S100_S1x100_1 b1)))

/-- The second dense layer: `h · W₂ + b₂`. -/
def gateLinear (h : FVec F S128x100 .f32) (w2 : FVec F S100x56000 .f32) (b2 : FVec F S56000 .f32) : FVec F S128x56000 .f32 :=
  addf (Host.dotGeneral dot_S128x100_S100x56000_S128x56000_1_0_0_1_n_n none h w2)
    (broadcastInDim S128x56000 ![0, 1] bcast_S1x56000_S128x56000_0_1 (broadcastInDim S1x56000 ![1] bcast_S56000_S1x56000_1 b2))

/-- A row's mean over its 56000 entries, as a column. -/
def rowMean (z : FVec F S128x56000 .f32) : FVec F S128x1 .f32 :=
  Host.divf (broadcastInDim S128x1 ![0] bcast_S128_S128x1_0 (Host.reduceAdd z (constant S_ .f32 0x00000000#32) reducesTo_S128x56000_S128_d1 h_S_))
    (broadcastInDim S128x1 ![] bcast_S_S128x1 (constant S_ .f32 0x475AC000#32))

/-- Each row centred at its mean and scaled by `rsqrt (variance + ε)` (the biased variance). -/
def rowNorm (z : FVec F S128x56000 .f32) : FVec F S128x56000 .f32 :=
  mulf (subf z (broadcastInDim S128x56000 ![0, 1] bcast_S128x1_S128x56000_0_1 (rowMean z)))
    (broadcastInDim S128x56000 ![0, 1] bcast_S128x1_S128x56000_0_1
      (Host.rsqrt (addf
        (Host.divf (broadcastInDim S128x1 ![0] bcast_S128_S128x1_0
            (Host.reduceAdd (mulf (subf z (broadcastInDim S128x56000 ![0, 1] bcast_S128x1_S128x56000_0_1 (rowMean z)))
                (subf z (broadcastInDim S128x56000 ![0, 1] bcast_S128x1_S128x56000_0_1 (rowMean z))))
              (constant S_ .f32 0x00000000#32) reducesTo_S128x56000_S128_d1 h_S_))
          (broadcastInDim S128x1 ![] bcast_S_S128x1 (constant S_ .f32 0x475AC000#32)))
        (broadcastInDim S128x1 ![] bcast_S_S128x1 (constant S_ .f32 0x3727C5AC#32)))))

/-- `1 / (1 + e^(−x))`. -/
def logistic56000 (x : FVec F S128x56000 .f32) : FVec F S128x56000 .f32 :=
  Host.divf (broadcastInDim S128x56000 ![] bcast_S_S128x56000 (constant S_ .f32 0x3F800000#32))
    (addf (broadcastInDim S128x56000 ![] bcast_S_S128x56000 (constant S_ .f32 0x3F800000#32)) (Host.exp (Host.negf x)))

/-- The state gate `s`. -/
def gate (xo : FVec F S128x3600 .f32) (w1 : FVec F S3600x100 .f32) (b1 : FVec F S100 .f32) (w2 : FVec F S100x56000 .f32)
    (b2 : FVec F S56000 .f32) : FVec F S128x56000 .f32 :=
  logistic56000 (rowNorm (gateLinear (gateHidden xo w1 b1) w2 b2))

/-- A function node's mean over its 8 hidden units, keeping the axis. -/
def groupMean (g : FVec F S128x7000x8 .f32) : FVec F S128x7000x1 .f32 :=
  Host.divf (broadcastInDim S128x7000x1 ![0, 1] bcast_S128x7000_S128x7000x1_0_1
      (Host.reduceAdd g (constant S_ .f32 0x00000000#32) reducesTo_S128x7000x8_S128x7000_d2 h_S_))
    (broadcastInDim S128x7000x1 ![] bcast_S_S128x7000x1 (constant S_ .f32 0x41000000#32))

/-- Each function node's 8 hidden units centred and scaled by `rsqrt (variance + ε)`. -/
def groupNorm (g : FVec F S128x7000x8 .f32) : FVec F S128x7000x8 .f32 :=
  mulf (subf g (broadcastInDim S128x7000x8 ![0, 1, 2] bcast_S128x7000x1_S128x7000x8_0_1_2 (groupMean g)))
    (broadcastInDim S128x7000x8 ![0, 1, 2] bcast_S128x7000x1_S128x7000x8_0_1_2
      (Host.rsqrt (addf
        (Host.divf (broadcastInDim S128x7000x1 ![0, 1] bcast_S128x7000_S128x7000x1_0_1
            (Host.reduceAdd (mulf (subf g (broadcastInDim S128x7000x8 ![0, 1, 2] bcast_S128x7000x1_S128x7000x8_0_1_2 (groupMean g)))
                (subf g (broadcastInDim S128x7000x8 ![0, 1, 2] bcast_S128x7000x1_S128x7000x8_0_1_2 (groupMean g))))
              (constant S_ .f32 0x00000000#32) reducesTo_S128x7000x8_S128x7000_d2 h_S_))
          (broadcastInDim S128x7000x1 ![] bcast_S_S128x7000x1 (constant S_ .f32 0x41000000#32)))
        (broadcastInDim S128x7000x1 ![] bcast_S_S128x7000x1 (constant S_ .f32 0x3727C5AC#32)))))

/-- One block's hidden update: `elu (s · groupNorm (hlin + b))`, the sum and the product on [128, 56000], the
    normalisation on [128, 7000, 8]. -/
def hidden (hlin : FVec F S128x56000 .f32) (b : FVec F S56000 .f32) (s : FVec F S128x56000 .f32) : FVec F S128x56000 .f32 :=
  elu56000 (mulf s
    (shapeCast S128x56000
      (groupNorm (shapeCast S128x7000x8
        (addf hlin (broadcastInDim S128x56000 ![0, 1] bcast_S1x56000_S128x56000_0_1 (broadcastInDim S1x56000 ![1] bcast_S56000_S1x56000_1 b)))
        shapeCasts_S128x56000_S128x7000x8))
      shapeCasts_S128x7000x8_S128x56000))

/-- One block's edge update: `(xlin + b) + xprev`. -/
def edge (xlin : FVec F S128x57000 .f32) (b : FVec F S57000 .f32) (xprev : FVec F S128x57000 .f32) : FVec F S128x57000 .f32 :=
  addf (addf xlin (broadcastInDim S128x57000 ![0, 1] bcast_S1x57000_S128x57000_0_1 (broadcastInDim S1x57000 ![1] bcast_S57000_S1x57000_1 b))) xprev

end Cert.Spec

end
-- ==== Proof.StepsHead.lean ====
/-
  The two programs side by side, before the first region. Both programs start with the same host operations: the
  omic columns of the node features gathered (the index table is a concatenation of two columns), those columns set to
  zero and the node features gathered along `src` to the edges. The reference then computes the state gate by host
  operations, which is the specification's function (`Cert.Spec.gate`) by its very shape; the kernel program hands its
  first region the two weight matrices in the narrow format, and reshapes the gate for the later regions.
  Each lemma is stated over ARBITRARY valuations of the two programs, related only on the buffers the stretch reads.
-/
import proofs.«157921_j32839319945335_1_alg».proof.Proof.Gen.KernelIdeal.Launch
import proofs.«157921_j32839319945335_1_alg».proof.Proof.RefOps
import proofs.«157921_j32839319945335_1_alg».proof.Proof.RefKeeps
import proofs.«157921_j32839319945335_1_alg».proof.Proof.KernelKeeps
import proofs.«157921_j32839319945335_1_alg».proof.Proof.Spec
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps1 hostOps2 hostOps3 hostOps4 hostOps5 hostOps6 hostOps7 hostOps8 hostOps9 hostOps9_1)
open Cert.ReferenceIdeal.Ops
open Cert.KernelIdeal.Keeps (hostOps0a hostOps0b)

local notation "⟪" b "⟫" => Proc.devRef Proc.tc b

variable (KV : Valuation KernelIdeal.τ KernelIdeal.sig (Elt Ideal)) (RV : Valuation ReferenceIdeal.τ ReferenceIdeal.sig (Elt Ideal))

/-! ## Before the first region: the omic columns, the zeroed node features gathered to the edges, the gate -/

/-- The edge features both programs start from: the node features with the omic columns set to zero, gathered along `src`. -/
theorem head_edges
    (h0 : RV ⟪ReferenceIdeal.main_arg0⟫ = KV ⟪KernelIdeal.main_arg0⟫) (h9 : RV ⟪ReferenceIdeal.main_arg9⟫ = KV ⟪KernelIdeal.main_arg9⟫)
    (h15 : RV ⟪ReferenceIdeal.main_arg15⟫ = KV ⟪KernelIdeal.main_arg15⟫) :
    after r1_0 (after r0_5 (after r0_4 (after r0_3 (after r0_2 (after r0_1 (after r0_0 RV)))))) ⟪ReferenceIdeal.main_v59⟫
      = after hostOps0 KV ⟪KernelIdeal.main_v26⟫ := by
  after_results_simp
  rw [h0, h9, h15]
  rfl

/-- A concatenation of two operands of one shape depends on the operands only through their contents. -/
theorem concat2_congr {α : Type} (t : Shape) (ax : Fin t.rank) (s1 : Shape) (a a' b b' : s1.Idx → α)
    (h : Shape.Concatenates ([(⟨s1, a⟩ : (s : Shape) × (s.Idx → α)), ⟨s1, b⟩].map (·.1)) t ax) (ha : a = a') (hb : b = b') :
    concatenate t ax [⟨s1, a⟩, ⟨s1, b⟩] h = concatenate t ax [⟨s1, a'⟩, ⟨s1, b'⟩] h := by
  subst ha hb; rfl

/-- The omic columns, gathered: the first fourteen operations of either program, the index table a concatenation whose
    operands are read one rewrite at a time. -/
theorem head_omic
    (h0 : RV ⟪ReferenceIdeal.main_arg0⟫ = KV ⟪KernelIdeal.main_arg0⟫) (h15 : RV ⟪ReferenceIdeal.main_arg15⟫ = KV ⟪KernelIdeal.main_arg15⟫) :
    after r0_0a RV ⟪ReferenceIdeal.main_v10⟫ = after hostOps0a KV ⟪KernelIdeal.main_v10⟫ := by
  after_results_simp
  rw [h0]
  refine congrArg (Host.gather _ _) (concat2_congr _ _ _ _ _ _ _ _ ?_ ?_)
  · after_results_simp
    rw [h15]
  · after_results_simp

/-- The first part of the reference's first stretch keeps what it does not write. -/
theorem r0_0a_keeps (V : Valuation ReferenceIdeal.τ ReferenceIdeal.sig (Elt Ideal)) (b : Ref ReferenceIdeal.sig .tc) (hb : b ∉ r0_0a_writes) :
    after r0_0a V ⟪b⟫ = V ⟪b⟫ :=
  after_of_writes_sub r0_0a V
    (writes_sub_of_forall₂ (by repeat (first | exact List.Forall₂.nil | refine List.Forall₂.cons rfl ?_))) hb

/- In the lemmas marked so, the array operations are kept folded while the two sides are compared: the reference's
   module-local functions hand their values through buffers whose declared type is the value's type by computation,
   and with the operations folded the comparison only has to see through that identification. -/
attribute [local irreducible] select cmpf mulf addf subf broadcastInDim constant shapeCast Host.expm1 Host.reduceAdd
  Host.divf Host.rsqrt Host.negf Host.exp Host.gather Host.scatterAdd Host.scatter in
/-- The reference's gate, read from the valuation its first fourteen operations leave, is the specification's function
    of the omic columns held there and of the four weight arrays. -/
theorem head_gate (xo : FVec Ideal ReferenceIdeal.S128x3600 .f32) (w1 : FVec Ideal ReferenceIdeal.S3600x100 .f32)
    (b1 : FVec Ideal ReferenceIdeal.S100 .f32) (w2 : FVec Ideal ReferenceIdeal.S100x56000 .f32) (b2 : FVec Ideal ReferenceIdeal.S56000 .f32)
    (hxo : RV ⟪ReferenceIdeal.main_v10⟫ = xo) (h1 : RV ⟪ReferenceIdeal.main_arg1⟫ = w1) (h2 : RV ⟪ReferenceIdeal.main_arg2⟫ = b1)
    (h3 : RV ⟪ReferenceIdeal.main_arg3⟫ = w2) (h4 : RV ⟪ReferenceIdeal.main_arg4⟫ = b2) :
    (after r1_0 (after r0_5 (after r0_4 (after r0_3 (after r0_2 (after r0_1 (after r0_0b RV)))))) ⟪ReferenceIdeal.main_v43⟫
        : FVec Ideal ReferenceIdeal.S128x56000 .f32)
      = Spec.gate (F := Ideal) xo w1 b1 w2 b2 := by
  after_results_simp
  rw [hxo, h1, h2, h3, h4]
  rfl

/-- The kernel's first stretch hands the region the two weight matrices in the narrow format. -/
theorem head_w1 : @Eq (FVec Ideal KernelIdeal.S3600x100 .bf16) (after hostOps0 KV ⟪KernelIdeal.main_v27⟫)
    (truncf .bf16 (KV ⟪KernelIdeal.main_arg1⟫) KernelIdeal.Gen.bitsLt_bf16_f32) := by
  after_results_simp <;> rfl
theorem head_w2 : @Eq (FVec Ideal KernelIdeal.S100x56000 .bf16) (after hostOps0 KV ⟪KernelIdeal.main_v28⟫)
    (truncf .bf16 (KV ⟪KernelIdeal.main_arg3⟫) KernelIdeal.Gen.bitsLt_bf16_f32) := by
  after_results_simp <;> rfl

/-- The first block's stretch also reshapes the gate to [128, 7000, 8] for every block's hidden region. -/
theorem gate3d : after hostOps1 KV ⟪KernelIdeal.main_v30⟫
    = shapeCast KernelIdeal.S128x7000x8 (KV ⟪KernelIdeal.main_v29⟫) KernelIdeal.Gen.shapeCasts_S128x56000_S128x7000x8 := by
  after_results_simp
  rfl

end Cert.Steps

end
-- ==== Proof.StepsPre.lean ====
/-
  A block's hidden update is an ELU of the gate times the normalised hidden units; the argument of that ELU, as a
  function of the sparse product, the bias and the gate, is named here so that the reference's run can be read in two
  steps: its host operations up to the ELU's argument, and the ELU (a module-local function of the reference).
-/
import proofs.«157921_j32839319945335_1_alg».proof.Proof.Spec
import Idealize.ShloMosaic.PureOps.Ideal

noncomputable section

namespace Cert.Steps

open Idealize.ShloMosaic Idealize.ShloMosaic.TcCoe

/-- The argument of a block's ELU: the gate times the normalised hidden units, on [128, 56000]. -/
def hiddenPre (hlin : FVec Ideal ReferenceIdeal.S128x56000 .f32) (b : FVec Ideal ReferenceIdeal.S56000 .f32)
    (s : FVec Ideal ReferenceIdeal.S128x56000 .f32) : FVec Ideal ReferenceIdeal.S128x56000 .f32 :=
  mulf s
    (shapeCast ReferenceIdeal.S128x56000
      (Spec.groupNorm (shapeCast ReferenceIdeal.S128x7000x8
        (addf hlin (broadcastInDim ReferenceIdeal.S128x56000 ![0, 1] ReferenceIdeal.Gen.bcast_S1x56000_S128x56000_0_1
          (broadcastInDim ReferenceIdeal.S1x56000 ![1] ReferenceIdeal.Gen.bcast_S56000_S1x56000_1 b)))
        ReferenceIdeal.Gen.shapeCasts_S128x56000_S128x7000x8))
      ReferenceIdeal.Gen.shapeCasts_S128x7000x8_S128x56000)

/-- The hidden update is the ELU of that argument. -/
theorem hidden_eq (hlin : FVec Ideal ReferenceIdeal.S128x56000 .f32) (b : FVec Ideal ReferenceIdeal.S56000 .f32)
    (s : FVec Ideal ReferenceIdeal.S128x56000 .f32) : Spec.hidden hlin b s = Spec.elu56000 (hiddenPre hlin b s) := rfl

end Cert.Steps

end
-- ==== Proof.StepsHidden01.lean ====
/-
  The two programs side by side across the hidden halves of blocks 0 and 1. The kernel program's stretch before a
  hidden region computes the sparse product into the hidden units and takes the block's bias, and reshapes both for the
  region; the reference computes the same product and bias by the same host operations, then the normalisation of each
  function node's eight hidden units, the gate's product and the ELU, which is the specification's function
  (`Cert.Spec.hidden`) of that product, that bias and the gate by its very shape.
  Each lemma is stated over ARBITRARY valuations of the two programs, related only on the buffers the stretch reads.
-/
import proofs.«157921_j32839319945335_1_alg».proof.Proof.Gen.KernelIdeal.Launch
import proofs.«157921_j32839319945335_1_alg».proof.Proof.RefOps
import proofs.«157921_j32839319945335_1_alg».proof.Proof.RefKeeps
import proofs.«157921_j32839319945335_1_alg».proof.Proof.KernelKeeps
import proofs.«157921_j32839319945335_1_alg».proof.Proof.Spec
import proofs.«157921_j32839319945335_1_alg».proof.Proof.StepsPre
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps1 hostOps2 hostOps3 hostOps4 hostOps5 hostOps6 hostOps7 hostOps8 hostOps9 hostOps9_1)
open Cert.ReferenceIdeal.Ops
open Cert.KernelIdeal.Keeps (hostOps0a hostOps0b)

local notation "⟪" b "⟫" => Proc.devRef Proc.tc b

variable (KV : Valuation KernelIdeal.τ KernelIdeal.sig (Elt Ideal)) (RV : Valuation ReferenceIdeal.τ ReferenceIdeal.sig (Elt Ideal))

/- In the lemmas marked so, the array operations are kept folded while the two sides are compared: the reference's
   module-local functions hand their values through buffers whose declared type is the value's type by computation,
   and with the operations folded the comparison only has to see through that identification. -/

/-! ## Block 0, the hidden half -/

/-- The kernel's stretch hands the region the sparse product reshaped to [128, 7000, 8]. -/
theorem hidden0_k1 : @Eq (FVec Ideal KernelIdeal.S128x7000x8 .f32) (after hostOps1 KV ⟪KernelIdeal.main_v51⟫)
    (shapeCast KernelIdeal.S128x7000x8 (after hostOps1 KV ⟪KernelIdeal.main_v50⟫) KernelIdeal.Gen.shapeCasts_S128x56000_S128x7000x8) := by
  after_results_simp <;> rfl

/-- … and the block's bias reshaped to [7000, 8]. -/
theorem hidden0_k2 : @Eq (FVec Ideal KernelIdeal.S7000x8 .f32) (after hostOps1 KV ⟪KernelIdeal.main_v54⟫)
    (shapeCast KernelIdeal.S7000x8 (after hostOps1 KV ⟪KernelIdeal.main_v53⟫) KernelIdeal.Gen.shapeCasts_S56000_S7000x8) := by
  after_results_simp <;> rfl

/-- The sparse product into the hidden units (a gather along the rows' index, a product with the block's weights, a
    scatter-add along the columns' index) is one term in both programs. -/
theorem hidden0_x1
    (hx : RV ⟪ReferenceIdeal.main_v59⟫ = KV ⟪KernelIdeal.main_v26⟫)
    (h5 : RV ⟪ReferenceIdeal.main_arg5⟫ = KV ⟪KernelIdeal.main_arg5⟫)
    (h11 : RV ⟪ReferenceIdeal.main_arg11⟫ = KV ⟪KernelIdeal.main_arg11⟫) (h12 : RV ⟪ReferenceIdeal.main_arg12⟫ = KV ⟪KernelIdeal.main_arg12⟫) :
    after r2_0 (after r1_1 RV) ⟪ReferenceIdeal.main_v79⟫ = after hostOps1 KV ⟪KernelIdeal.main_v50⟫ := by
  after_results_simp
  rw [hx, h5, h11, h12]
  rfl

/-- The block's bias (a row of the bias table) is one term in both programs. -/
theorem hidden0_x2 (h6 : RV ⟪ReferenceIdeal.main_arg6⟫ = KV ⟪KernelIdeal.main_arg6⟫) :
    after r2_0 (after r1_1 RV) ⟪ReferenceIdeal.main_v81⟫ = after hostOps1 KV ⟪KernelIdeal.main_v53⟫ := by
  after_results_simp
  rw [h6]
  rfl

/-- The reference's host operations up to the ELU: the gate times the normalised sum of the sparse product and the bias. -/
theorem hidden0_pre :
    (after r2_0 (after r1_1 RV) ⟪ReferenceIdeal.main_v105⟫ : FVec Ideal ReferenceIdeal.S128x56000 .f32)
      = hiddenPre (after r2_0 (after r1_1 RV) ⟪ReferenceIdeal.main_v79⟫) (after r2_0 (after r1_1 RV) ⟪ReferenceIdeal.main_v81⟫) (RV ⟪ReferenceIdeal.main_v43⟫) := by
  after_results_simp
  rfl

attribute [local irreducible] select cmpf mulf addf subf broadcastInDim constant shapeCast Host.expm1 Host.reduceAdd
  Host.divf Host.rsqrt Host.negf Host.exp Host.gather Host.scatterAdd Host.scatter in
/-- The reference's ELU, a module-local function, read from any valuation: the specification's ELU of its argument. -/
theorem hidden0_elu (V : Valuation ReferenceIdeal.τ ReferenceIdeal.sig (Elt Ideal)) :
    (after r2_4 (after r2_3 (after r2_2 (after r2_1 V))) ⟪ReferenceIdeal.main_v106⟫ : FVec Ideal ReferenceIdeal.S128x56000 .f32)
      = Spec.elu56000 (F := Ideal) (V ⟪ReferenceIdeal.main_v105⟫) := by
  after_results_simp
  rfl

/-- Block 0, the hidden half: the kernel's stretch leaves the sparse product and the bias as the region's arrays (the
    product reshaped to [128, 7000, 8], the bias to [7000, 8]); the reference's hidden update is the specification's
    function of the same product and bias and of the gate. -/
theorem hidden0 (S : FVec Ideal KernelIdeal.S128x56000 .f32)
    (hx : RV ⟪ReferenceIdeal.main_v59⟫ = KV ⟪KernelIdeal.main_v26⟫) (hs : RV ⟪ReferenceIdeal.main_v43⟫ = S)
    (h5 : RV ⟪ReferenceIdeal.main_arg5⟫ = KV ⟪KernelIdeal.main_arg5⟫) (h6 : RV ⟪ReferenceIdeal.main_arg6⟫ = KV ⟪KernelIdeal.main_arg6⟫)
    (h11 : RV ⟪ReferenceIdeal.main_arg11⟫ = KV ⟪KernelIdeal.main_arg11⟫) (h12 : RV ⟪ReferenceIdeal.main_arg12⟫ = KV ⟪KernelIdeal.main_arg12⟫) :
    ∃ (hlin : FVec Ideal KernelIdeal.S128x56000 .f32) (b : FVec Ideal KernelIdeal.S56000 .f32),
      after hostOps1 KV ⟪KernelIdeal.main_v51⟫ = shapeCast KernelIdeal.S128x7000x8 hlin KernelIdeal.Gen.shapeCasts_S128x56000_S128x7000x8
      ∧ after hostOps1 KV ⟪KernelIdeal.main_v54⟫ = shapeCast KernelIdeal.S7000x8 b KernelIdeal.Gen.shapeCasts_S56000_S7000x8
      ∧ (after r2_4 (after r2_3 (after r2_2 (after r2_1 (after r2_0 (after r1_1 RV))))) ⟪ReferenceIdeal.main_v106⟫
            : FVec Ideal ReferenceIdeal.S128x56000 .f32)
          = Spec.hidden (F := Ideal) hlin b S := by
  refine ⟨after hostOps1 KV ⟪KernelIdeal.main_v50⟫, after hostOps1 KV ⟪KernelIdeal.main_v53⟫, hidden0_k1 KV, hidden0_k2 KV, ?_⟩
  rw [hidden_eq, ← hidden0_x1 KV RV hx h5 h11 h12, ← hidden0_x2 KV RV h6, ← hs, ← hidden0_pre RV]
  exact hidden0_elu _

/-! ## Block 1, the hidden half -/

/-- The kernel's stretch hands the region the sparse product reshaped to [128, 7000, 8]. -/
theorem hidden1_k1 : @Eq (FVec Ideal KernelIdeal.S128x7000x8 .f32) (after hostOps3 KV ⟪KernelIdeal.main_v100⟫)
    (shapeCast KernelIdeal.S128x7000x8 (after hostOps3 KV ⟪KernelIdeal.main_v99⟫) KernelIdeal.Gen.shapeCasts_S128x56000_S128x7000x8) := by
  after_results_simp <;> rfl

/-- … and the block's bias reshaped to [7000, 8]. -/
theorem hidden1_k2 : @Eq (FVec Ideal KernelIdeal.S7000x8 .f32) (after hostOps3 KV ⟪KernelIdeal.main_v103⟫)
    (shapeCast KernelIdeal.S7000x8 (after hostOps3 KV ⟪KernelIdeal.main_v102⟫) KernelIdeal.Gen.shapeCasts_S56000_S7000x8) := by
  after_results_simp <;> rfl

/-- The sparse product into the hidden units (a gather along the rows' index, a product with the block's weights, a
    scatter-add along the columns' index) is one term in both programs. -/
theorem hidden1_x1
    (hx : RV ⟪ReferenceIdeal.main_v132⟫ = KV ⟪KernelIdeal.main_v79⟫)
    (h5 : RV ⟪ReferenceIdeal.main_arg5⟫ = KV ⟪KernelIdeal.main_arg5⟫)
    (h11 : RV ⟪ReferenceIdeal.main_arg11⟫ = KV ⟪KernelIdeal.main_arg11⟫) (h12 : RV ⟪ReferenceIdeal.main_arg12⟫ = KV ⟪KernelIdeal.main_arg12⟫) :
    after r3_0 (after r2_6 RV) ⟪ReferenceIdeal.main_v152⟫ = after hostOps3 KV ⟪KernelIdeal.main_v99⟫ := by
  after_results_simp
  rw [hx, h5, h11, h12]
  rfl

/-- The block's bias (a row of the bias table) is one term in both programs. -/
theorem hidden1_x2 (h6 : RV ⟪ReferenceIdeal.main_arg6⟫ = KV ⟪KernelIdeal.main_arg6⟫) :
    after r3_0 (after r2_6 RV) ⟪ReferenceIdeal.main_v154⟫ = after hostOps3 KV ⟪KernelIdeal.main_v102⟫ := by
  after_results_simp
  rw [h6]
  rfl

set_option maxHeartbeats 1000000 in
/-- The reference's host operations up to the ELU: the gate times the normalised sum of the sparse product and the bias. -/
theorem hidden1_pre :
    (after r3_0 (after r2_6 RV) ⟪ReferenceIdeal.main_v178⟫ : FVec Ideal ReferenceIdeal.S128x56000 .f32)
      = hiddenPre (after r3_0 (after r2_6 RV) ⟪ReferenceIdeal.main_v152⟫) (after r3_0 (after r2_6 RV) ⟪ReferenceIdeal.main_v154⟫) (RV ⟪ReferenceIdeal.main_v43⟫) := by
  after_results_simp
  rfl

attribute [local irreducible] select cmpf mulf addf subf broadcastInDim constant shapeCast Host.expm1 Host.reduceAdd
  Host.divf Host.rsqrt Host.negf Host.exp Host.gather Host.scatterAdd Host.scatter in
/-- The reference's ELU, a module-local function, read from any valuation: the specification's ELU of its argument. -/
theorem hidden1_elu (V : Valuation ReferenceIdeal.τ ReferenceIdeal.sig (Elt Ideal)) :
    (after r3_4 (after r3_3 (after r3_2 (after r3_1 V))) ⟪ReferenceIdeal.main_v179⟫ : FVec Ideal ReferenceIdeal.S128x56000 .f32)
      = Spec.elu56000 (F := Ideal) (V ⟪ReferenceIdeal.main_v178⟫) := by
  after_results_simp
  rfl

/-- Block 1, the hidden half: the kernel's stretch leaves the sparse product and the bias as the region's arrays (the
    product reshaped to [128, 7000, 8], the bias to [7000, 8]); the reference's hidden update is the specification's
    function of the same product and bias and of the gate. -/
theorem hidden1 (S : FVec Ideal KernelIdeal.S128x56000 .f32)
    (hx : RV ⟪ReferenceIdeal.main_v132⟫ = KV ⟪KernelIdeal.main_v79⟫) (hs : RV ⟪ReferenceIdeal.main_v43⟫ = S)
    (h5 : RV ⟪ReferenceIdeal.main_arg5⟫ = KV ⟪KernelIdeal.main_arg5⟫) (h6 : RV ⟪ReferenceIdeal.main_arg6⟫ = KV ⟪KernelIdeal.main_arg6⟫)
    (h11 : RV ⟪ReferenceIdeal.main_arg11⟫ = KV ⟪KernelIdeal.main_arg11⟫) (h12 : RV ⟪ReferenceIdeal.main_arg12⟫ = KV ⟪KernelIdeal.main_arg12⟫) :
    ∃ (hlin : FVec Ideal KernelIdeal.S128x56000 .f32) (b : FVec Ideal KernelIdeal.S56000 .f32),
      after hostOps3 KV ⟪KernelIdeal.main_v100⟫ = shapeCast KernelIdeal.S128x7000x8 hlin KernelIdeal.Gen.shapeCasts_S128x56000_S128x7000x8
      ∧ after hostOps3 KV ⟪KernelIdeal.main_v103⟫ = shapeCast KernelIdeal.S7000x8 b KernelIdeal.Gen.shapeCasts_S56000_S7000x8
      ∧ (after r3_4 (after r3_3 (after r3_2 (after r3_1 (after r3_0 (after r2_6 RV))))) ⟪ReferenceIdeal.main_v179⟫
            : FVec Ideal ReferenceIdeal.S128x56000 .f32)
          = Spec.hidden (F := Ideal) hlin b S := by
  refine ⟨after hostOps3 KV ⟪KernelIdeal.main_v99⟫, after hostOps3 KV ⟪KernelIdeal.main_v102⟫, hidden1_k1 KV, hidden1_k2 KV, ?_⟩
  rw [hidden_eq, ← hidden1_x1 KV RV hx h5 h11 h12, ← hidden1_x2 KV RV h6, ← hs, ← hidden1_pre RV]
  exact hidden1_elu _

end Cert.Steps

end
-- ==== Proof.StepsHidden23.lean ====
/-
  The two programs side by side across the hidden halves of blocks 2 and 3. The kernel program's stretch before a
  hidden region computes the sparse product into the hidden units and takes the block's bias, and reshapes both for the
  region; the reference computes the same product and bias by the same host operations, then the normalisation of each
  function node's eight hidden units, the gate's product and the ELU, which is the specification's function
  (`Cert.Spec.hidden`) of that product, that bias and the gate by its very shape.
  Each lemma is stated over ARBITRARY valuations of the two programs, related only on the buffers the stretch reads.
-/
import proofs.«157921_j32839319945335_1_alg».proof.Proof.Gen.KernelIdeal.Launch
import proofs.«157921_j32839319945335_1_alg».proof.Proof.RefOps
import proofs.«157921_j32839319945335_1_alg».proof.Proof.RefKeeps
import proofs.«157921_j32839319945335_1_alg».proof.Proof.KernelKeeps
import proofs.«157921_j32839319945335_1_alg».proof.Proof.Spec
import proofs.«157921_j32839319945335_1_alg».proof.Proof.StepsPre
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps1 hostOps2 hostOps3 hostOps4 hostOps5 hostOps6 hostOps7 hostOps8 hostOps9 hostOps9_1)
open Cert.ReferenceIdeal.Ops
open Cert.KernelIdeal.Keeps (hostOps0a hostOps0b)

local notation "⟪" b "⟫" => Proc.devRef Proc.tc b

variable (KV : Valuation KernelIdeal.τ KernelIdeal.sig (Elt Ideal)) (RV : Valuation ReferenceIdeal.τ ReferenceIdeal.sig (Elt Ideal))

/- In the lemmas marked so, the array operations are kept folded while the two sides are compared: the reference's
   module-local functions hand their values through buffers whose declared type is the value's type by computation,
   and with the operations folded the comparison only has to see through that identification. -/

/-! ## Block 2, the hidden half -/

/-- The kernel's stretch hands the region the sparse product reshaped to [128, 7000, 8]. -/
theorem hidden2_k1 : @Eq (FVec Ideal KernelIdeal.S128x7000x8 .f32) (after hostOps5 KV ⟪KernelIdeal.main_v149⟫)
    (shapeCast KernelIdeal.S128x7000x8 (after hostOps5 KV ⟪KernelIdeal.main_v148⟫) KernelIdeal.Gen.shapeCasts_S128x56000_S128x7000x8) := by
  after_results_simp <;> rfl

/-- … and the block's bias reshaped to [7000, 8]. -/
theorem hidden2_k2 : @Eq (FVec Ideal KernelIdeal.S7000x8 .f32) (after hostOps5 KV ⟪KernelIdeal.main_v152⟫)
    (shapeCast KernelIdeal.S7000x8 (after hostOps5 KV ⟪KernelIdeal.main_v151⟫) KernelIdeal.Gen.shapeCasts_S56000_S7000x8) := by
  after_results_simp <;> rfl

/-- The sparse product into the hidden units (a gather along the rows' index, a product with the block's weights, a
    scatter-add along the columns' index) is one term in both programs. -/
theorem hidden2_x1
    (hx : RV ⟪ReferenceIdeal.main_v205⟫ = KV ⟪KernelIdeal.main_v128⟫)
    (h5 : RV ⟪ReferenceIdeal.main_arg5⟫ = KV ⟪KernelIdeal.main_arg5⟫)
    (h11 : RV ⟪ReferenceIdeal.main_arg11⟫ = KV ⟪KernelIdeal.main_arg11⟫) (h12 : RV ⟪ReferenceIdeal.main_arg12⟫ = KV ⟪KernelIdeal.main_arg12⟫) :
    after r5_0 (after r4_1 RV) ⟪ReferenceIdeal.main_v225⟫ = after hostOps5 KV ⟪KernelIdeal.main_v148⟫ := by
  after_results_simp
  rw [hx, h5, h11, h12]
  rfl

/-- The block's bias (a row of the bias table) is one term in both programs. -/
theorem hidden2_x2 (h6 : RV ⟪ReferenceIdeal.main_arg6⟫ = KV ⟪KernelIdeal.main_arg6⟫) :
    after r5_0 (after r4_1 RV) ⟪ReferenceIdeal.main_v227⟫ = after hostOps5 KV ⟪KernelIdeal.main_v151⟫ := by
  after_results_simp
  rw [h6]
  rfl

/-- The reference's host operations up to the ELU: the gate times the normalised sum of the sparse product and the bias. -/
theorem hidden2_pre :
    (after r5_0 (after r4_1 RV) ⟪ReferenceIdeal.main_v251⟫ : FVec Ideal ReferenceIdeal.S128x56000 .f32)
      = hiddenPre (after r5_0 (after r4_1 RV) ⟪ReferenceIdeal.main_v225⟫) (after r5_0 (after r4_1 RV) ⟪ReferenceIdeal.main_v227⟫) (RV ⟪ReferenceIdeal.main_v43⟫) := by
  after_results_simp
  rfl

attribute [local irreducible] select cmpf mulf addf subf broadcastInDim constant shapeCast Host.expm1 Host.reduceAdd
  Host.divf Host.rsqrt Host.negf Host.exp Host.gather Host.scatterAdd Host.scatter in
/-- The reference's ELU, a module-local function, read from any valuation: the specification's ELU of its argument. -/
theorem hidden2_elu (V : Valuation ReferenceIdeal.τ ReferenceIdeal.sig (Elt Ideal)) :
    (after r5_4 (after r5_3 (after r5_2 (after r5_1 V))) ⟪ReferenceIdeal.main_v252⟫ : FVec Ideal ReferenceIdeal.S128x56000 .f32)
      = Spec.elu56000 (F := Ideal) (V ⟪ReferenceIdeal.main_v251⟫) := by
  after_results_simp
  rfl

/-- Block 2, the hidden half: the kernel's stretch leaves the sparse product and the bias as the region's arrays (the
    product reshaped to [128, 7000, 8], the bias to [7000, 8]); the reference's hidden update is the specification's
    function of the same product and bias and of the gate. -/
theorem hidden2 (S : FVec Ideal KernelIdeal.S128x56000 .f32)
    (hx : RV ⟪ReferenceIdeal.main_v205⟫ = KV ⟪KernelIdeal.main_v128⟫) (hs : RV ⟪ReferenceIdeal.main_v43⟫ = S)
    (h5 : RV ⟪ReferenceIdeal.main_arg5⟫ = KV ⟪KernelIdeal.main_arg5⟫) (h6 : RV ⟪ReferenceIdeal.main_arg6⟫ = KV ⟪KernelIdeal.main_arg6⟫)
    (h11 : RV ⟪ReferenceIdeal.main_arg11⟫ = KV ⟪KernelIdeal.main_arg11⟫) (h12 : RV ⟪ReferenceIdeal.main_arg12⟫ = KV ⟪KernelIdeal.main_arg12⟫) :
    ∃ (hlin : FVec Ideal KernelIdeal.S128x56000 .f32) (b : FVec Ideal KernelIdeal.S56000 .f32),
      after hostOps5 KV ⟪KernelIdeal.main_v149⟫ = shapeCast KernelIdeal.S128x7000x8 hlin KernelIdeal.Gen.shapeCasts_S128x56000_S128x7000x8
      ∧ after hostOps5 KV ⟪KernelIdeal.main_v152⟫ = shapeCast KernelIdeal.S7000x8 b KernelIdeal.Gen.shapeCasts_S56000_S7000x8
      ∧ (after r5_4 (after r5_3 (after r5_2 (after r5_1 (after r5_0 (after r4_1 RV))))) ⟪ReferenceIdeal.main_v252⟫
            : FVec Ideal ReferenceIdeal.S128x56000 .f32)
          = Spec.hidden (F := Ideal) hlin b S := by
  refine ⟨after hostOps5 KV ⟪KernelIdeal.main_v148⟫, after hostOps5 KV ⟪KernelIdeal.main_v151⟫, hidden2_k1 KV, hidden2_k2 KV, ?_⟩
  rw [hidden_eq, ← hidden2_x1 KV RV hx h5 h11 h12, ← hidden2_x2 KV RV h6, ← hs, ← hidden2_pre RV]
  exact hidden2_elu _

/-! ## Block 3, the hidden half -/

/-- The kernel's stretch hands the region the sparse product reshaped to [128, 7000, 8]. -/
theorem hidden3_k1 : @Eq (FVec Ideal KernelIdeal.S128x7000x8 .f32) (after hostOps7 KV ⟪KernelIdeal.main_v198⟫)
    (shapeCast KernelIdeal.S128x7000x8 (after hostOps7 KV ⟪KernelIdeal.main_v197⟫) KernelIdeal.Gen.shapeCasts_S128x56000_S128x7000x8) := by
  after_results_simp <;> rfl

/-- … and the block's bias reshaped to [7000, 8]. -/
theorem hidden3_k2 : @Eq (FVec Ideal KernelIdeal.S7000x8 .f32) (after hostOps7 KV ⟪KernelIdeal.main_v201⟫)
    (shapeCast KernelIdeal.S7000x8 (after hostOps7 KV ⟪KernelIdeal.main_v200⟫) KernelIdeal.Gen.shapeCasts_S56000_S7000x8) := by
  after_results_simp <;> rfl

/-- The sparse product into the hidden units (a gather along the rows' index, a product with the block's weights, a
    scatter-add along the columns' index) is one term in both programs. -/
theorem hidden3_x1
    (hx : RV ⟪ReferenceIdeal.main_v278⟫ = KV ⟪KernelIdeal.main_v177⟫)
    (h5 : RV ⟪ReferenceIdeal.main_arg5⟫ = KV ⟪KernelIdeal.main_arg5⟫)
    (h11 : RV ⟪ReferenceIdeal.main_arg11⟫ = KV ⟪KernelIdeal.main_arg11⟫) (h12 : RV ⟪ReferenceIdeal.main_arg12⟫ = KV ⟪KernelIdeal.main_arg12⟫) :
    after r6_0 (after r5_6 RV) ⟪ReferenceIdeal.main_v298⟫ = after hostOps7 KV ⟪KernelIdeal.main_v197⟫ := by
  after_results_simp
  rw [hx, h5, h11, h12]
  rfl

/-- The block's bias (a row of the bias table) is one term in both programs. -/
theorem hidden3_x2 (h6 : RV ⟪ReferenceIdeal.main_arg6⟫ = KV ⟪KernelIdeal.main_arg6⟫) :
    after r6_0 (after r5_6 RV) ⟪ReferenceIdeal.main_v300⟫ = after hostOps7 KV ⟪KernelIdeal.main_v200⟫ := by
  after_results_simp
  rw [h6]
  rfl

/-- The reference's host operations up to the ELU: the gate times the normalised sum of the sparse product and the bias. -/
theorem hidden3_pre :
    (after r6_0 (after r5_6 RV) ⟪ReferenceIdeal.main_v324⟫ : FVec Ideal ReferenceIdeal.S128x56000 .f32)
      = hiddenPre (after r6_0 (after r5_6 RV) ⟪ReferenceIdeal.main_v298⟫) (after r6_0 (after r5_6 RV) ⟪ReferenceIdeal.main_v300⟫) (RV ⟪ReferenceIdeal.main_v43⟫) := by
  after_results_simp
  rfl

attribute [local irreducible] select cmpf mulf addf subf broadcastInDim constant shapeCast Host.expm1 Host.reduceAdd
  Host.divf Host.rsqrt Host.negf Host.exp Host.gather Host.scatterAdd Host.scatter in
/-- The reference's ELU, a module-local function, read from any valuation: the specification's ELU of its argument. -/
theorem hidden3_elu (V : Valuation ReferenceIdeal.τ ReferenceIdeal.sig (Elt Ideal)) :
    (after r6_4 (after r6_3 (after r6_2 (after r6_1 V))) ⟪ReferenceIdeal.main_v325⟫ : FVec Ideal ReferenceIdeal.S128x56000 .f32)
      = Spec.elu56000 (F := Ideal) (V ⟪ReferenceIdeal.main_v324⟫) := by
  after_results_simp
  rfl

/-- Block 3, the hidden half: the kernel's stretch leaves the sparse product and the bias as the region's arrays (the
    product reshaped to [128, 7000, 8], the bias to [7000, 8]); the reference's hidden update is the specification's
    function of the same product and bias and of the gate. -/
theorem hidden3 (S : FVec Ideal KernelIdeal.S128x56000 .f32)
    (hx : RV ⟪ReferenceIdeal.main_v278⟫ = KV ⟪KernelIdeal.main_v177⟫) (hs : RV ⟪ReferenceIdeal.main_v43⟫ = S)
    (h5 : RV ⟪ReferenceIdeal.main_arg5⟫ = KV ⟪KernelIdeal.main_arg5⟫) (h6 : RV ⟪ReferenceIdeal.main_arg6⟫ = KV ⟪KernelIdeal.main_arg6⟫)
    (h11 : RV ⟪ReferenceIdeal.main_arg11⟫ = KV ⟪KernelIdeal.main_arg11⟫) (h12 : RV ⟪ReferenceIdeal.main_arg12⟫ = KV ⟪KernelIdeal.main_arg12⟫) :
    ∃ (hlin : FVec Ideal KernelIdeal.S128x56000 .f32) (b : FVec Ideal KernelIdeal.S56000 .f32),
      after hostOps7 KV ⟪KernelIdeal.main_v198⟫ = shapeCast KernelIdeal.S128x7000x8 hlin KernelIdeal.Gen.shapeCasts_S128x56000_S128x7000x8
      ∧ after hostOps7 KV ⟪KernelIdeal.main_v201⟫ = shapeCast KernelIdeal.S7000x8 b KernelIdeal.Gen.shapeCasts_S56000_S7000x8
      ∧ (after r6_4 (after r6_3 (after r6_2 (after r6_1 (after r6_0 (after r5_6 RV))))) ⟪ReferenceIdeal.main_v325⟫
            : FVec Ideal ReferenceIdeal.S128x56000 .f32)
          = Spec.hidden (F := Ideal) hlin b S := by
  refine ⟨after hostOps7 KV ⟪KernelIdeal.main_v197⟫, after hostOps7 KV ⟪KernelIdeal.main_v200⟫, hidden3_k1 KV, hidden3_k2 KV, ?_⟩
  rw [hidden_eq, ← hidden3_x1 KV RV hx h5 h11 h12, ← hidden3_x2 KV RV h6, ← hs, ← hidden3_pre RV]
  exact hidden3_elu _

end Cert.Steps

end
-- ==== Proof.StepsEdge.lean ====
/-
  The two programs side by side across the edge halves of the four blocks and the closing operations. The kernel
  program's stretch before an edge region computes the sparse product back to the edges and takes the block's bias; the
  reference computes the same product and bias by the same host operations and adds the bias and the block's incoming
  edge features, which is the specification's function (`Cert.Spec.edge`) by its very shape. After the last region both
  programs run the same closing operations (the scatter to the nodes and the output mask).
  Each lemma is stated over ARBITRARY valuations of the two programs, related only on the buffers the stretch reads.
-/
import proofs.«157921_j32839319945335_1_alg».proof.Proof.Gen.KernelIdeal.Launch
import proofs.«157921_j32839319945335_1_alg».proof.Proof.RefOps
import proofs.«157921_j32839319945335_1_alg».proof.Proof.RefKeeps
import proofs.«157921_j32839319945335_1_alg».proof.Proof.KernelKeeps
import proofs.«157921_j32839319945335_1_alg».proof.Proof.Spec
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps1 hostOps2 hostOps3 hostOps4 hostOps5 hostOps6 hostOps7 hostOps8 hostOps9 hostOps9_1)
open Cert.ReferenceIdeal.Ops
open Cert.KernelIdeal.Keeps (hostOps0a hostOps0b)

local notation "⟪" b "⟫" => Proc.devRef Proc.tc b

variable (KV : Valuation KernelIdeal.τ KernelIdeal.sig (Elt Ideal)) (RV : Valuation ReferenceIdeal.τ ReferenceIdeal.sig (Elt Ideal))

/-! ## The edge halves of the four blocks -/

/-- Block 0, the edge half: the reference's edge update is the specification's function of the sparse product and the
    bias as the kernel's stretch leaves them, and of the block's incoming edge features. -/
theorem edge0
    (hh : RV ⟪ReferenceIdeal.main_v106⟫ = shapeCast KernelIdeal.S128x56000 (KV ⟪KernelIdeal.main_v55⟫) KernelIdeal.Gen.shapeCasts_S128x7000x8_S128x56000)
    (hx : RV ⟪ReferenceIdeal.main_v59⟫ = KV ⟪KernelIdeal.main_v26⟫)
    (h7 : RV ⟪ReferenceIdeal.main_arg7⟫ = KV ⟪KernelIdeal.main_arg7⟫) (h8 : RV ⟪ReferenceIdeal.main_arg8⟫ = KV ⟪KernelIdeal.main_arg8⟫)
    (h13 : RV ⟪ReferenceIdeal.main_arg13⟫ = KV ⟪KernelIdeal.main_arg13⟫) (h14 : RV ⟪ReferenceIdeal.main_arg14⟫ = KV ⟪KernelIdeal.main_arg14⟫) :
    (after r2_5 (RV) ⟪ReferenceIdeal.main_v132⟫ : FVec Ideal ReferenceIdeal.S128x57000 .f32)
      = Spec.edge (F := Ideal) (after hostOps2 KV ⟪KernelIdeal.main_v76⟫) (after hostOps2 KV ⟪KernelIdeal.main_v78⟫) (KV ⟪KernelIdeal.main_v26⟫) := by
  after_results_simp
  rw [hh, hx, h7, h8, h13, h14]
  rfl

/-- Block 1, the edge half: the reference's edge update is the specification's function of the sparse product and the
    bias as the kernel's stretch leaves them, and of the block's incoming edge features. -/
theorem edge1
    (hh : RV ⟪ReferenceIdeal.main_v179⟫ = shapeCast KernelIdeal.S128x56000 (KV ⟪KernelIdeal.main_v104⟫) KernelIdeal.Gen.shapeCasts_S128x7000x8_S128x56000)
    (hx : RV ⟪ReferenceIdeal.main_v132⟫ = KV ⟪KernelIdeal.main_v79⟫)
    (h7 : RV ⟪ReferenceIdeal.main_arg7⟫ = KV ⟪KernelIdeal.main_arg7⟫) (h8 : RV ⟪ReferenceIdeal.main_arg8⟫ = KV ⟪KernelIdeal.main_arg8⟫)
    (h13 : RV ⟪ReferenceIdeal.main_arg13⟫ = KV ⟪KernelIdeal.main_arg13⟫) (h14 : RV ⟪ReferenceIdeal.main_arg14⟫ = KV ⟪KernelIdeal.main_arg14⟫) :
    (after r4_0 (after r3_5 (RV)) ⟪ReferenceIdeal.main_v205⟫ : FVec Ideal ReferenceIdeal.S128x57000 .f32)
      = Spec.edge (F := Ideal) (after hostOps4 KV ⟪KernelIdeal.main_v125⟫) (after hostOps4 KV ⟪KernelIdeal.main_v127⟫) (KV ⟪KernelIdeal.main_v79⟫) := by
  after_results_simp
  rw [hh, hx, h7, h8, h13, h14]
  rfl

/-- Block 2, the edge half: the reference's edge update is the specification's function of the sparse product and the
    bias as the kernel's stretch leaves them, and of the block's incoming edge features. -/
theorem edge2
    (hh : RV ⟪ReferenceIdeal.main_v252⟫ = shapeCast KernelIdeal.S128x56000 (KV ⟪KernelIdeal.main_v153⟫) KernelIdeal.Gen.shapeCasts_S128x7000x8_S128x56000)
    (hx : RV ⟪ReferenceIdeal.main_v205⟫ = KV ⟪KernelIdeal.main_v128⟫)
    (h7 : RV ⟪ReferenceIdeal.main_arg7⟫ = KV ⟪KernelIdeal.main_arg7⟫) (h8 : RV ⟪ReferenceIdeal.main_arg8⟫ = KV ⟪KernelIdeal.main_arg8⟫)
    (h13 : RV ⟪ReferenceIdeal.main_arg13⟫ = KV ⟪KernelIdeal.main_arg13⟫) (h14 : RV ⟪ReferenceIdeal.main_arg14⟫ = KV ⟪KernelIdeal.main_arg14⟫) :
    (after r5_5 (RV) ⟪ReferenceIdeal.main_v278⟫ : FVec Ideal ReferenceIdeal.S128x57000 .f32)
      = Spec.edge (F := Ideal) (after hostOps6 KV ⟪KernelIdeal.main_v174⟫) (after hostOps6 KV ⟪KernelIdeal.main_v176⟫) (KV ⟪KernelIdeal.main_v128⟫) := by
  after_results_simp
  rw [hh, hx, h7, h8, h13, h14]
  rfl

/-- Block 3, the edge half: the reference's edge update is the specification's function of the sparse product and the
    bias as the kernel's stretch leaves them, and of the block's incoming edge features. -/
theorem edge3
    (hh : RV ⟪ReferenceIdeal.main_v325⟫ = shapeCast KernelIdeal.S128x56000 (KV ⟪KernelIdeal.main_v202⟫) KernelIdeal.Gen.shapeCasts_S128x7000x8_S128x56000)
    (hx : RV ⟪ReferenceIdeal.main_v278⟫ = KV ⟪KernelIdeal.main_v177⟫)
    (h7 : RV ⟪ReferenceIdeal.main_arg7⟫ = KV ⟪KernelIdeal.main_arg7⟫) (h8 : RV ⟪ReferenceIdeal.main_arg8⟫ = KV ⟪KernelIdeal.main_arg8⟫)
    (h13 : RV ⟪ReferenceIdeal.main_arg13⟫ = KV ⟪KernelIdeal.main_arg13⟫) (h14 : RV ⟪ReferenceIdeal.main_arg14⟫ = KV ⟪KernelIdeal.main_arg14⟫) :
    (after r7_0 (after r6_5 (RV)) ⟪ReferenceIdeal.main_v351⟫ : FVec Ideal ReferenceIdeal.S128x57000 .f32)
      = Spec.edge (F := Ideal) (after hostOps8 KV ⟪KernelIdeal.main_v223⟫) (after hostOps8 KV ⟪KernelIdeal.main_v225⟫) (KV ⟪KernelIdeal.main_v177⟫) := by
  after_results_simp
  rw [hh, hx, h7, h8, h13, h14]
  rfl

/-! ## After the last region: the scatter to the nodes, the output mask -/

/-- The closing operations are one term in both programs. -/
theorem tail
    (hx : RV ⟪ReferenceIdeal.main_v351⟫ = KV ⟪KernelIdeal.main_v226⟫)
    (h10 : RV ⟪ReferenceIdeal.main_arg10⟫ = KV ⟪KernelIdeal.main_arg10⟫) (h16 : RV ⟪ReferenceIdeal.main_arg16⟫ = KV ⟪KernelIdeal.main_arg16⟫) :
    after r7_2 (after r7_1 RV) ⟪ReferenceIdeal.main_v363⟫ = after hostOps9_1 (after hostOps9 KV) ⟪KernelIdeal.main_v238⟫ := by
  after_results_simp
  rw [hx, h10, h16]
  rfl

end Cert.Steps

end
-- ==== Proof.Steps.lean ====
/-
  The two programs side by side, stretch by stretch. Between the kernel's regions both programs run the same host
  operations (the node-to-edge gather, the two sparse products as a gather, a product and a scatter-add, the bias
  slices, the final scatter and mask); read back from valuations that agree on what a stretch reads, the two sides
  are one term. Where the kernel launches a region the reference computes the same array by host operations, which is
  the specification's function (`Cert.Spec`) of the stretch's results by its very shape.
  The lemmas are in four parts: before the first region, the hidden halves of blocks 0–1 and of blocks 2–3, and the edge
  halves with the closing operations.
-/
import proofs.«157921_j32839319945335_1_alg».proof.Proof.StepsHead
import proofs.«157921_j32839319945335_1_alg».proof.Proof.StepsHidden01
import proofs.«157921_j32839319945335_1_alg».proof.Proof.StepsHidden23
import proofs.«157921_j32839319945335_1_alg».proof.Proof.StepsEdge
-- ==== Proof.Kept.lean ====
/-
  The buffers of the kernel program that pass through its segments unchanged. Between the launch and the return the
  program alternates stretches of host operations with kernel regions. A host stretch changes only the references
  its operations write; a region changes only its output arrays (an input array is read, and ends as it was entered).
  So a buffer that no operation of a stretch writes, and that is no output array of a region, holds after the segment
  what it held before; chaining the segments gives, for each buffer that is produced once and read later, its contents
  at the reader's entry in terms of its contents at the producer's exit. Each region's output array at the region's
  exit is what the region's write-backs leave.
-/
import proofs.«157921_j32839319945335_1_alg».proof.Proof.Gen.KernelIdeal.Frame
import proofs.«157921_j32839319945335_1_alg».proof.Proof.KernelKeeps

noncomputable section

namespace Cert.KernelIdeal.Kept

open Cert.KernelIdeal Cert.KernelIdeal.Gen Cert.KernelIdeal.Keeps Idealize.ShloMosaic Idealize.ShloMosaic.TcCoe Idealize.SL.Sem

variable {F : FTy → Type} [FloatOps F] (m : (ℓ : Loc nD τ sig) → Buf (Elt F) ℓ) (ρ : Dev nD → PrngReg) (c : Dev nD)

/-! ## The arguments no region reads: unchanged from the launch to every region's exit -/

/-- The ten arguments that are operands of host operations only: no host operation writes an argument, and none of
    these is an array of any region. -/
abbrev argList : List (Ref sig .tc) :=
  [main_arg5, main_arg6, main_arg7, main_arg8, main_arg10, main_arg11, main_arg12, main_arg13, main_arg14, main_arg16]

theorem args_W1 : ∀ b ∈ argList, W1 m ρ c (Proc.devRef .tc b) = W0 m ρ c (Proc.devRef .tc b) := fun b hb =>
  hostOps0_keeps (W0 m ρ c) b ((by decide : ∀ b ∈ argList, b ∉ hostOps0_writes) b hb)
theorem args_W2 : ∀ b ∈ argList, W2 m ρ c (Proc.devRef .tc b) = W0 m ρ c (Proc.devRef .tc b) := fun b hb =>
  (W2_of_ne m ρ c b ((by decide : ∀ b ∈ argList, ∀ w, Pipeline.arrRef spec0 w ≠ b) b hb)).trans (args_W1 m ρ c b hb)
theorem args_W3 : ∀ b ∈ argList, W3 m ρ c (Proc.devRef .tc b) = W0 m ρ c (Proc.devRef .tc b) := fun b hb =>
  (hostOps1_keeps (W2 m ρ c) b ((by decide : ∀ b ∈ argList, b ∉ hostOps1_writes) b hb)).trans (args_W2 m ρ c b hb)
theorem args_W4 : ∀ b ∈ argList, W4 m ρ c (Proc.devRef .tc b) = W0 m ρ c (Proc.devRef .tc b) := fun b hb =>
  (W4_of_ne m ρ c b ((by decide : ∀ b ∈ argList, ∀ w, Pipeline.arrRef spec1 w ≠ b) b hb)).trans (args_W3 m ρ c b hb)
theorem args_W5 : ∀ b ∈ argList, W5 m ρ c (Proc.devRef .tc b) = W0 m ρ c (Proc.devRef .tc b) := fun b hb =>
  (hostOps2_keeps (W4 m ρ c) b ((by decide : ∀ b ∈ argList, b ∉ hostOps2_writes) b hb)).trans (args_W4 m ρ c b hb)
theorem args_W6 : ∀ b ∈ argList, W6 m ρ c (Proc.devRef .tc b) = W0 m ρ c (Proc.devRef .tc b) := fun b hb =>
  (W6_of_ne m ρ c b ((by decide : ∀ b ∈ argList, ∀ w, Pipeline.arrRef spec2 w ≠ b) b hb)).trans (args_W5 m ρ c b hb)
theorem args_W7 : ∀ b ∈ argList, W7 m ρ c (Proc.devRef .tc b) = W0 m ρ c (Proc.devRef .tc b) := fun b hb =>
  (hostOps3_keeps (W6 m ρ c) b ((by decide : ∀ b ∈ argList, b ∉ hostOps3_writes) b hb)).trans (args_W6 m ρ c b hb)
theorem args_W8 : ∀ b ∈ argList, W8 m ρ c (Proc.devRef .tc b) = W0 m ρ c (Proc.devRef .tc b) := fun b hb =>
  (W8_of_ne m ρ c b ((by decide : ∀ b ∈ argList, ∀ w, Pipeline.arrRef spec3 w ≠ b) b hb)).trans (args_W7 m ρ c b hb)
theorem args_W9 : ∀ b ∈ argList, W9 m ρ c (Proc.devRef .tc b) = W0 m ρ c (Proc.devRef .tc b) := fun b hb =>
  (hostOps4_keeps (W8 m ρ c) b ((by decide : ∀ b ∈ argList, b ∉ hostOps4_writes) b hb)).trans (args_W8 m ρ c b hb)
theorem args_W10 : ∀ b ∈ argList, W10 m ρ c (Proc.devRef .tc b) = W0 m ρ c (Proc.devRef .tc b) := fun b hb =>
  (W10_of_ne m ρ c b ((by decide : ∀ b ∈ argList, ∀ w, Pipeline.arrRef spec4 w ≠ b) b hb)).trans (args_W9 m ρ c b hb)
theorem args_W11 : ∀ b ∈ argList, W11 m ρ c (Proc.devRef .tc b) = W0 m ρ c (Proc.devRef .tc b) := fun b hb =>
  (hostOps5_keeps (W10 m ρ c) b ((by decide : ∀ b ∈ argList, b ∉ hostOps5_writes) b hb)).trans (args_W10 m ρ c b hb)
theorem args_W12 : ∀ b ∈ argList, W12 m ρ c (Proc.devRef .tc b) = W0 m ρ c (Proc.devRef .tc b) := fun b hb =>
  (W12_of_ne m ρ c b ((by decide : ∀ b ∈ argList, ∀ w, Pipeline.arrRef spec5 w ≠ b) b hb)).trans (args_W11 m ρ c b hb)
theorem args_W13 : ∀ b ∈ argList, W13 m ρ c (Proc.devRef .tc b) = W0 m ρ c (Proc.devRef .tc b) := fun b hb =>
  (hostOps6_keeps (W12 m ρ c) b ((by decide : ∀ b ∈ argList, b ∉ hostOps6_writes) b hb)).trans (args_W12 m ρ c b hb)
theorem args_W14 : ∀ b ∈ argList, W14 m ρ c (Proc.devRef .tc b) = W0 m ρ c (Proc.devRef .tc b) := fun b hb =>
  (W14_of_ne m ρ c b ((by decide : ∀ b ∈ argList, ∀ w, Pipeline.arrRef spec6 w ≠ b) b hb)).trans (args_W13 m ρ c b hb)
theorem args_W15 : ∀ b ∈ argList, W15 m ρ c (Proc.devRef .tc b) = W0 m ρ c (Proc.devRef .tc b) := fun b hb =>
  (hostOps7_keeps (W14 m ρ c) b ((by decide : ∀ b ∈ argList, b ∉ hostOps7_writes) b hb)).trans (args_W14 m ρ c b hb)
theorem args_W16 : ∀ b ∈ argList, W16 m ρ c (Proc.devRef .tc b) = W0 m ρ c (Proc.devRef .tc b) := fun b hb =>
  (W16_of_ne m ρ c b ((by decide : ∀ b ∈ argList, ∀ w, Pipeline.arrRef spec7 w ≠ b) b hb)).trans (args_W15 m ρ c b hb)
theorem args_W17 : ∀ b ∈ argList, W17 m ρ c (Proc.devRef .tc b) = W0 m ρ c (Proc.devRef .tc b) := fun b hb =>
  (hostOps8_keeps (W16 m ρ c) b ((by decide : ∀ b ∈ argList, b ∉ hostOps8_writes) b hb)).trans (args_W16 m ρ c b hb)
theorem args_W18 : ∀ b ∈ argList, W18 m ρ c (Proc.devRef .tc b) = W0 m ρ c (Proc.devRef .tc b) := fun b hb =>
  (W18_of_ne m ρ c b ((by decide : ∀ b ∈ argList, ∀ w, Pipeline.arrRef spec8 w ≠ b) b hb)).trans (args_W17 m ρ c b hb)

/-! ## Region 0's two argument windows at its entry -/

theorem W1_arg2 : W1 m ρ c (Proc.devRef .tc main_arg2) = W0 m ρ c (Proc.devRef .tc main_arg2) :=
  hostOps0_keeps (W0 m ρ c) main_arg2 (by decide)
theorem W1_arg4 : W1 m ρ c (Proc.devRef .tc main_arg4) = W0 m ρ c (Proc.devRef .tc main_arg4) :=
  hostOps0_keeps (W0 m ρ c) main_arg4 (by decide)

/-! ## The gate, reshaped: written once, then an input array of the four hidden-update regions -/

/-- Through the first hidden-update region (an input array ends as entered), a host stretch, the first edge-update
    region (not one of its arrays) and a host stretch. -/
theorem v30_W4 : W4 m ρ c (Proc.devRef .tc main_v30) = W3 m ρ c (Proc.devRef .tc main_v30) :=
  (W4_arr m ρ c 2).trans (((dat1 (V3 m ρ) c).arrAt_in 2 rfl _).trans (A_eq1 (V3 m ρ) c 2))
theorem v30_W5 : W5 m ρ c (Proc.devRef .tc main_v30) = W3 m ρ c (Proc.devRef .tc main_v30) :=
  (hostOps2_keeps (W4 m ρ c) main_v30 (by decide)).trans (v30_W4 m ρ c)
theorem v30_W6 : W6 m ρ c (Proc.devRef .tc main_v30) = W3 m ρ c (Proc.devRef .tc main_v30) :=
  (W6_of_ne m ρ c main_v30 (by decide)).trans (v30_W5 m ρ c)
theorem v30_W7 : W7 m ρ c (Proc.devRef .tc main_v30) = W3 m ρ c (Proc.devRef .tc main_v30) :=
  (hostOps3_keeps (W6 m ρ c) main_v30 (by decide)).trans (v30_W6 m ρ c)
/-- The same through the second pair of regions, -/
theorem v30_W8 : W8 m ρ c (Proc.devRef .tc main_v30) = W3 m ρ c (Proc.devRef .tc main_v30) :=
  ((W8_arr m ρ c 2).trans (((dat3 (V7 m ρ) c).arrAt_in 2 rfl _).trans (A_eq3 (V7 m ρ) c 2))).trans (v30_W7 m ρ c)
theorem v30_W9 : W9 m ρ c (Proc.devRef .tc main_v30) = W3 m ρ c (Proc.devRef .tc main_v30) :=
  (hostOps4_keeps (W8 m ρ c) main_v30 (by decide)).trans (v30_W8 m ρ c)
theorem v30_W10 : W10 m ρ c (Proc.devRef .tc main_v30) = W3 m ρ c (Proc.devRef .tc main_v30) :=
  (W10_of_ne m ρ c main_v30 (by decide)).trans (v30_W9 m ρ c)
theorem v30_W11 : W11 m ρ c (Proc.devRef .tc main_v30) = W3 m ρ c (Proc.devRef .tc main_v30) :=
  (hostOps5_keeps (W10 m ρ c) main_v30 (by decide)).trans (v30_W10 m ρ c)
/-- and through the third. -/
theorem v30_W12 : W12 m ρ c (Proc.devRef .tc main_v30) = W3 m ρ c (Proc.devRef .tc main_v30) :=
  ((W12_arr m ρ c 2).trans (((dat5 (V11 m ρ) c).arrAt_in 2 rfl _).trans (A_eq5 (V11 m ρ) c 2))).trans (v30_W11 m ρ c)
theorem v30_W13 : W13 m ρ c (Proc.devRef .tc main_v30) = W3 m ρ c (Proc.devRef .tc main_v30) :=
  (hostOps6_keeps (W12 m ρ c) main_v30 (by decide)).trans (v30_W12 m ρ c)
theorem v30_W14 : W14 m ρ c (Proc.devRef .tc main_v30) = W3 m ρ c (Proc.devRef .tc main_v30) :=
  (W14_of_ne m ρ c main_v30 (by decide)).trans (v30_W13 m ρ c)
theorem v30_W15 : W15 m ρ c (Proc.devRef .tc main_v30) = W3 m ρ c (Proc.devRef .tc main_v30) :=
  (hostOps7_keeps (W14 m ρ c) main_v30 (by decide)).trans (v30_W14 m ρ c)

/-! ## The edge features, from the segment that produces them to the edge-update region that reads them -/

/-- The gathered edge features: written by the first host stretch, read by the first edge-update region. -/
theorem v26_W2 : W2 m ρ c (Proc.devRef .tc main_v26) = W1 m ρ c (Proc.devRef .tc main_v26) :=
  W2_of_ne m ρ c main_v26 (by decide)
theorem v26_W3 : W3 m ρ c (Proc.devRef .tc main_v26) = W1 m ρ c (Proc.devRef .tc main_v26) :=
  (hostOps1_keeps (W2 m ρ c) main_v26 (by decide)).trans (v26_W2 m ρ c)
theorem v26_W4 : W4 m ρ c (Proc.devRef .tc main_v26) = W1 m ρ c (Proc.devRef .tc main_v26) :=
  (W4_of_ne m ρ c main_v26 (by decide)).trans (v26_W3 m ρ c)
theorem v26_W5 : W5 m ρ c (Proc.devRef .tc main_v26) = W1 m ρ c (Proc.devRef .tc main_v26) :=
  (hostOps2_keeps (W4 m ρ c) main_v26 (by decide)).trans (v26_W4 m ρ c)

/-- The first edge update's result, read by the second. -/
theorem v79_W7 : W7 m ρ c (Proc.devRef .tc main_v79) = W6 m ρ c (Proc.devRef .tc main_v79) :=
  hostOps3_keeps (W6 m ρ c) main_v79 (by decide)
theorem v79_W8 : W8 m ρ c (Proc.devRef .tc main_v79) = W6 m ρ c (Proc.devRef .tc main_v79) :=
  (W8_of_ne m ρ c main_v79 (by decide)).trans (v79_W7 m ρ c)
theorem v79_W9 : W9 m ρ c (Proc.devRef .tc main_v79) = W6 m ρ c (Proc.devRef .tc main_v79) :=
  (hostOps4_keeps (W8 m ρ c) main_v79 (by decide)).trans (v79_W8 m ρ c)

/-- The second edge update's result, read by the third. -/
theorem v128_W11 : W11 m ρ c (Proc.devRef .tc main_v128) = W10 m ρ c (Proc.devRef .tc main_v128) :=
  hostOps5_keeps (W10 m ρ c) main_v128 (by decide)
theorem v128_W12 : W12 m ρ c (Proc.devRef .tc main_v128) = W10 m ρ c (Proc.devRef .tc main_v128) :=
  (W12_of_ne m ρ c main_v128 (by decide)).trans (v128_W11 m ρ c)
theorem v128_W13 : W13 m ρ c (Proc.devRef .tc main_v128) = W10 m ρ c (Proc.devRef .tc main_v128) :=
  (hostOps6_keeps (W12 m ρ c) main_v128 (by decide)).trans (v128_W12 m ρ c)

/-- The third edge update's result, read by the fourth. -/
theorem v177_W15 : W15 m ρ c (Proc.devRef .tc main_v177) = W14 m ρ c (Proc.devRef .tc main_v177) :=
  hostOps7_keeps (W14 m ρ c) main_v177 (by decide)
theorem v177_W16 : W16 m ρ c (Proc.devRef .tc main_v177) = W14 m ρ c (Proc.devRef .tc main_v177) :=
  (W16_of_ne m ρ c main_v177 (by decide)).trans (v177_W15 m ρ c)
theorem v177_W17 : W17 m ρ c (Proc.devRef .tc main_v177) = W14 m ρ c (Proc.devRef .tc main_v177) :=
  (hostOps8_keeps (W16 m ρ c) main_v177 (by decide)).trans (v177_W16 m ρ c)

/-! ## Each region's output array at the region's exit: what its write-backs leave -/

theorem out0 : W2 m ρ c (Proc.devRef .tc main_v29) = (dat0 (V1 m ρ) c).arrAt 5 cfg0.N := W2_arr m ρ c 5
theorem out1 : W4 m ρ c (Proc.devRef .tc main_v55) = (dat1 (V3 m ρ) c).arrAt 3 cfg1.N := W4_arr m ρ c 3
theorem out2 : W6 m ρ c (Proc.devRef .tc main_v79) = (dat2 (V5 m ρ) c).arrAt 3 cfg2.N := W6_arr m ρ c 3
theorem out3 : W8 m ρ c (Proc.devRef .tc main_v104) = (dat3 (V7 m ρ) c).arrAt 3 cfg3.N := W8_arr m ρ c 3
theorem out4 : W10 m ρ c (Proc.devRef .tc main_v128) = (dat4 (V9 m ρ) c).arrAt 3 cfg4.N := W10_arr m ρ c 3
theorem out5 : W12 m ρ c (Proc.devRef .tc main_v153) = (dat5 (V11 m ρ) c).arrAt 3 cfg5.N := W12_arr m ρ c 3
theorem out6 : W14 m ρ c (Proc.devRef .tc main_v177) = (dat6 (V13 m ρ) c).arrAt 3 cfg6.N := W14_arr m ρ c 3
theorem out7 : W16 m ρ c (Proc.devRef .tc main_v202) = (dat7 (V15 m ρ) c).arrAt 3 cfg7.N := W16_arr m ρ c 3
theorem out8 : W18 m ρ c (Proc.devRef .tc main_v226) = (dat8 (V17 m ρ) c).arrAt 3 cfg8.N := W18_arr m ρ c 3

end Cert.KernelIdeal.Kept

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Gate0.lean ====
/-
  The state gate of the first kernel region, as a whole-array value at the ideal numbers.

  Every row of the gate is a function of that row of the input alone: a dense layer into 100 hidden units with an ELU,
  a dense layer into 56000 units, the row centred at its mean and scaled by the reciprocal root of its biased variance
  plus a small constant, and a logistic. The kernel computes 8 rows per grid point; the specification computes all 128
  rows with the host's operations. Both are read at an entry (row, lane) as the same function of the input's row
  (the section "One row of the gate"), the kernel through its block's stages and the specification through its own;
  then the block a point writes back is the specification's rows 8t … 8t + 7, and the 16 points' blocks tile the array.
-/
import proofs.«157921_j32839319945335_1_alg».proof.Proof.Gen.KernelIdeal.Frame
import proofs.«157921_j32839319945335_1_alg».proof.Proof.Spec
import proofs.«157921_j32839319945335_1_alg».proof.Proof.LibDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Gate0
open Cert.KernelIdeal Cert.KernelIdeal.Gen Idealize.ShloMosaic Idealize.ShloMosaic.TcCoe
open Idealize.ShloMosaic.ValueIdx

/-! ## One row of the gate, as extended reals

A row of the gate depends on that row of the input only: two dense layers with an ELU between them, the row centred at
its mean and scaled by the reciprocal root of its (biased) variance plus a small constant, and a logistic. The float
literals stay the words the two programs print. -/

namespace Row

/-- z where z > 0, else e^z − 1. -/
def elu (z : EReal) : EReal :=
  Scalar.select (Ideal.cmp .ogt z (Ideal.ofBits .f32 0x00000000#32)) z (Ideal.exp z - Ideal.ofBits .f32 0x3F800000#32)

/-- The first layer at hidden unit k: elu (x · W₁[:, k] + b₁[k]). -/
def hid (w1 : (⟨2, ![3600, 100]⟩ : Shape).Idx → EReal) (b1 : (⟨1, ![100]⟩ : Shape).Idx → EReal) (x : Fin 3600 → EReal)
    (k : Fin 100) : EReal :=
  elu (∑ c : Fin 3600, x c * w1 (ix2 c k) + b1 (ix1 k))

/-- The second layer at unit j: h · W₂[:, j] + b₂[j]. -/
def lin (w2 : (⟨2, ![100, 56000]⟩ : Shape).Idx → EReal) (b2 : (⟨1, ![56000]⟩ : Shape).Idx → EReal) (h : Fin 100 → EReal)
    (j : Fin 56000) : EReal :=
  ∑ k : Fin 100, h k * w2 (ix2 k j) + b2 (ix1 j)

/-- The row's mean. -/
def mean (z : Fin 56000 → EReal) : EReal := Ideal.div (∑ j : Fin 56000, z j) (Ideal.ofBits .f32 0x475AC000#32)

/-- The row's biased variance. -/
def var (z : Fin 56000 → EReal) : EReal :=
  Ideal.div (∑ j : Fin 56000, (z j - mean z) * (z j - mean z)) (Ideal.ofBits .f32 0x475AC000#32)

/-- The row centred and scaled. -/
def norm (z : Fin 56000 → EReal) (j : Fin 56000) : EReal :=
  (z j - mean z) * Ideal.rsqrt (var z + Ideal.ofBits .f32 0x3727C5AC#32)

/-- 1 / (1 + e^(0 − y)). -/
def sig (y : EReal) : EReal :=
  Ideal.div (Ideal.ofBits .f32 0x3F800000#32)
    (Ideal.ofBits .f32 0x3F800000#32 + Ideal.exp (Ideal.ofBits .f32 0x00000000#32 - y))

end Row

/-! ## Layout operations of the block at an index -/

/-- A bias of 100 entries, given a leading unit axis and repeated down the 8 rows, reads its entry. -/
theorem bias100_apply (b : FVec Ideal S100 .f32) (r : Fin 8) (k : Fin 100) :
    broadcastTo S8x100 (shapeCast S1x100 b shapeCasts_S100_S1x100) broadcasts_S1x100_S8x100 (ix2 r k) = b (ix1 k) := by
  rw [broadcastTo_apply _ _ _ (ix2 (0 : Fin 1) k) (fun a => by match a with | ⟨0, _⟩ => rfl | ⟨1, _⟩ => rfl)]
  rw [shapeCast_addUnit_apply (n := 1) ![100]]
  exact congrArg b (funext fun a => by match a with | ⟨0, _⟩ => rfl)

/-- The same for the 56000 entries of the second bias. -/
theorem bias56000_apply (b : FVec Ideal S56000 .f32) (r : Fin 8) (j : Fin 56000) :
    broadcastTo S8x56000 (shapeCast S1x56000 b shapeCasts_S56000_S1x56000) broadcasts_S1x56000_S8x56000 (ix2 r j) = b (ix1 j) := by
  rw [broadcastTo_apply _ _ _ (ix2 (0 : Fin 1) j) (fun a => by match a with | ⟨0, _⟩ => rfl | ⟨1, _⟩ => rfl)]
  rw [shapeCast_addUnit_apply (n := 1) ![56000]]
  exact congrArg b (funext fun a => by match a with | ⟨0, _⟩ => rfl)

/-- A column of 8 entries repeated along the 56000 lanes reads the row's entry. -/
theorem col_apply (v : FVec Ideal S8x1 .f32) (r : Fin 8) (j : Fin 56000) :
    broadcastTo S8x56000 v broadcasts_S8x1_S8x56000 (ix2 r j) = v (ix2 r (0 : Fin 1)) :=
  broadcastTo_apply _ _ _ (ix2 r (0 : Fin 1)) (fun a => by match a with | ⟨0, _⟩ => rfl | ⟨1, _⟩ => rfl)

/-- 8 entries given a trailing unit axis. -/
theorem toCol_apply (u : FVec Ideal S8 .f32) (r : Fin 8) :
    shapeCast S8x1 u shapeCasts_S8_S8x1 (ix2 r (0 : Fin 1)) = u (ix1 r) :=
  shapeCast_apply _ _ _ (ix1 r) (by rw [Shape.rowMajor_val_one, Shape.rowMajor_val_two]; show r.val = r.val * 1 + 0; omega)

/-- The sum along the lanes of a block, at a row. -/
theorem rowSum_apply (v : FVec Ideal S8x56000 .f32) (r : Fin 8) :
    multiReduction .add [1] S8 v 0x00000000#32 reduces_S8x56000_S8 (.inl rfl) rfl (ix1 r) = ∑ j : Fin 56000, v (ix2 r j) := by
  refine (Ideal.multiReduction_add_single v 0x00000000#32 reduces_S8x56000_S8 (.inl rfl) rfl (ix1 r)).trans ?_
  refine Finset.sum_congr rfl fun j _ => congrArg v (funext fun a => ?_)
  match a with
  | ⟨0, _⟩ => rfl
  | ⟨1, _⟩ => rfl

/-! ## The block's stages

The body's arithmetic on a block of 8 rows, cut where the mathematics does: the first layer before its ELU, the ELU, the
second layer, the row normalisation; the logistic is the store's own payload. -/

/-- The first layer before its ELU: the block times W₁, plus b₁ on every row. -/
def blockPre (x0 : FVec Ideal S8x3600 .f32) (w1 : FVec Ideal S3600x100 .bf16) (b1 : FVec Ideal S100 .f32) : FVec Ideal S8x100 .f32 :=
  addf (matmul dot_S8x3600_S3600x100_S8x100_1_0_0_1_n_n none
      (truncf .bf16 (shapeCast S8x3600 x0 shapeCasts_S8x3600_S8x3600) bitsLt_bf16_f32)
      (shapeCast S3600x100 w1 shapeCasts_S3600x100_S3600x100) (constant S8x100 .f32 0x00000000#32))
    (broadcastTo S8x100 (shapeCast S1x100 b1 shapeCasts_S100_S1x100) broadcasts_S1x100_S8x100)

/-- The ELU as the body spells it: a select on z > 0 between z and e^z − 1. -/
def blockElu (z : FVec Ideal S8x100 .f32) : FVec Ideal S8x100 .f32 :=
  select (cmpf .ogt z (broadcast S8x100 (Scalar.ofBits .f32 0x00000000#32))) z
    (subf (exp z) (broadcast S8x100 (Scalar.ofBits .f32 0x3F800000#32)))

/-- The second layer: the hidden block times W₂, plus b₂ on every row. -/
def blockLinear (h : FVec Ideal S8x100 .f32) (w2 : FVec Ideal S100x56000 .bf16) (b2 : FVec Ideal S56000 .f32) : FVec Ideal S8x56000 .f32 :=
  addf (matmul dot_S8x100_S100x56000_S8x56000_1_0_0_1_n_n none (truncf .bf16 h bitsLt_bf16_f32)
      (shapeCast S100x56000 w2 shapeCasts_S100x56000_S100x56000) (constant S8x56000 .f32 0x00000000#32))
    (broadcastTo S8x56000 (shapeCast S1x56000 b2 shapeCasts_S56000_S1x56000) broadcasts_S1x56000_S8x56000)

/-- The rows' means, as a column. -/
def blockMean (z : FVec Ideal S8x56000 .f32) : FVec Ideal S8x1 .f32 :=
  divf (shapeCast S8x1 (multiReduction .add [1] S8 z 0x00000000#32 reduces_S8x56000_S8 (.inl rfl) rfl) shapeCasts_S8_S8x1)
    (broadcast S8x1 (Scalar.ofBits .f32 0x475AC000#32))

/-- The rows centred. -/
def blockCen (z : FVec Ideal S8x56000 .f32) : FVec Ideal S8x56000 .f32 :=
  subf z (broadcastTo S8x56000 (blockMean z) broadcasts_S8x1_S8x56000)

/-- The rows centred and scaled by the reciprocal root of the variance plus the small constant. -/
def blockNorm (z : FVec Ideal S8x56000 .f32) : FVec Ideal S8x56000 .f32 :=
  mulf (blockCen z)
    (broadcastTo S8x56000
      (rsqrt (addf
        (divf (shapeCast S8x1 (multiReduction .add [1] S8 (mulf (blockCen z) (blockCen z)) 0x00000000#32 reduces_S8x56000_S8 (.inl rfl) rfl) shapeCasts_S8_S8x1)
          (broadcast S8x1 (Scalar.ofBits .f32 0x475AC000#32)))
        (broadcast S8x1 (Scalar.ofBits .f32 0x3727C5AC#32))))
      broadcasts_S8x1_S8x56000)

/-- The body's value before the logistic is these stages in turn. -/
theorem pay2_eq (x0 : Vec Ideal S8x3600 .f32) (w1 : Vec Ideal S3600x100 .bf16) (b1 : Vec Ideal S100 .f32)
    (w2 : Vec Ideal S100x56000 .bf16) (b2 : Vec Ideal S56000 .f32) :
    k0_pay2 x0 w1 b1 w2 b2 = blockNorm (blockLinear (blockElu (blockPre x0 w1 b1)) w2 b2) := rfl

/-! ## Each stage of the block at an index: the row's stage -/

theorem blockPre_apply (x0 : FVec Ideal S8x3600 .f32) (w1 : FVec Ideal S3600x100 .bf16) (b1 : FVec Ideal S100 .f32)
    (r : Fin 8) (k : Fin 100) :
    blockPre x0 w1 b1 (ix2 r k) = ∑ c : Fin 3600, x0 (ix2 r c) * w1 (ix2 c k) + b1 (ix1 k) := by
  unfold blockPre
  rw [addf_apply, bias100_apply, shapeCast_self, shapeCast_self,
    Cert.LibDot.matmul_10_zero_apply _ rfl rfl rfl rfl rfl rfl]
  rfl

theorem blockElu_apply (z : FVec Ideal S8x100 .f32) (i : S8x100.Idx) : blockElu z i = Row.elu (z i) := rfl

theorem blockLinear_apply (h : FVec Ideal S8x100 .f32) (w2 : FVec Ideal S100x56000 .bf16) (b2 : FVec Ideal S56000 .f32)
    (r : Fin 8) (j : Fin 56000) :
    blockLinear h w2 b2 (ix2 r j) = Row.lin w2 b2 (fun k => h (ix2 r k)) j := by
  unfold blockLinear Row.lin
  rw [addf_apply, bias56000_apply, shapeCast_self, Cert.LibDot.matmul_10_zero_apply _ rfl rfl rfl rfl rfl rfl]
  rfl

theorem blockMean_apply (z : FVec Ideal S8x56000 .f32) (r : Fin 8) :
    blockMean z (ix2 r (0 : Fin 1)) = Row.mean (fun j => z (ix2 r j)) := by
  unfold blockMean Row.mean
  rw [divf_apply, toCol_apply, rowSum_apply]
  rfl

theorem blockCen_apply (z : FVec Ideal S8x56000 .f32) (r : Fin 8) (j : Fin 56000) :
    blockCen z (ix2 r j) = z (ix2 r j) - Row.mean (fun j => z (ix2 r j)) := by
  unfold blockCen
  rw [subf_apply, col_apply, blockMean_apply]

theorem blockNorm_apply (z : FVec Ideal S8x56000 .f32) (r : Fin 8) (j : Fin 56000) :
    blockNorm z (ix2 r j) = Row.norm (fun j => z (ix2 r j)) j := by
  unfold blockNorm Row.norm Row.var
  rw [mulf_apply, col_apply, blockCen_apply]
  show _ * Ideal.rsqrt (Ideal.div (shapeCast S8x1 (multiReduction .add [1] S8 (mulf (blockCen z) (blockCen z)) 0x00000000#32 reduces_S8x56000_S8 (.inl rfl) rfl) shapeCasts_S8_S8x1 (ix2 r (0 : Fin 1))) (Ideal.ofBits .f32 0x475AC000#32) + Ideal.ofBits .f32 0x3727C5AC#32) = _
  rw [toCol_apply, rowSum_apply]
  simp only [mulf_apply, blockCen_apply]

theorem pay1_apply (y : FVec Ideal S8x56000 .f32) (i : S8x56000.Idx) : k0_pay1 y i = Row.sig (y i) := rfl

/-- THE BLOCK'S PAYLOAD at row r, lane j: the gate's row function of row r of the input block. -/
theorem payload_apply (x0 : Vec Ideal S8x3600 .f32) (w1 : Vec Ideal S3600x100 .bf16) (b1 : Vec Ideal S100 .f32)
    (w2 : Vec Ideal S100x56000 .bf16) (b2 : Vec Ideal S56000 .f32) (r : Fin 8) (j : Fin 56000) :
    k0_pay1 (k0_pay2 x0 w1 b1 w2 b2) (ix2 r j)
      = Row.sig (Row.norm (fun j' => Row.lin w2 b2 (fun k => Row.hid w1 b1 (fun c => x0 (ix2 r c)) k) j') j) := by
  rw [pay1_apply, pay2_eq, blockNorm_apply]
  simp only [blockLinear_apply, blockElu_apply, blockPre_apply]
  rfl

/-! ## The specification's operations at an index -/

/-- A scalar constant repeated over any shape reads its word's value. -/
theorem hostScalar_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply]; rfl

/-- A bias given a leading unit axis and repeated down the rows reads its entry. -/
theorem hostBias_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → EReal)
    (R : Fin M) (k : Fin N) :
    broadcastInDim ⟨2, ![M, N]⟩ ![0, 1] h2 (broadcastInDim ⟨2, ![1, N]⟩ ![1] h1 b) (ix2 R k) = b (ix1 k) := by
  refine (broadcastInDim_apply ![0, 1] h2 _ (ix2 R k) (ix2 (0 : Fin 1) k) fun a => ?_).trans
    (broadcastInDim_apply ![1] h1 b (ix2 (0 : Fin 1) k) (ix1 k) fun a => ?_)
  · match a with
    | ⟨0, _⟩ => rfl
    | ⟨1, _⟩ =>
      show k.val = if N = 1 then 0 else k.val
      have := k.isLt
      split <;> omega
  · match a with
    | ⟨0, _⟩ =>
      show k.val = if N = 1 then 0 else k.val
      have := k.isLt
      split <;> omega

/-- 128 entries given a trailing unit axis. -/
theorem hostToCol_apply (h : (⟨1, ![128]⟩ : Shape).BroadcastsInDim ⟨2, ![128, 1]⟩ ![0]) (u : (⟨1, ![128]⟩ : Shape).Idx → EReal)
    (R : Fin 128) : broadcastInDim ⟨2, ![128, 1]⟩ ![0] h u (ix2 R (0 : Fin 1)) = u (ix1 R) :=
  broadcastInDim_apply ![0] h u _ (ix1 R) fun a => by match a with | ⟨0, _⟩ => rfl

/-- A column of 128 entries repeated along the 56000 lanes reads the row's entry. -/
theorem hostCol_apply (h : (⟨2, ![128, 1]⟩ : Shape).BroadcastsInDim ⟨2, ![128, 56000]⟩ ![0, 1])
    (v : (⟨2, ![128, 1]⟩ : Shape).Idx → EReal) (R : Fin 128) (j : Fin 56000) :
    broadcastInDim ⟨2, ![128, 56000]⟩ ![0, 1] h v (ix2 R j) = v (ix2 R (0 : Fin 1)) :=
  broadcastInDim_apply ![0, 1] h v _ (ix2 R (0 : Fin 1)) fun a => by match a with | ⟨0, _⟩ => rfl | ⟨1, _⟩ => rfl

theorem reduces128 : (⟨2, ![128, 56000]⟩ : Shape).Reduces [1] ⟨1, ![128]⟩ := by decide

/-- The host's sum along the lanes from the zero word, at a row. -/
theorem hostRowSum_apply (z : FVec Ideal ⟨2, ![128, 56000]⟩ .f32) (h' : (⟨2, ![128, 56000]⟩ : Shape).ReducesTo [1] ⟨1, ![128]⟩)
    (hu : 0 < (⟨0, ![]⟩ : Shape).numel) (R : Fin 128) :
    Host.reduceAdd z (constant ⟨0, ![]⟩ .f32 0x00000000#32) h' hu (ix1 R) = ∑ j : Fin 56000, z (ix2 R j) := by
  rw [hostReduceAdd_apply, Ideal.hostReduceAdd_single h' reduces128, constant_apply, Ideal.ofBits_zero_f32, zero_add]
  refine Finset.sum_congr rfl fun j _ => congrArg z (funext fun a => ?_)
  match a with
  | ⟨0, _⟩ => rfl
  | ⟨1, _⟩ => rfl

/-- The host's matrix product, rows by columns, at an entry: the same sum the block's product is. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  rw [← Cert.LibDot.matmul_10_zero_apply d hlc hrc hln hrn hlb hrb prec A B a b]
  show FloatOps.dotGeneral d prec .single A B (ix2 a b) = FloatOps.matmul d prec A B _ (ix2 a b)
  rw [Ideal.dotGeneral_apply, Ideal.matmul_constant_zero_apply]

/-- The two spellings of the ELU agree: where z > 0 both are z; elsewhere the host's 1 · (e^z − 1) is e^z − 1. -/
theorem elu_host (z : EReal) :
    Scalar.select (Ideal.cmp .ogt z (Ideal.ofBits .f32 0x00000000#32)) z
      (Ideal.ofBits .f32 0x3F800000#32
        * (Ideal.exp (Scalar.select (Ideal.cmp .ogt z (Ideal.ofBits .f32 0x00000000#32)) (Ideal.ofBits .f32 0x00000000#32) z) - 1))
      = Row.elu z := by
  unfold Row.elu
  by_cases hc : Ideal.cmp .ogt z (Ideal.ofBits .f32 0x00000000#32) = 1#1
  · rw [hc, select_one, select_one]
  · rw [eq_zero_of_ne_one hc, select_zero, select_zero, select_zero, Ideal.ofBits_one_f32, one_mul]

theorem elu100_apply (z : FVec Ideal ⟨2, ![128, 100]⟩ .f32) (i : (⟨2, ![128, 100]⟩ : Shape).Idx) :
    Cert.Spec.elu100 z i = Row.elu (z i) := by
  unfold Cert.Spec.elu100
  rw [select_apply, cmpf_apply, mulf_apply, hostScalar_apply, hostScalar_apply]
  show Scalar.select _ _ (_ * (Ideal.exp (Scalar.select _ (broadcastInDim _ ![] _ (constant (F := Ideal) ⟨0, ![]⟩ .f32 0x00000000#32) i) _) - 1)) = _
  rw [hostScalar_apply]
  exact elu_host (z i)

/-! ## The specification's stages at an index: the row's stage -/

theorem gateHidden_apply (xo : FVec Ideal ⟨2, ![128, 3600]⟩ .f32) (w1 : FVec Ideal ⟨2, ![3600, 100]⟩ .f32)
    (b1 : FVec Ideal ⟨1, ![100]⟩ .f32) (R : Fin 128) (k : Fin 100) :
    Cert.Spec.gateHidden xo w1 b1 (ix2 R k) = Row.hid w1 b1 (fun c => xo (ix2 R c)) k := by
  unfold Cert.Spec.gateHidden Row.hid
  rw [elu100_apply, addf_apply, hostBias_apply, dotGeneral_10_apply _ rfl rfl rfl rfl rfl rfl]

theorem gateLinear_apply (h : FVec Ideal ⟨2, ![128, 100]⟩ .f32) (w2 : FVec Ideal ⟨2, ![100, 56000]⟩ .f32)
    (b2 : FVec Ideal ⟨1, ![56000]⟩ .f32) (R : Fin 128) (j : Fin 56000) :
    Cert.Spec.gateLinear h w2 b2 (ix2 R j) = Row.lin w2 b2 (fun k => h (ix2 R k)) j := by
  unfold Cert.Spec.gateLinear Row.lin
  rw [addf_apply, hostBias_apply, dotGeneral_10_apply _ rfl rfl rfl rfl rfl rfl]

theorem rowMean_apply (z : FVec Ideal ⟨2, ![128, 56000]⟩ .f32) (R : Fin 128) :
    Cert.Spec.rowMean z (ix2 R (0 : Fin 1)) = Row.mean (fun j => z (ix2 R j)) := by
  unfold Cert.Spec.rowMean Row.mean
  rw [hostDivf_apply, hostToCol_apply, hostRowSum_apply, hostScalar_apply]

theorem hostRsqrt_apply {s : Shape} (x : FVec Ideal s .f32) (i : s.Idx) : Host.rsqrt x i = Ideal.rsqrt (x i) := rfl

theorem rowNorm_apply (z : FVec Ideal ⟨2, ![128, 56000]⟩ .f32) (R : Fin 128) (j : Fin 56000) :
    Cert.Spec.rowNorm z (ix2 R j) = Row.norm (fun j => z (ix2 R j)) j := by
  unfold Cert.Spec.rowNorm Row.norm Row.var
  rw [mulf_apply, subf_apply, hostCol_apply, rowMean_apply, hostCol_apply]
  rw [hostRsqrt_apply, addf_apply, hostDivf_apply, hostToCol_apply, hostRowSum_apply, hostScalar_apply, hostScalar_apply]
  refine congrArg (fun s : EReal => (z (ix2 R j) - Row.mean fun j => z (ix2 R j))
    * Ideal.rsqrt (Ideal.div s (Ideal.ofBits .f32 0x475AC000#32) + Ideal.ofBits .f32 0x3727C5AC#32))
    (Finset.sum_congr rfl fun j' _ => ?_)
  rw [mulf_apply, subf_apply, hostCol_apply, rowMean_apply]

theorem logistic_apply (x : FVec Ideal ⟨2, ![128, 56000]⟩ .f32) (i : (⟨2, ![128, 56000]⟩ : Shape).Idx) :
    Cert.Spec.logistic56000 x i = Row.sig (x i) := by
  unfold Cert.Spec.logistic56000 Row.sig
  rw [hostDivf_apply, hostScalar_apply, addf_apply, hostScalar_apply, Ideal.ofBits_zero_f32, zero_sub]
  rfl

/-- THE SPECIFICATION at row R, lane j: the gate's row function of row R of the input. -/
theorem gate_apply (xo : FVec Ideal ⟨2, ![128, 3600]⟩ .f32) (w1 : FVec Ideal ⟨2, ![3600, 100]⟩ .f32)
    (b1 : FVec Ideal ⟨1, ![100]⟩ .f32) (w2 : FVec Ideal ⟨2, ![100, 56000]⟩ .f32) (b2 : FVec Ideal ⟨1, ![56000]⟩ .f32)
    (R : Fin 128) (j : Fin 56000) :
    Cert.Spec.gate xo w1 b1 w2 b2 (ix2 R j)
      = Row.sig (Row.norm (fun j' => Row.lin w2 b2 (fun k => Row.hid w1 b1 (fun c => xo (ix2 R c)) k) j') j) := by
  unfold Cert.Spec.gate
  rw [logistic_apply, rowNorm_apply]
  simp only [gateLinear_apply, gateHidden_apply]

/-! ## A block of the kernel is a block of the specification -/

/-- At one row and lane: the block's payload over blocks that are the arrays' (the input block its row R of the
    input, the four whole windows the parameter arrays themselves) is the specification at row R. -/
theorem point_eq (x0 : Vec Ideal S8x3600 .f32) (x1 : Vec Ideal S3600x100 .bf16) (x2 : Vec Ideal S100 .f32)
    (x3 : Vec Ideal S100x56000 .bf16) (x4 : Vec Ideal S56000 .f32)
    (xo : FVec Ideal S128x3600 .f32) (w1 : FVec Ideal S3600x100 .f32) (b1 : FVec Ideal S100 .f32)
    (w2 : FVec Ideal S100x56000 .f32) (b2 : FVec Ideal S56000 .f32) (r : Fin 8) (R : Fin 128) (j : Fin 56000)
    (hx0 : ∀ cc, x0 (ix2 r cc) = xo (ix2 R cc)) (hx1 : x1 = w1) (hx2 : x2 = b1) (hx3 : x3 = w2) (hx4 : x4 = b2) :
    k0_pay1 (k0_pay2 x0 x1 x2 x3 x4) (ix2 r j) = Cert.Spec.gate xo w1 b1 w2 b2 (ix2 R j) := by
  subst hx1 hx2 hx3 hx4
  rw [payload_apply, gate_apply]
  simp only [hx0]

theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 points: the input and the output move one block of 8 rows per point, the four
    parameter windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD)

/-- The input window's block at point t is rows 8t … 8t + 7 of the input. -/
theorem iblk0_0_apply (xo : FVec Ideal S128x3600 .f32) (h0 : V c main_v10 = xo) (t : Fin cfg0.N) (r : Fin 8) (cc : Fin 3600)
    (R : Fin 128) (hR : R.val = 8 * t.val + r.val) :
    (iblk0 V c 0 t : Vec Ideal S8x3600 .f32) (ix2 r cc) = xo (ix2 R cc) := by
  obtain ⟨e0, e1, -⟩ := idx_facts t
  unfold iblk0
  rw [View.read_apply]
  show V c main_v10 _ = _
  rw [h0]
  refine congrArg xo (funext fun a => Fin.ext ?_)
  match a with
  | ⟨0, _⟩ => show win0_0.index t (0 : Fin 2) * 8 + 1 * r.val = R.val; rw [e0, hR]; omega
  | ⟨1, _⟩ => show win0_0.index t (1 : Fin 2) * 3600 + 1 * cc.val = cc.val; rw [e1]; omega

/-- The first weight window's block is the whole array (its bf16 copy, the same real numbers). -/
theorem iblk0_1_eq (w1 : FVec Ideal S3600x100 .f32) (h1 : V c main_v27 = truncf .bf16 w1 bitsLt_bf16_f32) (t : Fin cfg0.N) :
    (iblk0 V c 1 t : Vec Ideal S3600x100 .bf16) = w1 := by
  obtain ⟨-, -, e0, e1, -⟩ := idx_facts t
  funext i
  unfold iblk0
  rw [View.read_apply]
  show V c main_v27 _ = _
  rw [h1, truncf_apply]
  refine congrArg w1 (funext fun a => Fin.ext ?_)
  match a with
  | ⟨0, _⟩ => show win0_1.index t (0 : Fin 2) * 3600 + 1 * (i 0).val = (i 0).val; rw [e0]; omega
  | ⟨1, _⟩ => show win0_1.index t (1 : Fin 2) * 100 + 1 * (i 1).val = (i 1).val; rw [e1]; omega

theorem iblk0_2_eq (b1 : FVec Ideal S100 .f32) (h2 : V c main_arg2 = b1) (t : Fin cfg0.N) :
    (iblk0 V c 2 t : Vec Ideal S100 .f32) = b1 := by
  obtain ⟨-, -, -, -, e0, -⟩ := idx_facts t
  funext i
  unfold iblk0
  rw [View.read_apply]
  show V c main_arg2 _ = _
  rw [h2]
  refine congrArg b1 (funext fun a => Fin.ext ?_)
  match a with
  | ⟨0, _⟩ => show win0_2.index t (0 : Fin 1) * 100 + 1 * (i 0).val = (i 0).val; rw [e0]; omega

theorem iblk0_3_eq (w2 : FVec Ideal S100x56000 .f32) (h3 : V c main_v28 = truncf .bf16 w2 bitsLt_bf16_f32) (t : Fin cfg0.N) :
    (iblk0 V c 3 t : Vec Ideal S100x56000 .bf16) = w2 := by
  obtain ⟨-, -, -, -, -, e0, e1, -⟩ := idx_facts t
  funext i
  unfold iblk0
  rw [View.read_apply]
  show V c main_v28 _ = _
  rw [h3, truncf_apply]
  refine congrArg w2 (funext fun a => Fin.ext ?_)
  match a with
  | ⟨0, _⟩ => show win0_3.index t (0 : Fin 2) * 100 + 1 * (i 0).val = (i 0).val; rw [e0]; omega
  | ⟨1, _⟩ => show win0_3.index t (1 : Fin 2) * 56000 + 1 * (i 1).val = (i 1).val; rw [e1]; omega

theorem iblk0_4_eq (b2 : FVec Ideal S56000 .f32) (h4 : V c main_arg4 = b2) (t : Fin cfg0.N) :
    (iblk0 V c 4 t : Vec Ideal S56000 .f32) = b2 := by
  obtain ⟨-, -, -, -, -, -, -, e0, -⟩ := idx_facts t
  funext i
  unfold iblk0
  rw [View.read_apply]
  show V c main_arg4 _ = _
  rw [h4]
  refine congrArg b2 (funext fun a => Fin.ext ?_)
  match a with
  | ⟨0, _⟩ => show win0_4.index t (0 : Fin 1) * 56000 + 1 * (i 0).val = (i 0).val; rw [e0]; omega

end Blocks

section Whole
variable (V : (c : Dev nD) → (b : Ref sig .tc) → Buf (Elt Ideal) ((c : Thread nD τ).loc b)) (c : Dev nD)
  (xo : FVec Ideal S128x3600 .f32) (w1 : FVec Ideal S3600x100 .f32) (b1 : FVec Ideal S100 .f32)
  (w2 : FVec Ideal S100x56000 .f32) (b2 : FVec Ideal S56000 .f32)

/-- WHAT POINT t WRITES BACK is rows 8t … 8t + 7 of the specification. -/
theorem flushed_eq (h0 : V c main_v10 = xo) (h1 : V c main_v27 = truncf .bf16 w1 bitsLt_bf16_f32) (h2 : V c main_arg2 = b1)
    (h3 : V c main_v28 = truncf .bf16 w2 bitsLt_bf16_f32) (h4 : V c main_arg4 = b2) (t : Fin cfg0.N) :
    (dat0 (F := Ideal) V c).flushed 5 t
      = ((cfg0.win 5).blk t).view.read (Elt Ideal) (Cert.Spec.gate xo w1 b1 w2 b2) := by
  show (cfg0.win 5).cut (grid0.coords t) ((dat0 V c).after 5 t) = _
  rw [after0_5]
  unfold out0_5
  rw [View.canon_unit_zero hz2]
  simp only [View.ld_unit_zero (S := S8x3600) hz2, View.ld_unit_zero (S := S3600x100) hz2, View.ld_unit_zero (S := S100) hz1,
    View.ld_unit_zero (S := S100x56000) hz2, View.ld_unit_zero (S := S56000) hz1]
  obtain ⟨-, -, -, -, -, -, -, -, e0, e1⟩ := idx_facts t
  have hN : t.val < 16 := lt_of_lt_of_eq t.isLt N_0
  funext y
  obtain ⟨r, j, rfl⟩ : ∃ (r : Fin 8) (j : Fin 56000), y = ix2 r j := ⟨y 0, y 1, eq_ix2 y⟩
  rw [View.read_apply]
  show k0_pay1 (k0_pay2 (iblk0 V c 0 t) (iblk0 V c 1 t) (iblk0 V c 2 t) (iblk0 V c 3 t) (iblk0 V c 4 t)) (ix2 r j)
    = Cert.Spec.gate xo w1 b1 w2 b2 (((cfg0.win 5).blk t).view.emb (ix2 r j))
  have hemb : ((cfg0.win 5).blk t).view.emb (ix2 r j) = ix2 (⟨8 * t.val + r.val, by omega⟩ : Fin 128) j := by
    funext a; apply Fin.ext
    match a with
    | ⟨0, _⟩ => show win0_5.index t (0 : Fin 2) * 8 + 1 * r.val = 8 * t.val + r.val; rw [e0]; omega
    | ⟨1, _⟩ => show win0_5.index t (1 : Fin 2) * 56000 + 1 * j.val = j.val; rw [e1]; omega
  rw [hemb]
  exact point_eq _ _ _ _ _ xo w1 b1 w2 b2 r _ j (fun cc => iblk0_0_apply V c xo h0 t r cc _ rfl)
    (iblk0_1_eq V c w1 h1 t) (iblk0_2_eq V c b1 h2 t) (iblk0_3_eq V c w2 h3 t) (iblk0_4_eq V c b2 h4 t)

/-- An index of the output array is in point t's block iff its row is among the block's 8 rows. -/
theorem mem_blk (t : Fin cfg0.N) (i : S128x56000.Idx) :
    i ∈ ((cfg0.win 5).blk t).view.set ↔ ∀ a : Fin 2, win0_5.index t a * S8x56000.size a ≤ (i a).val
      ∧ (i a).val < win0_5.index t a * S8x56000.size a + S8x56000.size a := by
  show i ∈ ((View.whole main_v29).slice (win0_5.rect t)).set ↔ _
  rw [View.set_slice_whole, Rect.mem_set_unit]
  exact Iff.rfl

/-- Row R of the output is written back by point R / 8. -/
theorem covered (i : S128x56000.Idx) :
    ∃ t : Fin cfg0.N, (cfg0.win 5).flush t = true ∧ i ∈ ((cfg0.win 5).blk t).view.set := by
  have hi0 : (i 0).val < 128 := (i 0).isLt
  have hi1 : (i 1).val < 56000 := (i 1).isLt
  obtain ⟨t, ht⟩ : ∃ t : Fin cfg0.N, t.val = (i 0).val / 8 :=
    ⟨⟨(i 0).val / 8, by rw [show cfg0.N = 16 from N_0]; omega⟩, rfl⟩
  obtain ⟨-, -, -, -, -, -, -, -, e0, e1⟩ := idx_facts t
  refine ⟨t, flush0_5 t, ?_⟩
  rw [mem_blk]
  intro a
  match a with
  | ⟨0, _⟩ =>
    show win0_5.index t (0 : Fin 2) * 8 ≤ (i 0).val ∧ (i 0).val < win0_5.index t (0 : Fin 2) * 8 + 8
    rw [e0, ht]; omega
  | ⟨1, _⟩ =>
    show win0_5.index t (1 : Fin 2) * 56000 ≤ (i 1).val ∧ (i 1).val < win0_5.index t (1 : Fin 2) * 56000 + 56000
    rw [e1]; omega

/-- THE OUTPUT ARRAY after the region: the state gate of the arrays the region finds. -/
theorem value (h0 : V c main_v10 = xo) (h1 : V c main_v27 = truncf .bf16 w1 bitsLt_bf16_f32) (h2 : V c main_arg2 = b1)
    (h3 : V c main_v28 = truncf .bf16 w2 bitsLt_bf16_f32) (h4 : V c main_arg4 = b2) :
    (dat0 (F := Ideal) V c).arrAt 5 cfg0.N = Cert.Spec.gate xo w1 b1 w2 b2 :=
  (dat0 (F := Ideal) V c).arrAt_eq_of_cover 5 (Cert.Spec.gate xo w1 b1 w2 b2)
    (fun t _ => flushed_eq V c xo w1 b1 w2 b2 h0 h1 h2 h3 h4 t) covered

end Whole

end Cert.KernelIdeal.Gate0
end
-- ==== Proof.HiddenMath.lean ====
/-
  One block's hidden update read at an index. The kernel's block payload and the specification's whole-array
  function are both, at every index, ONE scalar function `cell` of the eight biased entries of the index's group, the gate's
  entry and the lane: the group is centred at its mean, scaled by the reciprocal root of its biased variance plus ε,
  multiplied by the gate and passed through the ELU. Stated over variables of literal vector types; nothing here names a
  kernel region.
-/
import proofs.«157921_j32839319945335_1_alg».proof.Proof.Gen.KernelIdeal
import proofs.«157921_j32839319945335_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.HiddenMath

open Cert.KernelIdeal Cert.KernelIdeal.Gen Idealize.ShloMosaic Idealize.ShloMosaic.ValueIdx
open scoped BigOperators

/-! ## The scalar function -/

/-- The words of 8, of ε and of 1, never evaluated (only 1 is, once, below). -/
abbrev w8 : EReal := Ideal.ofBits .f32 0x41000000#32
abbrev wEps : EReal := Ideal.ofBits .f32 0x3727C5AC#32
abbrev w1 : EReal := Ideal.ofBits .f32 0x3F800000#32

/-- The mean of a group of eight. -/
def mean8 (γ : Fin 8 → EReal) : EReal := Ideal.div (∑ v : Fin 8, γ v) w8

/-- Lane u of the group, centred and scaled by the reciprocal root of the biased variance plus ε. -/
def norm8 (γ : Fin 8 → EReal) (u : Fin 8) : EReal :=
  (γ u - mean8 γ) * Ideal.rsqrt (Ideal.div (∑ v : Fin 8, (γ v - mean8 γ) * (γ v - mean8 γ)) w8 + wEps)

/-- The ELU as the kernel writes it: y where y > 0, else e^y − 1. -/
def elu (y : EReal) : EReal := Scalar.select (Ideal.cmp .ogt y 0) y (Ideal.exp y - w1)

/-- One output entry: the ELU of the gate's entry times the normalised lane. -/
def cell (γ : Fin 8 → EReal) (sv : EReal) (u : Fin 8) : EReal := elu (sv * norm8 γ u)

/-- The word 0x3F800000 is 1. -/
theorem w1_eq : w1 = 1 := IdealRules.sign_bit.ideal_onePat .f32

/-- The specification's ELU, y where y > 0, else 1 · expm1 y' with y' = 0 where y > 0, else y, is the kernel's. -/
theorem elu_spec (y : EReal) :
    Scalar.select (Ideal.cmp .ogt y 0) y (w1 * (Ideal.exp (Scalar.select (Ideal.cmp .ogt y 0) 0 y) - 1)) = elu y := by
  unfold elu
  by_cases h : Ideal.cmp .ogt y 0 = 1#1
  · rw [h, select_one, select_one]
  · rw [eq_zero_of_ne_one h, select_zero, select_zero, select_zero, w1_eq, one_mul]

/-! ## Layout readings at literal shapes -/

section Layout
variable {α : Type}

/-- A [8,7000,1] array broadcast along the lanes reads its one entry of the group. -/
theorem bcLane_apply (y : S8x7000x1.Idx → α) (h : S8x7000x1.Broadcasts S8x7000x8) (r : Fin 8) (n : Fin 7000) (u : Fin 8) :
    broadcastTo S8x7000x8 y h (ix3 r n u) = y (ix3 r n (0 : Fin 1)) :=
  broadcastTo_apply y h (ix3 r n u) (ix3 r n (0 : Fin 1)) fun a => match a with
    | ⟨0, _⟩ => by show r.val = if (8 : ℕ) = 1 then 0 else r.val; rw [if_neg (by decide)]
    | ⟨1, _⟩ => by show n.val = if (7000 : ℕ) = 1 then 0 else n.val; rw [if_neg (by decide)]
    | ⟨2, _⟩ => by show (0 : ℕ) = if (1 : ℕ) = 1 then 0 else u.val; rw [if_pos rfl]

/-- A [1,7000,8] array broadcast along the rows reads its one row. -/
theorem bcRow_apply (y : S1x7000x8.Idx → α) (h : S1x7000x8.Broadcasts S8x7000x8) (r : Fin 8) (n : Fin 7000) (u : Fin 8) :
    broadcastTo S8x7000x8 y h (ix3 r n u) = y (ix3 (0 : Fin 1) n u) :=
  broadcastTo_apply y h (ix3 r n u) (ix3 (0 : Fin 1) n u) fun a => match a with
    | ⟨0, _⟩ => by show (0 : ℕ) = if (1 : ℕ) = 1 then 0 else r.val; rw [if_pos rfl]
    | ⟨1, _⟩ => by show n.val = if (7000 : ℕ) = 1 then 0 else n.val; rw [if_neg (by decide)]
    | ⟨2, _⟩ => by show u.val = if (8 : ℕ) = 1 then 0 else u.val; rw [if_neg (by decide)]

/-- A [8,7000] array cast to [8,7000,1] reads, at (r, n, z), the operand at (r, n). -/
theorem castUnit_apply (y : S8x7000.Idx → α) (h : S8x7000.ShapeCasts S8x7000x1) (r : Fin 8) (n : Fin 7000) (z : Fin 1) :
    shapeCast S8x7000x1 y h (ix3 r n z) = y (ix2 r n) :=
  shapeCast_apply y h _ _ (by
    have hz : z.val = 0 := by omega
    rw [Shape.rowMajor_val_two, Shape.rowMajor_val_three]
    show r.val * 7000 + n.val = (r.val * 7000 + n.val) * 1 + z.val
    omega)

end Layout

/-- The index a reduction over the lanes inserts lane k at: (r, n, k). -/
theorem lift_lane (h : S8x7000x8.Reduces [2] S8x7000) (r : Fin 8) (n : Fin 7000) (k : Fin 8) :
    h.lift (ix2 r n) k = ix3 r n k := by
  funext a; match a with | ⟨0, _⟩ => rfl | ⟨1, _⟩ => rfl | ⟨2, _⟩ => rfl

/-- The sum over the lanes, kept as a unit axis, read at (r, n, z): the sum of the group's eight entries. -/
theorem sumLane_apply (v : FVec Ideal S8x7000x8 .f32) (h : S8x7000x8.Reduces [2] S8x7000) (hs : S8x7000.ShapeCasts S8x7000x1)
    (r : Fin 8) (n : Fin 7000) (z : Fin 1) :
    shapeCast S8x7000x1 (multiReduction .add [2] S8x7000 v 0x00000000#32 h (.inl rfl) rfl) hs (ix3 r n z) = ∑ k : Fin 8, v (ix3 r n k) := by
  rw [castUnit_apply]
  refine (Ideal.multiReduction_add_single v _ h _ _ (ix2 r n)).trans ?_
  show ∑ k : Fin 8, v (h.lift (ix2 r n) k) = _
  exact Finset.sum_congr rfl fun k _ => by rw [lift_lane]

/-! ## The kernel's payload, stage by stage -/

/-- The biased block: the block plus the bias array, cast to [1,7000,8] and broadcast along the rows. -/
def kBias (x0 : FVec Ideal S8x7000x8 .f32) (x1 : FVec Ideal S7000x8 .f32) : FVec Ideal S8x7000x8 .f32 :=
  addf (shapeCast S8x7000x8 x0 shapeCasts_S8x7000x8_S8x7000x8)
    (broadcastTo S8x7000x8 (shapeCast S1x7000x8 (shapeCast S7000x8 x1 shapeCasts_S7000x8_S7000x8) shapeCasts_S7000x8_S1x7000x8)
      broadcasts_S1x7000x8_S8x7000x8)

/-- The groups' means, as a [8,7000,1] array. -/
def kMean (v6 : FVec Ideal S8x7000x8 .f32) : FVec Ideal S8x7000x1 .f32 :=
  divf (shapeCast S8x7000x1 (multiReduction .add [2] S8x7000 v6 0x00000000#32 reduces_S8x7000x8_S8x7000 (.inl rfl) rfl)
      shapeCasts_S8x7000_S8x7000x1)
    (broadcast S8x7000x1 (Scalar.ofBits .f32 0x41000000#32))

/-- The block centred. -/
def kCentred (v6 : FVec Ideal S8x7000x8 .f32) : FVec Ideal S8x7000x8 .f32 :=
  subf v6 (broadcastTo S8x7000x8 (kMean v6) broadcasts_S8x7000x1_S8x7000x8)

/-- The block normalised. -/
def kNorm (v6 : FVec Ideal S8x7000x8 .f32) : FVec Ideal S8x7000x8 .f32 :=
  mulf (kCentred v6)
    (broadcastTo S8x7000x8
      (rsqrt (addf
        (divf (shapeCast S8x7000x1
            (multiReduction .add [2] S8x7000 (mulf (kCentred v6) (kCentred v6)) 0x00000000#32 reduces_S8x7000x8_S8x7000 (.inl rfl) rfl)
            shapeCasts_S8x7000_S8x7000x1)
          (broadcast S8x7000x1 (Scalar.ofBits .f32 0x41000000#32)))
        (broadcast S8x7000x1 (Scalar.ofBits .f32 0x3727C5AC#32))))
      broadcasts_S8x7000x1_S8x7000x8)

/-- The ELU over a block. -/
def kElu (y : FVec Ideal S8x7000x8 .f32) : FVec Ideal S8x7000x8 .f32 :=
  select (cmpf .ogt y (broadcast S8x7000x8 (Scalar.ofBits .f32 0x00000000#32))) y
    (subf (exp y) (broadcast S8x7000x8 (Scalar.ofBits .f32 0x3F800000#32)))

/-- The payload: the ELU of the gate's block times the normalised biased block. -/
def pay (x0 : FVec Ideal S8x7000x8 .f32) (x1 : FVec Ideal S7000x8 .f32) (x2 : FVec Ideal S8x7000x8 .f32) : FVec Ideal S8x7000x8 .f32 :=
  kElu (mulf (shapeCast S8x7000x8 x2 shapeCasts_S8x7000x8_S8x7000x8) (kNorm (kBias x0 x1)))

theorem kBias_apply (x0 : FVec Ideal S8x7000x8 .f32) (x1 : FVec Ideal S7000x8 .f32) (r : Fin 8) (n : Fin 7000) (u : Fin 8) :
    kBias x0 x1 (ix3 r n u) = x0 (ix3 r n u) + x1 (ix2 n u) := by
  unfold kBias
  rw [addf_apply, shapeCast_self, shapeCast_self, bcRow_apply, shapeCast_ab_1ab_apply]

theorem kMean_apply (v6 : FVec Ideal S8x7000x8 .f32) (r : Fin 8) (n : Fin 7000) (z : Fin 1) :
    kMean v6 (ix3 r n z) = mean8 fun v => v6 (ix3 r n v) := by
  unfold kMean mean8
  rw [divf_apply, sumLane_apply]
  rfl

theorem kCentred_apply (v6 : FVec Ideal S8x7000x8 .f32) (r : Fin 8) (n : Fin 7000) (u : Fin 8) :
    kCentred v6 (ix3 r n u) = v6 (ix3 r n u) - mean8 fun v => v6 (ix3 r n v) := by
  unfold kCentred
  rw [subf_apply, bcLane_apply, kMean_apply]

theorem kNorm_apply (v6 : FVec Ideal S8x7000x8 .f32) (r : Fin 8) (n : Fin 7000) (u : Fin 8) :
    kNorm v6 (ix3 r n u) = norm8 (fun v => v6 (ix3 r n v)) u := by
  unfold kNorm norm8
  rw [mulf_apply, kCentred_apply, bcLane_apply]
  show _ * Ideal.rsqrt (Ideal.div (shapeCast S8x7000x1 _ _ (ix3 r n (0 : Fin 1))) w8 + wEps) = _
  rw [sumLane_apply]
  simp only [mulf_apply, kCentred_apply]

theorem kElu_apply (y : FVec Ideal S8x7000x8 .f32) (i : S8x7000x8.Idx) : kElu y i = elu (y i) := by
  show Scalar.select (Ideal.cmp .ogt (y i) (Ideal.ofBits .f32 0x00000000#32)) (y i) (Ideal.exp (y i) - w1) = _
  rw [Ideal.ofBits_zero_f32]
  rfl

/-- THE PAYLOAD AT AN INDEX: `cell` of the group's biased entries, the gate's entry and the lane. -/
theorem pay_apply (x0 : FVec Ideal S8x7000x8 .f32) (x1 : FVec Ideal S7000x8 .f32) (x2 : FVec Ideal S8x7000x8 .f32)
    (r : Fin 8) (n : Fin 7000) (u : Fin 8) :
    pay x0 x1 x2 (ix3 r n u) = cell (fun v => x0 (ix3 r n v) + x1 (ix2 n v)) (x2 (ix3 r n u)) u := by
  unfold pay cell
  rw [kElu_apply, mulf_apply, shapeCast_self, kNorm_apply]
  simp only [kBias_apply]

/-! ## The specification, stage by stage -/

section SpecLayout
variable {α : Type}

/-- A [128,7000,1] array broadcast along the lanes reads its one entry of the group. -/
theorem sbcLane_apply (y : Cert.ReferenceIdeal.S128x7000x1.Idx → α)
    (h : Cert.ReferenceIdeal.S128x7000x1.BroadcastsInDim S128x7000x8 ![0, 1, 2]) (R : Fin 128) (n : Fin 7000) (u : Fin 8) :
    broadcastInDim S128x7000x8 ![0, 1, 2] h y (ix3 R n u) = y (ix3 R n (0 : Fin 1)) :=
  broadcastInDim_apply _ h y (ix3 R n u) (ix3 R n (0 : Fin 1)) fun a => match a with
    | ⟨0, _⟩ => by show R.val = if (128 : ℕ) = 1 then 0 else R.val; rw [if_neg (by decide)]
    | ⟨1, _⟩ => by show n.val = if (7000 : ℕ) = 1 then 0 else n.val; rw [if_neg (by decide)]
    | ⟨2, _⟩ => by show (0 : ℕ) = if (1 : ℕ) = 1 then 0 else u.val; rw [if_pos rfl]

/-- A [128,7000] array given a trailing unit axis reads, at (R, n, z), the operand at (R, n). -/
theorem sbcPair_apply (y : Cert.ReferenceIdeal.S128x7000.Idx → α)
    (h : Cert.ReferenceIdeal.S128x7000.BroadcastsInDim Cert.ReferenceIdeal.S128x7000x1 ![0, 1]) (R : Fin 128) (n : Fin 7000) (z : Fin 1) :
    broadcastInDim Cert.ReferenceIdeal.S128x7000x1 ![0, 1] h y (ix3 R n z) = y (ix2 R n) :=
  broadcastInDim_apply _ h y (ix3 R n z) (ix2 R n) fun a => match a with
    | ⟨0, _⟩ => by show R.val = if (128 : ℕ) = 1 then 0 else R.val; rw [if_neg (by decide)]
    | ⟨1, _⟩ => by show n.val = if (7000 : ℕ) = 1 then 0 else n.val; rw [if_neg (by decide)]

/-- The bias vector broadcast to [1,56000] and then to [128,56000] reads, at (R, c), its entry c. -/
theorem sbias_apply (b : S56000.Idx → α) (h1 : S56000.BroadcastsInDim S1x56000 ![1]) (h2 : S1x56000.BroadcastsInDim S128x56000 ![0, 1])
    (R : Fin 128) (c : Fin 56000) :
    broadcastInDim S128x56000 ![0, 1] h2 (broadcastInDim S1x56000 ![1] h1 b) (ix2 R c) = b (ix1 c) :=
  (broadcastInDim_apply _ h2 _ (ix2 R c) (ix2 (0 : Fin 1) c) fun a => match a with
    | ⟨0, _⟩ => by show (0 : ℕ) = if (1 : ℕ) = 1 then 0 else R.val; rw [if_pos rfl]
    | ⟨1, _⟩ => by show c.val = if (56000 : ℕ) = 1 then 0 else c.val; rw [if_neg (by decide)]).trans
  (broadcastInDim_apply _ h1 b (ix2 (0 : Fin 1) c) (ix1 c) fun a => match a with
    | ⟨0, _⟩ => by show c.val = if (56000 : ℕ) = 1 then 0 else c.val; rw [if_neg (by decide)])

/-- ROW-MAJOR READINGS of the reshapes: hidden unit 8n + u of a row is entry u of the row's group n. -/
theorem cast3_apply (x : S128x56000.Idx → α) (h : S128x56000.ShapeCasts S128x7000x8) (R : Fin 128) (n : Fin 7000) (u : Fin 8) :
    shapeCast S128x7000x8 x h (ix3 R n u) = x (ix2 R (⟨8 * n.val + u.val, by omega⟩ : Fin 56000)) :=
  shapeCast_apply x h _ _ (by
    rw [Shape.rowMajor_val_two, Shape.rowMajor_val_three]
    show R.val * 56000 + (8 * n.val + u.val) = (R.val * 7000 + n.val) * 8 + u.val
    omega)

theorem cast2_apply (z : S128x7000x8.Idx → α) (h : S128x7000x8.ShapeCasts S128x56000) (R : Fin 128) (n : Fin 7000) (u : Fin 8) :
    shapeCast S128x56000 z h (ix2 R (⟨8 * n.val + u.val, by omega⟩ : Fin 56000)) = z (ix3 R n u) :=
  shapeCast_apply z h _ _ (by
    rw [Shape.rowMajor_val_two, Shape.rowMajor_val_three]
    show (R.val * 7000 + n.val) * 8 + u.val = R.val * 56000 + (8 * n.val + u.val)
    omega)

theorem castBias_apply (b : S56000.Idx → α) (h : S56000.ShapeCasts S7000x8) (n : Fin 7000) (u : Fin 8) :
    shapeCast S7000x8 b h (ix2 n u) = b (ix1 (⟨8 * n.val + u.val, by omega⟩ : Fin 56000)) :=
  shapeCast_apply b h _ _ (by
    rw [Shape.rowMajor_val_one, Shape.rowMajor_val_two]
    show 8 * n.val + u.val = n.val * 8 + u.val
    omega)

end SpecLayout

/-- The index the host's reduction over the lanes inserts lane k at: (R, n, k). -/
theorem slift_lane (h : S128x7000x8.Reduces [2] Cert.ReferenceIdeal.S128x7000) (R : Fin 128) (n : Fin 7000) (k : Fin 8) :
    h.lift (ix2 R n) k = ix3 R n k := by
  funext a; match a with | ⟨0, _⟩ => rfl | ⟨1, _⟩ => rfl | ⟨2, _⟩ => rfl

theorem reduces3 : S128x7000x8.Reduces [2] Cert.ReferenceIdeal.S128x7000 := by decide

/-- The host's sum over the lanes from the zero word, read at (R, n): the sum of the group's eight entries. -/
theorem ssum_apply (g : FVec Ideal S128x7000x8 .f32) (h' : S128x7000x8.ReducesTo [2] Cert.ReferenceIdeal.S128x7000)
    (hu : 0 < Cert.ReferenceIdeal.S_.numel) (R : Fin 128) (n : Fin 7000) :
    Host.reduceAdd g (constant Cert.ReferenceIdeal.S_ .f32 0x00000000#32) h' hu (ix2 R n) = ∑ k : Fin 8, g (ix3 R n k) := by
  show Ideal.hostReduceAdd h' g (Ideal.ofBits .f32 0x00000000#32) (ix2 R n) = _
  rw [Ideal.hostReduceAdd_single h' reduces3, Ideal.ofBits_zero_f32, zero_add]
  show ∑ k : Fin 8, g (reduces3.lift (ix2 R n) k) = _
  exact Finset.sum_congr rfl fun k _ => by rw [slift_lane]

/-- The host's quotient and reciprocal root at an index are the extended reals'; a broadcast scalar constant reads its word. -/
theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl
theorem bcScalar_apply (T : Shape) (h : Cert.ReferenceIdeal.S_.BroadcastsInDim T ![]) (w : BitVec 32) (i : T.Idx) :
    broadcastInDim T ![] h (constant (F := Ideal) Cert.ReferenceIdeal.S_ .f32 w) i = Ideal.ofBits .f32 w := rfl

theorem groupMean_apply (g : FVec Ideal S128x7000x8 .f32) (R : Fin 128) (n : Fin 7000) (z : Fin 1) :
    Cert.Spec.groupMean g (ix3 R n z) = mean8 fun v => g (ix3 R n v) := by
  unfold Cert.Spec.groupMean mean8
  rw [hostDivf_apply, bcScalar_apply, sbcPair_apply, ssum_apply]

theorem groupNorm_apply (g : FVec Ideal S128x7000x8 .f32) (R : Fin 128) (n : Fin 7000) (u : Fin 8) :
    Cert.Spec.groupNorm g (ix3 R n u) = norm8 (fun v => g (ix3 R n v)) u := by
  unfold Cert.Spec.groupNorm norm8
  rw [mulf_apply, subf_apply, sbcLane_apply, sbcLane_apply, groupMean_apply, hostRsqrt_apply, addf_apply, hostDivf_apply,
    bcScalar_apply, bcScalar_apply, sbcPair_apply, ssum_apply]
  refine congrArg (fun S : EReal => (g (ix3 R n u) - mean8 fun v => g (ix3 R n v)) * Ideal.rsqrt (Ideal.div S w8 + wEps))
    (Finset.sum_congr rfl fun k _ => ?_)
  rw [mulf_apply, subf_apply, sbcLane_apply, groupMean_apply]

theorem elu56000_apply (X : FVec Ideal S128x56000 .f32) (i : S128x56000.Idx) : Cert.Spec.elu56000 X i = elu (X i) := by
  show Scalar.select (Ideal.cmp .ogt (X i) (Ideal.ofBits .f32 0x00000000#32)) (X i)
    (w1 * (Ideal.exp (Scalar.select (Ideal.cmp .ogt (X i) (Ideal.ofBits .f32 0x00000000#32)) (Ideal.ofBits .f32 0x00000000#32) (X i)) - 1)) = _
  rw [Ideal.ofBits_zero_f32]
  exact elu_spec _

/-- THE SPECIFICATION AT AN INDEX: hidden unit 8n + u of row R is `cell` of the group's biased entries, the gate's
    entry and the lane. -/
theorem hidden_apply (hlin : FVec Ideal S128x56000 .f32) (b : FVec Ideal S56000 .f32) (s : FVec Ideal S128x56000 .f32)
    (R : Fin 128) (n : Fin 7000) (u : Fin 8) :
    Cert.Spec.hidden hlin b s (ix2 R (⟨8 * n.val + u.val, by omega⟩ : Fin 56000))
      = cell (fun v => hlin (ix2 R (⟨8 * n.val + v.val, by omega⟩ : Fin 56000)) + b (ix1 (⟨8 * n.val + v.val, by omega⟩ : Fin 56000)))
          (s (ix2 R (⟨8 * n.val + u.val, by omega⟩ : Fin 56000))) u := by
  unfold Cert.Spec.hidden cell
  rw [elu56000_apply, mulf_apply, cast2_apply, groupNorm_apply]
  refine congrArg (fun γ : Fin 8 → EReal => elu (s _ * norm8 γ u)) (funext fun v => ?_)
  rw [cast3_apply, addf_apply, sbias_apply]

/-! ## The whole array as one function of the index -/

/-- What the output array ends holding, from the three arrays the region reads: at (R, n, u), `cell` of group (R, n) of
    the first plus row n of the second, the third's entry, lane u. -/
def G3 (a0 : FVec Ideal S128x7000x8 .f32) (a1 : FVec Ideal S7000x8 .f32) (a2 : FVec Ideal S128x7000x8 .f32) : FVec Ideal S128x7000x8 .f32 :=
  fun i => cell (fun v => a0 (ix3 (i 0) (i 1) v) + a1 (ix2 (i 1) v)) (a2 i) (i 2)

theorem G3_apply (a0 : FVec Ideal S128x7000x8 .f32) (a1 : FVec Ideal S7000x8 .f32) (a2 : FVec Ideal S128x7000x8 .f32)
    (R : Fin 128) (n : Fin 7000) (u : Fin 8) :
    G3 a0 a1 a2 (ix3 R n u) = cell (fun v => a0 (ix3 R n v) + a1 (ix2 n v)) (a2 (ix3 R n u)) u := rfl

/-- Reshaped to [128,56000], of the reshaped arguments, it is the specification. -/
theorem G3_spec (hlin : FVec Ideal S128x56000 .f32) (b : FVec Ideal S56000 .f32) (s : FVec Ideal S128x56000 .f32)
    (h3 : S128x56000.ShapeCasts S128x7000x8) (hb : S56000.ShapeCasts S7000x8) (h2 : S128x7000x8.ShapeCasts S128x56000) :
    shapeCast S128x56000 (G3 (shapeCast S128x7000x8 hlin h3) (shapeCast S7000x8 b hb) (shapeCast S128x7000x8 s h3)) h2
      = Cert.Spec.hidden hlin b s := by
  funext i
  obtain ⟨R, c, rfl⟩ : ∃ (R : Fin 128) (c : Fin 56000), i = ix2 R c := ⟨i 0, i 1, eq_ix2 i⟩
  obtain ⟨n, u, rfl⟩ : ∃ (n : Fin 7000) (u : Fin 8), c = (⟨8 * n.val + u.val, by omega⟩ : Fin 56000) :=
    ⟨⟨c.val / 8, by omega⟩, ⟨c.val % 8, by omega⟩, Fin.ext (by show c.val = 8 * (c.val / 8) + c.val % 8; omega)⟩
  rw [cast2_apply, hidden_apply, G3_apply]
  simp only [cast3_apply, castBias_apply]

/-! ## One grid point -/

/-- POINT T OF 16: when the three loaded blocks are rows 8T … 8T + 7 of the three arrays (the second array whole), the
    payload at (r, n, u) is the whole-array function at (8T + r, n, u). -/
theorem point_eq (A0 : FVec Ideal S128x7000x8 .f32) (A1 : FVec Ideal S7000x8 .f32) (A2 : FVec Ideal S128x7000x8 .f32)
    (x0 : FVec Ideal S8x7000x8 .f32) (x1 : FVec Ideal S7000x8 .f32) (x2 : FVec Ideal S8x7000x8 .f32) (T : ℕ) (hT : T < 16)
    (h0 : ∀ (r : Fin 8) (n : Fin 7000) (u : Fin 8), x0 (ix3 r n u) = A0 (ix3 (⟨T * 8 + r.val, by omega⟩ : Fin 128) n u))
    (h1 : ∀ (n : Fin 7000) (u : Fin 8), x1 (ix2 n u) = A1 (ix2 n u))
    (h2 : ∀ (r : Fin 8) (n : Fin 7000) (u : Fin 8), x2 (ix3 r n u) = A2 (ix3 (⟨T * 8 + r.val, by omega⟩ : Fin 128) n u))
    (r : Fin 8) (n : Fin 7000) (u : Fin 8) :
    pay x0 x1 x2 (ix3 r n u) = G3 A0 A1 A2 (ix3 (⟨T * 8 + r.val, by omega⟩ : Fin 128) n u) := by
  rw [pay_apply, G3_apply, h2]
  simp only [h0, h1]

end Cert.HiddenMath

end
-- ==== Proof.Hidden1.lean ====
/-
  The value of the hidden update's kernel region. Every grid point writes back rows 8t … 8t + 7 of ONE whole-array function of
  the three arrays the region reads (the payload at a block index is the scalar closed form at the array index under
  it); the sixteen blocks tile the output array, so the array ends holding that function; reshaped to [128, 56000], of the
  reshaped arguments, it is the specification's hidden update.
-/
import proofs.«157921_j32839319945335_1_alg».proof.Proof.Gen.KernelIdeal.Frame
import proofs.«157921_j32839319945335_1_alg».proof.Proof.Spec
import proofs.«157921_j32839319945335_1_alg».proof.Proof.HiddenMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hidden1

open Cert.KernelIdeal Cert.KernelIdeal.Gen Idealize.ShloMosaic Idealize.ShloMosaic.TcCoe Idealize.ShloMosaic.ValueIdx
open Idealize.ShloMosaic.Pipeline (Dat)
open Cert.HiddenMath (G3 pay)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's payload is the hidden update's. -/
theorem pay_eq (x0 : Vec Ideal S8x7000x8 .f32) (x1 : Vec Ideal S7000x8 .f32) (x2 : Vec Ideal S8x7000x8 .f32) :
    k1_pay1 x0 x1 x2 = pay x0 x1 x2 := rfl

/-- The printed index maps, decided over the 16 points: the three blocked windows are at block t on axis 0 and block 0 on the
    others; the bias window is whole. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- WHAT POINT t WRITES BACK is block t of the whole-array function of the arrays as the region finds them. -/
theorem flushed_eq (c : Dev nD) (t : Fin cfg1.N) :
    (dat1 V c).flushed 3 t = ((cfg1.win 3).blk t).view.read (Elt Ideal) (G3 (V c main_v51) (V c main_v54) (V c main_v30)) := by
  show (cfg1.win 3).cut (grid1.coords t) ((dat1 V c).after 3 t) = _
  rw [after1_3]
  unfold out1_3
  rw [View.canon_unit_zero zeros3]
  simp only [View.ld_unit_zero (S := S8x7000x8) zeros3, View.ld_unit_zero (S := S7000x8) zeros2]
  rw [pay_eq]
  obtain ⟨ea0, ea1, ea2, eb0, eb1, ec0, ec1, ec2, ed0, ed1, ed2⟩ := idx_facts t
  have hT : t.val < 16 := lt_of_lt_of_eq t.isLt N_1
  funext j
  obtain ⟨r, n, u, rfl⟩ : ∃ (r : Fin 8) (n : Fin 7000) (u : Fin 8), j = ix3 r n u := ⟨j 0, j 1, j 2, eq_ix3 j⟩
  have hemb : ((cfg1.win 3).blk t).view.emb (ix3 r n u) = ix3 (⟨t.val * 8 + r.val, by omega⟩ : Fin 128) n u := by
    funext a; apply Fin.ext
    match a with
    | ⟨0, _⟩ => show win1_3.index t (0 : Fin 3) * 8 + 1 * r.val = t.val * 8 + r.val; omega
    | ⟨1, _⟩ => show win1_3.index t (1 : Fin 3) * 7000 + 1 * n.val = n.val; omega
    | ⟨2, _⟩ => show win1_3.index t (2 : Fin 3) * 8 + 1 * u.val = u.val; omega
  show pay (iblk1 V c 0 t) (iblk1 V c 1 t) (iblk1 V c 2 t) (ix3 r n u)
    = G3 (V c main_v51) (V c main_v54) (V c main_v30) (((cfg1.win 3).blk t).view.emb (ix3 r n u))
  rw [hemb]
  refine Cert.HiddenMath.point_eq _ _ _ _ _ _ t.val hT (fun r n u => ?_) (fun n u => ?_) (fun r n u => ?_) r n u
  · show V c main_v51 (((cfg1.win 0).blk t).view.emb (ix3 r n u)) = _
    congr 1; funext a; apply Fin.ext
    match a with
    | ⟨0, _⟩ => show win1_0.index t (0 : Fin 3) * 8 + 1 * r.val = t.val * 8 + r.val; omega
    | ⟨1, _⟩ => show win1_0.index t (1 : Fin 3) * 7000 + 1 * n.val = n.val; omega
    | ⟨2, _⟩ => show win1_0.index t (2 : Fin 3) * 8 + 1 * u.val = u.val; omega
  · show V c main_v54 (((cfg1.win 1).blk t).view.emb (ix2 n u)) = _
    congr 1; funext a; apply Fin.ext
    match a with
    | ⟨0, _⟩ => show win1_1.index t (0 : Fin 2) * 7000 + 1 * n.val = n.val; omega
    | ⟨1, _⟩ => show win1_1.index t (1 : Fin 2) * 8 + 1 * u.val = u.val; omega
  · show V c main_v30 (((cfg1.win 2).blk t).view.emb (ix3 r n u)) = _
    congr 1; funext a; apply Fin.ext
    match a with
    | ⟨0, _⟩ => show win1_2.index t (0 : Fin 3) * 8 + 1 * r.val = t.val * 8 + r.val; omega
    | ⟨1, _⟩ => show win1_2.index t (1 : Fin 3) * 7000 + 1 * n.val = n.val; omega
    | ⟨2, _⟩ => show win1_2.index t (2 : Fin 3) * 8 + 1 * u.val = u.val; omega

/-- An index of the array is in point t's block iff each coordinate is in the block's range on its axis. -/
theorem mem_blk (t : Fin cfg1.N) (i : S128x7000x8.Idx) :
    i ∈ ((cfg1.win 3).blk t).view.set ↔ ∀ a : Fin 3, win1_3.index t a * S8x7000x8.size a ≤ (i a).val ∧ (i a).val < win1_3.index t a * S8x7000x8.size a + S8x7000x8.size a := by
  show i ∈ ((View.whole main_v55).slice (win1_3.rect t)).set ↔ _
  rw [View.set_slice_whole, Rect.mem_set_unit]
  exact Iff.rfl

/-- THE COVER: row R of the array is in the block of point R / 8. -/
theorem covered (i : S128x7000x8.Idx) : ∃ t : Fin cfg1.N, (cfg1.win 3).flush t = true ∧ i ∈ ((cfg1.win 3).blk t).view.set := by
  have hi0 : (i 0).val < 128 := (i 0).isLt
  have hi1 : (i 1).val < 7000 := (i 1).isLt
  have hi2 : (i 2).val < 8 := (i 2).isLt
  have hN : (i 0).val / 8 < cfg1.N := lt_of_lt_of_eq (by omega) N_1.symm
  obtain ⟨-, -, -, -, -, -, -, -, ed0, ed1, ed2⟩ := idx_facts ⟨(i 0).val / 8, hN⟩
  refine ⟨⟨(i 0).val / 8, hN⟩, flush1_3 _, ?_⟩
  rw [mem_blk]
  intro a
  match a with
  | ⟨0, _⟩ =>
    show win1_3.index ⟨(i 0).val / 8, hN⟩ (0 : Fin 3) * 8 ≤ (i 0).val ∧ (i 0).val < win1_3.index ⟨(i 0).val / 8, hN⟩ (0 : Fin 3) * 8 + 8
    rw [ed0]; show (i 0).val / 8 * 8 ≤ (i 0).val ∧ (i 0).val < (i 0).val / 8 * 8 + 8; omega
  | ⟨1, _⟩ =>
    show win1_3.index ⟨(i 0).val / 8, hN⟩ (1 : Fin 3) * 7000 ≤ (i 1).val ∧ (i 1).val < win1_3.index ⟨(i 0).val / 8, hN⟩ (1 : Fin 3) * 7000 + 7000
    rw [ed1]; omega
  | ⟨2, _⟩ =>
    show win1_3.index ⟨(i 0).val / 8, hN⟩ (2 : Fin 3) * 8 ≤ (i 2).val ∧ (i 2).val < win1_3.index ⟨(i 0).val / 8, hN⟩ (2 : Fin 3) * 8 + 8
    rw [ed2]; omega

/-- THE ARRAY after the run is the whole-array function of the arrays as the region finds them. -/
theorem final (c : Dev nD) : (dat1 V c).arrAt 3 cfg1.N = G3 (V c main_v51) (V c main_v54) (V c main_v30) :=
  (dat1 V c).arrAt_eq_of_cover 3 _ (fun t _ => flushed_eq V c t) (fun i => covered i)

/-- THE VALUE: the output array, reshaped to [128, 56000], is the specification's hidden update of the arguments the three
    arrays are reshapes of. -/
theorem value (c : Dev nD) (hlin s : FVec Ideal S128x56000 .f32) (b : FVec Ideal S56000 .f32)
    (h0 : V c main_v51 = shapeCast S128x7000x8 hlin shapeCasts_S128x56000_S128x7000x8)
    (h1 : V c main_v54 = shapeCast S7000x8 b shapeCasts_S56000_S7000x8)
    (h2 : V c main_v30 = shapeCast S128x7000x8 s shapeCasts_S128x56000_S128x7000x8) :
    shapeCast S128x56000 ((dat1 (F := Ideal) V c).arrAt 3 cfg1.N) shapeCasts_S128x7000x8_S128x56000 = Cert.Spec.hidden hlin b s := by
  rw [final V c, h0, h1, h2]
  exact Cert.HiddenMath.G3_spec hlin b s _ _ _

end Cert.KernelIdeal.Hidden1

end
-- ==== Proof.Hidden3.lean ====
/-
  The value of the hidden update's kernel region. Every grid point writes back rows 8t … 8t + 7 of ONE whole-array function of
  the three arrays the region reads (the payload at a block index is the scalar closed form at the array index under
  it); the sixteen blocks tile the output array, so the array ends holding that function; reshaped to [128, 56000], of the
  reshaped arguments, it is the specification's hidden update.
-/
import proofs.«157921_j32839319945335_1_alg».proof.Proof.Gen.KernelIdeal.Frame
import proofs.«157921_j32839319945335_1_alg».proof.Proof.Spec
import proofs.«157921_j32839319945335_1_alg».proof.Proof.HiddenMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hidden3

open Cert.KernelIdeal Cert.KernelIdeal.Gen Idealize.ShloMosaic Idealize.ShloMosaic.TcCoe Idealize.ShloMosaic.ValueIdx
open Idealize.ShloMosaic.Pipeline (Dat)
open Cert.HiddenMath (G3 pay)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's payload is the hidden update's. -/
theorem pay_eq (x0 : Vec Ideal S8x7000x8 .f32) (x1 : Vec Ideal S7000x8 .f32) (x2 : Vec Ideal S8x7000x8 .f32) :
    k3_pay1 x0 x1 x2 = pay x0 x1 x2 := rfl

/-- The printed index maps, decided over the 16 points: the three blocked windows are at block t on axis 0 and block 0 on the
    others; the bias window is whole. -/
theorem idx_facts : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0 :=
  (by decide +kernel : ∀ t : Fin grid3.N, _)

/-- WHAT POINT t WRITES BACK is block t of the whole-array function of the arrays as the region finds them. -/
theorem flushed_eq (c : Dev nD) (t : Fin cfg3.N) :
    (dat3 V c).flushed 3 t = ((cfg3.win 3).blk t).view.read (Elt Ideal) (G3 (V c main_v100) (V c main_v103) (V c main_v30)) := by
  show (cfg3.win 3).cut (grid3.coords t) ((dat3 V c).after 3 t) = _
  rw [after3_3]
  unfold out3_3
  rw [View.canon_unit_zero zeros3]
  simp only [View.ld_unit_zero (S := S8x7000x8) zeros3, View.ld_unit_zero (S := S7000x8) zeros2]
  rw [pay_eq]
  obtain ⟨ea0, ea1, ea2, eb0, eb1, ec0, ec1, ec2, ed0, ed1, ed2⟩ := idx_facts t
  have hT : t.val < 16 := lt_of_lt_of_eq t.isLt N_3
  funext j
  obtain ⟨r, n, u, rfl⟩ : ∃ (r : Fin 8) (n : Fin 7000) (u : Fin 8), j = ix3 r n u := ⟨j 0, j 1, j 2, eq_ix3 j⟩
  have hemb : ((cfg3.win 3).blk t).view.emb (ix3 r n u) = ix3 (⟨t.val * 8 + r.val, by omega⟩ : Fin 128) n u := by
    funext a; apply Fin.ext
    match a with
    | ⟨0, _⟩ => show win3_3.index t (0 : Fin 3) * 8 + 1 * r.val = t.val * 8 + r.val; omega
    | ⟨1, _⟩ => show win3_3.index t (1 : Fin 3) * 7000 + 1 * n.val = n.val; omega
    | ⟨2, _⟩ => show win3_3.index t (2 : Fin 3) * 8 + 1 * u.val = u.val; omega
  show pay (iblk3 V c 0 t) (iblk3 V c 1 t) (iblk3 V c 2 t) (ix3 r n u)
    = G3 (V c main_v100) (V c main_v103) (V c main_v30) (((cfg3.win 3).blk t).view.emb (ix3 r n u))
  rw [hemb]
  refine Cert.HiddenMath.point_eq _ _ _ _ _ _ t.val hT (fun r n u => ?_) (fun n u => ?_) (fun r n u => ?_) r n u
  · show V c main_v100 (((cfg3.win 0).blk t).view.emb (ix3 r n u)) = _
    congr 1; funext a; apply Fin.ext
    match a with
    | ⟨0, _⟩ => show win3_0.index t (0 : Fin 3) * 8 + 1 * r.val = t.val * 8 + r.val; omega
    | ⟨1, _⟩ => show win3_0.index t (1 : Fin 3) * 7000 + 1 * n.val = n.val; omega
    | ⟨2, _⟩ => show win3_0.index t (2 : Fin 3) * 8 + 1 * u.val = u.val; omega
  · show V c main_v103 (((cfg3.win 1).blk t).view.emb (ix2 n u)) = _
    congr 1; funext a; apply Fin.ext
    match a with
    | ⟨0, _⟩ => show win3_1.index t (0 : Fin 2) * 7000 + 1 * n.val = n.val; omega
    | ⟨1, _⟩ => show win3_1.index t (1 : Fin 2) * 8 + 1 * u.val = u.val; omega
  · show V c main_v30 (((cfg3.win 2).blk t).view.emb (ix3 r n u)) = _
    congr 1; funext a; apply Fin.ext
    match a with
    | ⟨0, _⟩ => show win3_2.index t (0 : Fin 3) * 8 + 1 * r.val = t.val * 8 + r.val; omega
    | ⟨1, _⟩ => show win3_2.index t (1 : Fin 3) * 7000 + 1 * n.val = n.val; omega
    | ⟨2, _⟩ => show win3_2.index t (2 : Fin 3) * 8 + 1 * u.val = u.val; omega

/-- An index of the array is in point t's block iff each coordinate is in the block's range on its axis. -/
theorem mem_blk (t : Fin cfg3.N) (i : S128x7000x8.Idx) :
    i ∈ ((cfg3.win 3).blk t).view.set ↔ ∀ a : Fin 3, win3_3.index t a * S8x7000x8.size a ≤ (i a).val ∧ (i a).val < win3_3.index t a * S8x7000x8.size a + S8x7000x8.size a := by
  show i ∈ ((View.whole main_v104).slice (win3_3.rect t)).set ↔ _
  rw [View.set_slice_whole, Rect.mem_set_unit]
  exact Iff.rfl

/-- THE COVER: row R of the array is in the block of point R / 8. -/
theorem covered (i : S128x7000x8.Idx) : ∃ t : Fin cfg3.N, (cfg3.win 3).flush t = true ∧ i ∈ ((cfg3.win 3).blk t).view.set := by
  have hi0 : (i 0).val < 128 := (i 0).isLt
  have hi1 : (i 1).val < 7000 := (i 1).isLt
  have hi2 : (i 2).val < 8 := (i 2).isLt
  have hN : (i 0).val / 8 < cfg3.N := lt_of_lt_of_eq (by omega) N_3.symm
  obtain ⟨-, -, -, -, -, -, -, -, ed0, ed1, ed2⟩ := idx_facts ⟨(i 0).val / 8, hN⟩
  refine ⟨⟨(i 0).val / 8, hN⟩, flush3_3 _, ?_⟩
  rw [mem_blk]
  intro a
  match a with
  | ⟨0, _⟩ =>
    show win3_3.index ⟨(i 0).val / 8, hN⟩ (0 : Fin 3) * 8 ≤ (i 0).val ∧ (i 0).val < win3_3.index ⟨(i 0).val / 8, hN⟩ (0 : Fin 3) * 8 + 8
    rw [ed0]; show (i 0).val / 8 * 8 ≤ (i 0).val ∧ (i 0).val < (i 0).val / 8 * 8 + 8; omega
  | ⟨1, _⟩ =>
    show win3_3.index ⟨(i 0).val / 8, hN⟩ (1 : Fin 3) * 7000 ≤ (i 1).val ∧ (i 1).val < win3_3.index ⟨(i 0).val / 8, hN⟩ (1 : Fin 3) * 7000 + 7000
    rw [ed1]; omega
  | ⟨2, _⟩ =>
    show win3_3.index ⟨(i 0).val / 8, hN⟩ (2 : Fin 3) * 8 ≤ (i 2).val ∧ (i 2).val < win3_3.index ⟨(i 0).val / 8, hN⟩ (2 : Fin 3) * 8 + 8
    rw [ed2]; omega

/-- THE ARRAY after the run is the whole-array function of the arrays as the region finds them. -/
theorem final (c : Dev nD) : (dat3 V c).arrAt 3 cfg3.N = G3 (V c main_v100) (V c main_v103) (V c main_v30) :=
  (dat3 V c).arrAt_eq_of_cover 3 _ (fun t _ => flushed_eq V c t) (fun i => covered i)

/-- THE VALUE: the output array, reshaped to [128, 56000], is the specification's hidden update of the arguments the three
    arrays are reshapes of. -/
theorem value (c : Dev nD) (hlin s : FVec Ideal S128x56000 .f32) (b : FVec Ideal S56000 .f32)
    (h0 : V c main_v100 = shapeCast S128x7000x8 hlin shapeCasts_S128x56000_S128x7000x8)
    (h1 : V c main_v103 = shapeCast S7000x8 b shapeCasts_S56000_S7000x8)
    (h2 : V c main_v30 = shapeCast S128x7000x8 s shapeCasts_S128x56000_S128x7000x8) :
    shapeCast S128x56000 ((dat3 (F := Ideal) V c).arrAt 3 cfg3.N) shapeCasts_S128x7000x8_S128x56000 = Cert.Spec.hidden hlin b s := by
  rw [final V c, h0, h1, h2]
  exact Cert.HiddenMath.G3_spec hlin b s _ _ _

end Cert.KernelIdeal.Hidden3

end
-- ==== Proof.Hidden5.lean ====
/-
  The value of the hidden update's kernel region. Every grid point writes back rows 8t … 8t + 7 of ONE whole-array function of
  the three arrays the region reads (the payload at a block index is the scalar closed form at the array index under
  it); the sixteen blocks tile the output array, so the array ends holding that function; reshaped to [128, 56000], of the
  reshaped arguments, it is the specification's hidden update.
-/
import proofs.«157921_j32839319945335_1_alg».proof.Proof.Gen.KernelIdeal.Frame
import proofs.«157921_j32839319945335_1_alg».proof.Proof.Spec
import proofs.«157921_j32839319945335_1_alg».proof.Proof.HiddenMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hidden5

open Cert.KernelIdeal Cert.KernelIdeal.Gen Idealize.ShloMosaic Idealize.ShloMosaic.TcCoe Idealize.ShloMosaic.ValueIdx
open Idealize.ShloMosaic.Pipeline (Dat)
open Cert.HiddenMath (G3 pay)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's payload is the hidden update's. -/
theorem pay_eq (x0 : Vec Ideal S8x7000x8 .f32) (x1 : Vec Ideal S7000x8 .f32) (x2 : Vec Ideal S8x7000x8 .f32) :
    k5_pay1 x0 x1 x2 = pay x0 x1 x2 := rfl

/-- The printed index maps, decided over the 16 points: the three blocked windows are at block t on axis 0 and block 0 on the
    others; the bias window is whole. -/
theorem idx_facts : ∀ t : Fin cfg5.N,
    win5_0.index t (0 : Fin 3) = t.val ∧ win5_0.index t (1 : Fin 3) = 0 ∧ win5_0.index t (2 : Fin 3) = 0
    ∧ win5_1.index t (0 : Fin 2) = 0 ∧ win5_1.index t (1 : Fin 2) = 0
    ∧ win5_2.index t (0 : Fin 3) = t.val ∧ win5_2.index t (1 : Fin 3) = 0 ∧ win5_2.index t (2 : Fin 3) = 0
    ∧ win5_3.index t (0 : Fin 3) = t.val ∧ win5_3.index t (1 : Fin 3) = 0 ∧ win5_3.index t (2 : Fin 3) = 0 :=
  (by decide +kernel : ∀ t : Fin grid5.N, _)

/-- WHAT POINT t WRITES BACK is block t of the whole-array function of the arrays as the region finds them. -/
theorem flushed_eq (c : Dev nD) (t : Fin cfg5.N) :
    (dat5 V c).flushed 3 t = ((cfg5.win 3).blk t).view.read (Elt Ideal) (G3 (V c main_v149) (V c main_v152) (V c main_v30)) := by
  show (cfg5.win 3).cut (grid5.coords t) ((dat5 V c).after 3 t) = _
  rw [after5_3]
  unfold out5_3
  rw [View.canon_unit_zero zeros3]
  simp only [View.ld_unit_zero (S := S8x7000x8) zeros3, View.ld_unit_zero (S := S7000x8) zeros2]
  rw [pay_eq]
  obtain ⟨ea0, ea1, ea2, eb0, eb1, ec0, ec1, ec2, ed0, ed1, ed2⟩ := idx_facts t
  have hT : t.val < 16 := lt_of_lt_of_eq t.isLt N_5
  funext j
  obtain ⟨r, n, u, rfl⟩ : ∃ (r : Fin 8) (n : Fin 7000) (u : Fin 8), j = ix3 r n u := ⟨j 0, j 1, j 2, eq_ix3 j⟩
  have hemb : ((cfg5.win 3).blk t).view.emb (ix3 r n u) = ix3 (⟨t.val * 8 + r.val, by omega⟩ : Fin 128) n u := by
    funext a; apply Fin.ext
    match a with
    | ⟨0, _⟩ => show win5_3.index t (0 : Fin 3) * 8 + 1 * r.val = t.val * 8 + r.val; omega
    | ⟨1, _⟩ => show win5_3.index t (1 : Fin 3) * 7000 + 1 * n.val = n.val; omega
    | ⟨2, _⟩ => show win5_3.index t (2 : Fin 3) * 8 + 1 * u.val = u.val; omega
  show pay (iblk5 V c 0 t) (iblk5 V c 1 t) (iblk5 V c 2 t) (ix3 r n u)
    = G3 (V c main_v149) (V c main_v152) (V c main_v30) (((cfg5.win 3).blk t).view.emb (ix3 r n u))
  rw [hemb]
  refine Cert.HiddenMath.point_eq _ _ _ _ _ _ t.val hT (fun r n u => ?_) (fun n u => ?_) (fun r n u => ?_) r n u
  · show V c main_v149 (((cfg5.win 0).blk t).view.emb (ix3 r n u)) = _
    congr 1; funext a; apply Fin.ext
    match a with
    | ⟨0, _⟩ => show win5_0.index t (0 : Fin 3) * 8 + 1 * r.val = t.val * 8 + r.val; omega
    | ⟨1, _⟩ => show win5_0.index t (1 : Fin 3) * 7000 + 1 * n.val = n.val; omega
    | ⟨2, _⟩ => show win5_0.index t (2 : Fin 3) * 8 + 1 * u.val = u.val; omega
  · show V c main_v152 (((cfg5.win 1).blk t).view.emb (ix2 n u)) = _
    congr 1; funext a; apply Fin.ext
    match a with
    | ⟨0, _⟩ => show win5_1.index t (0 : Fin 2) * 7000 + 1 * n.val = n.val; omega
    | ⟨1, _⟩ => show win5_1.index t (1 : Fin 2) * 8 + 1 * u.val = u.val; omega
  · show V c main_v30 (((cfg5.win 2).blk t).view.emb (ix3 r n u)) = _
    congr 1; funext a; apply Fin.ext
    match a with
    | ⟨0, _⟩ => show win5_2.index t (0 : Fin 3) * 8 + 1 * r.val = t.val * 8 + r.val; omega
    | ⟨1, _⟩ => show win5_2.index t (1 : Fin 3) * 7000 + 1 * n.val = n.val; omega
    | ⟨2, _⟩ => show win5_2.index t (2 : Fin 3) * 8 + 1 * u.val = u.val; omega

/-- An index of the array is in point t's block iff each coordinate is in the block's range on its axis. -/
theorem mem_blk (t : Fin cfg5.N) (i : S128x7000x8.Idx) :
    i ∈ ((cfg5.win 3).blk t).view.set ↔ ∀ a : Fin 3, win5_3.index t a * S8x7000x8.size a ≤ (i a).val ∧ (i a).val < win5_3.index t a * S8x7000x8.size a + S8x7000x8.size a := by
  show i ∈ ((View.whole main_v153).slice (win5_3.rect t)).set ↔ _
  rw [View.set_slice_whole, Rect.mem_set_unit]
  exact Iff.rfl

/-- THE COVER: row R of the array is in the block of point R / 8. -/
theorem covered (i : S128x7000x8.Idx) : ∃ t : Fin cfg5.N, (cfg5.win 3).flush t = true ∧ i ∈ ((cfg5.win 3).blk t).view.set := by
  have hi0 : (i 0).val < 128 := (i 0).isLt
  have hi1 : (i 1).val < 7000 := (i 1).isLt
  have hi2 : (i 2).val < 8 := (i 2).isLt
  have hN : (i 0).val / 8 < cfg5.N := lt_of_lt_of_eq (by omega) N_5.symm
  obtain ⟨-, -, -, -, -, -, -, -, ed0, ed1, ed2⟩ := idx_facts ⟨(i 0).val / 8, hN⟩
  refine ⟨⟨(i 0).val / 8, hN⟩, flush5_3 _, ?_⟩
  rw [mem_blk]
  intro a
  match a with
  | ⟨0, _⟩ =>
    show win5_3.index ⟨(i 0).val / 8, hN⟩ (0 : Fin 3) * 8 ≤ (i 0).val ∧ (i 0).val < win5_3.index ⟨(i 0).val / 8, hN⟩ (0 : Fin 3) * 8 + 8
    rw [ed0]; show (i 0).val / 8 * 8 ≤ (i 0).val ∧ (i 0).val < (i 0).val / 8 * 8 + 8; omega
  | ⟨1, _⟩ =>
    show win5_3.index ⟨(i 0).val / 8, hN⟩ (1 : Fin 3) * 7000 ≤ (i 1).val ∧ (i 1).val < win5_3.index ⟨(i 0).val / 8, hN⟩ (1 : Fin 3) * 7000 + 7000
    rw [ed1]; omega
  | ⟨2, _⟩ =>
    show win5_3.index ⟨(i 0).val / 8, hN⟩ (2 : Fin 3) * 8 ≤ (i 2).val ∧ (i 2).val < win5_3.index ⟨(i 0).val / 8, hN⟩ (2 : Fin 3) * 8 + 8
    rw [ed2]; omega

/-- THE ARRAY after the run is the whole-array function of the arrays as the region finds them. -/
theorem final (c : Dev nD) : (dat5 V c).arrAt 3 cfg5.N = G3 (V c main_v149) (V c main_v152) (V c main_v30) :=
  (dat5 V c).arrAt_eq_of_cover 3 _ (fun t _ => flushed_eq V c t) (fun i => covered i)

/-- THE VALUE: the output array, reshaped to [128, 56000], is the specification's hidden update of the arguments the three
    arrays are reshapes of. -/
theorem value (c : Dev nD) (hlin s : FVec Ideal S128x56000 .f32) (b : FVec Ideal S56000 .f32)
    (h0 : V c main_v149 = shapeCast S128x7000x8 hlin shapeCasts_S128x56000_S128x7000x8)
    (h1 : V c main_v152 = shapeCast S7000x8 b shapeCasts_S56000_S7000x8)
    (h2 : V c main_v30 = shapeCast S128x7000x8 s shapeCasts_S128x56000_S128x7000x8) :
    shapeCast S128x56000 ((dat5 (F := Ideal) V c).arrAt 3 cfg5.N) shapeCasts_S128x7000x8_S128x56000 = Cert.Spec.hidden hlin b s := by
  rw [final V c, h0, h1, h2]
  exact Cert.HiddenMath.G3_spec hlin b s _ _ _

end Cert.KernelIdeal.Hidden5

end
-- ==== Proof.Hidden7.lean ====
/-
  The value of the hidden update's kernel region. Every grid point writes back rows 8t … 8t + 7 of ONE whole-array function of
  the three arrays the region reads (the payload at a block index is the scalar closed form at the array index under
  it); the sixteen blocks tile the output array, so the array ends holding that function; reshaped to [128, 56000], of the
  reshaped arguments, it is the specification's hidden update.
-/
import proofs.«157921_j32839319945335_1_alg».proof.Proof.Gen.KernelIdeal.Frame
import proofs.«157921_j32839319945335_1_alg».proof.Proof.Spec
import proofs.«157921_j32839319945335_1_alg».proof.Proof.HiddenMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hidden7

open Cert.KernelIdeal Cert.KernelIdeal.Gen Idealize.ShloMosaic Idealize.ShloMosaic.TcCoe Idealize.ShloMosaic.ValueIdx
open Idealize.ShloMosaic.Pipeline (Dat)
open Cert.HiddenMath (G3 pay)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's payload is the hidden update's. -/
theorem pay_eq (x0 : Vec Ideal S8x7000x8 .f32) (x1 : Vec Ideal S7000x8 .f32) (x2 : Vec Ideal S8x7000x8 .f32) :
    k7_pay1 x0 x1 x2 = pay x0 x1 x2 := rfl

/-- The printed index maps, decided over the 16 points: the three blocked windows are at block t on axis 0 and block 0 on the
    others; the bias window is whole. -/
theorem idx_facts : ∀ t : Fin cfg7.N,
    win7_0.index t (0 : Fin 3) = t.val ∧ win7_0.index t (1 : Fin 3) = 0 ∧ win7_0.index t (2 : Fin 3) = 0
    ∧ win7_1.index t (0 : Fin 2) = 0 ∧ win7_1.index t (1 : Fin 2) = 0
    ∧ win7_2.index t (0 : Fin 3) = t.val ∧ win7_2.index t (1 : Fin 3) = 0 ∧ win7_2.index t (2 : Fin 3) = 0
    ∧ win7_3.index t (0 : Fin 3) = t.val ∧ win7_3.index t (1 : Fin 3) = 0 ∧ win7_3.index t (2 : Fin 3) = 0 :=
  (by decide +kernel : ∀ t : Fin grid7.N, _)

/-- WHAT POINT t WRITES BACK is block t of the whole-array function of the arrays as the region finds them. -/
theorem flushed_eq (c : Dev nD) (t : Fin cfg7.N) :
    (dat7 V c).flushed 3 t = ((cfg7.win 3).blk t).view.read (Elt Ideal) (G3 (V c main_v198) (V c main_v201) (V c main_v30)) := by
  show (cfg7.win 3).cut (grid7.coords t) ((dat7 V c).after 3 t) = _
  rw [after7_3]
  unfold out7_3
  rw [View.canon_unit_zero zeros3]
  simp only [View.ld_unit_zero (S := S8x7000x8) zeros3, View.ld_unit_zero (S := S7000x8) zeros2]
  rw [pay_eq]
  obtain ⟨ea0, ea1, ea2, eb0, eb1, ec0, ec1, ec2, ed0, ed1, ed2⟩ := idx_facts t
  have hT : t.val < 16 := lt_of_lt_of_eq t.isLt N_7
  funext j
  obtain ⟨r, n, u, rfl⟩ : ∃ (r : Fin 8) (n : Fin 7000) (u : Fin 8), j = ix3 r n u := ⟨j 0, j 1, j 2, eq_ix3 j⟩
  have hemb : ((cfg7.win 3).blk t).view.emb (ix3 r n u) = ix3 (⟨t.val * 8 + r.val, by omega⟩ : Fin 128) n u := by
    funext a; apply Fin.ext
    match a with
    | ⟨0, _⟩ => show win7_3.index t (0 : Fin 3) * 8 + 1 * r.val = t.val * 8 + r.val; omega
    | ⟨1, _⟩ => show win7_3.index t (1 : Fin 3) * 7000 + 1 * n.val = n.val; omega
    | ⟨2, _⟩ => show win7_3.index t (2 : Fin 3) * 8 + 1 * u.val = u.val; omega
  show pay (iblk7 V c 0 t) (iblk7 V c 1 t) (iblk7 V c 2 t) (ix3 r n u)
    = G3 (V c main_v198) (V c main_v201) (V c main_v30) (((cfg7.win 3).blk t).view.emb (ix3 r n u))
  rw [hemb]
  refine Cert.HiddenMath.point_eq _ _ _ _ _ _ t.val hT (fun r n u => ?_) (fun n u => ?_) (fun r n u => ?_) r n u
  · show V c main_v198 (((cfg7.win 0).blk t).view.emb (ix3 r n u)) = _
    congr 1; funext a; apply Fin.ext
    match a with
    | ⟨0, _⟩ => show win7_0.index t (0 : Fin 3) * 8 + 1 * r.val = t.val * 8 + r.val; omega
    | ⟨1, _⟩ => show win7_0.index t (1 : Fin 3) * 7000 + 1 * n.val = n.val; omega
    | ⟨2, _⟩ => show win7_0.index t (2 : Fin 3) * 8 + 1 * u.val = u.val; omega
  · show V c main_v201 (((cfg7.win 1).blk t).view.emb (ix2 n u)) = _
    congr 1; funext a; apply Fin.ext
    match a with
    | ⟨0, _⟩ => show win7_1.index t (0 : Fin 2) * 7000 + 1 * n.val = n.val; omega
    | ⟨1, _⟩ => show win7_1.index t (1 : Fin 2) * 8 + 1 * u.val = u.val; omega
  · show V c main_v30 (((cfg7.win 2).blk t).view.emb (ix3 r n u)) = _
    congr 1; funext a; apply Fin.ext
    match a with
    | ⟨0, _⟩ => show win7_2.index t (0 : Fin 3) * 8 + 1 * r.val = t.val * 8 + r.val; omega
    | ⟨1, _⟩ => show win7_2.index t (1 : Fin 3) * 7000 + 1 * n.val = n.val; omega
    | ⟨2, _⟩ => show win7_2.index t (2 : Fin 3) * 8 + 1 * u.val = u.val; omega

/-- An index of the array is in point t's block iff each coordinate is in the block's range on its axis. -/
theorem mem_blk (t : Fin cfg7.N) (i : S128x7000x8.Idx) :
    i ∈ ((cfg7.win 3).blk t).view.set ↔ ∀ a : Fin 3, win7_3.index t a * S8x7000x8.size a ≤ (i a).val ∧ (i a).val < win7_3.index t a * S8x7000x8.size a + S8x7000x8.size a := by
  show i ∈ ((View.whole main_v202).slice (win7_3.rect t)).set ↔ _
  rw [View.set_slice_whole, Rect.mem_set_unit]
  exact Iff.rfl

/-- THE COVER: row R of the array is in the block of point R / 8. -/
theorem covered (i : S128x7000x8.Idx) : ∃ t : Fin cfg7.N, (cfg7.win 3).flush t = true ∧ i ∈ ((cfg7.win 3).blk t).view.set := by
  have hi0 : (i 0).val < 128 := (i 0).isLt
  have hi1 : (i 1).val < 7000 := (i 1).isLt
  have hi2 : (i 2).val < 8 := (i 2).isLt
  have hN : (i 0).val / 8 < cfg7.N := lt_of_lt_of_eq (by omega) N_7.symm
  obtain ⟨-, -, -, -, -, -, -, -, ed0, ed1, ed2⟩ := idx_facts ⟨(i 0).val / 8, hN⟩
  refine ⟨⟨(i 0).val / 8, hN⟩, flush7_3 _, ?_⟩
  rw [mem_blk]
  intro a
  match a with
  | ⟨0, _⟩ =>
    show win7_3.index ⟨(i 0).val / 8, hN⟩ (0 : Fin 3) * 8 ≤ (i 0).val ∧ (i 0).val < win7_3.index ⟨(i 0).val / 8, hN⟩ (0 : Fin 3) * 8 + 8
    rw [ed0]; show (i 0).val / 8 * 8 ≤ (i 0).val ∧ (i 0).val < (i 0).val / 8 * 8 + 8; omega
  | ⟨1, _⟩ =>
    show win7_3.index ⟨(i 0).val / 8, hN⟩ (1 : Fin 3) * 7000 ≤ (i 1).val ∧ (i 1).val < win7_3.index ⟨(i 0).val / 8, hN⟩ (1 : Fin 3) * 7000 + 7000
    rw [ed1]; omega
  | ⟨2, _⟩ =>
    show win7_3.index ⟨(i 0).val / 8, hN⟩ (2 : Fin 3) * 8 ≤ (i 2).val ∧ (i 2).val < win7_3.index ⟨(i 0).val / 8, hN⟩ (2 : Fin 3) * 8 + 8
    rw [ed2]; omega

/-- THE ARRAY after the run is the whole-array function of the arrays as the region finds them. -/
theorem final (c : Dev nD) : (dat7 V c).arrAt 3 cfg7.N = G3 (V c main_v198) (V c main_v201) (V c main_v30) :=
  (dat7 V c).arrAt_eq_of_cover 3 _ (fun t _ => flushed_eq V c t) (fun i => covered i)

/-- THE VALUE: the output array, reshaped to [128, 56000], is the specification's hidden update of the arguments the three
    arrays are reshapes of. -/
theorem value (c : Dev nD) (hlin s : FVec Ideal S128x56000 .f32) (b : FVec Ideal S56000 .f32)
    (h0 : V c main_v198 = shapeCast S128x7000x8 hlin shapeCasts_S128x56000_S128x7000x8)
    (h1 : V c main_v201 = shapeCast S7000x8 b shapeCasts_S56000_S7000x8)
    (h2 : V c main_v30 = shapeCast S128x7000x8 s shapeCasts_S128x56000_S128x7000x8) :
    shapeCast S128x56000 ((dat7 (F := Ideal) V c).arrAt 3 cfg7.N) shapeCasts_S128x7000x8_S128x56000 = Cert.Spec.hidden hlin b s := by
  rw [final V c, h0, h1, h2]
  exact Cert.HiddenMath.G3_spec hlin b s _ _ _

end Cert.KernelIdeal.Hidden7

end
-- ==== Proof.Edge2.lean ====
/-
  The value of the edge update's kernel region. The kernel runs over 16 grid points; point t holds rows 8t … 8t+7 of
  the two [128, 57000] operands and the whole [57000] bias, and stores (x + bias-as-a-row) + previous on its 8 rows.
  Read index by index that is the specification's edge update at row 8t + r, so each point writes back one block of
  the ONE whole-array function Cert.Spec.edge of the arrays as the region finds them; the 16 blocks of 8 rows tile the
  128 rows (row R lies in the block of point R / 8), so the output array ends holding that function everywhere.
-/
import proofs.«157921_j32839319945335_1_alg».proof.Proof.Gen.KernelIdeal.Frame
import proofs.«157921_j32839319945335_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Edge2

open Cert.KernelIdeal Cert.KernelIdeal.Gen Idealize.ShloMosaic Idealize.ShloMosaic.TcCoe
open Idealize.ShloMosaic.Pipeline (Dat)
open Idealize.ShloMosaic.ValueIdx

/-! ## The two functions, read at an index -/

/-- The zero offsets of a rank-2 and of a rank-1 whole-block access, as constant functions. -/
theorem zeros₂ : (![0, 0] : Fin 2 → Nat) = fun _ => 0 := funext fun a => by fin_cases a <;> rfl
theorem zeros₁ : (![0] : Fin 1 → Nat) = fun _ => 0 := funext fun a => by fin_cases a; rfl

/-- The kernel's bias operand: the vector given a leading unit axis and broadcast over the block's 8 rows reads,
    at (r, q), the vector at q. -/
theorem bias_block (b : FVec Ideal S57000 .f32) (r : Fin 8) (q : Fin 57000) :
    broadcastTo S8x57000 (shapeCast S1x57000 b shapeCasts_S57000_S1x57000) broadcasts_S1x57000_S8x57000 (ix2 r q) = b (ix1 q) := by
  rw [broadcastTo_apply _ _ (ix2 r q) (ix2 (0 : Fin 1) q) (fun a => by match a with | ⟨0, _⟩ => rfl | ⟨1, _⟩ => rfl)]
  rw [shapeCast_addUnit_apply ![57000]]
  exact congrArg b (funext fun a => by match a with | ⟨0, _⟩ => rfl)

/-- The block's payload at (r, q): (x + bias) + previous, the bias read at the column (the casts of a block to its
    own shape are the identity). -/
theorem pay_apply (y0 y2 : FVec Ideal S8x57000 .f32) (y1 : FVec Ideal S57000 .f32) (r : Fin 8) (q : Fin 57000) :
    k2_pay1 y0 y1 y2 (ix2 r q) = (y0 (ix2 r q) + y1 (ix1 q)) + y2 (ix2 r q) := by
  show addf (addf (shapeCast S8x57000 y0 shapeCasts_S8x57000_S8x57000)
      (broadcastTo S8x57000 (shapeCast S1x57000 (shapeCast S57000 y1 shapeCasts_S57000_S57000) shapeCasts_S57000_S1x57000)
        broadcasts_S1x57000_S8x57000)) (shapeCast S8x57000 y2 shapeCasts_S8x57000_S8x57000) (ix2 r q) = _
  rw [addf_apply, addf_apply, shapeCast_self y0, shapeCast_self y1, shapeCast_self y2, bias_block]

/-- The column of an index of the [128, 57000] arrays, as an index of the bias. -/
abbrev col (e : S128x57000.Idx) : S57000.Idx := ix1 (⟨(e 1).val, idx2_lt1 e⟩ : Fin 57000)

/-- The specification at an index e = (R, q): (x + bias) + previous, the bias read at the column: the bias broadcast
    to a [1, 57000] row and then over the 128 rows reads the vector at the column. -/
theorem edge_apply (xlin xprev : FVec Ideal S128x57000 .f32) (b : FVec Ideal S57000 .f32) (e : S128x57000.Idx) :
    Cert.Spec.edge xlin b xprev e = (xlin e + b (col e)) + xprev e := by
  unfold Cert.Spec.edge
  rw [addf_apply, addf_apply]
  rw [broadcastInDim_apply _ _ _ e (ix2 (0 : Fin 1) (⟨(e 1).val, idx2_lt1 e⟩ : Fin 57000))
    (fun a => by match a with | ⟨0, _⟩ => rfl | ⟨1, _⟩ => rfl)]
  rw [broadcastInDim_apply _ _ _ (ix2 (0 : Fin 1) (⟨(e 1).val, idx2_lt1 e⟩ : Fin 57000)) (col e)
    (fun a => by match a with | ⟨0, _⟩ => rfl)]

/-- A point of a block against the specification: when the three blocks read, at (r, q), the arrays at the index e
    (the bias at e's column), the payload at (r, q) is the specification at e. -/
theorem point (xlin xprev : FVec Ideal S128x57000 .f32) (b : FVec Ideal S57000 .f32)
    (y0 y2 : FVec Ideal S8x57000 .f32) (y1 : FVec Ideal S57000 .f32) (r : Fin 8) (q : Fin 57000) (e : S128x57000.Idx)
    (h0 : y0 (ix2 r q) = xlin e) (h1 : y1 (ix1 q) = b (col e)) (h2 : y2 (ix2 r q) = xprev e) :
    k2_pay1 y0 y1 y2 (ix2 r q) = Cert.Spec.edge xlin b xprev e := by
  rw [pay_apply, edge_apply, h0, h1, h2]

/-! ## What a point writes back, and the whole array -/

variable (V : (c : Dev nD) → (b : Ref sig .tc) → Buf (Elt Ideal) ((c : Thread nD τ).loc b))

/-- The printed index maps, decided over the 16 points: the two [128, 57000] operands' blocks move with the output's
    (block row t, block column 0), and the bias is its one whole block. -/
theorem idx_facts : ∀ t : Fin cfg2.N,
    win2_0.index t (0 : Fin 2) = win2_3.index t (0 : Fin 2) ∧ win2_0.index t (1 : Fin 2) = win2_3.index t (1 : Fin 2)
    ∧ win2_2.index t (0 : Fin 2) = win2_3.index t (0 : Fin 2) ∧ win2_2.index t (1 : Fin 2) = win2_3.index t (1 : Fin 2)
    ∧ win2_1.index t (0 : Fin 1) = 0
    ∧ win2_3.index t (0 : Fin 2) = t.val ∧ win2_3.index t (1 : Fin 2) = 0 :=
  (by decide +kernel : ∀ t : Fin grid2.N, _)

/-- The specification of the three arrays as the region finds them: the ONE function the output array ends holding. -/
abbrev G (c : Dev nD) : S128x57000.Idx → Elt Ideal .f32 :=
  Cert.Spec.edge (F := Ideal) (V c main_v76) (V c main_v78) (V c main_v26)

/-- WHAT POINT t WRITES BACK is block t of the specification of the arrays as the region finds them: the one store
    covers the block, so the block holds the payload; an input's block at (r, q) is its array at the index the
    OUTPUT's block has there (row 8t + r, column q), the bias at that column. -/
theorem flushed_eq (c : Dev nD) (t : Fin cfg2.N) :
    (dat2 (F := Ideal) V c).flushed 3 t
      = ((cfg2.win 3).blk t).view.read (Elt Ideal) (G V c) := by
  show (cfg2.win 3).cut (grid2.coords t) ((dat2 V c).after 3 t) = _
  rw [after2_3]
  unfold out2_3
  rw [View.canon_unit_zero zeros₂]
  simp only [View.ld_unit_zero (S := S8x57000) zeros₂, View.ld_unit_zero (S := S57000) zeros₁]
  obtain ⟨e00, e01, e20, e21, e10, e30, e31⟩ := idx_facts t
  funext j
  obtain ⟨r, q, rfl⟩ : ∃ (r : Fin 8) (q : Fin 57000), j = ix2 r q := ⟨j 0, j 1, eq_ix2 j⟩
  have hr : r.val < 8 := r.isLt
  have hq : q.val < 57000 := q.isLt
  have hE0 : ((cfg2.win 0).blk t).view.emb (ix2 r q) = ((cfg2.win 3).blk t).view.emb (ix2 r q) := by
    funext a; apply Fin.ext
    match a with
    | ⟨0, _⟩ => show win2_0.index t (0 : Fin 2) * 8 + 1 * r.val = win2_3.index t (0 : Fin 2) * 8 + 1 * r.val; omega
    | ⟨1, _⟩ => show win2_0.index t (1 : Fin 2) * 57000 + 1 * q.val = win2_3.index t (1 : Fin 2) * 57000 + 1 * q.val; omega
  have hE2 : ((cfg2.win 2).blk t).view.emb (ix2 r q) = ((cfg2.win 3).blk t).view.emb (ix2 r q) := by
    funext a; apply Fin.ext
    match a with
    | ⟨0, _⟩ => show win2_2.index t (0 : Fin 2) * 8 + 1 * r.val = win2_3.index t (0 : Fin 2) * 8 + 1 * r.val; omega
    | ⟨1, _⟩ => show win2_2.index t (1 : Fin 2) * 57000 + 1 * q.val = win2_3.index t (1 : Fin 2) * 57000 + 1 * q.val; omega
  have hE1 : ((cfg2.win 1).blk t).view.emb (ix1 q) = col (((cfg2.win 3).blk t).view.emb (ix2 r q)) := by
    funext a; apply Fin.ext
    match a with
    | ⟨0, _⟩ => show win2_1.index t (0 : Fin 1) * 57000 + 1 * q.val = win2_3.index t (1 : Fin 2) * 57000 + 1 * q.val; omega
  exact point (V c main_v76) (V c main_v26) (V c main_v78) (iblk2 V c 0 t) (iblk2 V c 2 t) (iblk2 V c 1 t) r q
    (((cfg2.win 3).blk t).view.emb (ix2 r q))
    (congrArg (V c main_v76) hE0) (congrArg (V c main_v78) hE1) (congrArg (V c main_v26) hE2)

/-- An index of the array is in point t's block iff each coordinate is in the block's range on its axis. -/
theorem mem_blk (t : Fin cfg2.N) (i : S128x57000.Idx) :
    i ∈ ((cfg2.win 3).blk t).view.set ↔ ∀ a : Fin 2, win2_3.index t a * S8x57000.size a ≤ (i a).val
      ∧ (i a).val < win2_3.index t a * S8x57000.size a + S8x57000.size a := by
  show i ∈ ((View.whole main_v79).slice (win2_3.rect t)).set ↔ _
  rw [View.set_slice_whole, Rect.mem_set_unit]
  exact Iff.rfl

/-- THE BLOCKS TILE THE ARRAY: the index (R, q) is in the block of point R / 8, which writes back. -/
theorem cover (i : S128x57000.Idx) :
    ∃ t : Fin cfg2.N, (cfg2.win 3).flush t = true ∧ i ∈ ((cfg2.win 3).blk t).view.set := by
  have hi0 : (i 0).val < 128 := (i 0).isLt
  have hi1 : (i 1).val < 57000 := (i 1).isLt
  have hN : cfg2.N = 16 := N_2
  have ht : (i 0).val / 8 < cfg2.N := by rw [hN]; omega
  obtain ⟨-, -, -, -, -, e30, e31⟩ := idx_facts ⟨(i 0).val / 8, ht⟩
  have e30' : win2_3.index ⟨(i 0).val / 8, ht⟩ (0 : Fin 2) = (i 0).val / 8 := e30
  refine ⟨⟨(i 0).val / 8, ht⟩, flush2_3 _, ?_⟩
  rw [mem_blk]
  intro a
  match a with
  | ⟨0, _⟩ =>
    show win2_3.index ⟨(i 0).val / 8, ht⟩ (0 : Fin 2) * 8 ≤ (i 0).val
      ∧ (i 0).val < win2_3.index ⟨(i 0).val / 8, ht⟩ (0 : Fin 2) * 8 + 8
    omega
  | ⟨1, _⟩ =>
    show win2_3.index ⟨(i 0).val / 8, ht⟩ (1 : Fin 2) * 57000 ≤ (i 1).val
      ∧ (i 1).val < win2_3.index ⟨(i 0).val / 8, ht⟩ (1 : Fin 2) * 57000 + 57000
    omega

/-- THE ARRAY after the run is the specification of the three arrays as the region finds them. -/
theorem value (c : Dev nD) (xlin xprev : FVec Ideal S128x57000 .f32) (b : FVec Ideal S57000 .f32)
    (h0 : V c main_v76 = xlin) (h1 : V c main_v78 = b) (h2 : V c main_v26 = xprev) :
    (dat2 (F := Ideal) V c).arrAt 3 cfg2.N = Cert.Spec.edge xlin b xprev := by
  subst h0 h1 h2
  exact (dat2 V c).arrAt_eq_of_cover 3 (G V c) (fun t _ => flushed_eq V c t) cover

end Cert.KernelIdeal.Edge2

end
-- ==== Proof.Edge4.lean ====
/-
  The value of the edge update's kernel region. The kernel runs over 16 grid points; point t holds rows 8t … 8t+7 of
  the two [128, 57000] operands and the whole [57000] bias, and stores (x + bias-as-a-row) + previous on its 8 rows.
  Read index by index that is the specification's edge update at row 8t + r, so each point writes back one block of
  the ONE whole-array function Cert.Spec.edge of the arrays as the region finds them; the 16 blocks of 8 rows tile the
  128 rows (row R lies in the block of point R / 8), so the output array ends holding that function everywhere.
-/
import proofs.«157921_j32839319945335_1_alg».proof.Proof.Gen.KernelIdeal.Frame
import proofs.«157921_j32839319945335_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Edge4

open Cert.KernelIdeal Cert.KernelIdeal.Gen Idealize.ShloMosaic Idealize.ShloMosaic.TcCoe
open Idealize.ShloMosaic.Pipeline (Dat)
open Idealize.ShloMosaic.ValueIdx

/-! ## The two functions, read at an index -/

/-- The zero offsets of a rank-2 and of a rank-1 whole-block access, as constant functions. -/
theorem zeros₂ : (![0, 0] : Fin 2 → Nat) = fun _ => 0 := funext fun a => by fin_cases a <;> rfl
theorem zeros₁ : (![0] : Fin 1 → Nat) = fun _ => 0 := funext fun a => by fin_cases a; rfl

/-- The kernel's bias operand: the vector given a leading unit axis and broadcast over the block's 8 rows reads,
    at (r, q), the vector at q. -/
theorem bias_block (b : FVec Ideal S57000 .f32) (r : Fin 8) (q : Fin 57000) :
    broadcastTo S8x57000 (shapeCast S1x57000 b shapeCasts_S57000_S1x57000) broadcasts_S1x57000_S8x57000 (ix2 r q) = b (ix1 q) := by
  rw [broadcastTo_apply _ _ (ix2 r q) (ix2 (0 : Fin 1) q) (fun a => by match a with | ⟨0, _⟩ => rfl | ⟨1, _⟩ => rfl)]
  rw [shapeCast_addUnit_apply ![57000]]
  exact congrArg b (funext fun a => by match a with | ⟨0, _⟩ => rfl)

/-- The block's payload at (r, q): (x + bias) + previous, the bias read at the column (the casts of a block to its
    own shape are the identity). -/
theorem pay_apply (y0 y2 : FVec Ideal S8x57000 .f32) (y1 : FVec Ideal S57000 .f32) (r : Fin 8) (q : Fin 57000) :
    k4_pay1 y0 y1 y2 (ix2 r q) = (y0 (ix2 r q) + y1 (ix1 q)) + y2 (ix2 r q) := by
  show addf (addf (shapeCast S8x57000 y0 shapeCasts_S8x57000_S8x57000)
      (broadcastTo S8x57000 (shapeCast S1x57000 (shapeCast S57000 y1 shapeCasts_S57000_S57000) shapeCasts_S57000_S1x57000)
        broadcasts_S1x57000_S8x57000)) (shapeCast S8x57000 y2 shapeCasts_S8x57000_S8x57000) (ix2 r q) = _
  rw [addf_apply, addf_apply, shapeCast_self y0, shapeCast_self y1, shapeCast_self y2, bias_block]

/-- The column of an index of the [128, 57000] arrays, as an index of the bias. -/
abbrev col (e : S128x57000.Idx) : S57000.Idx := ix1 (⟨(e 1).val, idx2_lt1 e⟩ : Fin 57000)

/-- The specification at an index e = (R, q): (x + bias) + previous, the bias read at the column: the bias broadcast
    to a [1, 57000] row and then over the 128 rows reads the vector at the column. -/
theorem edge_apply (xlin xprev : FVec Ideal S128x57000 .f32) (b : FVec Ideal S57000 .f32) (e : S128x57000.Idx) :
    Cert.Spec.edge xlin b xprev e = (xlin e + b (col e)) + xprev e := by
  unfold Cert.Spec.edge
  rw [addf_apply, addf_apply]
  rw [broadcastInDim_apply _ _ _ e (ix2 (0 : Fin 1) (⟨(e 1).val, idx2_lt1 e⟩ : Fin 57000))
    (fun a => by match a with | ⟨0, _⟩ => rfl | ⟨1, _⟩ => rfl)]
  rw [broadcastInDim_apply _ _ _ (ix2 (0 : Fin 1) (⟨(e 1).val, idx2_lt1 e⟩ : Fin 57000)) (col e)
    (fun a => by match a with | ⟨0, _⟩ => rfl)]

/-- A point of a block against the specification: when the three blocks read, at (r, q), the arrays at the index e
    (the bias at e's column), the payload at (r, q) is the specification at e. -/
theorem point (xlin xprev : FVec Ideal S128x57000 .f32) (b : FVec Ideal S57000 .f32)
    (y0 y2 : FVec Ideal S8x57000 .f32) (y1 : FVec Ideal S57000 .f32) (r : Fin 8) (q : Fin 57000) (e : S128x57000.Idx)
    (h0 : y0 (ix2 r q) = xlin e) (h1 : y1 (ix1 q) = b (col e)) (h2 : y2 (ix2 r q) = xprev e) :
    k4_pay1 y0 y1 y2 (ix2 r q) = Cert.Spec.edge xlin b xprev e := by
  rw [pay_apply, edge_apply, h0, h1, h2]

/-! ## What a point writes back, and the whole array -/

variable (V : (c : Dev nD) → (b : Ref sig .tc) → Buf (Elt Ideal) ((c : Thread nD τ).loc b))

/-- The printed index maps, decided over the 16 points: the two [128, 57000] operands' blocks move with the output's
    (block row t, block column 0), and the bias is its one whole block. -/
theorem idx_facts : ∀ t : Fin cfg4.N,
    win4_0.index t (0 : Fin 2) = win4_3.index t (0 : Fin 2) ∧ win4_0.index t (1 : Fin 2) = win4_3.index t (1 : Fin 2)
    ∧ win4_2.index t (0 : Fin 2) = win4_3.index t (0 : Fin 2) ∧ win4_2.index t (1 : Fin 2) = win4_3.index t (1 : Fin 2)
    ∧ win4_1.index t (0 : Fin 1) = 0
    ∧ win4_3.index t (0 : Fin 2) = t.val ∧ win4_3.index t (1 : Fin 2) = 0 :=
  (by decide +kernel : ∀ t : Fin grid4.N, _)

/-- The specification of the three arrays as the region finds them: the ONE function the output array ends holding. -/
abbrev G (c : Dev nD) : S128x57000.Idx → Elt Ideal .f32 :=
  Cert.Spec.edge (F := Ideal) (V c main_v125) (V c main_v127) (V c main_v79)

/-- WHAT POINT t WRITES BACK is block t of the specification of the arrays as the region finds them: the one store
    covers the block, so the block holds the payload; an input's block at (r, q) is its array at the index the
    OUTPUT's block has there (row 8t + r, column q), the bias at that column. -/
theorem flushed_eq (c : Dev nD) (t : Fin cfg4.N) :
    (dat4 (F := Ideal) V c).flushed 3 t
      = ((cfg4.win 3).blk t).view.read (Elt Ideal) (G V c) := by
  show (cfg4.win 3).cut (grid4.coords t) ((dat4 V c).after 3 t) = _
  rw [after4_3]
  unfold out4_3
  rw [View.canon_unit_zero zeros₂]
  simp only [View.ld_unit_zero (S := S8x57000) zeros₂, View.ld_unit_zero (S := S57000) zeros₁]
  obtain ⟨e00, e01, e20, e21, e10, e30, e31⟩ := idx_facts t
  funext j
  obtain ⟨r, q, rfl⟩ : ∃ (r : Fin 8) (q : Fin 57000), j = ix2 r q := ⟨j 0, j 1, eq_ix2 j⟩
  have hr : r.val < 8 := r.isLt
  have hq : q.val < 57000 := q.isLt
  have hE0 : ((cfg4.win 0).blk t).view.emb (ix2 r q) = ((cfg4.win 3).blk t).view.emb (ix2 r q) := by
    funext a; apply Fin.ext
    match a with
    | ⟨0, _⟩ => show win4_0.index t (0 : Fin 2) * 8 + 1 * r.val = win4_3.index t (0 : Fin 2) * 8 + 1 * r.val; omega
    | ⟨1, _⟩ => show win4_0.index t (1 : Fin 2) * 57000 + 1 * q.val = win4_3.index t (1 : Fin 2) * 57000 + 1 * q.val; omega
  have hE2 : ((cfg4.win 2).blk t).view.emb (ix2 r q) = ((cfg4.win 3).blk t).view.emb (ix2 r q) := by
    funext a; apply Fin.ext
    match a with
    | ⟨0, _⟩ => show win4_2.index t (0 : Fin 2) * 8 + 1 * r.val = win4_3.index t (0 : Fin 2) * 8 + 1 * r.val; omega
    | ⟨1, _⟩ => show win4_2.index t (1 : Fin 2) * 57000 + 1 * q.val = win4_3.index t (1 : Fin 2) * 57000 + 1 * q.val; omega
  have hE1 : ((cfg4.win 1).blk t).view.emb (ix1 q) = col (((cfg4.win 3).blk t).view.emb (ix2 r q)) := by
    funext a; apply Fin.ext
    match a with
    | ⟨0, _⟩ => show win4_1.index t (0 : Fin 1) * 57000 + 1 * q.val = win4_3.index t (1 : Fin 2) * 57000 + 1 * q.val; omega
  exact point (V c main_v125) (V c main_v79) (V c main_v127) (iblk4 V c 0 t) (iblk4 V c 2 t) (iblk4 V c 1 t) r q
    (((cfg4.win 3).blk t).view.emb (ix2 r q))
    (congrArg (V c main_v125) hE0) (congrArg (V c main_v127) hE1) (congrArg (V c main_v79) hE2)

/-- An index of the array is in point t's block iff each coordinate is in the block's range on its axis. -/
theorem mem_blk (t : Fin cfg4.N) (i : S128x57000.Idx) :
    i ∈ ((cfg4.win 3).blk t).view.set ↔ ∀ a : Fin 2, win4_3.index t a * S8x57000.size a ≤ (i a).val
      ∧ (i a).val < win4_3.index t a * S8x57000.size a + S8x57000.size a := by
  show i ∈ ((View.whole main_v128).slice (win4_3.rect t)).set ↔ _
  rw [View.set_slice_whole, Rect.mem_set_unit]
  exact Iff.rfl

/-- THE BLOCKS TILE THE ARRAY: the index (R, q) is in the block of point R / 8, which writes back. -/
theorem cover (i : S128x57000.Idx) :
    ∃ t : Fin cfg4.N, (cfg4.win 3).flush t = true ∧ i ∈ ((cfg4.win 3).blk t).view.set := by
  have hi0 : (i 0).val < 128 := (i 0).isLt
  have hi1 : (i 1).val < 57000 := (i 1).isLt
  have hN : cfg4.N = 16 := N_4
  have ht : (i 0).val / 8 < cfg4.N := by rw [hN]; omega
  obtain ⟨-, -, -, -, -, e30, e31⟩ := idx_facts ⟨(i 0).val / 8, ht⟩
  have e30' : win4_3.index ⟨(i 0).val / 8, ht⟩ (0 : Fin 2) = (i 0).val / 8 := e30
  refine ⟨⟨(i 0).val / 8, ht⟩, flush4_3 _, ?_⟩
  rw [mem_blk]
  intro a
  match a with
  | ⟨0, _⟩ =>
    show win4_3.index ⟨(i 0).val / 8, ht⟩ (0 : Fin 2) * 8 ≤ (i 0).val
      ∧ (i 0).val < win4_3.index ⟨(i 0).val / 8, ht⟩ (0 : Fin 2) * 8 + 8
    omega
  | ⟨1, _⟩ =>
    show win4_3.index ⟨(i 0).val / 8, ht⟩ (1 : Fin 2) * 57000 ≤ (i 1).val
      ∧ (i 1).val < win4_3.index ⟨(i 0).val / 8, ht⟩ (1 : Fin 2) * 57000 + 57000
    omega

/-- THE ARRAY after the run is the specification of the three arrays as the region finds them. -/
theorem value (c : Dev nD) (xlin xprev : FVec Ideal S128x57000 .f32) (b : FVec Ideal S57000 .f32)
    (h0 : V c main_v125 = xlin) (h1 : V c main_v127 = b) (h2 : V c main_v79 = xprev) :
    (dat4 (F := Ideal) V c).arrAt 3 cfg4.N = Cert.Spec.edge xlin b xprev := by
  subst h0 h1 h2
  exact (dat4 V c).arrAt_eq_of_cover 3 (G V c) (fun t _ => flushed_eq V c t) cover

end Cert.KernelIdeal.Edge4

end
-- ==== Proof.Edge6.lean ====
/-
  The value of the edge update's kernel region. The kernel runs over 16 grid points; point t holds rows 8t … 8t+7 of
  the two [128, 57000] operands and the whole [57000] bias, and stores (x + bias-as-a-row) + previous on its 8 rows.
  Read index by index that is the specification's edge update at row 8t + r, so each point writes back one block of
  the ONE whole-array function Cert.Spec.edge of the arrays as the region finds them; the 16 blocks of 8 rows tile the
  128 rows (row R lies in the block of point R / 8), so the output array ends holding that function everywhere.
-/
import proofs.«157921_j32839319945335_1_alg».proof.Proof.Gen.KernelIdeal.Frame
import proofs.«157921_j32839319945335_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Edge6

open Cert.KernelIdeal Cert.KernelIdeal.Gen Idealize.ShloMosaic Idealize.ShloMosaic.TcCoe
open Idealize.ShloMosaic.Pipeline (Dat)
open Idealize.ShloMosaic.ValueIdx

/-! ## The two functions, read at an index -/

/-- The zero offsets of a rank-2 and of a rank-1 whole-block access, as constant functions. -/
theorem zeros₂ : (![0, 0] : Fin 2 → Nat) = fun _ => 0 := funext fun a => by fin_cases a <;> rfl
theorem zeros₁ : (![0] : Fin 1 → Nat) = fun _ => 0 := funext fun a => by fin_cases a; rfl

/-- The kernel's bias operand: the vector given a leading unit axis and broadcast over the block's 8 rows reads,
    at (r, q), the vector at q. -/
theorem bias_block (b : FVec Ideal S57000 .f32) (r : Fin 8) (q : Fin 57000) :
    broadcastTo S8x57000 (shapeCast S1x57000 b shapeCasts_S57000_S1x57000) broadcasts_S1x57000_S8x57000 (ix2 r q) = b (ix1 q) := by
  rw [broadcastTo_apply _ _ (ix2 r q) (ix2 (0 : Fin 1) q) (fun a => by match a with | ⟨0, _⟩ => rfl | ⟨1, _⟩ => rfl)]
  rw [shapeCast_addUnit_apply ![57000]]
  exact congrArg b (funext fun a => by match a with | ⟨0, _⟩ => rfl)

/-- The block's payload at (r, q): (x + bias) + previous, the bias read at the column (the casts of a block to its
    own shape are the identity). -/
theorem pay_apply (y0 y2 : FVec Ideal S8x57000 .f32) (y1 : FVec Ideal S57000 .f32) (r : Fin 8) (q : Fin 57000) :
    k6_pay1 y0 y1 y2 (ix2 r q) = (y0 (ix2 r q) + y1 (ix1 q)) + y2 (ix2 r q) := by
  show addf (addf (shapeCast S8x57000 y0 shapeCasts_S8x57000_S8x57000)
      (broadcastTo S8x57000 (shapeCast S1x57000 (shapeCast S57000 y1 shapeCasts_S57000_S57000) shapeCasts_S57000_S1x57000)
        broadcasts_S1x57000_S8x57000)) (shapeCast S8x57000 y2 shapeCasts_S8x57000_S8x57000) (ix2 r q) = _
  rw [addf_apply, addf_apply, shapeCast_self y0, shapeCast_self y1, shapeCast_self y2, bias_block]

/-- The column of an index of the [128, 57000] arrays, as an index of the bias. -/
abbrev col (e : S128x57000.Idx) : S57000.Idx := ix1 (⟨(e 1).val, idx2_lt1 e⟩ : Fin 57000)

/-- The specification at an index e = (R, q): (x + bias) + previous, the bias read at the column: the bias broadcast
    to a [1, 57000] row and then over the 128 rows reads the vector at the column. -/
theorem edge_apply (xlin xprev : FVec Ideal S128x57000 .f32) (b : FVec Ideal S57000 .f32) (e : S128x57000.Idx) :
    Cert.Spec.edge xlin b xprev e = (xlin e + b (col e)) + xprev e := by
  unfold Cert.Spec.edge
  rw [addf_apply, addf_apply]
  rw [broadcastInDim_apply _ _ _ e (ix2 (0 : Fin 1) (⟨(e 1).val, idx2_lt1 e⟩ : Fin 57000))
    (fun a => by match a with | ⟨0, _⟩ => rfl | ⟨1, _⟩ => rfl)]
  rw [broadcastInDim_apply _ _ _ (ix2 (0 : Fin 1) (⟨(e 1).val, idx2_lt1 e⟩ : Fin 57000)) (col e)
    (fun a => by match a with | ⟨0, _⟩ => rfl)]

/-- A point of a block against the specification: when the three blocks read, at (r, q), the arrays at the index e
    (the bias at e's column), the payload at (r, q) is the specification at e. -/
theorem point (xlin xprev : FVec Ideal S128x57000 .f32) (b : FVec Ideal S57000 .f32)
    (y0 y2 : FVec Ideal S8x57000 .f32) (y1 : FVec Ideal S57000 .f32) (r : Fin 8) (q : Fin 57000) (e : S128x57000.Idx)
    (h0 : y0 (ix2 r q) = xlin e) (h1 : y1 (ix1 q) = b (col e)) (h2 : y2 (ix2 r q) = xprev e) :
    k6_pay1 y0 y1 y2 (ix2 r q) = Cert.Spec.edge xlin b xprev e := by
  rw [pay_apply, edge_apply, h0, h1, h2]

/-! ## What a point writes back, and the whole array -/

variable (V : (c : Dev nD) → (b : Ref sig .tc) → Buf (Elt Ideal) ((c : Thread nD τ).loc b))

/-- The printed index maps, decided over the 16 points: the two [128, 57000] operands' blocks move with the output's
    (block row t, block column 0), and the bias is its one whole block. -/
theorem idx_facts : ∀ t : Fin cfg6.N,
    win6_0.index t (0 : Fin 2) = win6_3.index t (0 : Fin 2) ∧ win6_0.index t (1 : Fin 2) = win6_3.index t (1 : Fin 2)
    ∧ win6_2.index t (0 : Fin 2) = win6_3.index t (0 : Fin 2) ∧ win6_2.index t (1 : Fin 2) = win6_3.index t (1 : Fin 2)
    ∧ win6_1.index t (0 : Fin 1) = 0
    ∧ win6_3.index t (0 : Fin 2) = t.val ∧ win6_3.index t (1 : Fin 2) = 0 :=
  (by decide +kernel : ∀ t : Fin grid6.N, _)

/-- The specification of the three arrays as the region finds them: the ONE function the output array ends holding. -/
abbrev G (c : Dev nD) : S128x57000.Idx → Elt Ideal .f32 :=
  Cert.Spec.edge (F := Ideal) (V c main_v174) (V c main_v176) (V c main_v128)

/-- WHAT POINT t WRITES BACK is block t of the specification of the arrays as the region finds them: the one store
    covers the block, so the block holds the payload; an input's block at (r, q) is its array at the index the
    OUTPUT's block has there (row 8t + r, column q), the bias at that column. -/
theorem flushed_eq (c : Dev nD) (t : Fin cfg6.N) :
    (dat6 (F := Ideal) V c).flushed 3 t
      = ((cfg6.win 3).blk t).view.read (Elt Ideal) (G V c) := by
  show (cfg6.win 3).cut (grid6.coords t) ((dat6 V c).after 3 t) = _
  rw [after6_3]
  unfold out6_3
  rw [View.canon_unit_zero zeros₂]
  simp only [View.ld_unit_zero (S := S8x57000) zeros₂, View.ld_unit_zero (S := S57000) zeros₁]
  obtain ⟨e00, e01, e20, e21, e10, e30, e31⟩ := idx_facts t
  funext j
  obtain ⟨r, q, rfl⟩ : ∃ (r : Fin 8) (q : Fin 57000), j = ix2 r q := ⟨j 0, j 1, eq_ix2 j⟩
  have hr : r.val < 8 := r.isLt
  have hq : q.val < 57000 := q.isLt
  have hE0 : ((cfg6.win 0).blk t).view.emb (ix2 r q) = ((cfg6.win 3).blk t).view.emb (ix2 r q) := by
    funext a; apply Fin.ext
    match a with
    | ⟨0, _⟩ => show win6_0.index t (0 : Fin 2) * 8 + 1 * r.val = win6_3.index t (0 : Fin 2) * 8 + 1 * r.val; omega
    | ⟨1, _⟩ => show win6_0.index t (1 : Fin 2) * 57000 + 1 * q.val = win6_3.index t (1 : Fin 2) * 57000 + 1 * q.val; omega
  have hE2 : ((cfg6.win 2).blk t).view.emb (ix2 r q) = ((cfg6.win 3).blk t).view.emb (ix2 r q) := by
    funext a; apply Fin.ext
    match a with
    | ⟨0, _⟩ => show win6_2.index t (0 : Fin 2) * 8 + 1 * r.val = win6_3.index t (0 : Fin 2) * 8 + 1 * r.val; omega
    | ⟨1, _⟩ => show win6_2.index t (1 : Fin 2) * 57000 + 1 * q.val = win6_3.index t (1 : Fin 2) * 57000 + 1 * q.val; omega
  have hE1 : ((cfg6.win 1).blk t).view.emb (ix1 q) = col (((cfg6.win 3).blk t).view.emb (ix2 r q)) := by
    funext a; apply Fin.ext
    match a with
    | ⟨0, _⟩ => show win6_1.index t (0 : Fin 1) * 57000 + 1 * q.val = win6_3.index t (1 : Fin 2) * 57000 + 1 * q.val; omega
  exact point (V c main_v174) (V c main_v128) (V c main_v176) (iblk6 V c 0 t) (iblk6 V c 2 t) (iblk6 V c 1 t) r q
    (((cfg6.win 3).blk t).view.emb (ix2 r q))
    (congrArg (V c main_v174) hE0) (congrArg (V c main_v176) hE1) (congrArg (V c main_v128) hE2)

/-- An index of the array is in point t's block iff each coordinate is in the block's range on its axis. -/
theorem mem_blk (t : Fin cfg6.N) (i : S128x57000.Idx) :
    i ∈ ((cfg6.win 3).blk t).view.set ↔ ∀ a : Fin 2, win6_3.index t a * S8x57000.size a ≤ (i a).val
      ∧ (i a).val < win6_3.index t a * S8x57000.size a + S8x57000.size a := by
  show i ∈ ((View.whole main_v177).slice (win6_3.rect t)).set ↔ _
  rw [View.set_slice_whole, Rect.mem_set_unit]
  exact Iff.rfl

/-- THE BLOCKS TILE THE ARRAY: the index (R, q) is in the block of point R / 8, which writes back. -/
theorem cover (i : S128x57000.Idx) :
    ∃ t : Fin cfg6.N, (cfg6.win 3).flush t = true ∧ i ∈ ((cfg6.win 3).blk t).view.set := by
  have hi0 : (i 0).val < 128 := (i 0).isLt
  have hi1 : (i 1).val < 57000 := (i 1).isLt
  have hN : cfg6.N = 16 := N_6
  have ht : (i 0).val / 8 < cfg6.N := by rw [hN]; omega
  obtain ⟨-, -, -, -, -, e30, e31⟩ := idx_facts ⟨(i 0).val / 8, ht⟩
  have e30' : win6_3.index ⟨(i 0).val / 8, ht⟩ (0 : Fin 2) = (i 0).val / 8 := e30
  refine ⟨⟨(i 0).val / 8, ht⟩, flush6_3 _, ?_⟩
  rw [mem_blk]
  intro a
  match a with
  | ⟨0, _⟩ =>
    show win6_3.index ⟨(i 0).val / 8, ht⟩ (0 : Fin 2) * 8 ≤ (i 0).val
      ∧ (i 0).val < win6_3.index ⟨(i 0).val / 8, ht⟩ (0 : Fin 2) * 8 + 8
    omega
  | ⟨1, _⟩ =>
    show win6_3.index ⟨(i 0).val / 8, ht⟩ (1 : Fin 2) * 57000 ≤ (i 1).val
      ∧ (i 1).val < win6_3.index ⟨(i 0).val / 8, ht⟩ (1 : Fin 2) * 57000 + 57000
    omega

/-- THE ARRAY after the run is the specification of the three arrays as the region finds them. -/
theorem value (c : Dev nD) (xlin xprev : FVec Ideal S128x57000 .f32) (b : FVec Ideal S57000 .f32)
    (h0 : V c main_v174 = xlin) (h1 : V c main_v176 = b) (h2 : V c main_v128 = xprev) :
    (dat6 (F := Ideal) V c).arrAt 3 cfg6.N = Cert.Spec.edge xlin b xprev := by
  subst h0 h1 h2
  exact (dat6 V c).arrAt_eq_of_cover 3 (G V c) (fun t _ => flushed_eq V c t) cover

end Cert.KernelIdeal.Edge6

end
-- ==== Proof.Edge8.lean ====
/-
  The value of the edge update's kernel region. The kernel runs over 16 grid points; point t holds rows 8t … 8t+7 of
  the two [128, 57000] operands and the whole [57000] bias, and stores (x + bias-as-a-row) + previous on its 8 rows.
  Read index by index that is the specification's edge update at row 8t + r, so each point writes back one block of
  the ONE whole-array function Cert.Spec.edge of the arrays as the region finds them; the 16 blocks of 8 rows tile the
  128 rows (row R lies in the block of point R / 8), so the output array ends holding that function everywhere.
-/
import proofs.«157921_j32839319945335_1_alg».proof.Proof.Gen.KernelIdeal.Frame
import proofs.«157921_j32839319945335_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Edge8

open Cert.KernelIdeal Cert.KernelIdeal.Gen Idealize.ShloMosaic Idealize.ShloMosaic.TcCoe
open Idealize.ShloMosaic.Pipeline (Dat)
open Idealize.ShloMosaic.ValueIdx

/-! ## The two functions, read at an index -/

/-- The zero offsets of a rank-2 and of a rank-1 whole-block access, as constant functions. -/
theorem zeros₂ : (![0, 0] : Fin 2 → Nat) = fun _ => 0 := funext fun a => by fin_cases a <;> rfl
theorem zeros₁ : (![0] : Fin 1 → Nat) = fun _ => 0 := funext fun a => by fin_cases a; rfl

/-- The kernel's bias operand: the vector given a leading unit axis and broadcast over the block's 8 rows reads,
    at (r, q), the vector at q. -/
theorem bias_block (b : FVec Ideal S57000 .f32) (r : Fin 8) (q : Fin 57000) :
    broadcastTo S8x57000 (shapeCast S1x57000 b shapeCasts_S57000_S1x57000) broadcasts_S1x57000_S8x57000 (ix2 r q) = b (ix1 q) := by
  rw [broadcastTo_apply _ _ (ix2 r q) (ix2 (0 : Fin 1) q) (fun a => by match a with | ⟨0, _⟩ => rfl | ⟨1, _⟩ => rfl)]
  rw [shapeCast_addUnit_apply ![57000]]
  exact congrArg b (funext fun a => by match a with | ⟨0, _⟩ => rfl)

/-- The block's payload at (r, q): (x + bias) + previous, the bias read at the column (the casts of a block to its
    own shape are the identity). -/
theorem pay_apply (y0 y2 : FVec Ideal S8x57000 .f32) (y1 : FVec Ideal S57000 .f32) (r : Fin 8) (q : Fin 57000) :
    k8_pay1 y0 y1 y2 (ix2 r q) = (y0 (ix2 r q) + y1 (ix1 q)) + y2 (ix2 r q) := by
  show addf (addf (shapeCast S8x57000 y0 shapeCasts_S8x57000_S8x57000)
      (broadcastTo S8x57000 (shapeCast S1x57000 (shapeCast S57000 y1 shapeCasts_S57000_S57000) shapeCasts_S57000_S1x57000)
        broadcasts_S1x57000_S8x57000)) (shapeCast S8x57000 y2 shapeCasts_S8x57000_S8x57000) (ix2 r q) = _
  rw [addf_apply, addf_apply, shapeCast_self y0, shapeCast_self y1, shapeCast_self y2, bias_block]

/-- The column of an index of the [128, 57000] arrays, as an index of the bias. -/
abbrev col (e : S128x57000.Idx) : S57000.Idx := ix1 (⟨(e 1).val, idx2_lt1 e⟩ : Fin 57000)

/-- The specification at an index e = (R, q): (x + bias) + previous, the bias read at the column: the bias broadcast
    to a [1, 57000] row and then over the 128 rows reads the vector at the column. -/
theorem edge_apply (xlin xprev : FVec Ideal S128x57000 .f32) (b : FVec Ideal S57000 .f32) (e : S128x57000.Idx) :
    Cert.Spec.edge xlin b xprev e = (xlin e + b (col e)) + xprev e := by
  unfold Cert.Spec.edge
  rw [addf_apply, addf_apply]
  rw [broadcastInDim_apply _ _ _ e (ix2 (0 : Fin 1) (⟨(e 1).val, idx2_lt1 e⟩ : Fin 57000))
    (fun a => by match a with | ⟨0, _⟩ => rfl | ⟨1, _⟩ => rfl)]
  rw [broadcastInDim_apply _ _ _ (ix2 (0 : Fin 1) (⟨(e 1).val, idx2_lt1 e⟩ : Fin 57000)) (col e)
    (fun a => by match a with | ⟨0, _⟩ => rfl)]

/-- A point of a block against the specification: when the three blocks read, at (r, q), the arrays at the index e
    (the bias at e's column), the payload at (r, q) is the specification at e. -/
theorem point (xlin xprev : FVec Ideal S128x57000 .f32) (b : FVec Ideal S57000 .f32)
    (y0 y2 : FVec Ideal S8x57000 .f32) (y1 : FVec Ideal S57000 .f32) (r : Fin 8) (q : Fin 57000) (e : S128x57000.Idx)
    (h0 : y0 (ix2 r q) = xlin e) (h1 : y1 (ix1 q) = b (col e)) (h2 : y2 (ix2 r q) = xprev e) :
    k8_pay1 y0 y1 y2 (ix2 r q) = Cert.Spec.edge xlin b xprev e := by
  rw [pay_apply, edge_apply, h0, h1, h2]

/-! ## What a point writes back, and the whole array -/

variable (V : (c : Dev nD) → (b : Ref sig .tc) → Buf (Elt Ideal) ((c : Thread nD τ).loc b))

/-- The printed index maps, decided over the 16 points: the two [128, 57000] operands' blocks move with the output's
    (block row t, block column 0), and the bias is its one whole block. -/
theorem idx_facts : ∀ t : Fin cfg8.N,
    win8_0.index t (0 : Fin 2) = win8_3.index t (0 : Fin 2) ∧ win8_0.index t (1 : Fin 2) = win8_3.index t (1 : Fin 2)
    ∧ win8_2.index t (0 : Fin 2) = win8_3.index t (0 : Fin 2) ∧ win8_2.index t (1 : Fin 2) = win8_3.index t (1 : Fin 2)
    ∧ win8_1.index t (0 : Fin 1) = 0
    ∧ win8_3.index t (0 : Fin 2) = t.val ∧ win8_3.index t (1 : Fin 2) = 0 :=
  (by decide +kernel : ∀ t : Fin grid8.N, _)

/-- The specification of the three arrays as the region finds them: the ONE function the output array ends holding. -/
abbrev G (c : Dev nD) : S128x57000.Idx → Elt Ideal .f32 :=
  Cert.Spec.edge (F := Ideal) (V c main_v223) (V c main_v225) (V c main_v177)

/-- WHAT POINT t WRITES BACK is block t of the specification of the arrays as the region finds them: the one store
    covers the block, so the block holds the payload; an input's block at (r, q) is its array at the index the
    OUTPUT's block has there (row 8t + r, column q), the bias at that column. -/
theorem flushed_eq (c : Dev nD) (t : Fin cfg8.N) :
    (dat8 (F := Ideal) V c).flushed 3 t
      = ((cfg8.win 3).blk t).view.read (Elt Ideal) (G V c) := by
  show (cfg8.win 3).cut (grid8.coords t) ((dat8 V c).after 3 t) = _
  rw [after8_3]
  unfold out8_3
  rw [View.canon_unit_zero zeros₂]
  simp only [View.ld_unit_zero (S := S8x57000) zeros₂, View.ld_unit_zero (S := S57000) zeros₁]
  obtain ⟨e00, e01, e20, e21, e10, e30, e31⟩ := idx_facts t
  funext j
  obtain ⟨r, q, rfl⟩ : ∃ (r : Fin 8) (q : Fin 57000), j = ix2 r q := ⟨j 0, j 1, eq_ix2 j⟩
  have hr : r.val < 8 := r.isLt
  have hq : q.val < 57000 := q.isLt
  have hE0 : ((cfg8.win 0).blk t).view.emb (ix2 r q) = ((cfg8.win 3).blk t).view.emb (ix2 r q) := by
    funext a; apply Fin.ext
    match a with
    | ⟨0, _⟩ => show win8_0.index t (0 : Fin 2) * 8 + 1 * r.val = win8_3.index t (0 : Fin 2) * 8 + 1 * r.val; omega
    | ⟨1, _⟩ => show win8_0.index t (1 : Fin 2) * 57000 + 1 * q.val = win8_3.index t (1 : Fin 2) * 57000 + 1 * q.val; omega
  have hE2 : ((cfg8.win 2).blk t).view.emb (ix2 r q) = ((cfg8.win 3).blk t).view.emb (ix2 r q) := by
    funext a; apply Fin.ext
    match a with
    | ⟨0, _⟩ => show win8_2.index t (0 : Fin 2) * 8 + 1 * r.val = win8_3.index t (0 : Fin 2) * 8 + 1 * r.val; omega
    | ⟨1, _⟩ => show win8_2.index t (1 : Fin 2) * 57000 + 1 * q.val = win8_3.index t (1 : Fin 2) * 57000 + 1 * q.val; omega
  have hE1 : ((cfg8.win 1).blk t).view.emb (ix1 q) = col (((cfg8.win 3).blk t).view.emb (ix2 r q)) := by
    funext a; apply Fin.ext
    match a with
    | ⟨0, _⟩ => show win8_1.index t (0 : Fin 1) * 57000 + 1 * q.val = win8_3.index t (1 : Fin 2) * 57000 + 1 * q.val; omega
  exact point (V c main_v223) (V c main_v177) (V c main_v225) (iblk8 V c 0 t) (iblk8 V c 2 t) (iblk8 V c 1 t) r q
    (((cfg8.win 3).blk t).view.emb (ix2 r q))
    (congrArg (V c main_v223) hE0) (congrArg (V c main_v225) hE1) (congrArg (V c main_v177) hE2)

/-- An index of the array is in point t's block iff each coordinate is in the block's range on its axis. -/
theorem mem_blk (t : Fin cfg8.N) (i : S128x57000.Idx) :
    i ∈ ((cfg8.win 3).blk t).view.set ↔ ∀ a : Fin 2, win8_3.index t a * S8x57000.size a ≤ (i a).val
      ∧ (i a).val < win8_3.index t a * S8x57000.size a + S8x57000.size a := by
  show i ∈ ((View.whole main_v226).slice (win8_3.rect t)).set ↔ _
  rw [View.set_slice_whole, Rect.mem_set_unit]
  exact Iff.rfl

/-- THE BLOCKS TILE THE ARRAY: the index (R, q) is in the block of point R / 8, which writes back. -/
theorem cover (i : S128x57000.Idx) :
    ∃ t : Fin cfg8.N, (cfg8.win 3).flush t = true ∧ i ∈ ((cfg8.win 3).blk t).view.set := by
  have hi0 : (i 0).val < 128 := (i 0).isLt
  have hi1 : (i 1).val < 57000 := (i 1).isLt
  have hN : cfg8.N = 16 := N_8
  have ht : (i 0).val / 8 < cfg8.N := by rw [hN]; omega
  obtain ⟨-, -, -, -, -, e30, e31⟩ := idx_facts ⟨(i 0).val / 8, ht⟩
  have e30' : win8_3.index ⟨(i 0).val / 8, ht⟩ (0 : Fin 2) = (i 0).val / 8 := e30
  refine ⟨⟨(i 0).val / 8, ht⟩, flush8_3 _, ?_⟩
  rw [mem_blk]
  intro a
  match a with
  | ⟨0, _⟩ =>
    show win8_3.index ⟨(i 0).val / 8, ht⟩ (0 : Fin 2) * 8 ≤ (i 0).val
      ∧ (i 0).val < win8_3.index ⟨(i 0).val / 8, ht⟩ (0 : Fin 2) * 8 + 8
    omega
  | ⟨1, _⟩ =>
    show win8_3.index ⟨(i 0).val / 8, ht⟩ (1 : Fin 2) * 57000 ≤ (i 1).val
      ∧ (i 1).val < win8_3.index ⟨(i 0).val / 8, ht⟩ (1 : Fin 2) * 57000 + 57000
    omega

/-- THE ARRAY after the run is the specification of the three arrays as the region finds them. -/
theorem value (c : Dev nD) (xlin xprev : FVec Ideal S128x57000 .f32) (b : FVec Ideal S57000 .f32)
    (h0 : V c main_v223 = xlin) (h1 : V c main_v225 = b) (h2 : V c main_v177 = xprev) :
    (dat8 (F := Ideal) V c).arrAt 3 cfg8.N = Cert.Spec.edge xlin b xprev := by
  subst h0 h1 h2
  exact (dat8 V c).arrAt_eq_of_cover 3 (G V c) (fun t _ => flushed_eq V c t) cover

end Cert.KernelIdeal.Edge8

end
-- ==== Proof.Sim.lean ====
/-
  The simulation: block by block, what the reference holds in its result-carrying buffers is what the kernel program
  holds in its own — the gate, then for each of the four blocks the hidden update (a region of the kernel, host operations of
  the reference) and the edge update (likewise), then the shared closing operations. Each step takes the previous
  step's equation, the arguments' agreement carried to that boundary, the region's value and the stretch lemma.
-/
import proofs.«157921_j32839319945335_1_alg».proof.Proof.Steps
import proofs.«157921_j32839319945335_1_alg».proof.Proof.Kept
import proofs.«157921_j32839319945335_1_alg».proof.Proof.RefKept
import proofs.«157921_j32839319945335_1_alg».proof.Proof.Gate0
import proofs.«157921_j32839319945335_1_alg».proof.Proof.Hidden1
import proofs.«157921_j32839319945335_1_alg».proof.Proof.Hidden3
import proofs.«157921_j32839319945335_1_alg».proof.Proof.Hidden5
import proofs.«157921_j32839319945335_1_alg».proof.Proof.Hidden7
import proofs.«157921_j32839319945335_1_alg».proof.Proof.Edge2
import proofs.«157921_j32839319945335_1_alg».proof.Proof.Edge4
import proofs.«157921_j32839319945335_1_alg».proof.Proof.Edge6
import proofs.«157921_j32839319945335_1_alg».proof.Proof.Edge8

set_option maxRecDepth 16384

noncomputable section

namespace Cert.Sim

open Idealize.ShloMosaic Idealize.ShloMosaic.TcCoe Idealize.SL.Sem Idealize.ShloMosaic.StableHlo
open Cert.KernelIdeal.Gen (W0 W1 W2 W3 W4 W5 W6 W7 W8 W9 W10 W11 W12 W13 W14 W15 W16 W17 W18 W19 W20 V1 V3 V5 V7 V9 V11 V13 V15 V17)

local notation "⟪" b "⟫" => Proc.devRef Proc.tc b

/-- An argument's agreement at the launch, carried to a later boundary of each program: both sides still hold the
    launch contents there. -/
local macro "argEq(" r:term "," h:term "," w:term ")" : term =>
  `((($r) _ (by decide)).trans (($h).trans ((($w) _ (by decide)).symm)))

variable (m : (ℓ : Loc KernelIdeal.nD KernelIdeal.τ KernelIdeal.sig) → Buf (Elt Ideal) ℓ) (ρ : Dev KernelIdeal.nD → PrngReg)
  (RA : Valuation ReferenceIdeal.τ ReferenceIdeal.sig (Elt Ideal)) (c : Dev KernelIdeal.nD)

set_option maxHeartbeats 4000000 in
/-- From launch contents that agree on the seventeen arguments, the reference's result buffer ends at what the kernel
    program's result buffer ends at. -/
theorem sim
    (h0 : RA ⟪ReferenceIdeal.main_arg0⟫ = W0 m ρ c ⟪KernelIdeal.main_arg0⟫) (h1 : RA ⟪ReferenceIdeal.main_arg1⟫ = W0 m ρ c ⟪KernelIdeal.main_arg1⟫)
    (h2 : RA ⟪ReferenceIdeal.main_arg2⟫ = W0 m ρ c ⟪KernelIdeal.main_arg2⟫) (h3 : RA ⟪ReferenceIdeal.main_arg3⟫ = W0 m ρ c ⟪KernelIdeal.main_arg3⟫)
    (h4 : RA ⟪ReferenceIdeal.main_arg4⟫ = W0 m ρ c ⟪KernelIdeal.main_arg4⟫) (h5 : RA ⟪ReferenceIdeal.main_arg5⟫ = W0 m ρ c ⟪KernelIdeal.main_arg5⟫)
    (h6 : RA ⟪ReferenceIdeal.main_arg6⟫ = W0 m ρ c ⟪KernelIdeal.main_arg6⟫) (h7 : RA ⟪ReferenceIdeal.main_arg7⟫ = W0 m ρ c ⟪KernelIdeal.main_arg7⟫)
    (h8 : RA ⟪ReferenceIdeal.main_arg8⟫ = W0 m ρ c ⟪KernelIdeal.main_arg8⟫) (h9 : RA ⟪ReferenceIdeal.main_arg9⟫ = W0 m ρ c ⟪KernelIdeal.main_arg9⟫)
    (h10 : RA ⟪ReferenceIdeal.main_arg10⟫ = W0 m ρ c ⟪KernelIdeal.main_arg10⟫) (h11 : RA ⟪ReferenceIdeal.main_arg11⟫ = W0 m ρ c ⟪KernelIdeal.main_arg11⟫)
    (h12 : RA ⟪ReferenceIdeal.main_arg12⟫ = W0 m ρ c ⟪KernelIdeal.main_arg12⟫) (h13 : RA ⟪ReferenceIdeal.main_arg13⟫ = W0 m ρ c ⟪KernelIdeal.main_arg13⟫)
    (h14 : RA ⟪ReferenceIdeal.main_arg14⟫ = W0 m ρ c ⟪KernelIdeal.main_arg14⟫) (h15 : RA ⟪ReferenceIdeal.main_arg15⟫ = W0 m ρ c ⟪KernelIdeal.main_arg15⟫)
    (h16 : RA ⟪ReferenceIdeal.main_arg16⟫ = W0 m ρ c ⟪KernelIdeal.main_arg16⟫) :
    ReferenceIdeal.Kept.R10 RA ⟪ReferenceIdeal.main_v363⟫ = W20 m ρ c ⟪KernelIdeal.main_v238⟫ := by
  -- the gate, on both sides the specification's function of the omic columns and the weights
  obtain ⟨S, hS⟩ : ∃ S : FVec Ideal KernelIdeal.S128x56000 .f32, S = Spec.gate (F := Ideal) (W1 m ρ c ⟪KernelIdeal.main_v10⟫)
      (W0 m ρ c ⟪KernelIdeal.main_arg1⟫) (W0 m ρ c ⟪KernelIdeal.main_arg2⟫) (W0 m ρ c ⟪KernelIdeal.main_arg3⟫) (W0 m ρ c ⟪KernelIdeal.main_arg4⟫) := ⟨_, rfl⟩
  -- the omic columns, gathered by the first fourteen operations of either program
  have kxo : W1 m ρ c ⟪KernelIdeal.main_v10⟫ = after KernelIdeal.Keeps.hostOps0a (W0 m ρ c) ⟪KernelIdeal.main_v10⟫ := by
    show after KernelIdeal.Gen.hostOps0 (W0 m ρ c) ⟪KernelIdeal.main_v10⟫ = _
    rw [KernelIdeal.Keeps.hostOps0_split, after_append]
    exact KernelIdeal.Keeps.hostOps0b_keeps _ _ (by decide)
  have e00 : after ReferenceIdeal.Ops.r0_0 RA = after ReferenceIdeal.Ops.r0_0b (after ReferenceIdeal.Ops.r0_0a RA) := by
    rw [ReferenceIdeal.Ops.r0_0_split, after_append]
  have sR : ReferenceIdeal.Kept.R1 RA ⟪ReferenceIdeal.main_v43⟫ = S := by
    show after ReferenceIdeal.Ops.r1_0 (after ReferenceIdeal.Ops.r0_5 (after ReferenceIdeal.Ops.r0_4 (after ReferenceIdeal.Ops.r0_3
      (after ReferenceIdeal.Ops.r0_2 (after ReferenceIdeal.Ops.r0_1 (after ReferenceIdeal.Ops.r0_0 RA)))))) ⟪ReferenceIdeal.main_v43⟫ = S
    rw [e00, hS]
    exact Steps.head_gate (after ReferenceIdeal.Ops.r0_0a RA) _ _ _ _ _ ((Steps.head_omic (W0 m ρ c) RA h0 h15).trans kxo.symm)
      ((Steps.r0_0a_keeps RA _ (by decide)).trans h1) ((Steps.r0_0a_keeps RA _ (by decide)).trans h2)
      ((Steps.r0_0a_keeps RA _ (by decide)).trans h3) ((Steps.r0_0a_keeps RA _ (by decide)).trans h4)
  have sK : W2 m ρ c ⟪KernelIdeal.main_v29⟫ = S :=
    ((KernelIdeal.Kept.out0 m ρ c).trans (KernelIdeal.Gate0.value (V1 m ρ) c _ _ _ _ _ rfl (Steps.head_w1 (W0 m ρ c)) (KernelIdeal.Kept.W1_arg2 m ρ c)
      (Steps.head_w2 (W0 m ρ c)) (KernelIdeal.Kept.W1_arg4 m ρ c))).trans hS.symm
  have X0 : ReferenceIdeal.Kept.R1 RA ⟪ReferenceIdeal.main_v59⟫ = W1 m ρ c ⟪KernelIdeal.main_v26⟫ := Steps.head_edges (W0 m ρ c) RA h0 h9 h15
  have g3 : W3 m ρ c ⟪KernelIdeal.main_v30⟫
      = shapeCast KernelIdeal.S128x7000x8 S KernelIdeal.Gen.shapeCasts_S128x56000_S128x7000x8 :=
    (Steps.gate3d (W2 m ρ c)).trans (by rw [sK])
  -- block 0, the hidden half
  have s0 : ReferenceIdeal.Kept.R1 RA ⟪ReferenceIdeal.main_v43⟫ = S := sR
  obtain ⟨hlin0, bh0, e0a, e0b, e0c⟩ := Steps.hidden0 (W2 m ρ c) (ReferenceIdeal.Kept.R1 RA) S (X0.trans (KernelIdeal.Kept.v26_W2 m ρ c).symm) s0
    argEq(ReferenceIdeal.Kept.args_R1 RA, h5, KernelIdeal.Kept.args_W2 m ρ c) argEq(ReferenceIdeal.Kept.args_R1 RA, h6, KernelIdeal.Kept.args_W2 m ρ c)
    argEq(ReferenceIdeal.Kept.args_R1 RA, h11, KernelIdeal.Kept.args_W2 m ρ c) argEq(ReferenceIdeal.Kept.args_R1 RA, h12, KernelIdeal.Kept.args_W2 m ρ c)
  have g0 : W3 m ρ c ⟪KernelIdeal.main_v30⟫
      = shapeCast KernelIdeal.S128x7000x8 S KernelIdeal.Gen.shapeCasts_S128x56000_S128x7000x8 := g3
  have k0h := KernelIdeal.Hidden1.value (V3 m ρ) c hlin0 S bh0 e0a e0b g0
  have hh0 : ReferenceIdeal.Kept.R2 RA ⟪ReferenceIdeal.main_v106⟫
      = shapeCast KernelIdeal.S128x56000 (W4 m ρ c ⟪KernelIdeal.main_v55⟫) KernelIdeal.Gen.shapeCasts_S128x7000x8_S128x56000 :=
    e0c.trans (k0h.symm.trans (by rw [KernelIdeal.Kept.out1 m ρ c]))
  -- block 0, the edge half
  have x0' : ReferenceIdeal.Kept.R2 RA ⟪ReferenceIdeal.main_v59⟫ = W4 m ρ c ⟪KernelIdeal.main_v26⟫ := (ReferenceIdeal.Kept.v59_R2 RA).trans (X0.trans (KernelIdeal.Kept.v26_W4 m ρ c).symm)
  have ee0 := Steps.edge0 (W4 m ρ c) (ReferenceIdeal.Kept.R2 RA) hh0 x0'
    argEq(ReferenceIdeal.Kept.args_R2 RA, h7, KernelIdeal.Kept.args_W4 m ρ c) argEq(ReferenceIdeal.Kept.args_R2 RA, h8, KernelIdeal.Kept.args_W4 m ρ c)
    argEq(ReferenceIdeal.Kept.args_R2 RA, h13, KernelIdeal.Kept.args_W4 m ρ c) argEq(ReferenceIdeal.Kept.args_R2 RA, h14, KernelIdeal.Kept.args_W4 m ρ c)
  have k0e := KernelIdeal.Edge2.value (V5 m ρ) c _ _ _ rfl rfl ((KernelIdeal.Kept.v26_W5 m ρ c).trans (KernelIdeal.Kept.v26_W4 m ρ c).symm)
  have X1 : ReferenceIdeal.Kept.R3 RA ⟪ReferenceIdeal.main_v132⟫ = W6 m ρ c ⟪KernelIdeal.main_v79⟫ :=
    ee0.trans (k0e.symm.trans (KernelIdeal.Kept.out2 m ρ c).symm)
  -- block 1, the hidden half
  have s1 : ReferenceIdeal.Kept.R3 RA ⟪ReferenceIdeal.main_v43⟫ = S := (ReferenceIdeal.Kept.gate_R3 RA).trans sR
  obtain ⟨hlin1, bh1, e1a, e1b, e1c⟩ := Steps.hidden1 (W6 m ρ c) (ReferenceIdeal.Kept.R3 RA) S X1 s1
    argEq(ReferenceIdeal.Kept.args_R3 RA, h5, KernelIdeal.Kept.args_W6 m ρ c) argEq(ReferenceIdeal.Kept.args_R3 RA, h6, KernelIdeal.Kept.args_W6 m ρ c)
    argEq(ReferenceIdeal.Kept.args_R3 RA, h11, KernelIdeal.Kept.args_W6 m ρ c) argEq(ReferenceIdeal.Kept.args_R3 RA, h12, KernelIdeal.Kept.args_W6 m ρ c)
  have g1 : W7 m ρ c ⟪KernelIdeal.main_v30⟫
      = shapeCast KernelIdeal.S128x7000x8 S KernelIdeal.Gen.shapeCasts_S128x56000_S128x7000x8 := (KernelIdeal.Kept.v30_W7 m ρ c).trans g3
  have k1h := KernelIdeal.Hidden3.value (V7 m ρ) c hlin1 S bh1 e1a e1b g1
  have hh1 : ReferenceIdeal.Kept.R4 RA ⟪ReferenceIdeal.main_v179⟫
      = shapeCast KernelIdeal.S128x56000 (W8 m ρ c ⟪KernelIdeal.main_v104⟫) KernelIdeal.Gen.shapeCasts_S128x7000x8_S128x56000 :=
    e1c.trans (k1h.symm.trans (by rw [KernelIdeal.Kept.out3 m ρ c]))
  -- block 1, the edge half
  have x1' : ReferenceIdeal.Kept.R4 RA ⟪ReferenceIdeal.main_v132⟫ = W8 m ρ c ⟪KernelIdeal.main_v79⟫ := (ReferenceIdeal.Kept.v132_R4 RA).trans (X1.trans (KernelIdeal.Kept.v79_W8 m ρ c).symm)
  have ee1 := Steps.edge1 (W8 m ρ c) (ReferenceIdeal.Kept.R4 RA) hh1 x1'
    argEq(ReferenceIdeal.Kept.args_R4 RA, h7, KernelIdeal.Kept.args_W8 m ρ c) argEq(ReferenceIdeal.Kept.args_R4 RA, h8, KernelIdeal.Kept.args_W8 m ρ c)
    argEq(ReferenceIdeal.Kept.args_R4 RA, h13, KernelIdeal.Kept.args_W8 m ρ c) argEq(ReferenceIdeal.Kept.args_R4 RA, h14, KernelIdeal.Kept.args_W8 m ρ c)
  have k1e := KernelIdeal.Edge4.value (V9 m ρ) c _ _ _ rfl rfl ((KernelIdeal.Kept.v79_W9 m ρ c).trans (KernelIdeal.Kept.v79_W8 m ρ c).symm)
  have X2 : ReferenceIdeal.Kept.R5 RA ⟪ReferenceIdeal.main_v205⟫ = W10 m ρ c ⟪KernelIdeal.main_v128⟫ :=
    ee1.trans (k1e.symm.trans (KernelIdeal.Kept.out4 m ρ c).symm)
  -- block 2, the hidden half
  have s2 : ReferenceIdeal.Kept.R5 RA ⟪ReferenceIdeal.main_v43⟫ = S := (ReferenceIdeal.Kept.gate_R5 RA).trans sR
  obtain ⟨hlin2, bh2, e2a, e2b, e2c⟩ := Steps.hidden2 (W10 m ρ c) (ReferenceIdeal.Kept.R5 RA) S X2 s2
    argEq(ReferenceIdeal.Kept.args_R5 RA, h5, KernelIdeal.Kept.args_W10 m ρ c) argEq(ReferenceIdeal.Kept.args_R5 RA, h6, KernelIdeal.Kept.args_W10 m ρ c)
    argEq(ReferenceIdeal.Kept.args_R5 RA, h11, KernelIdeal.Kept.args_W10 m ρ c) argEq(ReferenceIdeal.Kept.args_R5 RA, h12, KernelIdeal.Kept.args_W10 m ρ c)
  have g2 : W11 m ρ c ⟪KernelIdeal.main_v30⟫
      = shapeCast KernelIdeal.S128x7000x8 S KernelIdeal.Gen.shapeCasts_S128x56000_S128x7000x8 := (KernelIdeal.Kept.v30_W11 m ρ c).trans g3
  have k2h := KernelIdeal.Hidden5.value (V11 m ρ) c hlin2 S bh2 e2a e2b g2
  have hh2 : ReferenceIdeal.Kept.R6 RA ⟪ReferenceIdeal.main_v252⟫
      = shapeCast KernelIdeal.S128x56000 (W12 m ρ c ⟪KernelIdeal.main_v153⟫) KernelIdeal.Gen.shapeCasts_S128x7000x8_S128x56000 :=
    e2c.trans (k2h.symm.trans (by rw [KernelIdeal.Kept.out5 m ρ c]))
  -- block 2, the edge half
  have x2' : ReferenceIdeal.Kept.R6 RA ⟪ReferenceIdeal.main_v205⟫ = W12 m ρ c ⟪KernelIdeal.main_v128⟫ := (ReferenceIdeal.Kept.v205_R6 RA).trans (X2.trans (KernelIdeal.Kept.v128_W12 m ρ c).symm)
  have ee2 := Steps.edge2 (W12 m ρ c) (ReferenceIdeal.Kept.R6 RA) hh2 x2'
    argEq(ReferenceIdeal.Kept.args_R6 RA, h7, KernelIdeal.Kept.args_W12 m ρ c) argEq(ReferenceIdeal.Kept.args_R6 RA, h8, KernelIdeal.Kept.args_W12 m ρ c)
    argEq(ReferenceIdeal.Kept.args_R6 RA, h13, KernelIdeal.Kept.args_W12 m ρ c) argEq(ReferenceIdeal.Kept.args_R6 RA, h14, KernelIdeal.Kept.args_W12 m ρ c)
  have k2e := KernelIdeal.Edge6.value (V13 m ρ) c _ _ _ rfl rfl ((KernelIdeal.Kept.v128_W13 m ρ c).trans (KernelIdeal.Kept.v128_W12 m ρ c).symm)
  have X3 : ReferenceIdeal.Kept.R7 RA ⟪ReferenceIdeal.main_v278⟫ = W14 m ρ c ⟪KernelIdeal.main_v177⟫ :=
    ee2.trans (k2e.symm.trans (KernelIdeal.Kept.out6 m ρ c).symm)
  -- block 3, the hidden half
  have s3 : ReferenceIdeal.Kept.R7 RA ⟪ReferenceIdeal.main_v43⟫ = S := (ReferenceIdeal.Kept.gate_R7 RA).trans sR
  obtain ⟨hlin3, bh3, e3a, e3b, e3c⟩ := Steps.hidden3 (W14 m ρ c) (ReferenceIdeal.Kept.R7 RA) S X3 s3
    argEq(ReferenceIdeal.Kept.args_R7 RA, h5, KernelIdeal.Kept.args_W14 m ρ c) argEq(ReferenceIdeal.Kept.args_R7 RA, h6, KernelIdeal.Kept.args_W14 m ρ c)
    argEq(ReferenceIdeal.Kept.args_R7 RA, h11, KernelIdeal.Kept.args_W14 m ρ c) argEq(ReferenceIdeal.Kept.args_R7 RA, h12, KernelIdeal.Kept.args_W14 m ρ c)
  have g3 : W15 m ρ c ⟪KernelIdeal.main_v30⟫
      = shapeCast KernelIdeal.S128x7000x8 S KernelIdeal.Gen.shapeCasts_S128x56000_S128x7000x8 := (KernelIdeal.Kept.v30_W15 m ρ c).trans g3
  have k3h := KernelIdeal.Hidden7.value (V15 m ρ) c hlin3 S bh3 e3a e3b g3
  have hh3 : ReferenceIdeal.Kept.R8 RA ⟪ReferenceIdeal.main_v325⟫
      = shapeCast KernelIdeal.S128x56000 (W16 m ρ c ⟪KernelIdeal.main_v202⟫) KernelIdeal.Gen.shapeCasts_S128x7000x8_S128x56000 :=
    e3c.trans (k3h.symm.trans (by rw [KernelIdeal.Kept.out7 m ρ c]))
  -- block 3, the edge half
  have x3' : ReferenceIdeal.Kept.R8 RA ⟪ReferenceIdeal.main_v278⟫ = W16 m ρ c ⟪KernelIdeal.main_v177⟫ := (ReferenceIdeal.Kept.v278_R8 RA).trans (X3.trans (KernelIdeal.Kept.v177_W16 m ρ c).symm)
  have ee3 := Steps.edge3 (W16 m ρ c) (ReferenceIdeal.Kept.R8 RA) hh3 x3'
    argEq(ReferenceIdeal.Kept.args_R8 RA, h7, KernelIdeal.Kept.args_W16 m ρ c) argEq(ReferenceIdeal.Kept.args_R8 RA, h8, KernelIdeal.Kept.args_W16 m ρ c)
    argEq(ReferenceIdeal.Kept.args_R8 RA, h13, KernelIdeal.Kept.args_W16 m ρ c) argEq(ReferenceIdeal.Kept.args_R8 RA, h14, KernelIdeal.Kept.args_W16 m ρ c)
  have k3e := KernelIdeal.Edge8.value (V17 m ρ) c _ _ _ rfl rfl ((KernelIdeal.Kept.v177_W17 m ρ c).trans (KernelIdeal.Kept.v177_W16 m ρ c).symm)
  have X4 : ReferenceIdeal.Kept.R9 RA ⟪ReferenceIdeal.main_v351⟫ = W18 m ρ c ⟪KernelIdeal.main_v226⟫ :=
    ee3.trans (k3e.symm.trans (KernelIdeal.Kept.out8 m ρ c).symm)
  -- the closing operations
  exact Steps.tail (W18 m ρ c) (ReferenceIdeal.Kept.R9 RA) X4 argEq(ReferenceIdeal.Kept.args_R9 RA, h10, KernelIdeal.Kept.args_W18 m ρ c) argEq(ReferenceIdeal.Kept.args_R9 RA, h16, KernelIdeal.Kept.args_W18 m ρ c)

end Cert.Sim

end
-- ==== Proof.lean ====
/-
  A graph network's message passing — a state gate (two dense layers, a row normalisation, a logistic), then four
  residual blocks each made of a sparse product into the hidden units, a bias, a normalisation of every function node's
  eight hidden units, the gate's product and an ELU, and a sparse product back to the edges with a bias and the residual
  — computed by a program that launches nine kernels (the gate; per block the hidden update and the edge update) among
  host operations, against a reference made of host operations only.

  At the ideal values the two programs compute one function. Every host operation outside the kernels (the gathers,
  the scatter-adds, the slices of the per-block weights, the final scatter and mask) stands in both programs in the same
  form, so those parts are equal term by term; each kernel's region, its blocks put back together, computes on whole
  arrays what the reference's corresponding host operations compute: the matrix products as sums over the contracted
  axis, the means and variances as lane sums divided by the same words, `rsqrt`, `exp` and the logistic the same
  functions, and the two spellings of the ELU (`exp x − 1` against `1 · expm1` of a guarded argument) equal by cases on the
  sign. No law here moves a factor across a sum or cancels, so the inputs' finiteness is not used.

  The frames of the two kernel programs are the generated ones; the reference's is its run with the result dropped;
  nothing was rewritten by the idealization, so the sanctioned-idealization claim is trivial.
-/
import proofs.«157921_j32839319945335_1_alg».proof.Defs
import proofs.«157921_j32839319945335_1_alg».proof.Proof.Gen.Kernel
import proofs.«157921_j32839319945335_1_alg».proof.Proof.Gen.Kernel.Skeleton
import proofs.«157921_j32839319945335_1_alg».proof.Proof.Gen.Kernel.Launch
import proofs.«157921_j32839319945335_1_alg».proof.Proof.Gen.Kernel.Points
import proofs.«157921_j32839319945335_1_alg».proof.Proof.Gen.Kernel.Frame
import proofs.«157921_j32839319945335_1_alg».proof.Proof.Gen.KernelIdeal
import proofs.«157921_j32839319945335_1_alg».proof.Proof.Gen.KernelIdeal.Skeleton
import proofs.«157921_j32839319945335_1_alg».proof.Proof.Gen.KernelIdeal.Launch
import proofs.«157921_j32839319945335_1_alg».proof.Proof.Gen.KernelIdeal.Points
import proofs.«157921_j32839319945335_1_alg».proof.Proof.Gen.KernelIdeal.Frame
import proofs.«157921_j32839319945335_1_alg».proof.Proof.Gen.ReferenceIdeal
import proofs.«157921_j32839319945335_1_alg».proof.Proof.Gen.Pre_finite_inputs
import proofs.«157921_j32839319945335_1_alg».proof.Proof.KernelRun
import proofs.«157921_j32839319945335_1_alg».proof.Proof.RefRun
import proofs.«157921_j32839319945335_1_alg».proof.Proof.RefKept
import proofs.«157921_j32839319945335_1_alg».proof.Proof.Sim
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := Cert.ReferenceIdeal.Run.frame

/-- The idealization rewrote nothing. -/
theorem preserves : Cert.preserves_Kernel_KernelIdeal := trivial

/-- From memories agreeing on the arguments both programs run, keep their arguments, and end with one result: the kernel
    program's result buffer at the last boundary of its run, which is where the simulation puts the reference's. -/
theorem algebraic : Cert.algebraic_KernelIdeal_ReferenceIdeal := by
  intro m ρ m' ρ' _ hagree
  refine ⟨fun c => KernelIdeal.Gen.W20 m ρ c (Proc.devRef .tc KernelIdeal.main_v238), KernelIdeal.GenRun.run_full m ρ, ?_⟩
  refine (θ_run (ReferenceIdeal.defs (F := Ideal)) _ _).mono (fun r h c => ?_) (ReferenceIdeal.Run.run (F := Ideal) m' ρ')
  obtain ⟨a0, a1, a2, a3, a4, a5, a6, a7, a8, a9, a10, a11, a12, a13, a14, a15, a16⟩ := hagree c
  refine ⟨(h c ReferenceIdeal.main_v363).trans ?_,
    (h c ReferenceIdeal.main_arg0).trans (ReferenceIdeal.Run.arg0_kept _),
    (h c ReferenceIdeal.main_arg1).trans (ReferenceIdeal.Run.arg1_kept _),
    (h c ReferenceIdeal.main_arg2).trans (ReferenceIdeal.Run.arg2_kept _),
    (h c ReferenceIdeal.main_arg3).trans (ReferenceIdeal.Run.arg3_kept _),
    (h c ReferenceIdeal.main_arg4).trans (ReferenceIdeal.Run.arg4_kept _),
    (h c ReferenceIdeal.main_arg5).trans (ReferenceIdeal.Run.arg5_kept _),
    (h c ReferenceIdeal.main_arg6).trans (ReferenceIdeal.Run.arg6_kept _),
    (h c ReferenceIdeal.main_arg7).trans (ReferenceIdeal.Run.arg7_kept _),
    (h c ReferenceIdeal.main_arg8).trans (ReferenceIdeal.Run.arg8_kept _),
    (h c ReferenceIdeal.main_arg9).trans (ReferenceIdeal.Run.arg9_kept _),
    (h c ReferenceIdeal.main_arg10).trans (ReferenceIdeal.Run.arg10_kept _),
    (h c ReferenceIdeal.main_arg11).trans (ReferenceIdeal.Run.arg11_kept _),
    (h c ReferenceIdeal.main_arg12).trans (ReferenceIdeal.Run.arg12_kept _),
    (h c ReferenceIdeal.main_arg13).trans (ReferenceIdeal.Run.arg13_kept _),
    (h c ReferenceIdeal.main_arg14).trans (ReferenceIdeal.Run.arg14_kept _),
    (h c ReferenceIdeal.main_arg15).trans (ReferenceIdeal.Run.arg15_kept _),
    (h c ReferenceIdeal.main_arg16).trans (ReferenceIdeal.Run.arg16_kept _)⟩
  rw [ReferenceIdeal.Kept.ops_eq]
  exact Sim.sim m ρ _ c a0 a1 a2 a3 a4 a5 a6 a7 a8 a9 a10 a11 a12 a13 a14 a15 a16

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
